-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x1 : Shape := ⟨2, ![600000, 1]⟩
abbrev S50000 : Shape := ⟨1, ![50000]⟩
abbrev S1x129 : Shape := ⟨2, ![1, 129]⟩
abbrev S129 : Shape := ⟨1, ![129]⟩
abbrev S129x129 : Shape := ⟨2, ![129, 129]⟩
abbrev S129x128 : Shape := ⟨2, ![129, 128]⟩
abbrev S128 : Shape := ⟨1, ![128]⟩
abbrev S2x600000 : Shape := ⟨2, ![2, 600000]⟩
abbrev S5000 : Shape := ⟨1, ![5000]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x1 : S_.BroadcastsInDim S600000x1 (![] : Fin 0 → Fin S600000x1.rank)
  reducesTo_S600000x1_S_d0_1 : S600000x1.ReducesTo [0, 1] S_
  bcast_S_S50000 : S_.BroadcastsInDim S50000 (![] : Fin 0 → Fin S50000.rank)
  reducesTo_S50000_S_d0 : S50000.ReducesTo [0] S_
  bcast_S_S1x129 : S_.BroadcastsInDim S1x129 (![] : Fin 0 → Fin S1x129.rank)
  reducesTo_S1x129_S_d0_1 : S1x129.ReducesTo [0, 1] S_
  bcast_S_S129 : S_.BroadcastsInDim S129 (![] : Fin 0 → Fin S129.rank)
  reducesTo_S129_S_d0 : S129.ReducesTo [0] S_
  bcast_S_S129x129 : S_.BroadcastsInDim S129x129 (![] : Fin 0 → Fin S129x129.rank)
  reducesTo_S129x129_S_d0_1 : S129x129.ReducesTo [0, 1] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_
  bcast_S_S5000 : S_.BroadcastsInDim S5000 (![] : Fin 0 → Fin S5000.rank)
  reducesTo_S5000_S_d0 : S5000.ReducesTo [0] S_

variable [Facts]

def fn_part7 {F : FTy → Type} [FloatOps F] (main_v114 : IVec S_ 1) (main_v119 : IVec S5000 1) (main_c_45 : IVec S_ 1) : IVec S_ 1 :=
  let main_v120 : IVec S_ 1 := (fun x v => Host.reduce IntOp.andi x v reducesTo_S5000_S_d0 h_S_) main_v119 main_c_45
  let main_v121 : IVec S_ 1 := andi main_v114 main_v120
  main_v121

def fn_part6 {F : FTy → Type} [FloatOps F] (main_arg21 : IVec S2x600000 32) (main_arg22 : IVec S5000 32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : IVec S1x600000 32 := (extractStridedSlice S1x600000 ![0, 0] · slices_S2x600000_S1x600000_0_0) main_arg21
  let main_v105 : IVec S600000 32 := shapeCast S600000 main_v104 shapeCasts_S1x600000_S600000
  let main_c_40 : IVec S_ 32 := constantI S_ 32 4294917296#32
  let main_v106 : IVec S600000 32 := broadcastInDim S600000 ![] bcast_S_S600000 main_c_40
  let main_v107 : IVec S600000 1 := cmpi .sge main_v105 main_v106
  let main_v108 : IVec S1x600000 32 := (extractStridedSlice S1x600000 ![0, 0] · slices_S2x600000_S1x600000_0_0) main_arg21
  let main_v109 : IVec S600000 32 := shapeCast S600000 main_v108 shapeCasts_S1x600000_S600000
  let main_c_41 : IVec S_ 32 := constantI S_ 32 50000#32
  let main_v110 : IVec S600000 32 := broadcastInDim S600000 ![] bcast_S_S600000 main_c_41
  let main_v111 : IVec S600000 1 := cmpi .slt main_v109 main_v110
  let main_v112 : IVec S600000 1 := andi main_v107 main_v111
  let main_c_42 : IVec S_ 1 := constantI S_ 1 1#1
  let main_v113 : IVec S_ 1 := (fun x v => Host.reduce IntOp.andi x v reducesTo_S600000_S_d0 h_S_) main_v112 main_c_42
  let main_v114 : IVec S_ 1 := andi main_v103 main_v113
  let main_c_43 : IVec S_ 32 := constantI S_ 32 4294917296#32
  let main_v115 : IVec S5000 32 := broadcastInDim S5000 ![] bcast_S_S5000 main_c_43
  let main_v116 : IVec S5000 1 := cmpi .sge main_arg22 main_v115
  let main_c_44 : IVec S_ 32 := constantI S_ 32 50000#32
  let main_v117 : IVec S5000 32 := broadcastInDim S5000 ![] bcast_S_S5000 main_c_44
  let main_v118 : IVec S5000 1 := cmpi .slt main_arg22 main_v117
  let main_v119 : IVec S5000 1 := andi main_v116 main_v118
  let main_c_45 : IVec S_ 1 := constantI S_ 1 1#1
  fn_part7 (F := F) main_v114 main_v119 main_c_45

def fn_part5 {F : FTy → Type} [FloatOps F] (main_arg18 : FVec F S128 .f32) (main_arg19 : FVec F S128 .f32) (main_arg20 : FVec F S128 .f32) (main_arg21 : IVec S2x600000 32) (main_arg22 : IVec S5000 32) (main_v83 : IVec S_ 1) (main_v84 : FVec F S129x128 .f32) (main_cst_32 : FVec F S_ .f32) : IVec S_ 1 :=
  let main_v85 : FVec F S129x128 .f32 := broadcastInDim S129x128 ![] bcast_S_S129x128 main_cst_32
  let main_v86 : IVec S129x128 1 := cmpf .olt main_v84 main_v85
  let main_c_33 : IVec S_ 1 := constantI S_ 1 1#1
  let main_v87 : IVec S_ 1 := (fun x v => Host.reduce IntOp.andi x v reducesTo_S129x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S129 .f32) (main_arg15 : FVec F S129 .f32) (main_arg16 : FVec F S129 .f32) (main_arg17 : FVec F S129x128 .f32) (main_arg18 : FVec F S128 .f32) (main_arg19 : FVec F S128 .f32) (main_arg20 : FVec F S128 .f32) (main_arg21 : IVec S2x600000 32) (main_arg22 : IVec S5000 32) (main_v63 : IVec S_ 1) (main_v67 : IVec S_ 1) : IVec S_ 1 :=
  let main_v68 : IVec S_ 1 := andi main_v63 main_v67
  let main_v69 : FVec F S129 .f32 := Host.absf main_arg14
  let main_cst_26 : FVec F S_ .f32 := constant S_ .f32 0x7F800000#32
  let main_v70 : FVec F S129 .f32 := broadcastInDim S129 ![] bcast_S_S129 main_cst_26
  let main_v71 : IVec S129 1 := cmpf .olt main_v69 main_v70
  let main_c_27 : IVec S_ 1 := constantI S_ 1 1#1
  let main_v72 : IVec S_ 1 := (fun x v => Host.reduce IntOp.andi x v reducesTo_S129_S_d0 h_S_) main_v71 main_c_27
  let main_v73 : IVec S_ 1 := andi main_v68 main_v72
  let main_v74 : FVec F S129 .f32 := Host.absf main_arg15
  let main_cst_28 : FVec F S_ .f32 := constant S_ .f32 0x7F800000#32
  let main_v75 : FVec F S129 .f32 := broadcastInDim S129 ![] bcast_S_S129 main_cst_28
  let main_v76 : IVec S129 1 := cmpf .olt main_v74 main_v75
  let main_c_29 : IVec S_ 1 := constantI S_ 1 1#1
  let main_v77 : IVec S_ 1 := (fun x v => Host.reduce IntOp.andi x v reducesTo_S129_S_d0 h_S_) main_v76 main_c_29
  let main_v78 : IVec S_ 1 := andi main_v73 main_v77
  let main_v79 : FVec F S129 .f32 := Host.absf main_arg16
  let main_cst_30 : FVec F S_ .f32 := constant S_ .f32 0x7F800000#32
  let main_v80 : FVec F S129 .f32 := broadcastInDim S129 ![] bcast_S_S129 main_cst_30
  let main_v81 : IVec S129 1 := cmpf .olt main_v79 main_v80
  let main_c_31 : IVec S_ 1 := constantI S_ 1 1#1
  let main_v82 : IVec S_ 1 := (fun x v => Host.reduce IntOp.andi x v reducesTo_S129_S_d0 h_S_) main_v81 main_c_31
  let main_v83 : IVec S_ 1 := andi main_v78 main_v82
  let main_v84 : FVec F S129x128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S129x128 .f32) (main_arg12 : FVec F S128 .f32) (main_arg13 : FVec F S129x129 .f32) (main_arg14 : FVec F S129 .f32) (main_arg15 : FVec F S129 .f32) (main_arg16 : FVec F S129 .f32) (main_arg17 : FVec F S129x128 .f32) (main_arg18 : FVec F S128 .f32) (main_arg19 : FVec F S128 .f32) (main_arg20 : FVec F S128 .f32) (main_arg21 : IVec S2x600000 32) (main_arg22 : IVec S5000 32) (main_v48 : IVec S_ 1) (main_v49 : FVec F S129 .f32) (main_v50 : FVec F S129 .f32) : IVec S_ 1 :=
  let main_v51 : IVec S129 1 := cmpf .olt main_v49 main_v50
  let main_c_19 : IVec S_ 1 := constantI S_ 1 1#1
  let main_v52 : IVec S_ 1 := (fun x v => Host.reduce IntOp.andi x v reducesTo_S129_S_d0 h_S_) main_v51 main_c_19
  let main_v53 : IVec S_ 1 := andi main_v48 main_v52
  let main_v54 : FVec F S129x128 .f32 := Host.absf main_arg11
  let main_cst_20 : FVec F S_ .f32 := constant S_ .f32 0x7F800000#32
  let main_v55 : FVec F S129x128 .f32 := broadcastInDim S129x128 ![] bcast_S_S129x128 main_cst_20
  let main_v56 : IVec S129x128 1 := cmpf .olt main_v54 main_v55
  let main_c_21 : IVec S_ 1 := constantI S_ 1 1#1
  let main_v57 : IVec S_ 1 := (fun x v => Host.reduce IntOp.andi x v reducesTo_S129x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S129x129 .f32 := Host.absf main_arg13
  let main_cst_24 : FVec F S_ .f32 := constant S_ .f32 0x7F800000#32
  let main_v65 : FVec F S129x129 .f32 := broadcastInDim S129x129 ![] bcast_S_S129x129 main_cst_24
  let main_v66 : IVec S129x129 1 := cmpf .olt main_v64 main_v65
  let main_c_25 : IVec S_ 1 := constantI S_ 1 1#1
  let main_v67 : IVec S_ 1 := (fun x v => Host.reduce IntOp.andi x v reducesTo_S129x129_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S129x129 .f32) (main_arg8 : FVec F S129 .f32) (main_arg9 : FVec F S129 .f32) (main_arg10 : FVec F S129 .f32) (main_arg11 : FVec F S129x128 .f32) (main_arg12 : FVec F S128 .f32) (main_arg13 : FVec F S129x129 .f32) (main_arg14 : FVec F S129 .f32) (main_arg15 : FVec F S129 .f32) (main_arg16 : FVec F S129 .f32) (main_arg17 : FVec F S129x128 .f32) (main_arg18 : FVec F S128 .f32) (main_arg19 : FVec F S128 .f32) (main_arg20 : FVec F S128 .f32) (main_arg21 : IVec S2x600000 32) (main_arg22 : IVec S5000 32) (main_v33 : IVec S_ 1) : IVec S_ 1 :=
  let main_v34 : FVec F S129x129 .f32 := Host.absf main_arg7
  let main_cst_12 : FVec F S_ .f32 := constant S_ .f32 0x7F800000#32
  let main_v35 : FVec F S129x129 .f32 := broadcastInDim S129x129 ![] bcast_S_S129x129 main_cst_12
  let main_v36 : IVec S129x129 1 := cmpf .olt main_v34 main_v35
  let main_c_13 : IVec S_ 1 := constantI S_ 1 1#1
  let main_v37 : IVec S_ 1 := (fun x v => Host.reduce IntOp.andi x v reducesTo_S129x129_S_d0_1 h_S_) main_v36 main_c_13
  let main_v38 : IVec S_ 1 := andi main_v33 main_v37
  let main_v39 : FVec F S129 .f32 := Host.absf main_arg8
  let main_cst_14 : FVec F S_ .f32 := constant S_ .f32 0x7F800000#32
  let main_v40 : FVec F S129 .f32 := broadcastInDim S129 ![] bcast_S_S129 main_cst_14
  let main_v41 : IVec S129 1 := cmpf .olt main_v39 main_v40
  let main_c_15 : IVec S_ 1 := constantI S_ 1 1#1
  let main_v42 : IVec S_ 1 := (fun x v => Host.reduce IntOp.andi x v reducesTo_S129_S_d0 h_S_) main_v41 main_c_15
  let main_v43 : IVec S_ 1 := andi main_v38 main_v42
  let main_v44 : FVec F S129 .f32 := Host.absf main_arg9
  let main_cst_16 : FVec F S_ .f32 := constant S_ .f32 0x7F800000#32
  let main_v45 : FVec F S129 .f32 := broadcastInDim S129 ![] bcast_S_S129 main_cst_16
  let main_v46 : IVec S129 1 := cmpf .olt main_v44 main_v45
  let main_c_17 : IVec S_ 1 := constantI S_ 1 1#1
  let main_v47 : IVec S_ 1 := (fun x v => Host.reduce IntOp.andi x v reducesTo_S129_S_d0 h_S_) main_v46 main_c_17
  let main_v48 : IVec S_ 1 := andi main_v43 main_v47
  let main_v49 : FVec F S129 .f32 := Host.absf main_arg10
  let main_cst_18 : FVec F S_ .f32 := constant S_ .f32 0x7F800000#32
  let main_v50 : FVec F S129 .f32 := broadcastInDim S129 ![] bcast_S_S129 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S129 .f32) (main_arg5 : FVec F S129x129 .f32) (main_arg6 : FVec F S129 .f32) (main_arg7 : FVec F S129x129 .f32) (main_arg8 : FVec F S129 .f32) (main_arg9 : FVec F S129 .f32) (main_arg10 : FVec F S129 .f32) (main_arg11 : FVec F S129x128 .f32) (main_arg12 : FVec F S128 .f32) (main_arg13 : FVec F S129x129 .f32) (main_arg14 : FVec F S129 .f32) (main_arg15 : FVec F S129 .f32) (main_arg16 : FVec F S129 .f32) (main_arg17 : FVec F S129x128 .f32) (main_arg18 : FVec F S128 .f32) (main_arg19 : FVec F S128 .f32) (main_arg20 : FVec F S128 .f32) (main_arg21 : IVec S2x600000 32) (main_arg22 : IVec S5000 32) (main_v13 : IVec S_ 1) (main_v16 : IVec S1x129 1) : IVec S_ 1 :=
  let main_c_5 : IVec S_ 1 := constantI S_ 1 1#1
  let main_v17 : IVec S_ 1 := (fun x v => Host.reduce IntOp.andi x v reducesTo_S1x129_S_d0_1 h_S_) main_v16 main_c_5
  let main_v18 : IVec S_ 1 := andi main_v13 main_v17
  let main_v19 : FVec F S129 .f32 := Host.absf main_arg4
  let main_cst_6 : FVec F S_ .f32 := constant S_ .f32 0x7F800000#32
  let main_v20 : FVec F S129 .f32 := broadcastInDim S129 ![] bcast_S_S129 main_cst_6
  let main_v21 : IVec S129 1 := cmpf .olt main_v19 main_v20
  let main_c_7 : IVec S_ 1 := constantI S_ 1 1#1
  let main_v22 : IVec S_ 1 := (fun x v => Host.reduce IntOp.andi x v reducesTo_S129_S_d0 h_S_) main_v21 main_c_7
  let main_v23 : IVec S_ 1 := andi main_v18 main_v22
  let main_v24 : FVec F S129x129 .f32 := Host.absf main_arg5
  let main_cst_8 : FVec F S_ .f32 := constant S_ .f32 0x7F800000#32
  let main_v25 : FVec F S129x129 .f32 := broadcastInDim S129x129 ![] bcast_S_S129x129 main_cst_8
  let main_v26 : IVec S129x129 1 := cmpf .olt main_v24 main_v25
  let main_c_9 : IVec S_ 1 := constantI S_ 1 1#1
  let main_v27 : IVec S_ 1 := (fun x v => Host.reduce IntOp.andi x v reducesTo_S129x129_S_d0_1 h_S_) main_v26 main_c_9
  let main_v28 : IVec S_ 1 := andi main_v23 main_v27
  let main_v29 : FVec F S129 .f32 := Host.absf main_arg6
  let main_cst_10 : FVec F S_ .f32 := constant S_ .f32 0x7F800000#32
  let main_v30 : FVec F S129 .f32 := broadcastInDim S129 ![] bcast_S_S129 main_cst_10
  let main_v31 : IVec S129 1 := cmpf .olt main_v29 main_v30
  let main_c_11 : IVec S_ 1 := constantI S_ 1 1#1
  let main_v32 : IVec S_ 1 := (fun x v => Host.reduce IntOp.andi x v reducesTo_S129_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S600000x1 .f32) (main_arg2 : FVec F S50000 .f32) (main_arg3 : FVec F S1x129 .f32) (main_arg4 : FVec F S129 .f32) (main_arg5 : FVec F S129x129 .f32) (main_arg6 : FVec F S129 .f32) (main_arg7 : FVec F S129x129 .f32) (main_arg8 : FVec F S129 .f32) (main_arg9 : FVec F S129 .f32) (main_arg10 : FVec F S129 .f32) (main_arg11 : FVec F S129x128 .f32) (main_arg12 : FVec F S128 .f32) (main_arg13 : FVec F S129x129 .f32) (main_arg14 : FVec F S129 .f32) (main_arg15 : FVec F S129 .f32) (main_arg16 : FVec F S129 .f32) (main_arg17 : FVec F S129x128 .f32) (main_arg18 : FVec F S128 .f32) (main_arg19 : FVec F S128 .f32) (main_arg20 : FVec F S128 .f32) (main_arg21 : IVec S2x600000 32) (main_arg22 : IVec S5000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x1 .f32 := Host.absf main_arg1
  let main_cst_0 : FVec F S_ .f32 := constant S_ .f32 0x7F800000#32
  let main_v5 : FVec F S600000x1 .f32 := broadcastInDim S600000x1 ![] bcast_S_S600000x1 main_cst_0
  let main_v6 : IVec S600000x1 1 := cmpf .olt main_v4 main_v5
  let main_c_1 : IVec S_ 1 := constantI S_ 1 1#1
  let main_v7 : IVec S_ 1 := (fun x v => Host.reduce IntOp.andi x v reducesTo_S600000x1_S_d0_1 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S1x129 .f32 := Host.absf main_arg3
  let main_cst_4 : FVec F S_ .f32 := constant S_ .f32 0x7F800000#32
  let main_v15 : FVec F S1x129 .f32 := broadcastInDim S1x129 ![] bcast_S_S1x129 main_cst_4
  let main_v16 : IVec S1x129 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S600000x1 : Shape := ⟨2, ![600000, 1]⟩
abbrev S50000 : Shape := ⟨1, ![50000]⟩
abbrev S1x129 : Shape := ⟨2, ![1, 129]⟩
abbrev S129 : Shape := ⟨1, ![129]⟩
abbrev S129x129 : Shape := ⟨2, ![129, 129]⟩
abbrev S129x128 : Shape := ⟨2, ![129, 128]⟩
abbrev S128 : Shape := ⟨1, ![128]⟩
abbrev S2x600000 : Shape := ⟨2, ![2, 600000]⟩
abbrev S5000 : Shape := ⟨1, ![5000]⟩
abbrev S1x600000 : Shape := ⟨2, ![1, 600000]⟩
abbrev S600000 : Shape := ⟨1, ![600000]⟩
abbrev S50000x1 : Shape := ⟨2, ![50000, 1]⟩
abbrev S50000x129 : Shape := ⟨2, ![50000, 129]⟩
abbrev S_ : Shape := ⟨0, ![]⟩
abbrev S1 : Shape := ⟨1, ![1]⟩
abbrev S1x1 : Shape := ⟨2, ![1, 1]⟩
abbrev S600000x129 : Shape := ⟨2, ![600000, 129]⟩
abbrev S3000x1 : Shape := ⟨2, ![3000, 1]⟩
abbrev S3000x129 : Shape := ⟨2, ![3000, 129]⟩
abbrev S5000x129 : Shape := ⟨2, ![5000, 129]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 235
  | .vmem => 52
  | .smem => 0
  | _ => 0

abbrev hbmTy0_0 (i : Nat) : BufTy := match i % 128 with
  | 0 => ⟨S50000x128, .f32⟩
  | 1 => ⟨S600000x1, .f32⟩
  | 2 => ⟨S50000, .f32⟩
  | 3 => ⟨S1x129, .f32⟩
  | 4 => ⟨S129, .f32⟩
  | 5 => ⟨S129x129, .f32⟩
  | 6 => ⟨S129, .f32⟩
  | 7 => ⟨S129x129, .f32⟩
  | 8 => ⟨S129, .f32⟩
  | 9 => ⟨S129, .f32⟩
  | 10 => ⟨S129, .f32⟩
  | 11 => ⟨S129x128, .f32⟩
  | 12 => ⟨S128, .f32⟩
  | 13 => ⟨S129x129, .f32⟩
  | 14 => ⟨S129, .f32⟩
  | 15 => ⟨S129, .f32⟩
  | 16 => ⟨S129, .f32⟩
  | 17 => ⟨S129x128, .f32⟩
  | 18 => ⟨S128, .f32⟩
  | 19 => ⟨S128, .f32⟩
  | 20 => ⟨S128, .f32⟩
  | 21 => ⟨S2x600000, .i32⟩
  | 22 => ⟨S5000, .i32⟩
  | 23 => ⟨S1x600000, .i32⟩
  | 24 => ⟨S600000, .i32⟩
  | 25 => ⟨S1x600000, .i32⟩
  | 26 => ⟨S600000, .i32⟩
  | 27 => ⟨S1x129, .f32⟩
  | 28 => ⟨S1x129, .f32⟩
  | 29 => ⟨S50000x1, .f32⟩
  | 30 => ⟨S50000x129, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S1, .i32⟩
  | 40 => ⟨S_, .i32⟩
  | 41 => ⟨S600000x1, .i32⟩
  | 42 => ⟨S600000x1, .i1⟩
  | 43 => ⟨S1x1, .i32⟩
  | 44 => ⟨S600000x1, .i32⟩
  | 45 => ⟨S600000x1, .i1⟩
  | 46 => ⟨S600000x1, .i1⟩
  | 47 => ⟨S_, .i1⟩
  | 48 => ⟨S600000, .i1⟩
  | 49 => ⟨S600000x129, .f32⟩
  | 50 => ⟨S600000x129, .i1⟩
  | 51 => ⟨S_, .f32⟩
  | 52 => ⟨S600000x129, .f32⟩
  | 53 => ⟨S600000x129, .f32⟩
  | 54 => ⟨S600000x129, .f32⟩
  | 55 => ⟨S_, .f32⟩
  | 56 => ⟨S50000x129, .f32⟩
  | 57 => ⟨S600000x1, .i32⟩
  | 58 => ⟨S50000x129, .f32⟩
  | 59 => ⟨S50000x129, .f32⟩
  | 60 => ⟨S1x129, .f32⟩
  | 61 => ⟨S50000x129, .f32⟩
  | 62 => ⟨S_, .f32⟩
  | 63 => ⟨S129, .f32⟩
  | 64 => ⟨S_, .f32⟩
  | 65 => ⟨S129, .f32⟩
  | 66 => ⟨S129, .f32⟩
  | 67 => ⟨S1x129, .f32⟩
  | 68 => ⟨S_, .i32⟩
  | 69 => ⟨S_, .f32⟩
  | 70 => ⟨S129, .f32⟩
  | 71 => ⟨S1x129, .f32⟩
  | 72 => ⟨S_, .f32⟩
  | 73 => ⟨S1x129, .f32⟩
  | 74 => ⟨S1x129, .f32⟩
  | 75 => ⟨S50000x129, .f32⟩
  | 76 => ⟨S50000x129, .f32⟩
  | 77 => ⟨S50000x129, .f32⟩
  | 78 => ⟨S_, .f32⟩
  | 79 => ⟨S_, .f32⟩
  | 80 => ⟨S_, .f32⟩
  | 81 => ⟨S_, .f32⟩
  | 82 => ⟨S129, .f32⟩
  | 83 => ⟨S129, .f32⟩
  | 84 => ⟨S129, .f32⟩
  | 85 => ⟨S_, .f32⟩
  | 86 => ⟨S_, .i1⟩
  | 87 => ⟨S_, .f32⟩
  | 88 => ⟨S_, .f32⟩
  | 89 => ⟨S129, .f32⟩
  | 90 => ⟨S129, .f32⟩
  | 91 => ⟨S1x129, .f32⟩
  | 92 => ⟨S1x129, .f32⟩
  | 93 => ⟨S1x129, .f32⟩
  | 94 => ⟨S1x128, .f32⟩
  | 95 => ⟨S50000x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x1, .f32⟩
  | 17 => ⟨S50000x129, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S1, .i32⟩
  | 27 => ⟨S_, .i32⟩
  | 28 => ⟨S600000x1, .i32⟩
  | 29 => ⟨S600000x1, .i1⟩
  | 30 => ⟨S1x1, .i32⟩
  | 31 => ⟨S600000x1, .i32⟩
  | 32 => ⟨S600000x1, .i1⟩
  | 33 => ⟨S600000x1, .i1⟩
  | 34 => ⟨S_, .i1⟩
  | 35 => ⟨S600000, .i1⟩
  | 36 => ⟨S600000x129, .f32⟩
  | 37 => ⟨S600000x129, .i1⟩
  | 38 => ⟨S_, .f32⟩
  | 39 => ⟨S600000x129, .f32⟩
  | 40 => ⟨S600000x129, .f32⟩
  | 41 => ⟨S600000x129, .f32⟩
  | 42 => ⟨S_, .f32⟩
  | 43 => ⟨S50000x129, .f32⟩
  | 44 => ⟨S600000x1, .i32⟩
  | 45 => ⟨S50000x129, .f32⟩
  | 46 => ⟨S50000x129, .f32⟩
  | 47 => ⟨S1x129, .f32⟩
  | 48 => ⟨S50000x129, .f32⟩
  | 49 => ⟨S_, .f32⟩
  | 50 => ⟨S129, .f32⟩
  | 51 => ⟨S_, .f32⟩
  | 52 => ⟨S129, .f32⟩
  | 53 => ⟨S129, .f32⟩
  | 54 => ⟨S1x129, .f32⟩
  | 55 => ⟨S_, .i32⟩
  | 56 => ⟨S_, .f32⟩
  | 57 => ⟨S129, .f32⟩
  | 58 => ⟨S1x129, .f32⟩
  | 59 => ⟨S_, .f32⟩
  | 60 => ⟨S1x129, .f32⟩
  | 61 => ⟨S1x129, .f32⟩
  | 62 => ⟨S50000x129, .f32⟩
  | 63 => ⟨S50000x129, .f32⟩
  | 64 => ⟨S50000x129, .f32⟩
  | 65 => ⟨S_, .f32⟩
  | 66 => ⟨S_, .f32⟩
  | 67 => ⟨S_, .f32⟩
  | 68 => ⟨S_, .f32⟩
  | 69 => ⟨S129, .f32⟩
  | 70 => ⟨S129, .f32⟩
  | 71 => ⟨S129, .f32⟩
  | 72 => ⟨S_, .f32⟩
  | 73 => ⟨S_, .i1⟩
  | 74 => ⟨S_, .f32⟩
  | 75 => ⟨S_, .f32⟩
  | 76 => ⟨S129, .f32⟩
  | 77 => ⟨S129, .f32⟩
  | 78 => ⟨S1x129, .f32⟩
  | 79 => ⟨S1x129, .f32⟩
  | 80 => ⟨S1x129, .f32⟩
  | 81 => ⟨S1x128, .f32⟩
  | 82 => ⟨S50000x128, .f32⟩
  | 83 => ⟨S50000x128, .f32⟩
  | 84 => ⟨S_, .i32⟩
  | 85 => ⟨S5000, .i32⟩
  | 86 => ⟨S5000, .i1⟩
  | 87 => ⟨S_, .i32⟩
  | 88 => ⟨S5000, .i32⟩
  | 89 => ⟨S5000, .i32⟩
  | 90 => ⟨S5000, .i32⟩
  | 91 => ⟨S5000x1, .i32⟩
  | 92 => ⟨S1, .i32⟩
  | 93 => ⟨S_, .i32⟩
  | 94 => ⟨S5000x1, .i32⟩
  | 95 => ⟨S5000x1, .i1⟩
  | 96 => ⟨S1x1, .i32⟩
  | 97 => ⟨S5000x1, .i32⟩
  | 98 => ⟨S5000x1, .i1⟩
  | 99 => ⟨S5000x1, .i1⟩
  | 100 => ⟨S_, .i1⟩
  | 101 => ⟨S5000, .i1⟩
  | 102 => ⟨S5000x128, .f32⟩
  | 103 => ⟨S5000x128, .i1⟩
  | 104 => ⟨S_, .f32⟩
  | 105 => ⟨S5000x128, .f32⟩
  | 106 => ⟨S5000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S3000x1, .f32⟩
  | .local _ .vmem, ⟨1, _⟩ => ⟨S3000x1, .f32⟩
  | .local _ .vmem, ⟨2, _⟩ => ⟨S3000x129, .f32⟩
  | .local _ .vmem, ⟨3, _⟩ => ⟨S3000x129, .f32⟩
  | .local _ .vmem, ⟨4, _⟩ => ⟨S1x129, .f32⟩
  | .local _ .vmem, ⟨5, _⟩ => ⟨S1x129, .f32⟩
  | .local _ .vmem, ⟨6, _⟩ => ⟨S129x129, .f32⟩
  | .local _ .vmem, ⟨7, _⟩ => ⟨S1x129, .f32⟩
  | .local _ .vmem, ⟨8, _⟩ => ⟨S3000x129, .f32⟩
  | .local _ .vmem, ⟨9, _⟩ => ⟨S3000x129, .f32⟩
  | .local _ .vmem, ⟨10, _⟩ => ⟨S5000x129, .f32⟩
  | .local _ .vmem, ⟨11, _⟩ => ⟨S5000x129, .f32⟩
  | .local _ .vmem, ⟨12, _⟩ => ⟨S129x129, .f32⟩
  | .local _ .vmem, ⟨13, _⟩ => ⟨S1x129, .f32⟩
  | .local _ .vmem, ⟨14, _⟩ => ⟨S5000x129, .f32⟩
  | .local _ .vmem, ⟨15, _⟩ => ⟨S5000x129, .f32⟩
  | .local _ .vmem, ⟨16, _⟩ => ⟨S5000x129, .f32⟩
  | .local _ .vmem, ⟨17, _⟩ => ⟨S5000x129, .f32⟩
  | .local _ .vmem, ⟨18, _⟩ => ⟨S1x129, .f32⟩
  | .local _ .vmem, ⟨19, _⟩ => ⟨S1x129, .f32⟩
  | .local _ .vmem, ⟨20, _⟩ => ⟨S1x129, .f32⟩
  | .local _ .vmem, ⟨21, _⟩ => ⟨S1x129, .f32⟩
  | .local _ .vmem, ⟨22, _⟩ => ⟨S129x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S3000x1, .f32⟩
  | .local _ .vmem, ⟨27, _⟩ => ⟨S3000x1, .f32⟩
  | .local _ .vmem, ⟨28, _⟩ => ⟨S3000x129, .f32⟩
  | .local _ .vmem, ⟨29, _⟩ => ⟨S3000x129, .f32⟩
  | .local _ .vmem, ⟨30, _⟩ => ⟨S1x129, .f32⟩
  | .local _ .vmem, ⟨31, _⟩ => ⟨S1x129, .f32⟩
  | .local _ .vmem, ⟨32, _⟩ => ⟨S129x129, .f32⟩
  | .local _ .vmem, ⟨33, _⟩ => ⟨S1x129, .f32⟩
  | .local _ .vmem, ⟨34, _⟩ => ⟨S3000x129, .f32⟩
  | .local _ .vmem, ⟨35, _⟩ => ⟨S3000x129, .f32⟩
  | .local _ .vmem, ⟨36, _⟩ => ⟨S5000x129, .f32⟩
  | .local _ .vmem, ⟨37, _⟩ => ⟨S5000x129, .f32⟩
  | .local _ .vmem, ⟨38, _⟩ => ⟨S129x129, .f32⟩
  | .local _ .vmem, ⟨39, _⟩ => ⟨S1x129, .f32⟩
  | .local _ .vmem, ⟨40, _⟩ => ⟨S5000x129, .f32⟩
  | .local _ .vmem, ⟨41, _⟩ => ⟨S5000x129, .f32⟩
  | .local _ .vmem, ⟨42, _⟩ => ⟨S5000x129, .f32⟩
  | .local _ .vmem, ⟨43, _⟩ => ⟨S5000x129, .f32⟩
  | .local _ .vmem, ⟨44, _⟩ => ⟨S1x129, .f32⟩
  | .local _ .vmem, ⟨45, _⟩ => ⟨S1x129, .f32⟩
  | .local _ .vmem, ⟨46, _⟩ => ⟨S1x129, .f32⟩
  | .local _ .vmem, ⟨47, _⟩ => ⟨S1x129, .f32⟩
  | .local _ .vmem, ⟨48, _⟩ => ⟨S129x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_0 : Ref sig .tc := ⟨.hbm, 62, rfl⟩
abbrev main_v16 : Ref sig .tc := ⟨.hbm, 63, rfl⟩
abbrev main_cst_1 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_cst_1 : Ref sig .tc := ⟨.hbm, 79, rfl⟩
abbrev main_call1_v8 : Ref sig .tc := ⟨.hbm, 80, rfl⟩
abbrev main_call1_cst_2 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_cst_3 : Ref sig .tc := ⟨.hbm, 85, rfl⟩
abbrev main_call1_v12 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_cst_2 : Ref sig .tc := ⟨.hbm, 97, rfl⟩
abbrev main_v27 : Ref sig .tc := ⟨.hbm, 98, rfl⟩
abbrev main_cst_3 : Ref sig .tc := ⟨.hbm, 99, rfl⟩
abbrev main_v28 : Ref sig .tc := ⟨.hbm, 100, rfl⟩
abbrev main_v29 : Ref sig .tc := ⟨.hbm, 101, rfl⟩
abbrev main_c_4 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_cst_3 : Ref sig .tc := ⟨.hbm, 119, rfl⟩
abbrev main_call2_v12 : Ref sig .tc := ⟨.hbm, 120, rfl⟩
abbrev main_call2_cst_4 : Ref sig .tc := ⟨.hbm, 121, rfl⟩
abbrev main_call2_call0_v0 : Ref sig .tc := ⟨.hbm, 122, rfl⟩
abbrev main_call2_call0_v1 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_cst_5 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_call3_cst : Ref sig .tc := ⟨.hbm, 141, rfl⟩
abbrev main_call3_v0 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_call4_c : Ref sig .tc := ⟨.hbm, 146, rfl⟩
abbrev main_call4_v0 : Ref sig .tc := ⟨.hbm, 147, rfl⟩
abbrev main_call4_v1 : Ref sig .tc := ⟨.hbm, 148, rfl⟩
abbrev main_call4_c_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_c_1 : Ref sig .tc := ⟨.hbm, 154, rfl⟩
abbrev main_call4_c_2 : Ref sig .tc := ⟨.hbm, 155, rfl⟩
abbrev main_call4_v6 : Ref sig .tc := ⟨.hbm, 156, rfl⟩
abbrev main_call4_v7 : Ref sig .tc := ⟨.hbm, 157, rfl⟩
abbrev main_call4_v8 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_3 : Ref sig .tc := ⟨.hbm, 162, rfl⟩
abbrev main_call4_v12 : Ref sig .tc := ⟨.hbm, 163, rfl⟩
abbrev main_call4_v13 : Ref sig .tc := ⟨.hbm, 164, rfl⟩
abbrev main_call4_v14 : Ref sig .tc := ⟨.hbm, 165, rfl⟩
abbrev main_call4_cst : Ref sig .tc := ⟨.hbm, 166, rfl⟩
abbrev main_call4_v15 : Ref sig .tc := ⟨.hbm, 167, rfl⟩
abbrev main_v49 : Ref sig .tc := ⟨.hbm, 168, rfl⟩
abbrev main_v50 : Ref sig .tc := ⟨.hbm, 169, rfl⟩
abbrev main_cst_6 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_cst_7 : Ref sig .tc := ⟨.hbm, 177, rfl⟩
abbrev main_v57 : Ref sig .tc := ⟨.hbm, 178, rfl⟩
abbrev main_cst_8 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_c_9 : Ref sig .tc := ⟨.hbm, 183, rfl⟩
abbrev main_call5_cst : Ref sig .tc := ⟨.hbm, 184, rfl⟩
abbrev main_call5_v0 : Ref sig .tc := ⟨.hbm, 185, rfl⟩
abbrev main_call5_v1 : Ref sig .tc := ⟨.hbm, 186, rfl⟩
abbrev main_call5_cst_0 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_v7 : Ref sig .tc := ⟨.hbm, 193, rfl⟩
abbrev main_call5_cst_1 : Ref sig .tc := ⟨.hbm, 194, rfl⟩
abbrev main_call5_v8 : Ref sig .tc := ⟨.hbm, 195, rfl⟩
abbrev main_call5_cst_2 : Ref sig .tc := ⟨.hbm, 196, rfl⟩
abbrev main_call5_v9 : Ref sig .tc := ⟨.hbm, 197, rfl⟩
abbrev main_call5_v10 : Ref sig .tc := ⟨.hbm, 198, rfl⟩
abbrev main_call5_v11 : Ref sig .tc := ⟨.hbm, 199, rfl⟩
abbrev main_call5_cst_3 : Ref sig .tc := ⟨.hbm, 200, rfl⟩
abbrev main_call5_v12 : Ref sig .tc := ⟨.hbm, 201, rfl⟩
abbrev main_call5_cst_4 : Ref sig .tc := ⟨.hbm, 202, rfl⟩
abbrev main_call5_call0_v0 : Ref sig .tc := ⟨.hbm, 203, rfl⟩
abbrev main_call5_call0_v1 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_call6_c : Ref sig .tc := ⟨.hbm, 212, rfl⟩
abbrev main_call6_v0 : Ref sig .tc := ⟨.hbm, 213, rfl⟩
abbrev main_call6_v1 : Ref sig .tc := ⟨.hbm, 214, rfl⟩
abbrev main_call6_c_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_v5 : Ref sig .tc := ⟨.hbm, 219, rfl⟩
abbrev main_call6_c_1 : Ref sig .tc := ⟨.hbm, 220, rfl⟩
abbrev main_call6_c_2 : Ref sig .tc := ⟨.hbm, 221, rfl⟩
abbrev main_call6_v6 : Ref sig .tc := ⟨.hbm, 222, rfl⟩
abbrev main_call6_v7 : Ref sig .tc := ⟨.hbm, 223, rfl⟩
abbrev main_call6_v8 : Ref sig .tc := ⟨.hbm, 224, rfl⟩
abbrev main_call6_v9 : Ref sig .tc := ⟨.hbm, 225, rfl⟩
abbrev main_call6_v10 : Ref sig .tc := ⟨.hbm, 226, rfl⟩
abbrev main_call6_v11 : Ref sig .tc := ⟨.hbm, 227, rfl⟩
abbrev main_call6_c_3 : Ref sig .tc := ⟨.hbm, 228, rfl⟩
abbrev main_call6_v12 : Ref sig .tc := ⟨.hbm, 229, rfl⟩
abbrev main_call6_v13 : Ref sig .tc := ⟨.hbm, 230, rfl⟩
abbrev main_call6_v14 : Ref sig .tc := ⟨.hbm, 231, rfl⟩
abbrev main_call6_cst : Ref sig .tc := ⟨.hbm, 232, rfl⟩
abbrev main_call6_v15 : Ref sig .tc := ⟨.hbm, 233, rfl⟩
abbrev main_v68 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x129 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S129x129 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3000x129 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x129 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S129x129 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x129 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x129 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x129 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x129 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x129 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x129 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x129 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S129x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x129 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x129 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x129 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S129x129 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x129 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S3000x129 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x129 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S129x129 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x129 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x129 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x129 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x129 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x129 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x129 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x129 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S129x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S129_S1x129 : S129.ShapeCasts S1x129
  bcast_S50000_S50000x1_0 : S50000.BroadcastsInDim S50000x1 (![0] : Fin 1 → Fin S50000x1.rank)
  concatenates_S50000x128_S50000x1_S50000x129_d1 : Shape.Concatenates [S50000x128, S50000x1] S50000x129 1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x129_0 : S600000.BroadcastsInDim S600000x129 (![0] : Fin 1 → Fin S600000x129.rank)
  bcast_S_S600000x129 : S_.BroadcastsInDim S600000x129 (![] : Fin 0 → Fin S600000x129.rank)
  inb_S3000x1_S3000x1_0_0 : ∀ a, (![0, 0] : Fin 2 → Nat) a + S3000x1.size a ≤ S3000x1.size a
  h_S3000x1 : 0 < S3000x1.numel
  inb_S1x129_S1x129_0_0 : ∀ a, (![0, 0] : Fin 2 → Nat) a + S1x129.size a ≤ S1x129.size a
  h_S1x129 : 0 < S1x129.numel
  broadcasts_S3000x1_S3000x129 : S3000x1.Broadcasts S3000x129
  broadcasts_S1x129_S3000x129 : S1x129.Broadcasts S3000x129
  shapeCasts_S1x129_S1x129 : S1x129.ShapeCasts S1x129
  bitsLt_bf16_f32 : FTy.bits .bf16 < FTy.bits .f32
  inb_S129x129_S129x129_0_0 : ∀ a, (![0, 0] : Fin 2 → Nat) a + S129x129.size a ≤ S129x129.size a
  h_S129x129 : 0 < S129x129.numel
  inb_S3000x129_S3000x129_0_0 : ∀ a, (![0, 0] : Fin 2 → Nat) a + S3000x129.size a ≤ S3000x129.size a
  h_S3000x129 : 0 < S3000x129.numel
  shapeCasts_S3000x129_S3000x129 : S3000x129.ShapeCasts S3000x129
  bcast_S_S50000x129 : S_.BroadcastsInDim S50000x129 (![] : Fin 0 → Fin S50000x129.rank)
  inb_S5000x129_S5000x129_0_0 : ∀ a, (![0, 0] : Fin 2 → Nat) a + S5000x129.size a ≤ S5000x129.size a
  h_S5000x129 : 0 < S5000x129.numel
  shapeCasts_S5000x129_S5000x129 : S5000x129.ShapeCasts S5000x129
  broadcasts_S1x129_S5000x129 : S1x129.Broadcasts S5000x129
  reducesTo_S50000x129_S129_d0 : S50000x129.ReducesTo [0] S129
  bcast_S_S129 : S_.BroadcastsInDim S129 (![] : Fin 0 → Fin S129.rank)
  bcast_S129_S1x129_1 : S129.BroadcastsInDim S1x129 (![1] : Fin 1 → Fin S1x129.rank)
  bcast_S_S1x129 : S_.BroadcastsInDim S1x129 (![] : Fin 0 → Fin S1x129.rank)
  bcast_S1x129_S50000x129_0_1 : S1x129.BroadcastsInDim S50000x129 (![0, 1] : Fin 2 → Fin S50000x129.rank)
  shapeCasts_S128_S1x128 : S128.ShapeCasts S1x128
  inb_S129x128_S129x128_0_0 : ∀ a, (![0, 0] : Fin 2 → Nat) a + S129x128.size a ≤ S129x128.size a
  h_S129x128 : 0 < S129x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S1x1_S5000x1_0_1 : S1x1.BroadcastsInDim S5000x1 (![0, 1] : Fin 2 → Fin S5000x1.rank)
  reducesTo_S5000x1_S5000_d1 : S5000x1.ReducesTo [1] S5000
  bcast_S5000_S5000x128_0 : S5000.BroadcastsInDim S5000x128 (![0] : Fin 1 → Fin S5000x128.rank)
  bcast_S_S5000x128 : S_.BroadcastsInDim S5000x128 (![] : Fin 0 → Fin S5000x128.rank)
  gather_S50000x129_S600000x1_S600000x129_1_0_n_n_0_1_1129_wf : GatherDims.WF S50000x129 S600000x1 S600000x129 [1] [0] [] [0] [] 1 ![1, 129]
  dot_S3000x129_S129x129_S3000x129_1_0_0_1_n_n_wf : DotDims.WF S3000x129 S129x129 S3000x129 [1] [0] [0] [1] [] []
  scatter_S50000x129_S600000x1_S600000x129_1_0_0_1_wf : ScatterDims.WF S50000x129 S600000x1 S600000x129 [1] [0] [0] 1
  dot_S5000x129_S129x129_S5000x129_1_0_0_1_n_n_wf : DotDims.WF S5000x129 S129x129 S5000x129 [1] [0] [0] [1] [] []
  dot_S5000x129_S129x128_S5000x128_1_0_0_1_n_n_wf : DotDims.WF S5000x129 S129x128 S5000x128 [1] [0] [0] [1] [] []
  gather_S50000x128_S5000x1_S5000x128_1_0_n_n_0_1_1128_wf : GatherDims.WF S50000x128 S5000x1 S5000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x1.size a ≤ S600000x1.size a
  hwx0_0 : ∀ i : grid0.Coords, EltTy.bits .f32 = 32 ∨ (Rect.block (s := S600000x1) S3000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x129.size a ≤ S600000x129.size a
  hwx0_1 : ∀ i : grid0.Coords, EltTy.bits .f32 = 32 ∨ (Rect.block (s := S600000x129) S3000x129.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x129.size a ≤ S1x129.size a
  hwx0_2 : ∀ i : grid0.Coords, EltTy.bits .f32 = 32 ∨ (Rect.block (s := S1x129) S1x129.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x129.size a ≤ S1x129.size a
  hwx0_3 : ∀ i : grid0.Coords, EltTy.bits .f32 = 32 ∨ (Rect.block (s := S1x129) S1x129.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S129x129.size a ≤ S129x129.size a
  hwx0_4 : ∀ i : grid0.Coords, EltTy.bits .f32 = 32 ∨ (Rect.block (s := S129x129) S129x129.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x129.size a ≤ S1x129.size a
  hwx0_5 : ∀ i : grid0.Coords, EltTy.bits .f32 = 32 ∨ (Rect.block (s := S1x129) S1x129.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x129.size a ≤ S600000x129.size a
  hwx0_6 : ∀ i : grid0.Coords, EltTy.bits .f32 = 32 ∨ (Rect.block (s := S600000x129) S3000x129.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x129.size a ≤ S50000x129.size a
  hwx1_0 : ∀ i : grid1.Coords, EltTy.bits .f32 = 32 ∨ (Rect.block (s := S50000x129) S5000x129.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S129x129.size a ≤ S129x129.size a
  hwx1_1 : ∀ i : grid1.Coords, EltTy.bits .f32 = 32 ∨ (Rect.block (s := S129x129) S129x129.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x129.size a ≤ S1x129.size a
  hwx1_2 : ∀ i : grid1.Coords, EltTy.bits .f32 = 32 ∨ (Rect.block (s := S1x129) S1x129.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x129.size a ≤ S50000x129.size a
  hwx1_3 : ∀ i : grid1.Coords, EltTy.bits .f32 = 32 ∨ (Rect.block (s := S50000x129) S5000x129.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x129.size a ≤ S50000x129.size a
  hwx2_0 : ∀ i : grid2.Coords, EltTy.bits .f32 = 32 ∨ (Rect.block (s := S50000x129) S5000x129.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x129.size a ≤ S1x129.size a
  hwx2_1 : ∀ i : grid2.Coords, EltTy.bits .f32 = 32 ∨ (Rect.block (s := S1x129) S1x129.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x129.size a ≤ S1x129.size a
  hwx2_2 : ∀ i : grid2.Coords, EltTy.bits .f32 = 32 ∨ (Rect.block (s := S1x129) S1x129.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x129.size a ≤ S1x129.size a
  hwx2_3 : ∀ i : grid2.Coords, EltTy.bits .f32 = 32 ∨ (Rect.block (s := S1x129) S1x129.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x129.size a ≤ S1x129.size a
  hwx2_4 : ∀ i : grid2.Coords, EltTy.bits .f32 = 32 ∨ (Rect.block (s := S1x129) S1x129.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S129x128.size a ≤ S129x128.size a
  hwx2_5 : ∀ i : grid2.Coords, EltTy.bits .f32 = 32 ∨ (Rect.block (s := S129x128) S129x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x1.size a ≤ S600000x1.size a
  hwx3_0 : ∀ i : grid3.Coords, EltTy.bits .f32 = 32 ∨ (Rect.block (s := S600000x1) S3000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x129.size a ≤ S600000x129.size a
  hwx3_1 : ∀ i : grid3.Coords, EltTy.bits .f32 = 32 ∨ (Rect.block (s := S600000x129) S3000x129.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x129.size a ≤ S1x129.size a
  hwx3_2 : ∀ i : grid3.Coords, EltTy.bits .f32 = 32 ∨ (Rect.block (s := S1x129) S1x129.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x129.size a ≤ S1x129.size a
  hwx3_3 : ∀ i : grid3.Coords, EltTy.bits .f32 = 32 ∨ (Rect.block (s := S1x129) S1x129.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S129x129.size a ≤ S129x129.size a
  hwx3_4 : ∀ i : grid3.Coords, EltTy.bits .f32 = 32 ∨ (Rect.block (s := S129x129) S129x129.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x129.size a ≤ S1x129.size a
  hwx3_5 : ∀ i : grid3.Coords, EltTy.bits .f32 = 32 ∨ (Rect.block (s := S1x129) S1x129.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S3000x129.size a ≤ S600000x129.size a
  hwx3_6 : ∀ i : grid3.Coords, EltTy.bits .f32 = 32 ∨ (Rect.block (s := S600000x129) S3000x129.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x129.size a ≤ S50000x129.size a
  hwx4_0 : ∀ i : grid4.Coords, EltTy.bits .f32 = 32 ∨ (Rect.block (s := S50000x129) S5000x129.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S129x129.size a ≤ S129x129.size a
  hwx4_1 : ∀ i : grid4.Coords, EltTy.bits .f32 = 32 ∨ (Rect.block (s := S129x129) S129x129.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x129.size a ≤ S1x129.size a
  hwx4_2 : ∀ i : grid4.Coords, EltTy.bits .f32 = 32 ∨ (Rect.block (s := S1x129) S1x129.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x129.size a ≤ S50000x129.size a
  hwx4_3 : ∀ i : grid4.Coords, EltTy.bits .f32 = 32 ∨ (Rect.block (s := S50000x129) S5000x129.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x129.size a ≤ S50000x129.size a
  hwx5_0 : ∀ i : grid5.Coords, EltTy.bits .f32 = 32 ∨ (Rect.block (s := S50000x129) S5000x129.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x129.size a ≤ S1x129.size a
  hwx5_1 : ∀ i : grid5.Coords, EltTy.bits .f32 = 32 ∨ (Rect.block (s := S1x129) S1x129.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x129.size a ≤ S1x129.size a
  hwx5_2 : ∀ i : grid5.Coords, EltTy.bits .f32 = 32 ∨ (Rect.block (s := S1x129) S1x129.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x129.size a ≤ S1x129.size a
  hwx5_3 : ∀ i : grid5.Coords, EltTy.bits .f32 = 32 ∨ (Rect.block (s := S1x129) S1x129.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x129.size a ≤ S1x129.size a
  hwx5_4 : ∀ i : grid5.Coords, EltTy.bits .f32 = 32 ∨ (Rect.block (s := S1x129) S1x129.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S129x128.size a ≤ S129x128.size a
  hwx5_5 : ∀ i : grid5.Coords, EltTy.bits .f32 = 32 ∨ (Rect.block (s := S129x128) S129x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)

variable [Facts₀]

def gather_S50000x129_S600000x1_S600000x129_1_0_n_n_0_1_1129 : GatherDims S50000x129 S600000x1 S600000x129 where
  offsetDims := [1]
  collapsedSliceDims := [0]
  operandBatchingDims := []
  startIndicesBatchingDims := []
  startIndexMap := [0]
  indexVectorDim := 1
  sliceSizes := ![1, 129]
  wf := gather_S50000x129_S600000x1_S600000x129_1_0_n_n_0_1_1129_wf
def dot_S3000x129_S129x129_S3000x129_1_0_0_1_n_n : DotDims S3000x129 S129x129 S3000x129 where
  lhsContracting := [1]
  rhsContracting := [0]
  lhsNonContracting := [0]
  rhsNonContracting := [1]
  lhsBatch := []
  rhsBatch := []
  wf := dot_S3000x129_S129x129_S3000x129_1_0_0_1_n_n_wf
def scatter_S50000x129_S600000x1_S600000x129_1_0_0_1 : ScatterDims S50000x129 S600000x1 S600000x129 where
  updateWindowDims := [1]
  insertedWindowDims := [0]
  scatterDimsToOperandDims := [0]
  indexVectorDim := 1
  wf := scatter_S50000x129_S600000x1_S600000x129_1_0_0_1_wf
def dot_S5000x129_S129x129_S5000x129_1_0_0_1_n_n : DotDims S5000x129 S129x129 S5000x129 where
  lhsContracting := [1]
  rhsContracting := [0]
  lhsNonContracting := [0]
  rhsNonContracting := [1]
  lhsBatch := []
  rhsBatch := []
  wf := dot_S5000x129_S129x129_S5000x129_1_0_0_1_n_n_wf
def dot_S5000x129_S129x128_S5000x128_1_0_0_1_n_n : DotDims S5000x129 S129x128 S5000x128 where
  lhsContracting := [1]
  rhsContracting := [0]
  lhsNonContracting := [0]
  rhsNonContracting := [1]
  lhsBatch := []
  rhsBatch := []
  wf := dot_S5000x129_S129x128_S5000x128_1_0_0_1_n_n_wf
def gather_S50000x128_S5000x1_S5000x128_1_0_n_n_0_1_1128 : GatherDims S50000x128 S5000x1 S5000x128 where
  offsetDims := [1]
  collapsedSliceDims := [0]
  operandBatchingDims := []
  startIndicesBatchingDims := []
  startIndexMap := [0]
  indexVectorDim := 1
  sliceSizes := ![1, 128]
  wf := gather_S50000x128_S5000x1_S5000x128_1_0_n_n_0_1_1128_wf

abbrev win0_0 : Pipeline.Window sig grid0 :=
  Pipeline.Window.ofSpec (Memref.whole main_arg1) S3000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3000x129.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x129.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x129.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S129x129.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x129.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3000x129.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x129.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S129x129.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x129.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x129.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S5000x129.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x129.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x129.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x129.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x129.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S129x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S3000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S3000x129.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S1x129.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S1x129.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S129x129.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S1x129.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S3000x129.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v54) S5000x129.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S129x129.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x129.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S5000x129.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v56) S5000x129.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x129.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1x129.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x129.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x129.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg17) S129x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v65) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v66) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S600000x1 : Shape := ⟨2, ![600000, 1]⟩
abbrev S50000 : Shape := ⟨1, ![50000]⟩
abbrev S1x129 : Shape := ⟨2, ![1, 129]⟩
abbrev S129 : Shape := ⟨1, ![129]⟩
abbrev S129x129 : Shape := ⟨2, ![129, 129]⟩
abbrev S129x128 : Shape := ⟨2, ![129, 128]⟩
abbrev S128 : Shape := ⟨1, ![128]⟩
abbrev S2x600000 : Shape := ⟨2, ![2, 600000]⟩
abbrev S5000 : Shape := ⟨1, ![5000]⟩
abbrev S1x600000 : Shape := ⟨2, ![1, 600000]⟩
abbrev S600000 : Shape := ⟨1, ![600000]⟩
abbrev S600000x129 : Shape := ⟨2, ![600000, 129]⟩
abbrev S_ : Shape := ⟨0, ![]⟩
abbrev S50000x1 : Shape := ⟨2, ![50000, 1]⟩
abbrev S50000x129 : Shape := ⟨2, ![50000, 129]⟩
abbrev S1x128 : Shape := ⟨2, ![1, 128]⟩
abbrev S5000x1 : Shape := ⟨2, ![5000, 1]⟩
abbrev S5000x128 : Shape := ⟨2, ![5000, 128]⟩

abbrev nBuf : Space → Nat
  | .hbm => 246
  | .vmem => 0
  | .smem => 0
  | _ => 0

abbrev hbmTy0_0 (i : Nat) : BufTy := match i % 128 with
  | 0 => ⟨S50000x128, .f32⟩
  | 1 => ⟨S600000x1, .f32⟩
  | 2 => ⟨S50000, .f32⟩
  | 3 => ⟨S1x129, .f32⟩
  | 4 => ⟨S129, .f32⟩
  | 5 => ⟨S129x129, .f32⟩
  | 6 => ⟨S129, .f32⟩
  | 7 => ⟨S129x129, .f32⟩
  | 8 => ⟨S129, .f32⟩
  | 9 => ⟨S129, .f32⟩
  | 10 => ⟨S129, .f32⟩
  | 11 => ⟨S129x128, .f32⟩
  | 12 => ⟨S128, .f32⟩
  | 13 => ⟨S129x129, .f32⟩
  | 14 => ⟨S129, .f32⟩
  | 15 => ⟨S129, .f32⟩
  | 16 => ⟨S129, .f32⟩
  | 17 => ⟨S129x128, .f32⟩
  | 18 => ⟨S128, .f32⟩
  | 19 => ⟨S128, .f32⟩
  | 20 => ⟨S128, .f32⟩
  | 21 => ⟨S2x600000, .i32⟩
  | 22 => ⟨S5000, .i32⟩
  | 23 => ⟨S1x600000, .i32⟩
  | 24 => ⟨S600000, .i32⟩
  | 25 => ⟨S1x600000, .i32⟩
  | 26 => ⟨S600000, .i32⟩
  | 27 => ⟨S600000x129, .f32⟩
  | 28 => ⟨S1x129, .f32⟩
  | 29 => ⟨S600000x129, .f32⟩
  | 30 => ⟨S600000x129, .f32⟩
  | 31 => ⟨S_, .f32⟩
  | 32 => ⟨S600000x129, .f32⟩
  | 33 => ⟨S600000x129, .f32⟩
  | 34 => ⟨S600000x129, .f32⟩
  | 35 => ⟨S1x129, .f32⟩
  | 36 => ⟨S600000x129, .f32⟩
  | 37 => ⟨S600000x129, .f32⟩
  | 38 => ⟨S50000x1, .f32⟩
  | 39 => ⟨S50000x129, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x129, .f32⟩
  | 49 => ⟨S600000x129, .f32⟩
  | 50 => ⟨S_, .f32⟩
  | 51 => ⟨S600000x129, .f32⟩
  | 52 => ⟨S600000x129, .f32⟩
  | 53 => ⟨S_, .f32⟩
  | 54 => ⟨S50000x129, .f32⟩
  | 55 => ⟨S600000x1, .i32⟩
  | 56 => ⟨S50000x129, .f32⟩
  | 57 => ⟨S50000x129, .f32⟩
  | 58 => ⟨S50000x129, .f32⟩
  | 59 => ⟨S1x129, .f32⟩
  | 60 => ⟨S50000x129, .f32⟩
  | 61 => ⟨S50000x129, .f32⟩
  | 62 => ⟨S_, .f32⟩
  | 63 => ⟨S129, .f32⟩
  | 64 => ⟨S_, .f32⟩
  | 65 => ⟨S129, .f32⟩
  | 66 => ⟨S129, .f32⟩
  | 67 => ⟨S_, .i32⟩
  | 68 => ⟨S_, .f32⟩
  | 69 => ⟨S129, .f32⟩
  | 70 => ⟨S1x129, .f32⟩
  | 71 => ⟨S_, .f32⟩
  | 72 => ⟨S1x129, .f32⟩
  | 73 => ⟨S1x129, .f32⟩
  | 74 => ⟨S50000x129, .f32⟩
  | 75 => ⟨S50000x129, .f32⟩
  | 76 => ⟨S50000x129, .f32⟩
  | 77 => ⟨S_, .f32⟩
  | 78 => ⟨S_, .f32⟩
  | 79 => ⟨S_, .f32⟩
  | 80 => ⟨S_, .f32⟩
  | 81 => ⟨S129, .f32⟩
  | 82 => ⟨S129, .f32⟩
  | 83 => ⟨S129, .f32⟩
  | 84 => ⟨S_, .f32⟩
  | 85 => ⟨S_, .i1⟩
  | 86 => ⟨S_, .f32⟩
  | 87 => ⟨S_, .f32⟩
  | 88 => ⟨S129, .f32⟩
  | 89 => ⟨S129, .f32⟩
  | 90 => ⟨S1x129, .f32⟩
  | 91 => ⟨S50000x129, .f32⟩
  | 92 => ⟨S50000x129, .f32⟩
  | 93 => ⟨S1x129, .f32⟩
  | 94 => ⟨S50000x129, .f32⟩
  | 95 => ⟨S50000x129, .f32⟩
  | 96 => ⟨S_, .f32⟩
  | 97 => ⟨S129, .f32⟩
  | 98 => ⟨S129, .f32⟩
  | 99 => ⟨S129, .f32⟩
  | 100 => ⟨S1x129, .f32⟩
  | 101 => ⟨S50000x129, .f32⟩
  | 102 => ⟨S50000x129, .f32⟩
  | 103 => ⟨S1x129, .f32⟩
  | 104 => ⟨S50000x129, .f32⟩
  | 105 => ⟨S50000x129, .f32⟩
  | 106 => ⟨S_, .f32⟩
  | 107 => ⟨S50000x129, .f32⟩
  | 108 => ⟨S50000x129, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S128, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x1, .f32⟩
  | 34 => ⟨S50000x129, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x129, .f32⟩
  | 44 => ⟨S600000x129, .f32⟩
  | 45 => ⟨S_, .f32⟩
  | 46 => ⟨S600000x129, .f32⟩
  | 47 => ⟨S600000x129, .f32⟩
  | 48 => ⟨S_, .f32⟩
  | 49 => ⟨S50000x129, .f32⟩
  | 50 => ⟨S600000x1, .i32⟩
  | 51 => ⟨S50000x129, .f32⟩
  | 52 => ⟨S50000x129, .f32⟩
  | 53 => ⟨S50000x129, .f32⟩
  | 54 => ⟨S1x129, .f32⟩
  | 55 => ⟨S50000x129, .f32⟩
  | 56 => ⟨S50000x129, .f32⟩
  | 57 => ⟨S_, .f32⟩
  | 58 => ⟨S129, .f32⟩
  | 59 => ⟨S_, .f32⟩
  | 60 => ⟨S129, .f32⟩
  | 61 => ⟨S129, .f32⟩
  | 62 => ⟨S_, .i32⟩
  | 63 => ⟨S_, .f32⟩
  | 64 => ⟨S129, .f32⟩
  | 65 => ⟨S1x129, .f32⟩
  | 66 => ⟨S_, .f32⟩
  | 67 => ⟨S1x129, .f32⟩
  | 68 => ⟨S1x129, .f32⟩
  | 69 => ⟨S50000x129, .f32⟩
  | 70 => ⟨S50000x129, .f32⟩
  | 71 => ⟨S50000x129, .f32⟩
  | 72 => ⟨S_, .f32⟩
  | 73 => ⟨S_, .f32⟩
  | 74 => ⟨S_, .f32⟩
  | 75 => ⟨S_, .f32⟩
  | 76 => ⟨S129, .f32⟩
  | 77 => ⟨S129, .f32⟩
  | 78 => ⟨S129, .f32⟩
  | 79 => ⟨S_, .f32⟩
  | 80 => ⟨S_, .i1⟩
  | 81 => ⟨S_, .f32⟩
  | 82 => ⟨S_, .f32⟩
  | 83 => ⟨S129, .f32⟩
  | 84 => ⟨S129, .f32⟩
  | 85 => ⟨S1x129, .f32⟩
  | 86 => ⟨S50000x129, .f32⟩
  | 87 => ⟨S50000x129, .f32⟩
  | 88 => ⟨S1x129, .f32⟩
  | 89 => ⟨S50000x129, .f32⟩
  | 90 => ⟨S50000x129, .f32⟩
  | 91 => ⟨S_, .f32⟩
  | 92 => ⟨S129, .f32⟩
  | 93 => ⟨S129, .f32⟩
  | 94 => ⟨S129, .f32⟩
  | 95 => ⟨S1x129, .f32⟩
  | 96 => ⟨S50000x129, .f32⟩
  | 97 => ⟨S50000x129, .f32⟩
  | 98 => ⟨S1x129, .f32⟩
  | 99 => ⟨S50000x129, .f32⟩
  | 100 => ⟨S50000x129, .f32⟩
  | 101 => ⟨S_, .f32⟩
  | 102 => ⟨S50000x129, .f32⟩
  | 103 => ⟨S50000x129, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S_, .i32⟩
  | 110 => ⟨S5000, .i32⟩
  | 111 => ⟨S5000, .i1⟩
  | 112 => ⟨S_, .i32⟩
  | 113 => ⟨S5000, .i32⟩
  | 114 => ⟨S5000, .i32⟩
  | 115 => ⟨S5000, .i32⟩
  | 116 => ⟨S5000x1, .i32⟩
  | 117 => ⟨S5000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_cst : Ref sig .tc := ⟨.hbm, 31, rfl⟩
abbrev main_call0_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call1_cst : Ref sig .tc := ⟨.hbm, 50, rfl⟩
abbrev main_call1_v0 : Ref sig .tc := ⟨.hbm, 51, rfl⟩
abbrev main_v23 : Ref sig .tc := ⟨.hbm, 52, rfl⟩
abbrev main_cst : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_1 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_v34 : Ref sig .tc := ⟨.hbm, 66, rfl⟩
abbrev main_c_3 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_cst_3 : Ref sig .tc := ⟨.hbm, 84, rfl⟩
abbrev main_call2_v12 : Ref sig .tc := ⟨.hbm, 85, rfl⟩
abbrev main_call2_cst_4 : Ref sig .tc := ⟨.hbm, 86, rfl⟩
abbrev main_call2_call0_v0 : Ref sig .tc := ⟨.hbm, 87, rfl⟩
abbrev main_call2_call0_v1 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_cst_4 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_call3_cst : Ref sig .tc := ⟨.hbm, 106, rfl⟩
abbrev main_call3_v0 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_5 : Ref sig .tc := ⟨.hbm, 114, rfl⟩
abbrev main_v57 : Ref sig .tc := ⟨.hbm, 115, rfl⟩
abbrev main_cst_6 : Ref sig .tc := ⟨.hbm, 116, rfl⟩
abbrev main_v58 : Ref sig .tc := ⟨.hbm, 117, rfl⟩
abbrev main_v59 : Ref sig .tc := ⟨.hbm, 118, rfl⟩
abbrev main_c_7 : Ref sig .tc := ⟨.hbm, 119, rfl⟩
abbrev main_call4_cst : Ref sig .tc := ⟨.hbm, 120, rfl⟩
abbrev main_call4_v0 : Ref sig .tc := ⟨.hbm, 121, rfl⟩
abbrev main_call4_v1 : Ref sig .tc := ⟨.hbm, 122, rfl⟩
abbrev main_call4_cst_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_v7 : Ref sig .tc := ⟨.hbm, 129, rfl⟩
abbrev main_call4_cst_1 : Ref sig .tc := ⟨.hbm, 130, rfl⟩
abbrev main_call4_v8 : Ref sig .tc := ⟨.hbm, 131, rfl⟩
abbrev main_call4_cst_2 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_cst_3 : Ref sig .tc := ⟨.hbm, 136, rfl⟩
abbrev main_call4_v12 : Ref sig .tc := ⟨.hbm, 137, rfl⟩
abbrev main_call4_cst_4 : Ref sig .tc := ⟨.hbm, 138, rfl⟩
abbrev main_call4_call0_v0 : Ref sig .tc := ⟨.hbm, 139, rfl⟩
abbrev main_call4_call0_v1 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_8 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_call5_cst : Ref sig .tc := ⟨.hbm, 158, rfl⟩
abbrev main_call5_v0 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_c_9 : Ref sig .tc := ⟨.hbm, 163, rfl⟩
abbrev main_v79 : Ref sig .tc := ⟨.hbm, 164, rfl⟩
abbrev main_v80 : Ref sig .tc := ⟨.hbm, 165, rfl⟩
abbrev main_c_10 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_call6_cst : Ref sig .tc := ⟨.hbm, 173, rfl⟩
abbrev main_call6_v0 : Ref sig .tc := ⟨.hbm, 174, rfl⟩
abbrev main_v87 : Ref sig .tc := ⟨.hbm, 175, rfl⟩
abbrev main_cst_11 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_cst_12 : Ref sig .tc := ⟨.hbm, 185, rfl⟩
abbrev main_v96 : Ref sig .tc := ⟨.hbm, 186, rfl⟩
abbrev main_cst_13 : Ref sig .tc := ⟨.hbm, 187, rfl⟩
abbrev main_v97 : Ref sig .tc := ⟨.hbm, 188, rfl⟩
abbrev main_v98 : Ref sig .tc := ⟨.hbm, 189, rfl⟩
abbrev main_c_14 : Ref sig .tc := ⟨.hbm, 190, rfl⟩
abbrev main_call7_cst : Ref sig .tc := ⟨.hbm, 191, rfl⟩
abbrev main_call7_v0 : Ref sig .tc := ⟨.hbm, 192, rfl⟩
abbrev main_call7_v1 : Ref sig .tc := ⟨.hbm, 193, rfl⟩
abbrev main_call7_cst_0 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_v6 : Ref sig .tc := ⟨.hbm, 199, rfl⟩
abbrev main_call7_v7 : Ref sig .tc := ⟨.hbm, 200, rfl⟩
abbrev main_call7_cst_1 : Ref sig .tc := ⟨.hbm, 201, rfl⟩
abbrev main_call7_v8 : Ref sig .tc := ⟨.hbm, 202, rfl⟩
abbrev main_call7_cst_2 : Ref sig .tc := ⟨.hbm, 203, rfl⟩
abbrev main_call7_v9 : Ref sig .tc := ⟨.hbm, 204, rfl⟩
abbrev main_call7_v10 : Ref sig .tc := ⟨.hbm, 205, rfl⟩
abbrev main_call7_v11 : Ref sig .tc := ⟨.hbm, 206, rfl⟩
abbrev main_call7_cst_3 : Ref sig .tc := ⟨.hbm, 207, rfl⟩
abbrev main_call7_v12 : Ref sig .tc := ⟨.hbm, 208, rfl⟩
abbrev main_call7_cst_4 : Ref sig .tc := ⟨.hbm, 209, rfl⟩
abbrev main_call7_call0_v0 : Ref sig .tc := ⟨.hbm, 210, rfl⟩
abbrev main_call7_call0_v1 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_cst_15 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_call8_cst : Ref sig .tc := ⟨.hbm, 229, rfl⟩
abbrev main_call8_v0 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_c_16 : Ref sig .tc := ⟨.hbm, 237, rfl⟩
abbrev main_v121 : Ref sig .tc := ⟨.hbm, 238, rfl⟩
abbrev main_v122 : Ref sig .tc := ⟨.hbm, 239, rfl⟩
abbrev main_c_17 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S129_S1x129_1 : S129.BroadcastsInDim S1x129 (![1] : Fin 1 → Fin S1x129.rank)
  bcast_S1x129_S600000x129_0_1 : S1x129.BroadcastsInDim S600000x129 (![0, 1] : Fin 2 → Fin S600000x129.rank)
  bcast_S_S600000x129 : S_.BroadcastsInDim S600000x129 (![] : Fin 0 → Fin S600000x129.rank)
  bcast_S50000_S50000x1_0 : S50000.BroadcastsInDim S50000x1 (![0] : Fin 1 → Fin S50000x1.rank)
  concatenates_S50000x128_S50000x1_S50000x129_d1 : Shape.Concatenates [S50000x128, S50000x1] S50000x129 1
  bcast_S_S600000 : S_.BroadcastsInDim S600000 (![] : Fin 0 → Fin S600000.rank)
  bcast_S600000_S600000x1_0 : S600000.BroadcastsInDim S600000x1 (![0] : Fin 1 → Fin S600000x1.rank)
  bcast_S_S50000x129 : S_.BroadcastsInDim S50000x129 (![] : Fin 0 → Fin S50000x129.rank)
  bcast_S1x129_S50000x129_0_1 : S1x129.BroadcastsInDim S50000x129 (![0, 1] : Fin 2 → Fin S50000x129.rank)
  reducesTo_S50000x129_S129_d0 : S50000x129.ReducesTo [0] S129
  h_S_ : 0 < S_.numel
  bcast_S_S129 : S_.BroadcastsInDim S129 (![] : Fin 0 → Fin S129.rank)
  bcast_S_S1x129 : S_.BroadcastsInDim S1x129 (![] : Fin 0 → Fin S1x129.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  bcast_S_S5000 : S_.BroadcastsInDim S5000 (![] : Fin 0 → Fin S5000.rank)
  bcast_S5000_S5000x1_0 : S5000.BroadcastsInDim S5000x1 (![0] : Fin 1 → Fin S5000x1.rank)
  dot_S600000x1_S1x129_S600000x129_1_0_0_1_n_n_wf : DotDims.WF S600000x1 S1x129 S600000x129 [1] [0] [0] [1] [] []
  dot_S600000x129_S129x129_S600000x129_1_0_0_1_n_n_wf : DotDims.WF S600000x129 S129x129 S600000x129 [1] [0] [0] [1] [] []
  gather_S50000x129_S600000x1_S600000x129_1_0_n_n_0_1_1129_wf : GatherDims.WF S50000x129 S600000x1 S600000x129 [1] [0] [] [0] [] 1 ![1, 129]
  scatter_S50000x129_S600000x1_S600000x129_1_0_0_1_wf : ScatterDims.WF S50000x129 S600000x1 S600000x129 [1] [0] [0] 1
  dot_S50000x129_S129x129_S50000x129_1_0_0_1_n_n_wf : DotDims.WF S50000x129 S129x129 S50000x129 [1] [0] [0] [1] [] []
  dot_S50000x129_S129x128_S50000x128_1_0_0_1_n_n_wf : DotDims.WF S50000x129 S129x128 S50000x128 [1] [0] [0] [1] [] []
  gather_S50000x128_S5000x1_S5000x128_1_0_n_n_0_1_1128_wf : GatherDims.WF S50000x128 S5000x1 S5000x128 [1] [0] [] [0] [] 1 ![1, 128]

variable [Facts₀]

def dot_S600000x1_S1x129_S600000x129_1_0_0_1_n_n : DotDims S600000x1 S1x129 S600000x129 where
  lhsContracting := [1]
  rhsContracting := [0]
  lhsNonContracting := [0]
  rhsNonContracting := [1]
  lhsBatch := []
  rhsBatch := []
  wf := dot_S600000x1_S1x129_S600000x129_1_0_0_1_n_n_wf
def dot_S600000x129_S129x129_S600000x129_1_0_0_1_n_n : DotDims S600000x129 S129x129 S600000x129 where
  lhsContracting := [1]
  rhsContracting := [0]
  lhsNonContracting := [0]
  rhsNonContracting := [1]
  lhsBatch := []
  rhsBatch := []
  wf := dot_S600000x129_S129x129_S600000x129_1_0_0_1_n_n_wf
def gather_S50000x129_S600000x1_S600000x129_1_0_n_n_0_1_1129 : GatherDims S50000x129 S600000x1 S600000x129 where
  offsetDims := [1]
  collapsedSliceDims := [0]
  operandBatchingDims := []
  startIndicesBatchingDims := []
  startIndexMap := [0]
  indexVectorDim := 1
  sliceSizes := ![1, 129]
  wf := gather_S50000x129_S600000x1_S600000x129_1_0_n_n_0_1_1129_wf
def scatter_S50000x129_S600000x1_S600000x129_1_0_0_1 : ScatterDims S50000x129 S600000x1 S600000x129 where
  updateWindowDims := [1]
  insertedWindowDims := [0]
  scatterDimsToOperandDims := [0]
  indexVectorDim := 1
  wf := scatter_S50000x129_S600000x1_S600000x129_1_0_0_1_wf
def dot_S50000x129_S129x129_S50000x129_1_0_0_1_n_n : DotDims S50000x129 S129x129 S50000x129 where
  lhsContracting := [1]
  rhsContracting := [0]
  lhsNonContracting := [0]
  rhsNonContracting := [1]
  lhsBatch := []
  rhsBatch := []
  wf := dot_S50000x129_S129x129_S50000x129_1_0_0_1_n_n_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def gather_S50000x128_S5000x1_S5000x128_1_0_n_n_0_1_1128 : GatherDims S50000x128 S5000x1 S5000x128 where
  offsetDims := [1]
  collapsedSliceDims := [0]
  operandBatchingDims := []
  startIndicesBatchingDims := []
  startIndexMap := [0]
  indexVectorDim := 1
  sliceSizes := ![1, 128]
  wf := gather_S50000x128_S5000x1_S5000x128_1_0_n_n_0_1_1128_wf

class Facts : Prop extends Facts₀ where

variable [Facts]
-- ==== Proof.Spec.lean ====
/-
  The two graph-network programs as one pure function of the argument arrays.

  Both programs compute, for node features x [50000,128], an indicator column ic [50000], edge attributes ea [600000,1]
  and an edge list (src, dst):
    xc   = [x | ic]                                                  (the indicator appended as column 128)
    e    = relu(ea · l0w + l0b) · l1w + l1b                          (one embedding per edge)
    msg  = relu(xc[src] + e)                                         (one message per edge)
    h    = xc + Σ_{edges into a node} msg                            (sum aggregation)
    z    = h · w1 + b1
    o    = relu(g (z - mean z) rsqrt(var z + ε) + be) · w2 + b2      (batch statistics over the 50000 rows)
  twice, with a batch normalisation and a relu between the two layers, each layer's output added to x, and the rows
  listed in a last index vector returned. The programs differ in how a row is taken by an index (a clamped read
  against a read that is filled where the index is out of range) and in how a vector [n] becomes a row [1,n]
  (a reshape against a broadcast): `net` takes those two as parameters, and everything else is spelt once.
-/
import proofs.«403982_j39848706573800_1_alg».proof.Proof.Gen.ReferenceIdeal

noncomputable section

namespace Cert.Gnn

open Idealize.ShloMosaic Cert.ReferenceIdeal Cert.ReferenceIdeal.Facts₀ Cert.ReferenceIdeal.Facts

variable {F : FTy → Type} [FloatOps F]

/-- The float zero, as a scalar array. -/
def zero0 : FVec F S_ .f32 := constant S_ .f32 0x00000000#32
/-- The number of rows 50000, as a scalar array. -/
def n50k : FVec F S_ .f32 := constant S_ .f32 0x47435000#32
/-- The batch normalisation's ε (the f32 nearest 1e-5), as a scalar array. -/
def eps0 : FVec F S_ .f32 := constant S_ .f32 0x3727C5AC#32
/-- The pattern a variance over no degrees of freedom would answer with. -/
def nan0 : FVec F S_ .f32 := constant S_ .f32 0x7FC00000#32

/-- The first row of the edge list (sources), as a vector. -/
def srcOf (ei : IVec S2x600000 32) : IVec S600000 32 :=
  shapeCast S600000 (extractStridedSlice S1x600000 ![0, 0] ei slices_S2x600000_S1x600000_0_0) shapeCasts_S1x600000_S600000
/-- The second row of the edge list (destinations), as a vector. -/
def dstOf (ei : IVec S2x600000 32) : IVec S600000 32 :=
  shapeCast S600000 (extractStridedSlice S1x600000 ![1, 0] ei slices_S2x600000_S1x600000_1_0) shapeCasts_S1x600000_S600000

/-- The indicator appended to the features as a last column. -/
def xcat (x : FVec F S50000x128 .f32) (ic : FVec F S50000 .f32) : FVec F S50000x129 .f32 :=
  concatenate S50000x129 1 [⟨S50000x128, x⟩, ⟨S50000x1, broadcastInDim S50000x1 ![0] bcast_S50000_S50000x1_0 ic⟩]
    concatenates_S50000x128_S50000x1_S50000x129_d1

def relu600 (a : FVec F S600000x129 .f32) : FVec F S600000x129 .f32 :=
  maximumf a (broadcastInDim S600000x129 ![] bcast_S_S600000x129 zero0)
def relu129 (a : FVec F S50000x129 .f32) : FVec F S50000x129 .f32 :=
  maximumf a (broadcastInDim S50000x129 ![] bcast_S_S50000x129 zero0)
def relu128 (a : FVec F S50000x128 .f32) : FVec F S50000x128 .f32 :=
  maximumf a (broadcastInDim S50000x128 ![] bcast_S_S50000x128 zero0)

/-- A row [1,129] repeated down 600000 rows. -/
def rows600 (r : FVec F S1x129 .f32) : FVec F S600000x129 .f32 :=
  broadcastInDim S600000x129 ![0, 1] bcast_S1x129_S600000x129_0_1 r
/-- A row [1,129] repeated down 50000 rows. -/
def rows129 (r : FVec F S1x129 .f32) : FVec F S50000x129 .f32 :=
  broadcastInDim S50000x129 ![0, 1] bcast_S1x129_S50000x129_0_1 r
/-- A row [1,128] repeated down 50000 rows. -/
def rows128 (r : FVec F S1x128 .f32) : FVec F S50000x128 .f32 :=
  broadcastInDim S50000x128 ![0, 1] bcast_S1x128_S50000x128_0_1 r

/-- A vector [129] as a row [1,129], by broadcasting along the new leading axis. -/
def bRow129 (v : FVec F S129 .f32) : FVec F S1x129 .f32 := broadcastInDim S1x129 ![1] bcast_S129_S1x129_1 v
/-- A vector [128] as a row [1,128], by broadcasting along the new leading axis. -/
def bRow128 (v : FVec F S128 .f32) : FVec F S1x128 .f32 := broadcastInDim S1x128 ![1] bcast_S128_S1x128_1 v

/-- One message per edge: relu(xs + (relu(ea · l0w + l0b) · l1w + l1b)), the two biases given as rows. -/
def msgOf (ea : FVec F S600000x1 .f32) (xs : FVec F S600000x129 .f32) (l0w : FVec F S1x129 .f32) (l0b : FVec F S1x129 .f32)
    (l1w : FVec F S129x129 .f32) (l1b : FVec F S1x129 .f32) : FVec F S600000x129 .f32 :=
  relu600 (addf xs
    (addf (Host.dotGeneral dot_S600000x129_S129x129_S600000x129_1_0_0_1_n_n none
        (relu600 (addf (Host.dotGeneral dot_S600000x1_S1x129_S600000x129_1_0_0_1_n_n none ea l0w) (rows600 l0b))) l1w)
      (rows600 l1b)))

/-- The messages summed at their destination rows, from zero. -/
def aggOf (dst : IVec S600000 32) (msg : FVec F S600000x129 .f32) : FVec F S50000x129 .f32 :=
  Host.scatterAdd scatter_S50000x129_S600000x1_S600000x129_1_0_0_1
    (broadcastInDim S50000x129 ![] bcast_S_S50000x129 zero0)
    (broadcastInDim S600000x1 ![0] bcast_S600000_S600000x1_0 dst) msg

/-- h · w + b, the bias given as a row. -/
def lin1Of (h : FVec F S50000x129 .f32) (w : FVec F S129x129 .f32) (b : FVec F S1x129 .f32) : FVec F S50000x129 .f32 :=
  addf (Host.dotGeneral dot_S50000x129_S129x129_S50000x129_1_0_0_1_n_n none h w) (rows129 b)

/-- The column means of a [50000,129] array. -/
def mean129 (z : FVec F S50000x129 .f32) : FVec F S129 .f32 :=
  Host.divf (Host.reduceAdd z zero0 reducesTo_S50000x129_S129_d0 h_S_) (broadcastInDim S129 ![] bcast_S_S129 n50k)
/-- The column means of a [50000,128] array. -/
def mean128 (z : FVec F S50000x128 .f32) : FVec F S128 .f32 :=
  Host.divf (Host.reduceAdd z zero0 reducesTo_S50000x128_S128_d0 h_S_) (broadcastInDim S128 ![] bcast_S_S128 n50k)

/-- The column variances (no degrees of freedom removed) of a [50000,129] array, as jnp.var spells them. -/
def var129 (z : FVec F S50000x129 .f32) : FVec F S129 .f32 :=
  let dof : FVec F S_ .f32 := subf n50k (sitofp (F := F) .f32 (constantI S_ 32 0#32))
  select (broadcastInDim S129 ![] bcast_S_S129 (cmpf (F := F) .ogt dof zero0))
    (Host.divf
      (Host.reduceAdd
        (mulf (subf z (rows129 (Host.divf (bRow129 (Host.reduceAdd z zero0 reducesTo_S50000x129_S129_d0 h_S_))
                (broadcastInDim S1x129 ![] bcast_S_S1x129 n50k))))
              (subf z (rows129 (Host.divf (bRow129 (Host.reduceAdd z zero0 reducesTo_S50000x129_S129_d0 h_S_))
                (broadcastInDim S1x129 ![] bcast_S_S1x129 n50k)))))
        zero0 reducesTo_S50000x129_S129_d0 h_S_)
      (broadcastInDim S129 ![] bcast_S_S129 dof))
    (broadcastInDim S129 ![] bcast_S_S129 (id nan0))

/-- The column variances of a [50000,128] array, as jnp.var spells them. -/
def var128 (z : FVec F S50000x128 .f32) : FVec F S128 .f32 :=
  let dof : FVec F S_ .f32 := subf n50k (sitofp (F := F) .f32 (constantI S_ 32 0#32))
  select (broadcastInDim S128 ![] bcast_S_S128 (cmpf (F := F) .ogt dof zero0))
    (Host.divf
      (Host.reduceAdd
        (mulf (subf z (rows128 (Host.divf (bRow128 (Host.reduceAdd z zero0 reducesTo_S50000x128_S128_d0 h_S_))
                (broadcastInDim S1x128 ![] bcast_S_S1x128 n50k))))
              (subf z (rows128 (Host.divf (bRow128 (Host.reduceAdd z zero0 reducesTo_S50000x128_S128_d0 h_S_))
                (broadcastInDim S1x128 ![] bcast_S_S1x128 n50k)))))
        zero0 reducesTo_S50000x128_S128_d0 h_S_)
      (broadcastInDim S128 ![] bcast_S_S128 dof))
    (broadcastInDim S128 ![] bcast_S_S128 (id nan0))

/-- relu(g (z - mu) rsqrt(var + ε) + be) · w2 + b2, every per-column vector given as a row. -/
def mm2Of (z : FVec F S50000x129 .f32) (mu var g be : FVec F S1x129 .f32) (w2 : FVec F S129x128 .f32)
    (b2 : FVec F S1x128 .f32) : FVec F S50000x128 .f32 :=
  addf (Host.dotGeneral dot_S50000x129_S129x128_S50000x128_1_0_0_1_n_n none
      (relu129 (addf (mulf (mulf (rows129 g) (subf z (rows129 mu)))
          (rows129 (Host.rsqrt (addf var (broadcastInDim S1x129 ![] bcast_S_S1x129 eps0))))) (rows129 be))) w2)
    (rows128 b2)

/-- The batch normalisation between the layers followed by relu, on [50000,128]. -/
def bn0Of (h : FVec F S50000x128 .f32) (g b : FVec F S128 .f32) : FVec F S50000x128 .f32 :=
  relu128 (addf (mulf (mulf (rows128 (bRow128 g)) (subf h (rows128 (bRow128 (mean128 h)))))
      (rows128 (bRow128 (Host.rsqrt (addf (var128 h) (broadcastInDim S128 ![] bcast_S_S128 eps0))))))
    (rows128 (bRow128 b)))

section Net

variable (take6 : FVec F S50000x129 .f32 → IVec S600000 32 → FVec F S600000x129 .f32)
  (take5 : FVec F S50000x128 .f32 → IVec S5000 32 → FVec F S5000x128 .f32)
  (row129 : FVec F S129 .f32 → FVec F S1x129 .f32) (row128 : FVec F S128 .f32 → FVec F S1x128 .f32)

/-- One layer over the node array xc: messages, aggregation, the two products with the batch statistics between. -/
def layerOf (ea : FVec F S600000x1 .f32) (l0w : FVec F S1x129 .f32) (l0b : FVec F S129 .f32) (l1w : FVec F S129x129 .f32)
    (l1b : FVec F S129 .f32) (src dst : IVec S600000 32) (xc : FVec F S50000x129 .f32) (w1 : FVec F S129x129 .f32)
    (b1 g be : FVec F S129 .f32) (w2 : FVec F S129x128 .f32) (b2 : FVec F S128 .f32) : FVec F S50000x128 .f32 :=
  mm2Of (lin1Of (addf xc (aggOf dst (msgOf ea (take6 xc src) l0w (row129 l0b) l1w (row129 l1b)))) w1 (row129 b1))
    (row129 (mean129 (lin1Of (addf xc (aggOf dst (msgOf ea (take6 xc src) l0w (row129 l0b) l1w (row129 l1b)))) w1 (row129 b1))))
    (row129 (var129 (lin1Of (addf xc (aggOf dst (msgOf ea (take6 xc src) l0w (row129 l0b) l1w (row129 l1b)))) w1 (row129 b1))))
    (row129 g) (row129 be) w2 (row128 b2)

/-- The whole network: two layers, the normalisation between them, the listed rows of the result. -/
def net (x : FVec F S50000x128 .f32) (ea : FVec F S600000x1 .f32) (ic : FVec F S50000 .f32) (l0w : FVec F S1x129 .f32)
    (l0b : FVec F S129 .f32) (l1w : FVec F S129x129 .f32) (l1b : FVec F S129 .f32)
    (aw1 : FVec F S129x129 .f32) (ab1 ag abe : FVec F S129 .f32) (aw2 : FVec F S129x128 .f32) (ab2 : FVec F S128 .f32)
    (bw1 : FVec F S129x129 .f32) (bb1 bg bbe : FVec F S129 .f32) (bw2 : FVec F S129x128 .f32) (bb2 : FVec F S128 .f32)
    (g0 b0 : FVec F S128 .f32) (ei : IVec S2x600000 32) (ci : IVec S5000 32) : FVec F S5000x128 .f32 :=
  take5 (addf (layerOf take6 row129 row128 ea l0w l0b l1w l1b (srcOf ei) (dstOf ei)
      (xcat (bn0Of (addf (layerOf take6 row129 row128 ea l0w l0b l1w l1b (srcOf ei) (dstOf ei) (xcat x ic) aw1 ab1 ag abe aw2 ab2) x) g0 b0) ic)
      bw1 bb1 bg bbe bw2 bb2) x) ci

end Net

/-- A row of the node array per edge, the index wrapped once from below and read clamped. -/
def gather6 (a : FVec F S50000x129 .f32) (i : IVec S600000 32) : FVec F S600000x129 .f32 :=
  Host.gather gather_S50000x129_S600000x1_S600000x129_1_0_n_n_0_1_1129 a
    (broadcastInDim S600000x1 ![0] bcast_S600000_S600000x1_0
      (select (cmpi .slt i (broadcastInDim S600000 ![] bcast_S_S600000 (constantI S_ 32 0#32)))
        (addi i (broadcastInDim S600000 ![] bcast_S_S600000 (constantI S_ 32 50000#32))) i))

/-- The listed rows of the result, the index wrapped once from below and read clamped. -/
def gather5 (a : FVec F S50000x128 .f32) (i : IVec S5000 32) : FVec F S5000x128 .f32 :=
  Host.gather gather_S50000x128_S5000x1_S5000x128_1_0_n_n_0_1_1128 a
    (broadcastInDim S5000x1 ![0] bcast_S5000_S5000x1_0
      (select (cmpi .slt i (broadcastInDim S5000 ![] bcast_S_S5000 (constantI S_ 32 0#32)))
        (addi i (broadcastInDim S5000 ![] bcast_S_S5000 (constantI S_ 32 50000#32))) i))

end Cert.Gnn

end
-- ==== Proof.KSpec.lean ====
/-
  The two ways of the kernel's program that differ from the reference's: a row taken by an index with a fill where
  the (once wrapped) index is out of range, and a vector [n] reshaped to a row [1,n].
-/
import proofs.«403982_j39848706573800_1_alg».proof.Proof.Spec
import proofs.«403982_j39848706573800_1_alg».proof.Proof.Gen.KernelIdeal

noncomputable section

namespace Cert.Gnn

open Idealize.ShloMosaic Cert.KernelIdeal Cert.KernelIdeal.Facts₀ Cert.KernelIdeal.Facts

variable {F : FTy → Type} [FloatOps F]

/-- The index wrapped once from below: i + 50000 where i < 0, else i; as a column. -/
def wrap6 (i : IVec S600000 32) : IVec S600000x1 32 :=
  broadcastInDim S600000x1 ![0] bcast_S600000_S600000x1_0
    (select (cmpi .slt i (broadcastInDim S600000 ![] bcast_S_S600000 (constantI S_ 32 0#32)))
      (addi i (broadcastInDim S600000 ![] bcast_S_S600000 (constantI S_ 32 50000#32))) i)

/-- Per edge: is the wrapped index inside [0, 49999]? -/
def inb6 (i : IVec S600000 32) : IVec S600000 1 :=
  Host.reduce IntOp.andi
    (andi (cmpi .sge (wrap6 i) (broadcastInDim S600000x1 ![] bcast_S_S600000x1 (constantI S_ 32 0#32)))
      (cmpi .sle (wrap6 i) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- A row of the node array per edge, filled with the not-a-number pattern where the wrapped index is out of range. -/
def takeFill6 (a : FVec F S50000x129 .f32) (i : IVec S600000 32) : FVec F S600000x129 .f32 :=
  select (broadcastInDim S600000x129 ![0] bcast_S600000_S600000x129_0 (inb6 i))
    (Host.gather gather_S50000x129_S600000x1_S600000x129_1_0_n_n_0_1_1129 a (wrap6 i))
    (broadcastInDim S600000x129 ![] bcast_S_S600000x129 (constant S_ .f32 0x7FC00000#32))

/-- The index wrapped once from below, as a column, for the 5000 listed rows. -/
def wrap5 (i : IVec S5000 32) : IVec S5000x1 32 :=
  broadcastInDim S5000x1 ![0] bcast_S5000_S5000x1_0
    (select (cmpi .slt i (broadcastInDim S5000 ![] bcast_S_S5000 (constantI S_ 32 0#32)))
      (addi i (broadcastInDim S5000 ![] bcast_S_S5000 (constantI S_ 32 50000#32))) i)

/-- Per listed row: is the wrapped index inside [0, 49999]? -/
def inb5 (i : IVec S5000 32) : IVec S5000 1 :=
  Host.reduce IntOp.andi
    (andi (cmpi .sge (wrap5 i) (broadcastInDim S5000x1 ![] bcast_S_S5000x1 (constantI S_ 32 0#32)))
      (cmpi .sle (wrap5 i) (broadcastInDim S5000x1 ![0, 1] bcast_S1x1_S5000x1_0_1
        (broadcastInDim S1x1 ![1] bcast_S1_S1x1_1 (constantI S1 32 49999#32)))))
    (constantI S_ 1 1#1) reducesTo_S5000x1_S5000_d1 h_S_

/-- The listed rows, filled with the not-a-number pattern where the wrapped index is out of range. -/
def takeFill5 (a : FVec F S50000x128 .f32) (i : IVec S5000 32) : FVec F S5000x128 .f32 :=
  select (broadcastInDim S5000x128 ![0] bcast_S5000_S5000x128_0 (inb5 i))
    (Host.gather gather_S50000x128_S5000x1_S5000x128_1_0_n_n_0_1_1128 a (wrap5 i))
    (broadcastInDim S5000x128 ![] bcast_S_S5000x128 (constant S_ .f32 0x7FC00000#32))

/-- A vector [129] as a row [1,129], by reshaping. -/
def sRow129 (v : FVec F S129 .f32) : FVec F S1x129 .f32 := shapeCast S1x129 v shapeCasts_S129_S1x129
/-- A vector [128] as a row [1,128], by reshaping. -/
def sRow128 (v : FVec F S128 .f32) : FVec F S1x128 .f32 := shapeCast S1x128 v shapeCasts_S128_S1x128

end Cert.Gnn

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«403982_j39848706573800_1_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«403982_j39848706573800_1_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.RegMsg0.lean ====
/-
  Region 0 (one message per edge): what the pipeline leaves in its output array, as one function of its six input arrays.

  The grid has 200 points; point t holds rows 3000 t … 3000 t + 2999 of the edge attributes ea [600000,1] and of the gathered
  node rows xs [600000,129], and the two weights and two biases whole. The body leaves in the output block, at (p, q),
    relu(xs[p,q] + (Σ_k relu(ea[p,0] · l0w[0,k] + l0b[0,k]) · l1w[k,q] + l1b[0,q])),
  the first product written as a column times a row (each repeated to the block's shape), the second as a block product
  into a zero accumulator; the narrowing of the block product's operands is the identity on the ideal values. The
  specification writes the first product as a contraction over ONE position, which is that one product. Read at row
  3000 t + p of the whole arrays the two sides are the same expression, and the 200 blocks of 3000 rows tile the 600000 rows.
-/
import proofs.«403982_j39848706573800_1_alg».proof.Proof.Spec
import proofs.«403982_j39848706573800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx
open scoped BigOperators

/-! ## One block of messages at an index -/

/-- The block product's left operand is read at the output's row, -/
private theorem blockDot_lhs_row (j : S3000x129.Idx) (k : dot_S3000x129_S129x129_S3000x129_1_0_0_1_n_n.contr.Idx) :
    (dot_S3000x129_S129x129_S3000x129_1_0_0_1_n_n.lhsIdx j k 0 : ℕ) = j 0 := by
  simp [DotDims.lhsIdx, dot_S3000x129_S129x129_S3000x129_1_0_0_1_n_n]; rfl
private theorem blockDot_lhs_col (j : S3000x129.Idx) (k : dot_S3000x129_S129x129_S3000x129_1_0_0_1_n_n.contr.Idx) :
    (dot_S3000x129_S129x129_S3000x129_1_0_0_1_n_n.lhsIdx j k 1 : ℕ) = k ⟨0, by decide⟩ := by
  simp [DotDims.lhsIdx, dot_S3000x129_S129x129_S3000x129_1_0_0_1_n_n]; rfl
private theorem blockDot_rhs_row (j : S3000x129.Idx) (k : dot_S3000x129_S129x129_S3000x129_1_0_0_1_n_n.contr.Idx) :
    (dot_S3000x129_S129x129_S3000x129_1_0_0_1_n_n.rhsIdx j k 0 : ℕ) = k ⟨0, by decide⟩ := by
  simp [DotDims.rhsIdx, dot_S3000x129_S129x129_S3000x129_1_0_0_1_n_n]; rfl
private theorem blockDot_rhs_col (j : S3000x129.Idx) (k : dot_S3000x129_S129x129_S3000x129_1_0_0_1_n_n.contr.Idx) :
    (dot_S3000x129_S129x129_S3000x129_1_0_0_1_n_n.rhsIdx j k 1 : ℕ) = j 1 := by
  simp [DotDims.rhsIdx, dot_S3000x129_S129x129_S3000x129_1_0_0_1_n_n]; rfl

/-- A block product into the zero accumulator, at (p, q): the sum over the 129 contracted positions. -/
private theorem blockDot_apply {φ₁ φ₂ : FTy} (a : FVec Ideal S3000x129 φ₁) (b : FVec Ideal S129x129 φ₂) (p : Fin 3000) (q : Fin 129) :
    matmul dot_S3000x129_S129x129_S3000x129_1_0_0_1_n_n none a b (constant (F := Ideal) S3000x129 .f32 0x00000000#32) (ix2 p q)
      = ∑ k : Fin 129, a (ix2 p k) * b (ix2 k q) := by
  refine (Ideal.matmul_constant_zero_apply dot_S3000x129_S129x129_S3000x129_1_0_0_1_n_n none a b (ix2 p q)).trans ?_
  rw [← Equiv.sum_comp (contrEquiv1 dot_S3000x129_S129x129_S3000x129_1_0_0_1_n_n 129 rfl rfl).symm]
  refine Finset.sum_congr rfl fun k _ => ?_
  congr 2
  · apply Shape.idx_ext₂
    · rw [blockDot_lhs_row]
    · exact (blockDot_lhs_col _ _).trans (contrEquiv1_symm_val dot_S3000x129_S129x129_S3000x129_1_0_0_1_n_n 129 rfl rfl k)
  · apply Shape.idx_ext₂
    · exact (blockDot_rhs_row _ _).trans (contrEquiv1_symm_val dot_S3000x129_S129x129_S3000x129_1_0_0_1_n_n 129 rfl rfl k)
    · rw [blockDot_rhs_col]

/-- A column [3000,1] repeated along 129 columns reads, at (p, q), the column's row p. -/
private theorem colSplat_apply {α : Type} (v : S3000x1.Idx → α) (h : S3000x1.Broadcasts S3000x129) (p : Fin 3000) (q : Fin 129) :
    broadcastTo S3000x129 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The float zero both programs clamp at. -/
private abbrev fzero : Ideal .f32 := Ideal.ofBits .f32 0x00000000#32

/-- One block of messages at (p, q): relu(xs + (Σ_k relu(ea·lw + lb)[p,k] · mw[k,q] + mb[q])), every format change the identity. -/
private theorem msg_payload_apply (ea : Vec Ideal S3000x1 .f32) (lw lb : Vec Ideal S1x129 .f32) (mw : Vec Ideal S129x129 .f32)
    (mb : Vec Ideal S1x129 .f32) (xs : Vec Ideal S3000x129 .f32) (p : Fin 3000) (q : Fin 129) :
    k0_pay1 ea lw lb mw mb xs (ix2 p q)
      = max (xs (ix2 p q) + ((∑ k : Fin 129, max (ea (ix2 p (0 : Fin 1)) * lw (ix2 (0 : Fin 1) k) + lb (ix2 (0 : Fin 1) k)) fzero * mw (ix2 k q))
          + mb (ix2 (0 : Fin 1) q))) fzero := by
  unfold k0_pay1
  simp only [shapeCast_self, maximumf_apply, addf_apply, mulf_apply, blockDot_apply, truncf_apply, broadcast_apply,
    broadcastTo_1b_ab_apply, colSplat_apply]
  rfl

/-! ## The specification at an index -/

/-- The edge product's left operand is read at the output's row and the contracted position, its right operand at the
    contracted position and the output's column. -/
private theorem edgeDot_lhs_row (j : S600000x129.Idx) (k : Cert.ReferenceIdeal.dot_S600000x129_S129x129_S600000x129_1_0_0_1_n_n.contr.Idx) :
    (Cert.ReferenceIdeal.dot_S600000x129_S129x129_S600000x129_1_0_0_1_n_n.lhsIdx j k 0 : ℕ) = j 0 := by
  simp [DotDims.lhsIdx, Cert.ReferenceIdeal.dot_S600000x129_S129x129_S600000x129_1_0_0_1_n_n]; rfl
private theorem edgeDot_lhs_col (j : S600000x129.Idx) (k : Cert.ReferenceIdeal.dot_S600000x129_S129x129_S600000x129_1_0_0_1_n_n.contr.Idx) :
    (Cert.ReferenceIdeal.dot_S600000x129_S129x129_S600000x129_1_0_0_1_n_n.lhsIdx j k 1 : ℕ) = k ⟨0, by decide⟩ := by
  simp [DotDims.lhsIdx, Cert.ReferenceIdeal.dot_S600000x129_S129x129_S600000x129_1_0_0_1_n_n]; rfl
private theorem edgeDot_rhs_row (j : S600000x129.Idx) (k : Cert.ReferenceIdeal.dot_S600000x129_S129x129_S600000x129_1_0_0_1_n_n.contr.Idx) :
    (Cert.ReferenceIdeal.dot_S600000x129_S129x129_S600000x129_1_0_0_1_n_n.rhsIdx j k 0 : ℕ) = k ⟨0, by decide⟩ := by
  simp [DotDims.rhsIdx, Cert.ReferenceIdeal.dot_S600000x129_S129x129_S600000x129_1_0_0_1_n_n]; rfl
private theorem edgeDot_rhs_col (j : S600000x129.Idx) (k : Cert.ReferenceIdeal.dot_S600000x129_S129x129_S600000x129_1_0_0_1_n_n.contr.Idx) :
    (Cert.ReferenceIdeal.dot_S600000x129_S129x129_S600000x129_1_0_0_1_n_n.rhsIdx j k 1 : ℕ) = j 1 := by
  simp [DotDims.rhsIdx, Cert.ReferenceIdeal.dot_S600000x129_S129x129_S600000x129_1_0_0_1_n_n]; rfl

/-- The product over all edges at (r, q): the sum over the 129 contracted positions. -/
private theorem edgeDot_apply {φ₁ φ₂ : FTy} (a : FVec Ideal S600000x129 φ₁) (b : FVec Ideal S129x129 φ₂) (r : Fin 600000) (q : Fin 129) :
    Host.dotGeneral Cert.ReferenceIdeal.dot_S600000x129_S129x129_S600000x129_1_0_0_1_n_n none a b (ix2 r q)
      = ∑ k : Fin 129, a (ix2 r k) * b (ix2 k q) := by
  refine (Ideal.dotGeneral_apply Cert.ReferenceIdeal.dot_S600000x129_S129x129_S600000x129_1_0_0_1_n_n none .single a b (ix2 r q)).trans ?_
  rw [← Equiv.sum_comp (contrEquiv1 Cert.ReferenceIdeal.dot_S600000x129_S129x129_S600000x129_1_0_0_1_n_n 129 rfl rfl).symm]
  refine Finset.sum_congr rfl fun k _ => ?_
  congr 2
  · apply Shape.idx_ext₂
    · rw [edgeDot_lhs_row]
    · exact (edgeDot_lhs_col _ _).trans (contrEquiv1_symm_val Cert.ReferenceIdeal.dot_S600000x129_S129x129_S600000x129_1_0_0_1_n_n 129 rfl rfl k)
  · apply Shape.idx_ext₂
    · exact (edgeDot_rhs_row _ _).trans (contrEquiv1_symm_val Cert.ReferenceIdeal.dot_S600000x129_S129x129_S600000x129_1_0_0_1_n_n 129 rfl rfl k)
    · rw [edgeDot_rhs_col]

/-- The product of the attribute column with the weight row contracts ONE position. -/
private theorem scaleDot_lhs_row (j : S600000x129.Idx) (k : Cert.ReferenceIdeal.dot_S600000x1_S1x129_S600000x129_1_0_0_1_n_n.contr.Idx) :
    (Cert.ReferenceIdeal.dot_S600000x1_S1x129_S600000x129_1_0_0_1_n_n.lhsIdx j k 0 : ℕ) = j 0 := by
  simp [DotDims.lhsIdx, Cert.ReferenceIdeal.dot_S600000x1_S1x129_S600000x129_1_0_0_1_n_n]; rfl
private theorem scaleDot_lhs_col (j : S600000x129.Idx) (k : Cert.ReferenceIdeal.dot_S600000x1_S1x129_S600000x129_1_0_0_1_n_n.contr.Idx) :
    (Cert.ReferenceIdeal.dot_S600000x1_S1x129_S600000x129_1_0_0_1_n_n.lhsIdx j k 1 : ℕ) = k ⟨0, by decide⟩ :=
  DotDims.lhsIdx_val_of_single _ (cl := 1) rfl j k
private theorem scaleDot_rhs_row (j : S600000x129.Idx) (k : Cert.ReferenceIdeal.dot_S600000x1_S1x129_S600000x129_1_0_0_1_n_n.contr.Idx) :
    (Cert.ReferenceIdeal.dot_S600000x1_S1x129_S600000x129_1_0_0_1_n_n.rhsIdx j k 0 : ℕ) = k ⟨0, by decide⟩ :=
  DotDims.rhsIdx_val_of_single _ (cr := 0) rfl j k
private theorem scaleDot_rhs_col (j : S600000x129.Idx) (k : Cert.ReferenceIdeal.dot_S600000x1_S1x129_S600000x129_1_0_0_1_n_n.contr.Idx) :
    (Cert.ReferenceIdeal.dot_S600000x1_S1x129_S600000x129_1_0_0_1_n_n.rhsIdx j k 1 : ℕ) = j 1 := by
  simp [DotDims.rhsIdx, Cert.ReferenceIdeal.dot_S600000x1_S1x129_S600000x129_1_0_0_1_n_n]; rfl

/-- So at (r, q) it is the one product ea[r,0] · lw[0,q]. -/
private theorem scaleDot_apply {φ₁ φ₂ : FTy} (a : FVec Ideal S600000x1 φ₁) (b : FVec Ideal S1x129 φ₂) (r : Fin 600000) (q : Fin 129) :
    Host.dotGeneral Cert.ReferenceIdeal.dot_S600000x1_S1x129_S600000x129_1_0_0_1_n_n none a b (ix2 r q)
      = a (ix2 r (0 : Fin 1)) * b (ix2 (0 : Fin 1) q) := by
  refine (Ideal.dotGeneral_apply Cert.ReferenceIdeal.dot_S600000x1_S1x129_S600000x129_1_0_0_1_n_n none .single a b (ix2 r q)).trans ?_
  rw [← Equiv.sum_comp (contrEquiv1 Cert.ReferenceIdeal.dot_S600000x1_S1x129_S600000x129_1_0_0_1_n_n 1 rfl rfl).symm, Fin.sum_univ_one]
  congr 2
  · apply Shape.idx_ext₂
    · rw [scaleDot_lhs_row]
    · exact (scaleDot_lhs_col _ _).trans (contrEquiv1_symm_val Cert.ReferenceIdeal.dot_S600000x1_S1x129_S600000x129_1_0_0_1_n_n 1 rfl rfl 0)
  · apply Shape.idx_ext₂
    · exact (scaleDot_rhs_row _ _).trans (contrEquiv1_symm_val Cert.ReferenceIdeal.dot_S600000x1_S1x129_S600000x129_1_0_0_1_n_n 1 rfl rfl 0)
    · rw [scaleDot_rhs_col]

/-- A row repeated down the 600000 rows reads, at (r, q), the row at q. -/
private theorem rows_apply (v : FVec Ideal S1x129 .f32) (r : Fin 600000) (q : Fin 129) :
    Cert.Gnn.rows600 v (ix2 r q) = v (ix2 (0 : Fin 1) q) := by
  unfold Cert.Gnn.rows600
  refine broadcastInDim_apply _ _ v (ix2 r q) (ix2 (0 : Fin 1) q) fun ax => ?_
  match ax with
  | ⟨0, _⟩ => rfl
  | ⟨1, _⟩ => rfl

/-- The clamp at zero, at an index. -/
private theorem relu_apply (a : FVec Ideal S600000x129 .f32) (j : S600000x129.Idx) :
    Cert.Gnn.relu600 a j = max (a j) fzero := by
  unfold Cert.Gnn.relu600 Cert.Gnn.zero0
  rw [maximumf_apply]
  congr 1

/-- The specification at (r, q). -/
private theorem msgOf_apply (ea : FVec Ideal S600000x1 .f32) (xs : FVec Ideal S600000x129 .f32) (lw lb : FVec Ideal S1x129 .f32)
    (mw : FVec Ideal S129x129 .f32) (mb : FVec Ideal S1x129 .f32) (r : Fin 600000) (q : Fin 129) :
    Cert.Gnn.msgOf (F := Ideal) ea xs lw lb mw mb (ix2 r q)
      = max (xs (ix2 r q) + ((∑ k : Fin 129, max (ea (ix2 r (0 : Fin 1)) * lw (ix2 (0 : Fin 1) k) + lb (ix2 (0 : Fin 1) k)) fzero * mw (ix2 k q))
          + mb (ix2 (0 : Fin 1) q))) fzero := by
  unfold Cert.Gnn.msgOf
  simp only [relu_apply, addf_apply, edgeDot_apply, scaleDot_apply, rows_apply]

/-! ## From blocks to the array -/

/-- The zero offsets of a whole-block access. -/
private theorem hz : (![0, 0] : Fin 2 → Nat) = fun _ => 0 := funext fun a => by fin_cases a <;> rfl

/-- The printed index maps, decided over the grid: the edge attributes, the gathered rows and the output move by one
    block of 3000 rows per point; the two weights and the two biases stay at their one block. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Blocks

variable (V : (c : Dev nD) → (b : Ref sig .tc) → Buf (Elt Ideal) ((c : Thread nD τ).loc b))

/-- The attribute block at point t is rows 3000 t … 3000 t + 2999 of the attribute column. -/
private theorem attr_block_apply (c : Dev nD) (t : Fin cfg0.N) (p : Fin 3000) (r : Fin 600000) (hr : r.val = t.val * 3000 + p.val) :
    (iblk0 V c 0 t : Vec Ideal S3000x1 .f32) (ix2 p (0 : Fin 1))
      = (V c main_arg1 : S600000x1.Idx → Ideal .f32) (ix2 r (0 : Fin 1)) := by
  obtain ⟨e0, e1, -⟩ := idx_facts t
  unfold iblk0
  rw [View.read_apply]
  show V c main_arg1 _ = V c main_arg1 _
  congr 1
  funext a; apply Fin.ext
  match a with
  | ⟨0, _⟩ => show win0_0.index t (0 : Fin 2) * 3000 + 1 * p.val = r.val; rw [e0, hr]; omega
  | ⟨1, _⟩ => show win0_0.index t (1 : Fin 2) * 1 + 1 * 0 = 0; rw [e1]

/-- The block of gathered rows at point t is rows 3000 t … 3000 t + 2999 of the gathered array. -/
private theorem rows_block_apply (c : Dev nD) (t : Fin cfg0.N) (p : Fin 3000) (q : Fin 129) (r : Fin 600000) (hr : r.val = t.val * 3000 + p.val) :
    (iblk0 V c 1 t : Vec Ideal S3000x129 .f32) (ix2 p q)
      = (V c main_v8 : S600000x129.Idx → Ideal .f32) (ix2 r q) := by
  obtain ⟨-, -, e0, e1, -⟩ := idx_facts t
  unfold iblk0
  rw [View.read_apply]
  show V c main_v8 _ = V c main_v8 _
  congr 1
  funext a; apply Fin.ext
  match a with
  | ⟨0, _⟩ => show win0_1.index t (0 : Fin 2) * 3000 + 1 * p.val = r.val; rw [e0, hr]; omega
  | ⟨1, _⟩ => show win0_1.index t (1 : Fin 2) * 129 + 1 * q.val = q.val; rw [e1]; omega

/-- The first weight's one block is the whole row, at every point; -/
private theorem lw_block_apply (c : Dev nD) (t : Fin cfg0.N) (a : Fin 1) (k : Fin 129) :
    (iblk0 V c 2 t : Vec Ideal S1x129 .f32) (ix2 a k) = (V c main_arg3 : S1x129.Idx → Ideal .f32) (ix2 a k) := by
  obtain ⟨-, -, -, -, e0, e1, -⟩ := idx_facts t
  unfold iblk0
  rw [View.read_apply]
  show V c main_arg3 _ = V c main_arg3 _
  congr 1
  funext ax; apply Fin.ext
  match ax with
  | ⟨0, _⟩ => show win0_2.index t (0 : Fin 2) * 1 + 1 * a.val = a.val; rw [e0]; omega
  | ⟨1, _⟩ => show win0_2.index t (1 : Fin 2) * 129 + 1 * k.val = k.val; rw [e1]; omega

/-- so is the first bias's, -/
private theorem lb_block_apply (c : Dev nD) (t : Fin cfg0.N) (a : Fin 1) (k : Fin 129) :
    (iblk0 V c 3 t : Vec Ideal S1x129 .f32) (ix2 a k) = (V c main_v4 : S1x129.Idx → Ideal .f32) (ix2 a k) := by
  obtain ⟨-, -, -, -, -, -, e0, e1, -⟩ := idx_facts t
  unfold iblk0
  rw [View.read_apply]
  show V c main_v4 _ = V c main_v4 _
  congr 1
  funext ax; apply Fin.ext
  match ax with
  | ⟨0, _⟩ => show win0_3.index t (0 : Fin 2) * 1 + 1 * a.val = a.val; rw [e0]; omega
  | ⟨1, _⟩ => show win0_3.index t (1 : Fin 2) * 129 + 1 * k.val = k.val; rw [e1]; omega

/-- the second weight's is the whole matrix, -/
private theorem mw_block_apply (c : Dev nD) (t : Fin cfg0.N) (k q : Fin 129) :
    (iblk0 V c 4 t : Vec Ideal S129x129 .f32) (ix2 k q) = (V c main_arg5 : S129x129.Idx → Ideal .f32) (ix2 k q) := by
  obtain ⟨-, -, -, -, -, -, -, -, e0, e1, -⟩ := idx_facts t
  unfold iblk0
  rw [View.read_apply]
  show V c main_arg5 _ = V c main_arg5 _
  congr 1
  funext ax; apply Fin.ext
  match ax with
  | ⟨0, _⟩ => show win0_4.index t (0 : Fin 2) * 129 + 1 * k.val = k.val; rw [e0]; omega
  | ⟨1, _⟩ => show win0_4.index t (1 : Fin 2) * 129 + 1 * q.val = q.val; rw [e1]; omega

/-- and the second bias's the whole row. -/
private theorem mb_block_apply (c : Dev nD) (t : Fin cfg0.N) (a : Fin 1) (k : Fin 129) :
    (iblk0 V c 5 t : Vec Ideal S1x129 .f32) (ix2 a k) = (V c main_v5 : S1x129.Idx → Ideal .f32) (ix2 a k) := by
  obtain ⟨-, -, -, -, -, -, -, -, -, -, e0, e1, -⟩ := idx_facts t
  unfold iblk0
  rw [View.read_apply]
  show V c main_v5 _ = V c main_v5 _
  congr 1
  funext ax; apply Fin.ext
  match ax with
  | ⟨0, _⟩ => show win0_5.index t (0 : Fin 2) * 1 + 1 * a.val = a.val; rw [e0]; omega
  | ⟨1, _⟩ => show win0_5.index t (1 : Fin 2) * 129 + 1 * k.val = k.val; rw [e1]; omega

/-- WHAT POINT t WRITES BACK is block t of the messages computed from the whole arrays: row p of the block is row
    3000 t + p of the arrays, and the weights and biases are read whole. -/
private theorem msg_flushed_eq (c : Dev nD) (t : Fin cfg0.N) :
    (dat0 (F := Ideal) V c).flushed 6 t
      = ((cfg0.win 6).blk t).view.read (Elt Ideal)
          (Cert.Gnn.msgOf (F := Ideal) (V c main_arg1) (V c main_v8) (V c main_arg3) (V c main_v4) (V c main_arg5) (V c main_v5)) := by
  show (cfg0.win 6).cut (grid0.coords t) ((dat0 V c).after 6 t) = _
  rw [after0_6]
  unfold out0_6
  rw [View.canon_unit_zero hz]
  simp only [View.ld_unit_zero (S := S3000x1) hz, View.ld_unit_zero (S := S1x129) hz, View.ld_unit_zero (S := S129x129) hz,
    View.ld_unit_zero (S := S3000x129) hz]
  funext j
  show k0_pay1 (iblk0 V c 0 t) (iblk0 V c 2 t) (iblk0 V c 3 t) (iblk0 V c 4 t) (iblk0 V c 5 t) (iblk0 V c 1 t) j
      = Cert.Gnn.msgOf (F := Ideal) (V c main_arg1) (V c main_v8) (V c main_arg3) (V c main_v4) (V c main_arg5) (V c main_v5)
          (((cfg0.win 6).blk t).view.emb j)
  obtain ⟨p, q, rfl⟩ : ∃ (p : Fin 3000) (q : Fin 129), j = ix2 p q := ⟨j 0, j 1, eq_ix2 j⟩
  have hp : p.val < 3000 := p.isLt
  have ht : t.val < 200 := Nat.lt_of_lt_of_eq t.isLt N_0
  obtain ⟨-, -, -, -, -, -, -, -, -, -, -, -, e0, e1⟩ := idx_facts t
  have hemb : ((cfg0.win 6).blk t).view.emb (ix2 p q) = ix2 (⟨t.val * 3000 + p.val, by omega⟩ : Fin 600000) q := by
    funext a; apply Fin.ext
    match a with
    | ⟨0, _⟩ => show win0_6.index t (0 : Fin 2) * 3000 + 1 * p.val = t.val * 3000 + p.val; rw [e0]; omega
    | ⟨1, _⟩ => show win0_6.index t (1 : Fin 2) * 129 + 1 * q.val = q.val; rw [e1]; omega
  rw [hemb]
  refine (msg_payload_apply (iblk0 V c 0 t) (iblk0 V c 2 t) (iblk0 V c 3 t) (iblk0 V c 4 t) (iblk0 V c 5 t) (iblk0 V c 1 t) p q).trans ?_
  refine Eq.trans ?_ (msgOf_apply (V c main_arg1) (V c main_v8) (V c main_arg3) (V c main_v4) (V c main_arg5) (V c main_v5) ⟨t.val * 3000 + p.val, by omega⟩ q).symm
  rw [rows_block_apply V c t p q ⟨t.val * 3000 + p.val, by omega⟩ rfl, attr_block_apply V c t p ⟨t.val * 3000 + p.val, by omega⟩ rfl,
    mb_block_apply V c t 0 q]
  simp only [lw_block_apply, lb_block_apply, mw_block_apply]

/-- An index of the output array is in point t's block iff each coordinate is in the block's range on its axis. -/
private theorem mem_msg_block (t : Fin cfg0.N) (i : S600000x129.Idx) :
    i ∈ ((cfg0.win 6).blk t).view.set ↔ ∀ a : Fin 2, win0_6.index t a * S3000x129.size a ≤ (i a).val ∧ (i a).val < win0_6.index t a * S3000x129.size a + S3000x129.size a := by
  show i ∈ ((View.whole main_v9).slice (win0_6.rect t)).set ↔ _
  rw [View.set_slice_whole, Rect.mem_set_unit]
  exact Iff.rfl

/-- Row r of the output array is written back by point r / 3000. -/
private theorem msg_cover (i : S600000x129.Idx) :
    ∃ t : Fin cfg0.N, (cfg0.win 6).flush t = true ∧ i ∈ ((cfg0.win 6).blk t).view.set := by
  have hi0 : (i 0).val < 600000 := (i 0).isLt
  have hi1 : (i 1).val < 129 := (i 1).isLt
  have hN : cfg0.N = 200 := N_0
  refine ⟨⟨(i 0).val / 3000, by rw [hN]; omega⟩, flush0_6 _, ?_⟩
  rw [mem_msg_block]
  obtain ⟨-, -, -, -, -, -, -, -, -, -, -, -, e0, e1⟩ := idx_facts ⟨(i 0).val / 3000, by rw [hN]; omega⟩
  intro a
  match a with
  | ⟨0, _⟩ =>
    show win0_6.index _ (0 : Fin 2) * 3000 ≤ (i 0).val ∧ (i 0).val < win0_6.index _ (0 : Fin 2) * 3000 + 3000
    rw [e0]; show (i 0).val / 3000 * 3000 ≤ (i 0).val ∧ (i 0).val < (i 0).val / 3000 * 3000 + 3000; omega
  | ⟨1, _⟩ =>
    show win0_6.index _ (1 : Fin 2) * 129 ≤ (i 1).val ∧ (i 1).val < win0_6.index _ (1 : Fin 2) * 129 + 129
    rw [e1]; omega

end Blocks

/-- After the 200 grid points the output array holds relu(xs + (relu(ea · l0w + l0b) · l1w + l1b)) of the input arrays. -/
theorem region0_value (V : (c : Dev nD) → (b : Ref sig .tc) → Buf (Elt Ideal) ((c : Thread nD τ).loc b)) (c : Dev nD) :
    (dat0 (F := Ideal) V c).arrAt 6 cfg0.N
      = Cert.Gnn.msgOf (F := Ideal) (V c main_arg1) (V c main_v8) (V c main_arg3) (V c main_v4) (V c main_arg5) (V c main_v5) := by
  exact (dat0 (F := Ideal) V c).arrAt_eq_of_cover 6 _ (fun t _ => msg_flushed_eq V c t) msg_cover

end Cert.KernelIdeal.Val

end
-- ==== Proof.RegMm10.lean ====
/-
  Region 1 (h · w1 + b1): what the pipeline leaves in its output array, as one function of its three input arrays.

  The grid has 10 points; point t holds rows 5000 t … 5000 t + 4999 of the features h [50000,129], the whole weights
  w [129,129] and the whole bias row b [1,129], and writes back rows 5000 t … 5000 t + 4999 of the output. At an entry
  (p, q) of its block the body leaves (Σ_k hblk[p,k] · w[k,q]) + b[0,q]: the narrowing of the operands to bf16 is the
  identity on ideal values, the product into the zero accumulator is the sum over the contracted coordinate, and the
  bias row is repeated down the rows. The whole-array function h · w + b read at (r, q) is the same sum over row r of
  h. Row r = 5000 t + p of h is row p of block t, so block t of the output is the restriction of h · w + b to its rows,
  and since every row r lies in the block of point r / 5000, the output array is h · w + b.
-/
import proofs.«403982_j39848706573800_1_alg».proof.Proof.Spec
import proofs.«403982_j39848706573800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx
open scoped BigOperators

/-! ## The block product's operand indices -/

private theorem blkdot_lhs_0 (j : S5000x129.Idx) (k : dot_S5000x129_S129x129_S5000x129_1_0_0_1_n_n.contr.Idx) :
    (dot_S5000x129_S129x129_S5000x129_1_0_0_1_n_n.lhsIdx j k 0 : ℕ) = j 0 := by
  simp [DotDims.lhsIdx, dot_S5000x129_S129x129_S5000x129_1_0_0_1_n_n]; rfl
private theorem blkdot_lhs_1 (j : S5000x129.Idx) (k : dot_S5000x129_S129x129_S5000x129_1_0_0_1_n_n.contr.Idx) :
    (dot_S5000x129_S129x129_S5000x129_1_0_0_1_n_n.lhsIdx j k 1 : ℕ) = k ⟨0, by decide⟩ := by
  simp [DotDims.lhsIdx, dot_S5000x129_S129x129_S5000x129_1_0_0_1_n_n]; rfl
private theorem blkdot_rhs_0 (j : S5000x129.Idx) (k : dot_S5000x129_S129x129_S5000x129_1_0_0_1_n_n.contr.Idx) :
    (dot_S5000x129_S129x129_S5000x129_1_0_0_1_n_n.rhsIdx j k 0 : ℕ) = k ⟨0, by decide⟩ := by
  simp [DotDims.rhsIdx, dot_S5000x129_S129x129_S5000x129_1_0_0_1_n_n]; rfl
private theorem blkdot_rhs_1 (j : S5000x129.Idx) (k : dot_S5000x129_S129x129_S5000x129_1_0_0_1_n_n.contr.Idx) :
    (dot_S5000x129_S129x129_S5000x129_1_0_0_1_n_n.rhsIdx j k 1 : ℕ) = j 1 := by
  simp [DotDims.rhsIdx, dot_S5000x129_S129x129_S5000x129_1_0_0_1_n_n]; rfl

/-- The block product at an entry: the sum over the contracted coordinate. -/
private theorem blkdot_apply (a : FVec Ideal S5000x129 .bf16) (b : FVec Ideal S129x129 .bf16) (p : Fin 5000) (q : Fin 129) :
    matmul dot_S5000x129_S129x129_S5000x129_1_0_0_1_n_n none a b (constant (F := Ideal) S5000x129 .f32 0x00000000#32) (ix2 p q)
      = ∑ k : Fin 129, a (ix2 p k) * b (ix2 k q) := by
  simp only [matmul]
  rw [Ideal.matmul_constant_zero_apply,
    ← Equiv.sum_comp (contrEquiv1 dot_S5000x129_S129x129_S5000x129_1_0_0_1_n_n 129 rfl rfl).symm]
  refine Finset.sum_congr rfl fun k _ => ?_
  congr 2
  · apply Shape.idx_ext₂
    · rw [blkdot_lhs_0]
    · rw [blkdot_lhs_1]; exact contrEquiv1_symm_val _ _ _ _ k
  · apply Shape.idx_ext₂
    · rw [blkdot_rhs_0]; exact contrEquiv1_symm_val _ _ _ _ k
    · rw [blkdot_rhs_1]

/-- The body's arithmetic at an entry of the block: the row of the features block against the column of the
    weights, plus the bias row's entry (the narrowing to bf16 is the identity on ideal values). -/
private theorem lin_payload_apply (x0 : FVec Ideal S5000x129 .f32) (x1 : FVec Ideal S129x129 .f32) (x2 : FVec Ideal S1x129 .f32)
    (p : Fin 5000) (q : Fin 129) :
    k1_pay1 (F := Ideal) x0 x1 x2 (ix2 p q) = (∑ k : Fin 129, x0 (ix2 p k) * x1 (ix2 k q)) + x2 (ix2 (0 : Fin 1) q) := by
  unfold k1_pay1
  simp only [shapeCast_self]
  refine (addf_apply _ _ _).trans ?_
  refine congrArg₂ (· + ·) ?_ ?_
  · exact blkdot_apply _ _ p q
  · exact broadcastTo_1b_ab_apply x2 _ p q

/-! ## The whole-array product's operand indices -/

private theorem arrdot_lhs_0 (j : S50000x129.Idx) (k : Cert.ReferenceIdeal.dot_S50000x129_S129x129_S50000x129_1_0_0_1_n_n.contr.Idx) :
    (Cert.ReferenceIdeal.dot_S50000x129_S129x129_S50000x129_1_0_0_1_n_n.lhsIdx j k 0 : ℕ) = j 0 := by
  simp [DotDims.lhsIdx, Cert.ReferenceIdeal.dot_S50000x129_S129x129_S50000x129_1_0_0_1_n_n]; rfl
private theorem arrdot_lhs_1 (j : S50000x129.Idx) (k : Cert.ReferenceIdeal.dot_S50000x129_S129x129_S50000x129_1_0_0_1_n_n.contr.Idx) :
    (Cert.ReferenceIdeal.dot_S50000x129_S129x129_S50000x129_1_0_0_1_n_n.lhsIdx j k 1 : ℕ) = k ⟨0, by decide⟩ := by
  simp [DotDims.lhsIdx, Cert.ReferenceIdeal.dot_S50000x129_S129x129_S50000x129_1_0_0_1_n_n]; rfl
private theorem arrdot_rhs_0 (j : S50000x129.Idx) (k : Cert.ReferenceIdeal.dot_S50000x129_S129x129_S50000x129_1_0_0_1_n_n.contr.Idx) :
    (Cert.ReferenceIdeal.dot_S50000x129_S129x129_S50000x129_1_0_0_1_n_n.rhsIdx j k 0 : ℕ) = k ⟨0, by decide⟩ := by
  simp [DotDims.rhsIdx, Cert.ReferenceIdeal.dot_S50000x129_S129x129_S50000x129_1_0_0_1_n_n]; rfl
private theorem arrdot_rhs_1 (j : S50000x129.Idx) (k : Cert.ReferenceIdeal.dot_S50000x129_S129x129_S50000x129_1_0_0_1_n_n.contr.Idx) :
    (Cert.ReferenceIdeal.dot_S50000x129_S129x129_S50000x129_1_0_0_1_n_n.rhsIdx j k 1 : ℕ) = j 1 := by
  simp [DotDims.rhsIdx, Cert.ReferenceIdeal.dot_S50000x129_S129x129_S50000x129_1_0_0_1_n_n]; rfl

/-- h · w + b at an entry of the whole array. -/
private theorem lin_spec_apply (h : FVec Ideal S50000x129 .f32) (w : FVec Ideal S129x129 .f32) (b : FVec Ideal S1x129 .f32)
    (r : Fin 50000) (q : Fin 129) :
    Cert.Gnn.lin1Of (F := Ideal) h w b (ix2 r q) = (∑ k : Fin 129, h (ix2 r k) * w (ix2 k q)) + b (ix2 (0 : Fin 1) q) := by
  unfold Cert.Gnn.lin1Of Cert.Gnn.rows129
  refine (addf_apply _ _ _).trans ?_
  refine congrArg₂ (· + ·) ?_ ?_
  · simp only [Host.dotGeneral]
    rw [Ideal.dotGeneral_apply,
      ← Equiv.sum_comp (contrEquiv1 Cert.ReferenceIdeal.dot_S50000x129_S129x129_S50000x129_1_0_0_1_n_n 129 rfl rfl).symm]
    refine Finset.sum_congr rfl fun k _ => ?_
    congr 2
    · apply Shape.idx_ext₂
      · rw [arrdot_lhs_0]
      · rw [arrdot_lhs_1]; exact contrEquiv1_symm_val _ _ _ _ k
    · apply Shape.idx_ext₂
      · rw [arrdot_rhs_0]; exact contrEquiv1_symm_val _ _ _ _ k
      · rw [arrdot_rhs_1]
  · refine broadcastInDim_apply _ _ b (ix2 r q) (ix2 (0 : Fin 1) q) fun a => ?_
    match a with
    | ⟨0, _⟩ => rfl
    | ⟨1, _⟩ => rfl

/-! ## The blocks the body reads, as entries of the arrays -/

private theorem hz : (![0, 0] : Fin 2 → Nat) = fun _ => 0 := funext fun a => by fin_cases a <;> rfl

/-- Where the windows' blocks sit: the features and the output move down the rows with the point, the weights
    and the bias row stay. -/
private theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b))

/-- The features block at point t is rows 5000 t … 5000 t + 4999 of the features. -/
private theorem feat_blk_apply (c : Dev nD) (t : Fin cfg1.N) (p : Fin 5000) (k : Fin 129) (r : Fin 50000)
    (hr : r.val = 5000 * t.val + p.val) :
    (iblk1 (F := Ideal) V c 0 t : Vec Ideal S5000x129 .f32) (ix2 p k)
      = (V c main_v13 : S50000x129.Idx → Elt Ideal .f32) (ix2 r k) := by
  obtain ⟨e0, e1, -⟩ := idx_facts t
  unfold iblk1
  rw [View.read_apply]
  show V c main_v13 _ = V c main_v13 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 129 + 1 * k.val = k.val; rw [e1]; omega

/-- The weights block at every point is the whole weights array. -/
private theorem wts_blk_apply (c : Dev nD) (t : Fin cfg1.N) (k q : Fin 129) :
    (iblk1 (F := Ideal) V c 1 t : Vec Ideal S129x129 .f32) (ix2 k q)
      = (V c main_arg7 : S129x129.Idx → Elt Ideal .f32) (ix2 k q) := by
  obtain ⟨-, -, e0, e1, -⟩ := idx_facts t
  unfold iblk1
  rw [View.read_apply]
  show V c main_arg7 _ = V c main_arg7 _
  congr 1
  funext a
  apply Fin.ext
  match a with
  | ⟨0, _⟩ => show win1_1.index t (0 : Fin 2) * 129 + 1 * k.val = k.val; rw [e0]; omega
  | ⟨1, _⟩ => show win1_1.index t (1 : Fin 2) * 129 + 1 * q.val = q.val; rw [e1]; omega

/-- The bias block at every point is the whole bias row. -/
private theorem bias_blk_apply (c : Dev nD) (t : Fin cfg1.N) (z : Fin 1) (q : Fin 129) :
    (iblk1 (F := Ideal) V c 2 t : Vec Ideal S1x129 .f32) (ix2 z q)
      = (V c main_v14 : S1x129.Idx → Elt Ideal .f32) (ix2 z q) := by
  obtain ⟨-, -, -, -, e0, e1, -⟩ := idx_facts t
  unfold iblk1
  rw [View.read_apply]
  show V c main_v14 _ = V c main_v14 _
  congr 1
  funext a
  apply Fin.ext
  match a with
  | ⟨0, _⟩ => show win1_2.index t (0 : Fin 2) * 1 + 1 * z.val = z.val; rw [e0]; omega
  | ⟨1, _⟩ => show win1_2.index t (1 : Fin 2) * 129 + 1 * q.val = q.val; rw [e1]; omega

/-! ## From blocks to the array -/

/-- What point t writes back is block t of h · w + b of the arrays as the region finds them. -/
private theorem lin_flushed (c : Dev nD) (t : Fin cfg1.N) :
    (dat1 (F := Ideal) V c).flushed 3 t
      = ((cfg1.win 3).blk t).view.read (Elt Ideal)
          (Cert.Gnn.lin1Of (F := Ideal) (V c main_v13) (V c main_arg7) (V c main_v14)) := by
  show (cfg1.win 3).cut (grid1.coords t) ((dat1 V c).after 3 t) = _
  rw [after1_3]
  unfold out1_3
  rw [View.canon_unit_zero hz]
  simp only [View.ld_unit_zero (S := S5000x129) hz, View.ld_unit_zero (S := S129x129) hz, View.ld_unit_zero (S := S1x129) hz]
  funext j
  obtain ⟨p, q, rfl⟩ : ∃ (p : Fin 5000) (q : Fin 129), j = ix2 p q := ⟨j 0, j 1, eq_ix2 j⟩
  obtain ⟨-, -, -, -, -, -, e0, e1⟩ := idx_facts t
  have ht : t.val < 10 := by have h : t.val < grid1.N := t.isLt; have hN : grid1.N = 10 := N_1; omega
  have hemb : ((cfg1.win 3).blk t).view.emb (ix2 p q) = ix2 (⟨5000 * t.val + p.val, by omega⟩ : Fin 50000) q := by
    funext a
    apply Fin.ext
    match a with
    | ⟨0, _⟩ => show win1_3.index t (0 : Fin 2) * 5000 + 1 * p.val = 5000 * t.val + p.val; rw [e0]; omega
    | ⟨1, _⟩ => show win1_3.index t (1 : Fin 2) * 129 + 1 * q.val = q.val; rw [e1]; omega
  show k1_pay1 (F := Ideal) (iblk1 V c 0 t) (iblk1 V c 1 t) (iblk1 V c 2 t) (ix2 p q)
    = Cert.Gnn.lin1Of (F := Ideal) (V c main_v13) (V c main_arg7) (V c main_v14) (((cfg1.win 3).blk t).view.emb (ix2 p q))
  refine (lin_payload_apply (iblk1 V c 0 t) (iblk1 V c 1 t) (iblk1 V c 2 t) p q).trans ?_
  refine Eq.trans ?_ (congrArg (Cert.Gnn.lin1Of (F := Ideal) (V c main_v13) (V c main_arg7) (V c main_v14)) hemb).symm
  refine Eq.trans ?_ (lin_spec_apply (V c main_v13) (V c main_arg7) (V c main_v14) ⟨5000 * t.val + p.val, by omega⟩ q).symm
  exact congrArg₂ (· + ·)
    (Finset.sum_congr rfl fun k _ => congrArg₂ (· * ·) (feat_blk_apply V c t p k _ rfl) (wts_blk_apply V c t k q))
    (bias_blk_apply V c t 0 q)

/-- An entry of the output array is in point t's block iff each coordinate is in the block's range. -/
private theorem mem_out_blk (t : Fin cfg1.N) (i : S50000x129.Idx) :
    i ∈ ((cfg1.win 3).blk t).view.set
      ↔ ∀ a : Fin 2, win1_3.index t a * S5000x129.size a ≤ (i a).val ∧ (i a).val < win1_3.index t a * S5000x129.size a + S5000x129.size a := by
  show i ∈ ((View.whole main_v15).slice (win1_3.rect t)).set ↔ _
  rw [View.set_slice_whole, Rect.mem_set_unit]
  exact Iff.rfl

/-- Row r of the output is written back by point r / 5000. -/
private theorem lin_cover (i : S50000x129.Idx) :
    ∃ t : Fin cfg1.N, (cfg1.win 3).flush t = true ∧ i ∈ ((cfg1.win 3).blk t).view.set := by
  have hi0 : (i 0).val < 50000 := (i 0).isLt
  have hi1 : (i 1).val < 129 := (i 1).isLt
  have hN : grid1.N = 10 := N_1
  have ht : (i 0).val / 5000 < cfg1.N := by show (i 0).val / 5000 < grid1.N; omega
  obtain ⟨-, -, -, -, -, -, e0, e1⟩ := idx_facts ⟨(i 0).val / 5000, ht⟩
  refine ⟨⟨(i 0).val / 5000, ht⟩, flush1_3 _, ?_⟩
  rw [mem_out_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 129 ≤ (i 1).val
      ∧ (i 1).val < win1_3.index ⟨(i 0).val / 5000, ht⟩ (1 : Fin 2) * 129 + 129
    rw [e1]; omega

end Blocks

/-- After the 10 grid points the output array holds h · w1 + b1 of the input arrays. -/
theorem region1_value (V : (c : Dev nD) → (b : Ref sig .tc) → Buf (Elt Ideal) ((c : Thread nD τ).loc b)) (c : Dev nD) :
    (dat1 (F := Ideal) V c).arrAt 3 cfg1.N
      = Cert.Gnn.lin1Of (F := Ideal) (V c main_v13) (V c main_arg7) (V c main_v14) := by
  exact (dat1 (F := Ideal) V c).arrAt_eq_of_cover 3
    (Cert.Gnn.lin1Of (F := Ideal) (V c main_v13) (V c main_arg7) (V c main_v14)) (fun t _ => lin_flushed V c t) lin_cover

end Cert.KernelIdeal.Val

end
-- ==== Proof.RegMm20.lean ====
/-
  Region 2 (relu(g (z - mu) rsqrt(var + ε) + be) · w2 + b2): what the pipeline leaves in its output array, as one function of its seven input arrays.
-/
import proofs.«403982_j39848706573800_1_alg».proof.Proof.Spec
import proofs.«403982_j39848706573800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Idealize.ShloMosaic.Lib.IdealHost

noncomputable section

namespace Cert.KernelIdeal.Val

open Idealize.ShloMosaic Idealize.ShloMosaic.TcCoe Idealize.SL.Sem Cert.KernelIdeal Cert.KernelIdeal.Gen
open Idealize.ShloMosaic.ValueIdx Idealize.ShloMosaic.StackMember
open scoped BigOperators

/-! ## The value at an entry -/

/-- One feature, normalised with its column's mean and variance, scaled, shifted and rectified:
    max (g (z - mu) rsqrt(var + ε) + be) 0, with ε and the zero as the words both programs spell them with. -/
private def bnRelu (g mu var be z : EReal) : EReal :=
  max (g * (z - mu) * Ideal.rsqrt (var + Ideal.ofBits .f32 0x3727C5AC#32) + be) (Ideal.ofBits .f32 0x00000000#32)

/-- Entry (r, q) of relu(g (z - mu) rsqrt(var + ε) + be) · w2 + b2 for an array z of any number of rows: the sum over the
    129 features of the rectified feature times the weight, plus the bias. It depends on row r of z only. -/
private def mmEntry {n : ℕ} (z : (⟨2, ![n, 129]⟩ : Shape).Idx → EReal) (mu var g be : (⟨2, ![1, 129]⟩ : Shape).Idx → EReal)
    (w2 : (⟨2, ![129, 128]⟩ : Shape).Idx → EReal) (b2 : (⟨2, ![1, 128]⟩ : Shape).Idx → EReal) (r : Fin n) (q : Fin 128) : EReal :=
  (∑ k : Fin 129, bnRelu (g (ix2 0 k)) (mu (ix2 0 k)) (var (ix2 0 k)) (be (ix2 0 k)) (z (ix2 r k)) * w2 (ix2 k q)) + b2 (ix2 0 q)

/-! ## The body's arithmetic and the reference function, entry by entry -/

/-- The body's arithmetic at an entry of its block: the product row by column of the normalised, rectified features with the
    weights, plus the bias (the format changes are the identity on extended reals, the accumulator is zero). -/
private theorem mm_payload_apply (x0 : Vec Ideal S5000x129 .f32) (xg xmu xvar xbe : Vec Ideal S1x129 .f32) (xw : Vec Ideal S129x128 .f32)
    (xb : Vec Ideal S1x128 .f32) (p : Fin 5000) (q : Fin 128) :
    k2_pay1 (F := Ideal) x0 xg xmu xvar xbe xw xb (ix2 p q) = mmEntry x0 xmu xvar xg xbe xw xb p q := by
  unfold k2_pay1
  simp only [shapeCast_self]
  refine (addf_apply _ _ _).trans ?_
  unfold mmEntry
  refine congrArg₂ (· + ·) ?_ (broadcastTo_1b_ab_apply _ _ p q)
  rw [matmul_zero_eq_dotGeneral]
  refine (dotGeneral_plain_apply (m := 5000) (n := 128) (k := 129) none _ _ p q).trans ?_
  refine Finset.sum_congr rfl fun k _ => ?_
  simp only [truncf_apply, maximumf_apply, addf_apply, mulf_apply, subf_apply, broadcastTo_1b_ab_apply, broadcast_apply]
  rfl

/-- A row repeated down the 50000 rows reads the row. -/
private theorem rows129_apply (v : FVec Ideal S1x129 .f32) (r : Fin 50000) (k : Fin 129) :
    Cert.Gnn.rows129 v (ix2 r k) = v (ix2 0 k) := broadcastInDim_oneRow_apply _ v r k
/-- A row repeated down the 50000 rows reads the row (128 columns). -/
private theorem rows128_apply (v : FVec Ideal S1x128 .f32) (r : Fin 50000) (q : Fin 128) :
    Cert.Gnn.rows128 v (ix2 r q) = v (ix2 0 q) := broadcastInDim_oneRow_apply _ v r q
/-- The rectifier at an entry. -/
private theorem relu129_apply (a : FVec Ideal S50000x129 .f32) (j : S50000x129.Idx) :
    Cert.Gnn.relu129 a j = max (a j) (Ideal.ofBits .f32 0x00000000#32) :=
  congrArg (max (a j)) (broadcastInDim_scalar_apply _ _ j)

/-- The reference function at an entry. -/
private theorem mm2Of_apply (z : FVec Ideal S50000x129 .f32) (mu var g be : FVec Ideal S1x129 .f32) (w2 : FVec Ideal S129x128 .f32)
    (b2 : FVec Ideal S1x128 .f32) (r : Fin 50000) (q : Fin 128) :
    Cert.Gnn.mm2Of (F := Ideal) z mu var g be w2 b2 (ix2 r q) = mmEntry z mu var g be w2 b2 r q := by
  unfold Cert.Gnn.mm2Of mmEntry
  refine (addf_apply _ _ _).trans ?_
  refine congrArg₂ (· + ·) ?_ (rows128_apply b2 r q)
  refine (dotGeneral_plain_apply (m := 50000) (n := 128) (k := 129) none _ _ r q).trans ?_
  refine Finset.sum_congr rfl fun k _ => ?_
  simp only [relu129_apply, addf_apply, mulf_apply, subf_apply, rows129_apply]
  rfl

/-! ## From blocks to the array -/

variable (V : (c : Dev nD) → (b : Ref sig .tc) → Buf (Elt Ideal) ((c : Thread nD τ).loc b))

private theorem zero_offsets : (![0, 0] : Fin 2 → Nat) = fun _ => 0 := funext fun a => by fin_cases a <;> rfl

/-- What the output array is to hold: the reference function of the seven input arrays as the region finds them. -/
private abbrev mmWhole (c : Dev nD) : FVec Ideal S50000x128 .f32 :=
  Cert.Gnn.mm2Of (F := Ideal) (V c main_v15) (V c main_v19) (V c main_v21) (V c main_v22) (V c main_v23) (V c main_arg11) (V c main_v24)

/-- The index maps over the grid: the feature rows and the output rows move with the point, block t at point t; the
    statistics, the weights and the bias are whole arrays at every point. -/
private theorem mm_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The feature block at point t is rows 5000 t … 5000 t + 4999 of the feature array. -/
private theorem mm_iblk_z_apply (c : Dev nD) (t : Fin cfg2.N) (x : S5000x129.Idx) (k : S50000x129.Idx)
    (hk0 : (k 0).val = t.val * 5000 + (x 0).val) (hk1 : (k 1).val = (x 1).val) :
    (iblk2 V c 0 t : Vec Ideal S5000x129 .f32) x = (V c main_v15 : S50000x129.Idx → EReal) k := by
  obtain ⟨e0, e1, -⟩ := mm_idx_facts t
  unfold iblk2
  rw [View.read_apply]
  show V c main_v15 _ = V c main_v15 _
  congr 1
  funext a
  apply Fin.ext
  match a with
  | ⟨0, _⟩ => show win2_0.index t 0 * 5000 + 1 * (x 0).val = (k 0).val; rw [e0, hk0]; omega
  | ⟨1, _⟩ => show win2_0.index t 1 * 129 + 1 * (x 1).val = (k 1).val; rw [e1, hk1]; omega

/-- The mean row's window holds the whole row at every point. -/
private theorem mm_iblk_mu (c : Dev nD) (t : Fin cfg2.N) : (iblk2 V c 1 t : Vec Ideal S1x129 .f32) = V c main_v19 := by
  obtain ⟨-, -, e0, e1, -⟩ := mm_idx_facts t
  funext j
  unfold iblk2
  rw [View.read_apply]
  show V c main_v19 _ = V c main_v19 _
  congr 1
  funext a
  apply Fin.ext
  match a with
  | ⟨0, _⟩ => show win2_1.index t 0 * 1 + 1 * (j 0).val = (j 0).val; rw [e0]; omega
  | ⟨1, _⟩ => show win2_1.index t 1 * 129 + 1 * (j 1).val = (j 1).val; rw [e1]; omega

/-- The variance row's window holds the whole row at every point. -/
private theorem mm_iblk_var (c : Dev nD) (t : Fin cfg2.N) : (iblk2 V c 2 t : Vec Ideal S1x129 .f32) = V c main_v21 := by
  obtain ⟨-, -, -, -, e0, e1, -⟩ := mm_idx_facts t
  funext j
  unfold iblk2
  rw [View.read_apply]
  show V c main_v21 _ = V c main_v21 _
  congr 1
  funext a
  apply Fin.ext
  match a with
  | ⟨0, _⟩ => show win2_2.index t 0 * 1 + 1 * (j 0).val = (j 0).val; rw [e0]; omega
  | ⟨1, _⟩ => show win2_2.index t 1 * 129 + 1 * (j 1).val = (j 1).val; rw [e1]; omega

/-- The scale row's window holds the whole row at every point. -/
private theorem mm_iblk_g (c : Dev nD) (t : Fin cfg2.N) : (iblk2 V c 3 t : Vec Ideal S1x129 .f32) = V c main_v22 := by
  obtain ⟨-, -, -, -, -, -, e0, e1, -⟩ := mm_idx_facts t
  funext j
  unfold iblk2
  rw [View.read_apply]
  show V c main_v22 _ = V c main_v22 _
  congr 1
  funext a
  apply Fin.ext
  match a with
  | ⟨0, _⟩ => show win2_3.index t 0 * 1 + 1 * (j 0).val = (j 0).val; rw [e0]; omega
  | ⟨1, _⟩ => show win2_3.index t 1 * 129 + 1 * (j 1).val = (j 1).val; rw [e1]; omega

/-- The shift row's window holds the whole row at every point. -/
private theorem mm_iblk_be (c : Dev nD) (t : Fin cfg2.N) : (iblk2 V c 4 t : Vec Ideal S1x129 .f32) = V c main_v23 := by
  obtain ⟨-, -, -, -, -, -, -, -, e0, e1, -⟩ := mm_idx_facts t
  funext j
  unfold iblk2
  rw [View.read_apply]
  show V c main_v23 _ = V c main_v23 _
  congr 1
  funext a
  apply Fin.ext
  match a with
  | ⟨0, _⟩ => show win2_4.index t 0 * 1 + 1 * (j 0).val = (j 0).val; rw [e0]; omega
  | ⟨1, _⟩ => show win2_4.index t 1 * 129 + 1 * (j 1).val = (j 1).val; rw [e1]; omega

/-- The weights' window holds the whole matrix at every point. -/
private theorem mm_iblk_w (c : Dev nD) (t : Fin cfg2.N) : (iblk2 V c 5 t : Vec Ideal S129x128 .f32) = V c main_arg11 := by
  obtain ⟨-, -, -, -, -, -, -, -, -, -, e0, e1, -⟩ := mm_idx_facts t
  funext j
  unfold iblk2
  rw [View.read_apply]
  show V c main_arg11 _ = V c main_arg11 _
  congr 1
  funext a
  apply Fin.ext
  match a with
  | ⟨0, _⟩ => show win2_5.index t 0 * 129 + 1 * (j 0).val = (j 0).val; rw [e0]; omega
  | ⟨1, _⟩ => show win2_5.index t 1 * 128 + 1 * (j 1).val = (j 1).val; rw [e1]; omega

/-- The bias row's window holds the whole row at every point. -/
private theorem mm_iblk_b (c : Dev nD) (t : Fin cfg2.N) : (iblk2 V c 6 t : Vec Ideal S1x128 .f32) = V c main_v24 := by
  obtain ⟨-, -, -, -, -, -, -, -, -, -, -, -, e0, e1, -⟩ := mm_idx_facts t
  funext j
  unfold iblk2
  rw [View.read_apply]
  show V c main_v24 _ = V c main_v24 _
  congr 1
  funext a
  apply Fin.ext
  match a with
  | ⟨0, _⟩ => show win2_6.index t 0 * 1 + 1 * (j 0).val = (j 0).val; rw [e0]; omega
  | ⟨1, _⟩ => show win2_6.index t 1 * 128 + 1 * (j 1).val = (j 1).val; rw [e1]; omega

/-- WHAT POINT t WRITES BACK is block t of the reference function of the arrays: rows 5000 t … 5000 t + 4999, every column. -/
private theorem mm_flushed_eq (c : Dev nD) (t : Fin cfg2.N) :
    (dat2 (F := Ideal) V c).flushed 7 t = ((cfg2.win 7).blk t).view.read (Elt Ideal) (mmWhole V c) := by
  show (cfg2.win 7).cut (grid2.coords t) ((dat2 V c).after 7 t) = _
  rw [after2_7]
  unfold out2_7
  rw [View.canon_unit_zero zero_offsets]
  simp only [View.ld_unit_zero (S := S5000x129) zero_offsets, View.ld_unit_zero (S := S1x129) zero_offsets,
    View.ld_unit_zero (S := S129x128) zero_offsets, View.ld_unit_zero (S := S1x128) zero_offsets]
  rw [mm_iblk_mu, mm_iblk_var, mm_iblk_g, mm_iblk_be, mm_iblk_w, mm_iblk_b]
  have ht : t.val < 10 := by have h := t.isLt; have hN : cfg2.N = 10 := N_2; omega
  obtain ⟨-, -, -, -, -, -, -, -, -, -, -, -, -, -, e0, e1⟩ := mm_idx_facts t
  have key : ∀ (p : Fin 5000) (q : Fin 128),
      k2_pay1 (F := Ideal) (iblk2 V c 0 t) (V c main_v22) (V c main_v19) (V c main_v21) (V c main_v23) (V c main_arg11) (V c main_v24) (ix2 p q)
        = mmWhole V c (ix2 (⟨t.val * 5000 + p.val, by have := p.isLt; omega⟩ : Fin 50000) q) := by
    intro p q
    refine (mm_payload_apply _ _ _ _ _ _ _ p q).trans ((mm2Of_apply _ _ _ _ _ _ _ _ q).trans ?_).symm
    unfold mmEntry
    refine congrArg (· + _) (Finset.sum_congr rfl fun k _ => ?_)
    rw [mm_iblk_z_apply V c t (ix2 p k) (ix2 (⟨t.val * 5000 + p.val, by have := p.isLt; omega⟩ : Fin 50000) k) rfl rfl]
  have blk : ∀ j : S5000x128.Idx,
      k2_pay1 (F := Ideal) (iblk2 V c 0 t) (V c main_v22) (V c main_v19) (V c main_v21) (V c main_v23) (V c main_arg11) (V c main_v24) j
        = mmWhole V c (((cfg2.win 7).blk t).view.emb j) := by
    intro j
    obtain ⟨p, q, rfl⟩ : ∃ (p : Fin 5000) (q : Fin 128), j = ix2 p q := ⟨j 0, j 1, eq_ix2 j⟩
    refine (key p q).trans (congrArg (mmWhole V c) ?_)
    funext a
    apply Fin.ext
    match a with
    | ⟨0, _⟩ => show t.val * 5000 + p.val = win2_7.index t 0 * 5000 + 1 * p.val; rw [e0]; omega
    | ⟨1, _⟩ => show q.val = win2_7.index t 1 * 128 + 1 * q.val; rw [e1]; omega
  funext j
  exact blk j

/-- An index of the array is in point t's block iff each coordinate is in the block's range on its axis. -/
private theorem mm_mem_blk (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v25).slice (win2_7.rect t)).set ↔ _
  rw [View.set_slice_whole, Rect.mem_set_unit]
  exact Iff.rfl

/-- Every entry of the array is written back: row r is in the block of point r / 5000. -/
private theorem mm_cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, -, -, -, -, -, -, e0, e1⟩ := mm_idx_facts ⟨(i 0).val / 5000, hlt⟩
  refine ⟨⟨(i 0).val / 5000, hlt⟩, flush2_7 _, ?_⟩
  rw [mm_mem_blk]
  intro a
  match a with
  | ⟨0, _⟩ =>
    show win2_7.index ⟨(i 0).val / 5000, hlt⟩ 0 * 5000 ≤ (i 0).val ∧ (i 0).val < win2_7.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win2_7.index ⟨(i 0).val / 5000, hlt⟩ 1 * 128 ≤ (i 1).val ∧ (i 1).val < win2_7.index ⟨(i 0).val / 5000, hlt⟩ 1 * 128 + 128
    rw [e1]
    omega

/-- After the 10 grid points the output array holds relu(g (z - mu) rsqrt(var + ε) + be) · w2 + b2 of the input arrays. -/
theorem region2_value (V : (c : Dev nD) → (b : Ref sig .tc) → Buf (Elt Ideal) ((c : Thread nD τ).loc b)) (c : Dev nD) :
    (dat2 (F := Ideal) V c).arrAt 7 cfg2.N
      = Cert.Gnn.mm2Of (F := Ideal) (V c main_v15) (V c main_v19) (V c main_v21) (V c main_v22) (V c main_v23) (V c main_arg11) (V c main_v24) :=
  (dat2 (F := Ideal) V c).arrAt_eq_of_cover 7 (mmWhole V c) (fun t _ => mm_flushed_eq V c t) mm_cover

end Cert.KernelIdeal.Val

end
-- ==== Proof.KGlueA2.lean ====
/-
  The first layer's batch statistics and second product in the idealized kernel program: from the contents at the
  first product region's exit to the contents at the second product region's exit.
-/
import proofs.«403982_j39848706573800_1_alg».proof.Proof.Spec
import proofs.«403982_j39848706573800_1_alg».proof.Proof.KSpec
import proofs.«403982_j39848706573800_1_alg».proof.Proof.LibSsaT
import proofs.«403982_j39848706573800_1_alg».proof.Proof.RegMm20
import proofs.«403982_j39848706573800_1_alg».proof.Proof.Gen.KernelIdeal.Frame
import Idealize.ShloMosaic.PureOps.Ideal

noncomputable section

namespace Cert.KernelIdeal.Val

open Idealize.ShloMosaic Idealize.ShloMosaic.TcCoe Idealize.SL.Sem Cert.KernelIdeal Cert.KernelIdeal.Gen

section Lists

open Idealize.ShloMosaic.StableHlo Cert.Gnn Cert.LibStretch Cert.LibSsa

variable {F : FTy → Type} [FloatOps F]

/-! ## The column means, as a row -/

/-- The first list leaves the column means of z, reshaped to a row. -/
private theorem first_means (W : Valuation τ sig (Elt F)) :
    after hostOps2 W (Proc.devRef .tc main_v19) = sRow129 (mean129 (W (Proc.devRef .tc main_v15))) := by
  after_results_simp; rfl
/-- It also leaves the integer zero that the variance's degrees-of-freedom correction is read from. -/
private theorem first_ddof (W : Valuation τ sig (Elt F)) :
    after hostOps2 W (Proc.devRef .tc main_c) = constantI S_ 32 0#32 := by
  after_results_simp
/-- The first list writes no other buffer. -/
private theorem first_means_keep (W : Valuation τ sig (Elt F)) (r : Ref sig .tc)
    (hr : r ∉ [main_cst_0, main_v16, main_cst_1, main_v17, main_v18, main_v19, main_c]) :
    after hostOps2 W (Proc.devRef .tc r) = W (Proc.devRef .tc r) :=
  keeps (ys := [main_cst_0, main_v16, main_cst_1, main_v17, main_v18, main_v19, main_c]) (by writes_are) W r hr

/-! ## The column variances -/

/-- The second list leaves the column variances of z, when the correction it reads is the integer zero. -/
private theorem first_vars (W : Valuation τ sig (Elt F)) (hc : W (Proc.devRef .tc main_c) = constantI S_ 32 0#32) :
    after hostOps2_1 W (Proc.devRef .tc main_v20) = var129 (W (Proc.devRef .tc main_v15)) := by
  after_results_simp
  rw [hc]; rfl
/-- The second list writes no other buffer. -/
private theorem first_vars_keep (W : Valuation τ sig (Elt F)) (r : Ref sig .tc)
    (hr : r ∉ [main_call1_cst, main_call1_v0, main_call1_v1, main_call1_cst_0, main_call1_v2, main_call1_v3, main_call1_v4,
    main_call1_v5, main_call1_v6, main_call1_v7, main_call1_cst_1, main_call1_v8, main_call1_cst_2, main_call1_v9, main_call1_v10,
    main_call1_v11, main_call1_cst_3, main_call1_v12, main_call1_cst_4, main_call1_call0_v0, main_call1_call0_v1, main_v20]) :
    after hostOps2_1 W (Proc.devRef .tc r) = W (Proc.devRef .tc r) :=
  keeps (ys := [main_call1_cst, main_call1_v0, main_call1_v1, main_call1_cst_0, main_call1_v2, main_call1_v3, main_call1_v4,
    main_call1_v5, main_call1_v6, main_call1_v7, main_call1_cst_1, main_call1_v8, main_call1_cst_2, main_call1_v9, main_call1_v10,
    main_call1_v11, main_call1_cst_3, main_call1_v12, main_call1_cst_4, main_call1_call0_v0, main_call1_call0_v1, main_v20]) (by writes_are) W r hr

/-! ## The per-column vectors as rows -/

/-- The third list reshapes the variances, the scale, the shift and the bias to rows. -/
private theorem first_row_var (W : Valuation τ sig (Elt F)) :
    after hostOps2_2 W (Proc.devRef .tc main_v21) = sRow129 (W (Proc.devRef .tc main_v20)) := by
  after_results_simp; rfl
private theorem first_row_g (W : Valuation τ sig (Elt F)) :
    after hostOps2_2 W (Proc.devRef .tc main_v22) = sRow129 (W (Proc.devRef .tc main_arg9)) := by
  after_results_simp; rfl
private theorem first_row_be (W : Valuation τ sig (Elt F)) :
    after hostOps2_2 W (Proc.devRef .tc main_v23) = sRow129 (W (Proc.devRef .tc main_arg10)) := by
  after_results_simp; rfl
private theorem first_row_b (W : Valuation τ sig (Elt F)) :
    after hostOps2_2 W (Proc.devRef .tc main_v24) = sRow128 (W (Proc.devRef .tc main_arg12)) := by
  after_results_simp; rfl
/-- The third list writes no other buffer. -/
private theorem first_rows_keep (W : Valuation τ sig (Elt F)) (r : Ref sig .tc)
    (hr : r ∉ [main_v21, main_v22, main_v23, main_v24]) :
    after hostOps2_2 W (Proc.devRef .tc r) = W (Proc.devRef .tc r) :=
  keeps (ys := [main_v21, main_v22, main_v23, main_v24]) (by writes_are) W r hr

end Lists

variable (m : (ℓ : Loc nD τ sig) → Buf (Elt Ideal) ℓ) (ρ : Dev nD → PrngReg) (c : Dev nD)

/-- The first layer's output: the normalise-relu-product region over the first product z, its column means and
    variances, and the scale, shift, weights and bias as rows. -/
theorem first_v25 :
    (W9 (F := Ideal) m ρ c (Proc.devRef .tc main_v25))
      = Cert.Gnn.mm2Of (F := Ideal) (W5 (F := Ideal) m ρ c (Proc.devRef .tc main_v15)) (Cert.Gnn.sRow129 (Cert.Gnn.mean129 (W5 (F := Ideal) m ρ c (Proc.devRef .tc main_v15))))
          (Cert.Gnn.sRow129 (Cert.Gnn.var129 (W5 (F := Ideal) m ρ c (Proc.devRef .tc main_v15)))) (Cert.Gnn.sRow129 (W5 (F := Ideal) m ρ c (Proc.devRef .tc main_arg9)))
          (Cert.Gnn.sRow129 (W5 (F := Ideal) m ρ c (Proc.devRef .tc main_arg10))) (W5 (F := Ideal) m ρ c (Proc.devRef .tc main_arg11)) (Cert.Gnn.sRow128 (W5 (F := Ideal) m ρ c (Proc.devRef .tc main_arg12))) := by
  -- the contents after the first list: the means as a row, the integer zero, the rest kept
  have a15 : W6 (F := Ideal) m ρ c (Proc.devRef .tc main_v15) = W5 (F := Ideal) m ρ c (Proc.devRef .tc main_v15) :=
    first_means_keep (F := Ideal) _ _ (by decide)
  have a19 : W6 (F := Ideal) m ρ c (Proc.devRef .tc main_v19)
      = Cert.Gnn.sRow129 (F := Ideal) (Cert.Gnn.mean129 (F := Ideal) (W5 (F := Ideal) m ρ c (Proc.devRef .tc main_v15))) := first_means (F := Ideal) _
  have ac : W6 (F := Ideal) m ρ c (Proc.devRef .tc main_c) = constantI S_ 32 0#32 := first_ddof (F := Ideal) _
  have a9 : W6 (F := Ideal) m ρ c (Proc.devRef .tc main_arg9) = W5 (F := Ideal) m ρ c (Proc.devRef .tc main_arg9) :=
    first_means_keep (F := Ideal) _ _ (by decide)
  have a10 : W6 (F := Ideal) m ρ c (Proc.devRef .tc main_arg10) = W5 (F := Ideal) m ρ c (Proc.devRef .tc main_arg10) :=
    first_means_keep (F := Ideal) _ _ (by decide)
  have a11 : W6 (F := Ideal) m ρ c (Proc.devRef .tc main_arg11) = W5 (F := Ideal) m ρ c (Proc.devRef .tc main_arg11) :=
    first_means_keep (F := Ideal) _ _ (by decide)
  have a12 : W6 (F := Ideal) m ρ c (Proc.devRef .tc main_arg12) = W5 (F := Ideal) m ρ c (Proc.devRef .tc main_arg12) :=
    first_means_keep (F := Ideal) _ _ (by decide)
  -- the contents after the second list: the variances, the rest kept
  have b20 : W7 (F := Ideal) m ρ c (Proc.devRef .tc main_v20)
      = Cert.Gnn.var129 (F := Ideal) (W5 (F := Ideal) m ρ c (Proc.devRef .tc main_v15)) := (first_vars (F := Ideal) _ ac).trans (congrArg _ a15)
  have b15 : W7 (F := Ideal) m ρ c (Proc.devRef .tc main_v15) = W5 (F := Ideal) m ρ c (Proc.devRef .tc main_v15) :=
    (first_vars_keep (F := Ideal) _ _ (by decide)).trans a15
  have b19 : W7 (F := Ideal) m ρ c (Proc.devRef .tc main_v19)
      = Cert.Gnn.sRow129 (F := Ideal) (Cert.Gnn.mean129 (F := Ideal) (W5 (F := Ideal) m ρ c (Proc.devRef .tc main_v15))) :=
    (first_vars_keep (F := Ideal) _ _ (by decide)).trans a19
  have b9 : W7 (F := Ideal) m ρ c (Proc.devRef .tc main_arg9) = W5 (F := Ideal) m ρ c (Proc.devRef .tc main_arg9) :=
    (first_vars_keep (F := Ideal) _ _ (by decide)).trans a9
  have b10 : W7 (F := Ideal) m ρ c (Proc.devRef .tc main_arg10) = W5 (F := Ideal) m ρ c (Proc.devRef .tc main_arg10) :=
    (first_vars_keep (F := Ideal) _ _ (by decide)).trans a10
  have b11 : W7 (F := Ideal) m ρ c (Proc.devRef .tc main_arg11) = W5 (F := Ideal) m ρ c (Proc.devRef .tc main_arg11) :=
    (first_vars_keep (F := Ideal) _ _ (by decide)).trans a11
  have b12 : W7 (F := Ideal) m ρ c (Proc.devRef .tc main_arg12) = W5 (F := Ideal) m ρ c (Proc.devRef .tc main_arg12) :=
    (first_vars_keep (F := Ideal) _ _ (by decide)).trans a12
  -- the contents after the third list: the region's seven input arrays
  have c15 : W8 (F := Ideal) m ρ c (Proc.devRef .tc main_v15) = W5 (F := Ideal) m ρ c (Proc.devRef .tc main_v15) :=
    (first_rows_keep (F := Ideal) _ _ (by decide)).trans b15
  have c19 : W8 (F := Ideal) m ρ c (Proc.devRef .tc main_v19)
      = Cert.Gnn.sRow129 (F := Ideal) (Cert.Gnn.mean129 (F := Ideal) (W5 (F := Ideal) m ρ c (Proc.devRef .tc main_v15))) :=
    (first_rows_keep (F := Ideal) _ _ (by decide)).trans b19
  have c21 : W8 (F := Ideal) m ρ c (Proc.devRef .tc main_v21)
      = Cert.Gnn.sRow129 (F := Ideal) (Cert.Gnn.var129 (F := Ideal) (W5 (F := Ideal) m ρ c (Proc.devRef .tc main_v15))) :=
    (first_row_var (F := Ideal) _).trans (congrArg _ b20)
  have c22 : W8 (F := Ideal) m ρ c (Proc.devRef .tc main_v22)
      = Cert.Gnn.sRow129 (F := Ideal) (W5 (F := Ideal) m ρ c (Proc.devRef .tc main_arg9)) := (first_row_g (F := Ideal) _).trans (congrArg _ b9)
  have c23 : W8 (F := Ideal) m ρ c (Proc.devRef .tc main_v23)
      = Cert.Gnn.sRow129 (F := Ideal) (W5 (F := Ideal) m ρ c (Proc.devRef .tc main_arg10)) := (first_row_be (F := Ideal) _).trans (congrArg _ b10)
  have c24 : W8 (F := Ideal) m ρ c (Proc.devRef .tc main_v24)
      = Cert.Gnn.sRow128 (F := Ideal) (W5 (F := Ideal) m ρ c (Proc.devRef .tc main_arg12)) := (first_row_b (F := Ideal) _).trans (congrArg _ b12)
  have c11 : W8 (F := Ideal) m ρ c (Proc.devRef .tc main_arg11) = W5 (F := Ideal) m ρ c (Proc.devRef .tc main_arg11) :=
    (first_rows_keep (F := Ideal) _ _ (by decide)).trans b11
  -- the region's output array is the reference function of its seven input arrays
  refine ((W9_arr (F := Ideal) m ρ c 7).trans (region2_value (V8 (F := Ideal) m ρ) c)).trans ?_
  show Cert.Gnn.mm2Of (F := Ideal) (W8 (F := Ideal) m ρ c (Proc.devRef .tc main_v15)) (W8 (F := Ideal) m ρ c (Proc.devRef .tc main_v19))
      (W8 (F := Ideal) m ρ c (Proc.devRef .tc main_v21)) (W8 (F := Ideal) m ρ c (Proc.devRef .tc main_v22))
      (W8 (F := Ideal) m ρ c (Proc.devRef .tc main_v23)) (W8 (F := Ideal) m ρ c (Proc.devRef .tc main_arg11))
      (W8 (F := Ideal) m ρ c (Proc.devRef .tc main_v24)) = _
  rw [c15, c19, c21, c22, c23, c11, c24]

/-- A buffer neither these operations nor the region writes keeps its contents. -/
theorem first_keep (b : Ref sig .tc)
    (hb : b ∈ [main_v1, main_v3, main_v4, main_v5, main_v7, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    W9 (F := Ideal) m ρ c (Proc.devRef .tc b) = W5 (F := Ideal) m ρ c (Proc.devRef .tc b) := by
  -- the weights are one of the region's input arrays: the region leaves an input array as it found it
  have hw : W9 (F := Ideal) m ρ c (Proc.devRef .tc main_arg11) = W8 (F := Ideal) m ρ c (Proc.devRef .tc main_arg11) :=
    (W9_arr (F := Ideal) m ρ c 5).trans
      (((dat2 (V8 (F := Ideal) m ρ) c).arrAt_in 5 rfl _).trans (A_eq2 (V8 (F := Ideal) m ρ) c 5))
  have hall : ∀ b ∈ [main_v1, main_v3, main_v4, main_v5, main_v7, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22],
      (b = main_arg11 ∨ ∀ w : Fin 8, Pipeline.arrRef spec2 w ≠ b) ∧ b ∉ [main_cst_0, main_v16, main_cst_1, main_v17, main_v18, main_v19, main_c]
        ∧ b ∉ [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v20]
        ∧ b ∉ [main_v21, main_v22, main_v23, main_v24] := by decide
  obtain ⟨h9, h6, h7, h8⟩ := hall b hb
  have e9 : W9 (F := Ideal) m ρ c (Proc.devRef .tc b) = W8 (F := Ideal) m ρ c (Proc.devRef .tc b) := by
    rcases h9 with rfl | h9
    · exact hw
    · exact W9_of_ne (F := Ideal) m ρ c b h9
  exact e9.trans ((first_rows_keep (F := Ideal) _ b h8).trans ((first_vars_keep (F := Ideal) _ b h7).trans (first_means_keep (F := Ideal) _ b h6)))

end Cert.KernelIdeal.Val

end
-- ==== Proof.KGlueA3.lean ====
/-
  The host operations between the first layer's last region and the second message region of the idealized kernel
  program: the sum with the features, the batch normalisation and relu, the indicator column appended, the rows taken
  at the edge list's sources.
-/
import proofs.«403982_j39848706573800_1_alg».proof.Proof.Spec
import proofs.«403982_j39848706573800_1_alg».proof.Proof.KSpec
import proofs.«403982_j39848706573800_1_alg».proof.Proof.LibSsaT
import proofs.«403982_j39848706573800_1_alg».proof.Proof.Gen.KernelIdeal.Frame
import Idealize.ShloMosaic.PureOps.Ideal

noncomputable section

namespace Cert.KernelIdeal.Val

open Idealize.ShloMosaic Idealize.ShloMosaic.TcCoe Idealize.SL.Sem Cert.KernelIdeal Cert.KernelIdeal.Gen

/-! ## Each line of operations, from any contents -/

section Lines
variable (W : Valuation τ sig (Elt Ideal))

/-- The first layer's output plus the features. -/
private theorem sum_line_v26 :
    StableHlo.after (hostOps3 (F := Ideal)) W (Proc.devRef .tc main_v26)
      = (addf (W (Proc.devRef .tc main_v25) : FVec Ideal S50000x128 .f32) (W (Proc.devRef .tc main_arg0)) : FVec Ideal S50000x128 .f32) := by
  dsimp only [hostOps3]
  after_results

/-- Its column means. -/
private theorem sum_line_v29 :
    StableHlo.after (hostOps3 (F := Ideal)) W (Proc.devRef .tc main_v29)
      = Cert.Gnn.mean128 (F := Ideal) (addf (W (Proc.devRef .tc main_v25) : FVec Ideal S50000x128 .f32) (W (Proc.devRef .tc main_arg0))) := by
  dsimp only [hostOps3]
  after_results
  rfl

/-- The number of degrees of freedom removed: none. -/
private theorem sum_line_c4 :
    StableHlo.after (hostOps3 (F := Ideal)) W (Proc.devRef .tc main_c_4) = (constantI S_ 32 0#32 : IVec S_ 32) := by
  dsimp only [hostOps3]
  after_results

/-- The column variances of the sum, no degree of freedom removed. -/
private theorem var_line_v30 (hc : W (Proc.devRef .tc main_c_4) = (constantI S_ 32 0#32 : IVec S_ 32)) :
    StableHlo.after (hostOps3_1 (F := Ideal)) W (Proc.devRef .tc main_v30)
      = Cert.Gnn.var128 (F := Ideal) (W (Proc.devRef .tc main_v26)) := by
  dsimp only [hostOps3_1]
  after_results_simp
  dsimp only [StableHlo.TRef.ofBuf, StableHlo.TRef.toBuf, cast_eq]
  rw [hc]
  rfl

/-- The normalisation before the clamp: g (h - mean) rsqrt(var + ε) + b, every per-column vector repeated down the rows. -/
private theorem norm_line_v45 :
    StableHlo.after (hostOps3_2 (F := Ideal)) W (Proc.devRef .tc main_v45)
      = (addf (mulf (mulf (Cert.Gnn.rows128 (Cert.Gnn.bRow128 (F := Ideal) (W (Proc.devRef .tc main_arg19))))
            (subf (W (Proc.devRef .tc main_v26) : FVec Ideal S50000x128 .f32) (Cert.Gnn.rows128 (Cert.Gnn.bRow128 (F := Ideal) (W (Proc.devRef .tc main_v29))))))
          (Cert.Gnn.rows128 (Cert.Gnn.bRow128 (F := Ideal) (Host.rsqrt (addf (W (Proc.devRef .tc main_v30) : FVec Ideal S128 .f32)
            (broadcastInDim S128 ![] bcast_S_S128 (Cert.Gnn.eps0 (F := Ideal))))))))
        (Cert.Gnn.rows128 (Cert.Gnn.bRow128 (F := Ideal) (W (Proc.devRef .tc main_arg20)))) : FVec Ideal S50000x128 .f32) := by
  dsimp only [hostOps3_2]
  after_results_simp
  rfl

/-- The clamp at zero. -/
private theorem relu_line_v46 :
    StableHlo.after (hostOps3_3 (F := Ideal)) W (Proc.devRef .tc main_v46)
      = Cert.Gnn.relu128 (F := Ideal) (W (Proc.devRef .tc main_v45)) := by
  dsimp only [hostOps3_3]
  after_results
  rfl

/-- The indicator appended as a last column. -/
private theorem cat_line_v48 :
    StableHlo.after (hostOps3_4 (F := Ideal)) W (Proc.devRef .tc main_v48)
      = Cert.Gnn.xcat (F := Ideal) (W (Proc.devRef .tc main_v46)) (W (Proc.devRef .tc main_arg2)) := by
  dsimp only [hostOps3_4]
  after_results
  rfl

/-- The rows taken at the sources, with the fill. -/
private theorem take_line_v49 :
    StableHlo.after (hostOps3_5 (F := Ideal)) W (Proc.devRef .tc main_v49)
      = Cert.Gnn.takeFill6 (F := Ideal) (W (Proc.devRef .tc main_v48)) (W (Proc.devRef .tc main_v1)) := by
  dsimp only [hostOps3_5]
  after_results_simp
  dsimp only [StableHlo.TRef.ofBuf, StableHlo.TRef.toBuf, cast_eq]
  rfl

end Lines

/-! ## What each line writes -/

private theorem writes_sum : Cert.LibStretch.WritesAre (hostOps3 (F := Ideal))
    [main_v26, main_cst_2, main_v27, main_cst_3, main_v28, main_v29, main_c_4] := by writes_are
private theorem writes_var : Cert.LibStretch.WritesAre (hostOps3_1 (F := Ideal))
    [main_call2_cst, main_call2_v0, main_call2_v1, main_call2_cst_0, main_call2_v2, main_call2_v3, main_call2_v4, main_call2_v5,
      main_call2_v6, main_call2_v7, main_call2_cst_1, main_call2_v8, main_call2_cst_2, main_call2_v9, main_call2_v10, main_call2_v11,
      main_call2_cst_3, main_call2_v12, main_call2_cst_4, main_call2_call0_v0, main_call2_call0_v1, main_v30] := by writes_are
private theorem writes_norm : Cert.LibStretch.WritesAre (hostOps3_2 (F := Ideal))
    [main_v31, main_v32, main_v33, main_v34, main_v35, main_v36, main_cst_5, main_v37, main_v38, main_v39, main_v40, main_v41,
      main_v42, main_v43, main_v44, main_v45] := by writes_are
private theorem writes_relu : Cert.LibStretch.WritesAre (hostOps3_3 (F := Ideal))
    [main_call3_cst, main_call3_v0, main_v46] := by writes_are
private theorem writes_cat : Cert.LibStretch.WritesAre (hostOps3_4 (F := Ideal)) [main_v47, main_v48] := by writes_are
private theorem writes_take : Cert.LibStretch.WritesAre (hostOps3_5 (F := Ideal))
    [main_call4_c, main_call4_v0, main_call4_v1, main_call4_c_0, main_call4_v2, main_call4_v3, main_call4_v4, main_call4_v5,
      main_call4_c_1, main_call4_c_2, main_call4_v6, main_call4_v7, main_call4_v8, main_call4_v9, main_call4_v10, main_call4_v11,
      main_call4_c_3, main_call4_v12, main_call4_v13, main_call4_v14, main_call4_cst, main_call4_v15, main_v49] := by writes_are

/-- The buffers the stage reads or passes by: the edge list's sources and destinations, the two reshaped biases and the arguments. -/
private abbrev keptRefs : List (Ref sig .tc) :=
  [main_v1, main_v3, main_v4, main_v5, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-! ## The stage, line after line -/

variable (m : (ℓ : Loc nD τ sig) → Buf (Elt Ideal) ℓ) (ρ : Dev nD → PrngReg) (c : Dev nD)

/-- The first layer's output plus the features, as the second layer's first line finds them. -/
private abbrev hsum : FVec Ideal S50000x128 .f32 :=
  addf (W9 (F := Ideal) m ρ c (Proc.devRef .tc main_v25)) (W9 (F := Ideal) m ρ c (Proc.devRef .tc main_arg0))

private theorem mid_v26 : W11 (F := Ideal) m ρ c (Proc.devRef .tc main_v26) = hsum m ρ c :=
  (Cert.LibSsa.keeps writes_var (W10 m ρ c) main_v26 (by decide)).trans (sum_line_v26 (W9 m ρ c))

private theorem mid_v29 : W11 (F := Ideal) m ρ c (Proc.devRef .tc main_v29) = Cert.Gnn.mean128 (F := Ideal) (hsum m ρ c) :=
  (Cert.LibSsa.keeps writes_var (W10 m ρ c) main_v29 (by decide)).trans (sum_line_v29 (W9 m ρ c))

private theorem mid_v30 : W11 (F := Ideal) m ρ c (Proc.devRef .tc main_v30) = Cert.Gnn.var128 (F := Ideal) (hsum m ρ c) :=
  (var_line_v30 (W10 m ρ c) (sum_line_c4 (W9 m ρ c))).trans (congrArg (Cert.Gnn.var128 (F := Ideal)) (sum_line_v26 (W9 m ρ c)))

private theorem mid_arg19 : W11 (F := Ideal) m ρ c (Proc.devRef .tc main_arg19) = W9 (F := Ideal) m ρ c (Proc.devRef .tc main_arg19) :=
  (Cert.LibSsa.keeps writes_var (W10 m ρ c) main_arg19 (by decide)).trans (Cert.LibSsa.keeps writes_sum (W9 m ρ c) main_arg19 (by decide))

private theorem mid_arg20 : W11 (F := Ideal) m ρ c (Proc.devRef .tc main_arg20) = W9 (F := Ideal) m ρ c (Proc.devRef .tc main_arg20) :=
  (Cert.LibSsa.keeps writes_var (W10 m ρ c) main_arg20 (by decide)).trans (Cert.LibSsa.keeps writes_sum (W9 m ρ c) main_arg20 (by decide))

private theorem mid_v46 : W13 (F := Ideal) m ρ c (Proc.devRef .tc main_v46)
    = Cert.Gnn.bn0Of (F := Ideal) (hsum m ρ c) (W9 (F := Ideal) m ρ c (Proc.devRef .tc main_arg19)) (W9 (F := Ideal) m ρ c (Proc.devRef .tc main_arg20)) := by
  refine (relu_line_v46 (W12 m ρ c)).trans ?_
  refine congrArg (Cert.Gnn.relu128 (F := Ideal)) ?_
  refine (norm_line_v45 (W11 m ρ c)).trans ?_
  rw [mid_v26, mid_v29, mid_v30, mid_arg19, mid_arg20]

/-- The second layer's node array: the first layer's output plus the features, normalised over the rows, relu, the
    indicator appended. -/
theorem mid_v48 :
    (W15 (F := Ideal) m ρ c (Proc.devRef .tc main_v48))
      = Cert.Gnn.xcat (F := Ideal) (Cert.Gnn.bn0Of (addf (W9 (F := Ideal) m ρ c (Proc.devRef .tc main_v25)) (W9 (F := Ideal) m ρ c (Proc.devRef .tc main_arg0))) (W9 (F := Ideal) m ρ c (Proc.devRef .tc main_arg19)) (W9 (F := Ideal) m ρ c (Proc.devRef .tc main_arg20))) (W9 (F := Ideal) m ρ c (Proc.devRef .tc main_arg2)) := by
  refine (Cert.LibSsa.keeps writes_take (W14 m ρ c) main_v48 (by decide)).trans ?_
  refine (cat_line_v48 (W13 m ρ c)).trans ?_
  rw [mid_v46]
  refine congrArg (Cert.Gnn.xcat (F := Ideal) _) ?_
  exact (Cert.LibSsa.keeps writes_relu (W12 m ρ c) main_arg2 (by decide)).trans
    ((Cert.LibSsa.keeps writes_norm (W11 m ρ c) main_arg2 (by decide)).trans
      ((Cert.LibSsa.keeps writes_var (W10 m ρ c) main_arg2 (by decide)).trans
        (Cert.LibSsa.keeps writes_sum (W9 m ρ c) main_arg2 (by decide))))

/-- The second layer's rows per edge: the node array read at the sources, with a fill. -/
theorem mid_v49 :
    (W15 (F := Ideal) m ρ c (Proc.devRef .tc main_v49)) = Cert.Gnn.takeFill6 (F := Ideal) (W15 (F := Ideal) m ρ c (Proc.devRef .tc main_v48)) (W9 (F := Ideal) m ρ c (Proc.devRef .tc main_v1)) := by
  refine (take_line_v49 (W14 m ρ c)).trans ?_
  rw [← Cert.LibSsa.keeps writes_take (W14 m ρ c) main_v48 (by decide)]
  refine congrArg (Cert.Gnn.takeFill6 (F := Ideal) _) ?_
  exact (Cert.LibSsa.keeps writes_cat (W13 m ρ c) main_v1 (by decide)).trans
    ((Cert.LibSsa.keeps writes_relu (W12 m ρ c) main_v1 (by decide)).trans
      ((Cert.LibSsa.keeps writes_norm (W11 m ρ c) main_v1 (by decide)).trans
        ((Cert.LibSsa.keeps writes_var (W10 m ρ c) main_v1 (by decide)).trans
          (Cert.LibSsa.keeps writes_sum (W9 m ρ c) main_v1 (by decide)))))

/-- A buffer none of these operations writes keeps its contents. -/
theorem mid_keep (b : Ref sig .tc)
    (hb : b ∈ [main_v1, main_v3, main_v4, main_v5, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    W15 (F := Ideal) m ρ c (Proc.devRef .tc b) = W9 (F := Ideal) m ρ c (Proc.devRef .tc b) := by
  have hk : b ∈ keptRefs := hb
  exact (Cert.LibSsa.keeps writes_take (W14 m ρ c) b ((by decide : ∀ r ∈ keptRefs, r ∉ _) b hk)).trans
    ((Cert.LibSsa.keeps writes_cat (W13 m ρ c) b ((by decide : ∀ r ∈ keptRefs, r ∉ _) b hk)).trans
      ((Cert.LibSsa.keeps writes_relu (W12 m ρ c) b ((by decide : ∀ r ∈ keptRefs, r ∉ _) b hk)).trans
        ((Cert.LibSsa.keeps writes_norm (W11 m ρ c) b ((by decide : ∀ r ∈ keptRefs, r ∉ _) b hk)).trans
          ((Cert.LibSsa.keeps writes_var (W10 m ρ c) b ((by decide : ∀ r ∈ keptRefs, r ∉ _) b hk)).trans
            (Cert.LibSsa.keeps writes_sum (W9 m ρ c) b ((by decide : ∀ r ∈ keptRefs, r ∉ _) b hk))))))

end Cert.KernelIdeal.Val

end
-- ==== Proof.RegMsg3.lean ====
/-
  Region 3 (one message per edge): what the pipeline leaves in its output array, as one function of its six input arrays.

  The grid has 200 points; point t holds rows 3000 t … 3000 t + 2999 of the edge attributes ea [600000,1] and of the gathered
  node rows xs [600000,129], and the two weights and two biases whole. The body leaves in the output block, at (p, q),
    relu(xs[p,q] + (Σ_k relu(ea[p,0] · l0w[0,k] + l0b[0,k]) · l1w[k,q] + l1b[0,q])),
  the first product written as a column times a row (each repeated to the block's shape), the second as a block product
  into a zero accumulator; the narrowing of the block product's operands is the identity on the ideal values. The
  specification writes the first product as a contraction over ONE position, which is that one product. Read at row
  3000 t + p of the whole arrays the two sides are the same expression, and the 200 blocks of 3000 rows tile the 600000 rows.
-/
import proofs.«403982_j39848706573800_1_alg».proof.Proof.Spec
import proofs.«403982_j39848706573800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx
open scoped BigOperators

/-! ## One block of messages at an index -/

/-- The block product's left operand is read at the output's row, -/
private theorem blockDot_lhs_row (j : S3000x129.Idx) (k : dot_S3000x129_S129x129_S3000x129_1_0_0_1_n_n.contr.Idx) :
    (dot_S3000x129_S129x129_S3000x129_1_0_0_1_n_n.lhsIdx j k 0 : ℕ) = j 0 := by
  simp [DotDims.lhsIdx, dot_S3000x129_S129x129_S3000x129_1_0_0_1_n_n]; rfl
private theorem blockDot_lhs_col (j : S3000x129.Idx) (k : dot_S3000x129_S129x129_S3000x129_1_0_0_1_n_n.contr.Idx) :
    (dot_S3000x129_S129x129_S3000x129_1_0_0_1_n_n.lhsIdx j k 1 : ℕ) = k ⟨0, by decide⟩ := by
  simp [DotDims.lhsIdx, dot_S3000x129_S129x129_S3000x129_1_0_0_1_n_n]; rfl
private theorem blockDot_rhs_row (j : S3000x129.Idx) (k : dot_S3000x129_S129x129_S3000x129_1_0_0_1_n_n.contr.Idx) :
    (dot_S3000x129_S129x129_S3000x129_1_0_0_1_n_n.rhsIdx j k 0 : ℕ) = k ⟨0, by decide⟩ := by
  simp [DotDims.rhsIdx, dot_S3000x129_S129x129_S3000x129_1_0_0_1_n_n]; rfl
private theorem blockDot_rhs_col (j : S3000x129.Idx) (k : dot_S3000x129_S129x129_S3000x129_1_0_0_1_n_n.contr.Idx) :
    (dot_S3000x129_S129x129_S3000x129_1_0_0_1_n_n.rhsIdx j k 1 : ℕ) = j 1 := by
  simp [DotDims.rhsIdx, dot_S3000x129_S129x129_S3000x129_1_0_0_1_n_n]; rfl

/-- A block product into the zero accumulator, at (p, q): the sum over the 129 contracted positions. -/
private theorem blockDot_apply {φ₁ φ₂ : FTy} (a : FVec Ideal S3000x129 φ₁) (b : FVec Ideal S129x129 φ₂) (p : Fin 3000) (q : Fin 129) :
    matmul dot_S3000x129_S129x129_S3000x129_1_0_0_1_n_n none a b (constant (F := Ideal) S3000x129 .f32 0x00000000#32) (ix2 p q)
      = ∑ k : Fin 129, a (ix2 p k) * b (ix2 k q) := by
  refine (Ideal.matmul_constant_zero_apply dot_S3000x129_S129x129_S3000x129_1_0_0_1_n_n none a b (ix2 p q)).trans ?_
  rw [← Equiv.sum_comp (contrEquiv1 dot_S3000x129_S129x129_S3000x129_1_0_0_1_n_n 129 rfl rfl).symm]
  refine Finset.sum_congr rfl fun k _ => ?_
  congr 2
  · apply Shape.idx_ext₂
    · rw [blockDot_lhs_row]
    · exact (blockDot_lhs_col _ _).trans (contrEquiv1_symm_val dot_S3000x129_S129x129_S3000x129_1_0_0_1_n_n 129 rfl rfl k)
  · apply Shape.idx_ext₂
    · exact (blockDot_rhs_row _ _).trans (contrEquiv1_symm_val dot_S3000x129_S129x129_S3000x129_1_0_0_1_n_n 129 rfl rfl k)
    · rw [blockDot_rhs_col]

/-- A column [3000,1] repeated along 129 columns reads, at (p, q), the column's row p. -/
private theorem colSplat_apply {α : Type} (v : S3000x1.Idx → α) (h : S3000x1.Broadcasts S3000x129) (p : Fin 3000) (q : Fin 129) :
    broadcastTo S3000x129 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The float zero both programs clamp at. -/
private abbrev fzero : Ideal .f32 := Ideal.ofBits .f32 0x00000000#32

/-- One block of messages at (p, q): relu(xs + (Σ_k relu(ea·lw + lb)[p,k] · mw[k,q] + mb[q])), every format change the identity. -/
private theorem msg_payload_apply (ea : Vec Ideal S3000x1 .f32) (lw lb : Vec Ideal S1x129 .f32) (mw : Vec Ideal S129x129 .f32)
    (mb : Vec Ideal S1x129 .f32) (xs : Vec Ideal S3000x129 .f32) (p : Fin 3000) (q : Fin 129) :
    k3_pay1 ea lw lb mw mb xs (ix2 p q)
      = max (xs (ix2 p q) + ((∑ k : Fin 129, max (ea (ix2 p (0 : Fin 1)) * lw (ix2 (0 : Fin 1) k) + lb (ix2 (0 : Fin 1) k)) fzero * mw (ix2 k q))
          + mb (ix2 (0 : Fin 1) q))) fzero := by
  unfold k3_pay1
  simp only [shapeCast_self, maximumf_apply, addf_apply, mulf_apply, blockDot_apply, truncf_apply, broadcast_apply,
    broadcastTo_1b_ab_apply, colSplat_apply]
  rfl

/-! ## The specification at an index -/

/-- The edge product's left operand is read at the output's row and the contracted position, its right operand at the
    contracted position and the output's column. -/
private theorem edgeDot_lhs_row (j : S600000x129.Idx) (k : Cert.ReferenceIdeal.dot_S600000x129_S129x129_S600000x129_1_0_0_1_n_n.contr.Idx) :
    (Cert.ReferenceIdeal.dot_S600000x129_S129x129_S600000x129_1_0_0_1_n_n.lhsIdx j k 0 : ℕ) = j 0 := by
  simp [DotDims.lhsIdx, Cert.ReferenceIdeal.dot_S600000x129_S129x129_S600000x129_1_0_0_1_n_n]; rfl
private theorem edgeDot_lhs_col (j : S600000x129.Idx) (k : Cert.ReferenceIdeal.dot_S600000x129_S129x129_S600000x129_1_0_0_1_n_n.contr.Idx) :
    (Cert.ReferenceIdeal.dot_S600000x129_S129x129_S600000x129_1_0_0_1_n_n.lhsIdx j k 1 : ℕ) = k ⟨0, by decide⟩ := by
  simp [DotDims.lhsIdx, Cert.ReferenceIdeal.dot_S600000x129_S129x129_S600000x129_1_0_0_1_n_n]; rfl
private theorem edgeDot_rhs_row (j : S600000x129.Idx) (k : Cert.ReferenceIdeal.dot_S600000x129_S129x129_S600000x129_1_0_0_1_n_n.contr.Idx) :
    (Cert.ReferenceIdeal.dot_S600000x129_S129x129_S600000x129_1_0_0_1_n_n.rhsIdx j k 0 : ℕ) = k ⟨0, by decide⟩ := by
  simp [DotDims.rhsIdx, Cert.ReferenceIdeal.dot_S600000x129_S129x129_S600000x129_1_0_0_1_n_n]; rfl
private theorem edgeDot_rhs_col (j : S600000x129.Idx) (k : Cert.ReferenceIdeal.dot_S600000x129_S129x129_S600000x129_1_0_0_1_n_n.contr.Idx) :
    (Cert.ReferenceIdeal.dot_S600000x129_S129x129_S600000x129_1_0_0_1_n_n.rhsIdx j k 1 : ℕ) = j 1 := by
  simp [DotDims.rhsIdx, Cert.ReferenceIdeal.dot_S600000x129_S129x129_S600000x129_1_0_0_1_n_n]; rfl

/-- The product over all edges at (r, q): the sum over the 129 contracted positions. -/
private theorem edgeDot_apply {φ₁ φ₂ : FTy} (a : FVec Ideal S600000x129 φ₁) (b : FVec Ideal S129x129 φ₂) (r : Fin 600000) (q : Fin 129) :
    Host.dotGeneral Cert.ReferenceIdeal.dot_S600000x129_S129x129_S600000x129_1_0_0_1_n_n none a b (ix2 r q)
      = ∑ k : Fin 129, a (ix2 r k) * b (ix2 k q) := by
  refine (Ideal.dotGeneral_apply Cert.ReferenceIdeal.dot_S600000x129_S129x129_S600000x129_1_0_0_1_n_n none .single a b (ix2 r q)).trans ?_
  rw [← Equiv.sum_comp (contrEquiv1 Cert.ReferenceIdeal.dot_S600000x129_S129x129_S600000x129_1_0_0_1_n_n 129 rfl rfl).symm]
  refine Finset.sum_congr rfl fun k _ => ?_
  congr 2
  · apply Shape.idx_ext₂
    · rw [edgeDot_lhs_row]
    · exact (edgeDot_lhs_col _ _).trans (contrEquiv1_symm_val Cert.ReferenceIdeal.dot_S600000x129_S129x129_S600000x129_1_0_0_1_n_n 129 rfl rfl k)
  · apply Shape.idx_ext₂
    · exact (edgeDot_rhs_row _ _).trans (contrEquiv1_symm_val Cert.ReferenceIdeal.dot_S600000x129_S129x129_S600000x129_1_0_0_1_n_n 129 rfl rfl k)
    · rw [edgeDot_rhs_col]

/-- The product of the attribute column with the weight row contracts ONE position. -/
private theorem scaleDot_lhs_row (j : S600000x129.Idx) (k : Cert.ReferenceIdeal.dot_S600000x1_S1x129_S600000x129_1_0_0_1_n_n.contr.Idx) :
    (Cert.ReferenceIdeal.dot_S600000x1_S1x129_S600000x129_1_0_0_1_n_n.lhsIdx j k 0 : ℕ) = j 0 := by
  simp [DotDims.lhsIdx, Cert.ReferenceIdeal.dot_S600000x1_S1x129_S600000x129_1_0_0_1_n_n]; rfl
private theorem scaleDot_lhs_col (j : S600000x129.Idx) (k : Cert.ReferenceIdeal.dot_S600000x1_S1x129_S600000x129_1_0_0_1_n_n.contr.Idx) :
    (Cert.ReferenceIdeal.dot_S600000x1_S1x129_S600000x129_1_0_0_1_n_n.lhsIdx j k 1 : ℕ) = k ⟨0, by decide⟩ :=
  DotDims.lhsIdx_val_of_single _ (cl := 1) rfl j k
private theorem scaleDot_rhs_row (j : S600000x129.Idx) (k : Cert.ReferenceIdeal.dot_S600000x1_S1x129_S600000x129_1_0_0_1_n_n.contr.Idx) :
    (Cert.ReferenceIdeal.dot_S600000x1_S1x129_S600000x129_1_0_0_1_n_n.rhsIdx j k 0 : ℕ) = k ⟨0, by decide⟩ :=
  DotDims.rhsIdx_val_of_single _ (cr := 0) rfl j k
private theorem scaleDot_rhs_col (j : S600000x129.Idx) (k : Cert.ReferenceIdeal.dot_S600000x1_S1x129_S600000x129_1_0_0_1_n_n.contr.Idx) :
    (Cert.ReferenceIdeal.dot_S600000x1_S1x129_S600000x129_1_0_0_1_n_n.rhsIdx j k 1 : ℕ) = j 1 := by
  simp [DotDims.rhsIdx, Cert.ReferenceIdeal.dot_S600000x1_S1x129_S600000x129_1_0_0_1_n_n]; rfl

/-- So at (r, q) it is the one product ea[r,0] · lw[0,q]. -/
private theorem scaleDot_apply {φ₁ φ₂ : FTy} (a : FVec Ideal S600000x1 φ₁) (b : FVec Ideal S1x129 φ₂) (r : Fin 600000) (q : Fin 129) :
    Host.dotGeneral Cert.ReferenceIdeal.dot_S600000x1_S1x129_S600000x129_1_0_0_1_n_n none a b (ix2 r q)
      = a (ix2 r (0 : Fin 1)) * b (ix2 (0 : Fin 1) q) := by
  refine (Ideal.dotGeneral_apply Cert.ReferenceIdeal.dot_S600000x1_S1x129_S600000x129_1_0_0_1_n_n none .single a b (ix2 r q)).trans ?_
  rw [← Equiv.sum_comp (contrEquiv1 Cert.ReferenceIdeal.dot_S600000x1_S1x129_S600000x129_1_0_0_1_n_n 1 rfl rfl).symm, Fin.sum_univ_one]
  congr 2
  · apply Shape.idx_ext₂
    · rw [scaleDot_lhs_row]
    · exact (scaleDot_lhs_col _ _).trans (contrEquiv1_symm_val Cert.ReferenceIdeal.dot_S600000x1_S1x129_S600000x129_1_0_0_1_n_n 1 rfl rfl 0)
  · apply Shape.idx_ext₂
    · exact (scaleDot_rhs_row _ _).trans (contrEquiv1_symm_val Cert.ReferenceIdeal.dot_S600000x1_S1x129_S600000x129_1_0_0_1_n_n 1 rfl rfl 0)
    · rw [scaleDot_rhs_col]

/-- A row repeated down the 600000 rows reads, at (r, q), the row at q. -/
private theorem rows_apply (v : FVec Ideal S1x129 .f32) (r : Fin 600000) (q : Fin 129) :
    Cert.Gnn.rows600 v (ix2 r q) = v (ix2 (0 : Fin 1) q) := by
  unfold Cert.Gnn.rows600
  refine broadcastInDim_apply _ _ v (ix2 r q) (ix2 (0 : Fin 1) q) fun ax => ?_
  match ax with
  | ⟨0, _⟩ => rfl
  | ⟨1, _⟩ => rfl

/-- The clamp at zero, at an index. -/
private theorem relu_apply (a : FVec Ideal S600000x129 .f32) (j : S600000x129.Idx) :
    Cert.Gnn.relu600 a j = max (a j) fzero := by
  unfold Cert.Gnn.relu600 Cert.Gnn.zero0
  rw [maximumf_apply]
  congr 1

/-- The specification at (r, q). -/
private theorem msgOf_apply (ea : FVec Ideal S600000x1 .f32) (xs : FVec Ideal S600000x129 .f32) (lw lb : FVec Ideal S1x129 .f32)
    (mw : FVec Ideal S129x129 .f32) (mb : FVec Ideal S1x129 .f32) (r : Fin 600000) (q : Fin 129) :
    Cert.Gnn.msgOf (F := Ideal) ea xs lw lb mw mb (ix2 r q)
      = max (xs (ix2 r q) + ((∑ k : Fin 129, max (ea (ix2 r (0 : Fin 1)) * lw (ix2 (0 : Fin 1) k) + lb (ix2 (0 : Fin 1) k)) fzero * mw (ix2 k q))
          + mb (ix2 (0 : Fin 1) q))) fzero := by
  unfold Cert.Gnn.msgOf
  simp only [relu_apply, addf_apply, edgeDot_apply, scaleDot_apply, rows_apply]

/-! ## From blocks to the array -/

/-- The zero offsets of a whole-block access. -/
private theorem hz : (![0, 0] : Fin 2 → Nat) = fun _ => 0 := funext fun a => by fin_cases a <;> rfl

/-- The printed index maps, decided over the grid: the edge attributes, the gathered rows and the output move by one
    block of 3000 rows per point; the two weights and the two biases stay at their one block. -/
private theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

section Blocks

variable (V : (c : Dev nD) → (b : Ref sig .tc) → Buf (Elt Ideal) ((c : Thread nD τ).loc b))

/-- The attribute block at point t is rows 3000 t … 3000 t + 2999 of the attribute column. -/
private theorem attr_block_apply (c : Dev nD) (t : Fin cfg3.N) (p : Fin 3000) (r : Fin 600000) (hr : r.val = t.val * 3000 + p.val) :
    (iblk3 V c 0 t : Vec Ideal S3000x1 .f32) (ix2 p (0 : Fin 1))
      = (V c main_arg1 : S600000x1.Idx → Ideal .f32) (ix2 r (0 : Fin 1)) := by
  obtain ⟨e0, e1, -⟩ := idx_facts t
  unfold iblk3
  rw [View.read_apply]
  show V c main_arg1 _ = V c main_arg1 _
  congr 1
  funext a; apply Fin.ext
  match a with
  | ⟨0, _⟩ => show win3_0.index t (0 : Fin 2) * 3000 + 1 * p.val = r.val; rw [e0, hr]; omega
  | ⟨1, _⟩ => show win3_0.index t (1 : Fin 2) * 1 + 1 * 0 = 0; rw [e1]

/-- The block of gathered rows at point t is rows 3000 t … 3000 t + 2999 of the gathered array. -/
private theorem rows_block_apply (c : Dev nD) (t : Fin cfg3.N) (p : Fin 3000) (q : Fin 129) (r : Fin 600000) (hr : r.val = t.val * 3000 + p.val) :
    (iblk3 V c 1 t : Vec Ideal S3000x129 .f32) (ix2 p q)
      = (V c main_v49 : S600000x129.Idx → Ideal .f32) (ix2 r q) := by
  obtain ⟨-, -, e0, e1, -⟩ := idx_facts t
  unfold iblk3
  rw [View.read_apply]
  show V c main_v49 _ = V c main_v49 _
  congr 1
  funext a; apply Fin.ext
  match a with
  | ⟨0, _⟩ => show win3_1.index t (0 : Fin 2) * 3000 + 1 * p.val = r.val; rw [e0, hr]; omega
  | ⟨1, _⟩ => show win3_1.index t (1 : Fin 2) * 129 + 1 * q.val = q.val; rw [e1]; omega

/-- The first weight's one block is the whole row, at every point; -/
private theorem lw_block_apply (c : Dev nD) (t : Fin cfg3.N) (a : Fin 1) (k : Fin 129) :
    (iblk3 V c 2 t : Vec Ideal S1x129 .f32) (ix2 a k) = (V c main_arg3 : S1x129.Idx → Ideal .f32) (ix2 a k) := by
  obtain ⟨-, -, -, -, e0, e1, -⟩ := idx_facts t
  unfold iblk3
  rw [View.read_apply]
  show V c main_arg3 _ = V c main_arg3 _
  congr 1
  funext ax; apply Fin.ext
  match ax with
  | ⟨0, _⟩ => show win3_2.index t (0 : Fin 2) * 1 + 1 * a.val = a.val; rw [e0]; omega
  | ⟨1, _⟩ => show win3_2.index t (1 : Fin 2) * 129 + 1 * k.val = k.val; rw [e1]; omega

/-- so is the first bias's, -/
private theorem lb_block_apply (c : Dev nD) (t : Fin cfg3.N) (a : Fin 1) (k : Fin 129) :
    (iblk3 V c 3 t : Vec Ideal S1x129 .f32) (ix2 a k) = (V c main_v4 : S1x129.Idx → Ideal .f32) (ix2 a k) := by
  obtain ⟨-, -, -, -, -, -, e0, e1, -⟩ := idx_facts t
  unfold iblk3
  rw [View.read_apply]
  show V c main_v4 _ = V c main_v4 _
  congr 1
  funext ax; apply Fin.ext
  match ax with
  | ⟨0, _⟩ => show win3_3.index t (0 : Fin 2) * 1 + 1 * a.val = a.val; rw [e0]; omega
  | ⟨1, _⟩ => show win3_3.index t (1 : Fin 2) * 129 + 1 * k.val = k.val; rw [e1]; omega

/-- the second weight's is the whole matrix, -/
private theorem mw_block_apply (c : Dev nD) (t : Fin cfg3.N) (k q : Fin 129) :
    (iblk3 V c 4 t : Vec Ideal S129x129 .f32) (ix2 k q) = (V c main_arg5 : S129x129.Idx → Ideal .f32) (ix2 k q) := by
  obtain ⟨-, -, -, -, -, -, -, -, e0, e1, -⟩ := idx_facts t
  unfold iblk3
  rw [View.read_apply]
  show V c main_arg5 _ = V c main_arg5 _
  congr 1
  funext ax; apply Fin.ext
  match ax with
  | ⟨0, _⟩ => show win3_4.index t (0 : Fin 2) * 129 + 1 * k.val = k.val; rw [e0]; omega
  | ⟨1, _⟩ => show win3_4.index t (1 : Fin 2) * 129 + 1 * q.val = q.val; rw [e1]; omega

/-- and the second bias's the whole row. -/
private theorem mb_block_apply (c : Dev nD) (t : Fin cfg3.N) (a : Fin 1) (k : Fin 129) :
    (iblk3 V c 5 t : Vec Ideal S1x129 .f32) (ix2 a k) = (V c main_v5 : S1x129.Idx → Ideal .f32) (ix2 a k) := by
  obtain ⟨-, -, -, -, -, -, -, -, -, -, e0, e1, -⟩ := idx_facts t
  unfold iblk3
  rw [View.read_apply]
  show V c main_v5 _ = V c main_v5 _
  congr 1
  funext ax; apply Fin.ext
  match ax with
  | ⟨0, _⟩ => show win3_5.index t (0 : Fin 2) * 1 + 1 * a.val = a.val; rw [e0]; omega
  | ⟨1, _⟩ => show win3_5.index t (1 : Fin 2) * 129 + 1 * k.val = k.val; rw [e1]; omega

/-- WHAT POINT t WRITES BACK is block t of the messages computed from the whole arrays: row p of the block is row
    3000 t + p of the arrays, and the weights and biases are read whole. -/
private theorem msg_flushed_eq (c : Dev nD) (t : Fin cfg3.N) :
    (dat3 (F := Ideal) V c).flushed 6 t
      = ((cfg3.win 6).blk t).view.read (Elt Ideal)
          (Cert.Gnn.msgOf (F := Ideal) (V c main_arg1) (V c main_v49) (V c main_arg3) (V c main_v4) (V c main_arg5) (V c main_v5)) := by
  show (cfg3.win 6).cut (grid3.coords t) ((dat3 V c).after 6 t) = _
  rw [after3_6]
  unfold out3_6
  rw [View.canon_unit_zero hz]
  simp only [View.ld_unit_zero (S := S3000x1) hz, View.ld_unit_zero (S := S1x129) hz, View.ld_unit_zero (S := S129x129) hz,
    View.ld_unit_zero (S := S3000x129) hz]
  funext j
  show k3_pay1 (iblk3 V c 0 t) (iblk3 V c 2 t) (iblk3 V c 3 t) (iblk3 V c 4 t) (iblk3 V c 5 t) (iblk3 V c 1 t) j
      = Cert.Gnn.msgOf (F := Ideal) (V c main_arg1) (V c main_v49) (V c main_arg3) (V c main_v4) (V c main_arg5) (V c main_v5)
          (((cfg3.win 6).blk t).view.emb j)
  obtain ⟨p, q, rfl⟩ : ∃ (p : Fin 3000) (q : Fin 129), j = ix2 p q := ⟨j 0, j 1, eq_ix2 j⟩
  have hp : p.val < 3000 := p.isLt
  have ht : t.val < 200 := Nat.lt_of_lt_of_eq t.isLt N_3
  obtain ⟨-, -, -, -, -, -, -, -, -, -, -, -, e0, e1⟩ := idx_facts t
  have hemb : ((cfg3.win 6).blk t).view.emb (ix2 p q) = ix2 (⟨t.val * 3000 + p.val, by omega⟩ : Fin 600000) q := by
    funext a; apply Fin.ext
    match a with
    | ⟨0, _⟩ => show win3_6.index t (0 : Fin 2) * 3000 + 1 * p.val = t.val * 3000 + p.val; rw [e0]; omega
    | ⟨1, _⟩ => show win3_6.index t (1 : Fin 2) * 129 + 1 * q.val = q.val; rw [e1]; omega
  rw [hemb]
  refine (msg_payload_apply (iblk3 V c 0 t) (iblk3 V c 2 t) (iblk3 V c 3 t) (iblk3 V c 4 t) (iblk3 V c 5 t) (iblk3 V c 1 t) p q).trans ?_
  refine Eq.trans ?_ (msgOf_apply (V c main_arg1) (V c main_v49) (V c main_arg3) (V c main_v4) (V c main_arg5) (V c main_v5) ⟨t.val * 3000 + p.val, by omega⟩ q).symm
  rw [rows_block_apply V c t p q ⟨t.val * 3000 + p.val, by omega⟩ rfl, attr_block_apply V c t p ⟨t.val * 3000 + p.val, by omega⟩ rfl,
    mb_block_apply V c t 0 q]
  simp only [lw_block_apply, lb_block_apply, mw_block_apply]

/-- An index of the output array is in point t's block iff each coordinate is in the block's range on its axis. -/
private theorem mem_msg_block (t : Fin cfg3.N) (i : S600000x129.Idx) :
    i ∈ ((cfg3.win 6).blk t).view.set ↔ ∀ a : Fin 2, win3_6.index t a * S3000x129.size a ≤ (i a).val ∧ (i a).val < win3_6.index t a * S3000x129.size a + S3000x129.size a := by
  show i ∈ ((View.whole main_v50).slice (win3_6.rect t)).set ↔ _
  rw [View.set_slice_whole, Rect.mem_set_unit]
  exact Iff.rfl

/-- Row r of the output array is written back by point r / 3000. -/
private theorem msg_cover (i : S600000x129.Idx) :
    ∃ t : Fin cfg3.N, (cfg3.win 6).flush t = true ∧ i ∈ ((cfg3.win 6).blk t).view.set := by
  have hi0 : (i 0).val < 600000 := (i 0).isLt
  have hi1 : (i 1).val < 129 := (i 1).isLt
  have hN : cfg3.N = 200 := N_3
  refine ⟨⟨(i 0).val / 3000, by rw [hN]; omega⟩, flush3_6 _, ?_⟩
  rw [mem_msg_block]
  obtain ⟨-, -, -, -, -, -, -, -, -, -, -, -, e0, e1⟩ := idx_facts ⟨(i 0).val / 3000, by rw [hN]; omega⟩
  intro a
  match a with
  | ⟨0, _⟩ =>
    show win3_6.index _ (0 : Fin 2) * 3000 ≤ (i 0).val ∧ (i 0).val < win3_6.index _ (0 : Fin 2) * 3000 + 3000
    rw [e0]; show (i 0).val / 3000 * 3000 ≤ (i 0).val ∧ (i 0).val < (i 0).val / 3000 * 3000 + 3000; omega
  | ⟨1, _⟩ =>
    show win3_6.index _ (1 : Fin 2) * 129 ≤ (i 1).val ∧ (i 1).val < win3_6.index _ (1 : Fin 2) * 129 + 129
    rw [e1]; omega

end Blocks

/-- After the 200 grid points the output array holds relu(xs + (relu(ea · l0w + l0b) · l1w + l1b)) of the input arrays. -/
theorem region3_value (V : (c : Dev nD) → (b : Ref sig .tc) → Buf (Elt Ideal) ((c : Thread nD τ).loc b)) (c : Dev nD) :
    (dat3 (F := Ideal) V c).arrAt 6 cfg3.N
      = Cert.Gnn.msgOf (F := Ideal) (V c main_arg1) (V c main_v49) (V c main_arg3) (V c main_v4) (V c main_arg5) (V c main_v5) := by
  exact (dat3 (F := Ideal) V c).arrAt_eq_of_cover 6 _ (fun t _ => msg_flushed_eq V c t) msg_cover

end Cert.KernelIdeal.Val

end
-- ==== Proof.RegMm14.lean ====
/-
  Region 4 (h · w1 + b1): what the pipeline leaves in its output array, as one function of its three input arrays.

  The grid has 10 points; point t holds rows 5000 t … 5000 t + 4999 of the features h [50000,129], the whole weights
  w [129,129] and the whole bias row b [1,129], and writes back rows 5000 t … 5000 t + 4999 of the output. At an entry
  (p, q) of its block the body leaves (Σ_k hblk[p,k] · w[k,q]) + b[0,q]: the narrowing of the operands to bf16 is the
  identity on ideal values, the product into the zero accumulator is the sum over the contracted coordinate, and the
  bias row is repeated down the rows. The whole-array function h · w + b read at (r, q) is the same sum over row r of
  h. Row r = 5000 t + p of h is row p of block t, so block t of the output is the restriction of h · w + b to its rows,
  and since every row r lies in the block of point r / 5000, the output array is h · w + b.
-/
import proofs.«403982_j39848706573800_1_alg».proof.Proof.Spec
import proofs.«403982_j39848706573800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx
open scoped BigOperators

/-! ## The block product's operand indices -/

private theorem blkdot_lhs_0 (j : S5000x129.Idx) (k : dot_S5000x129_S129x129_S5000x129_1_0_0_1_n_n.contr.Idx) :
    (dot_S5000x129_S129x129_S5000x129_1_0_0_1_n_n.lhsIdx j k 0 : ℕ) = j 0 := by
  simp [DotDims.lhsIdx, dot_S5000x129_S129x129_S5000x129_1_0_0_1_n_n]; rfl
private theorem blkdot_lhs_1 (j : S5000x129.Idx) (k : dot_S5000x129_S129x129_S5000x129_1_0_0_1_n_n.contr.Idx) :
    (dot_S5000x129_S129x129_S5000x129_1_0_0_1_n_n.lhsIdx j k 1 : ℕ) = k ⟨0, by decide⟩ := by
  simp [DotDims.lhsIdx, dot_S5000x129_S129x129_S5000x129_1_0_0_1_n_n]; rfl
private theorem blkdot_rhs_0 (j : S5000x129.Idx) (k : dot_S5000x129_S129x129_S5000x129_1_0_0_1_n_n.contr.Idx) :
    (dot_S5000x129_S129x129_S5000x129_1_0_0_1_n_n.rhsIdx j k 0 : ℕ) = k ⟨0, by decide⟩ := by
  simp [DotDims.rhsIdx, dot_S5000x129_S129x129_S5000x129_1_0_0_1_n_n]; rfl
private theorem blkdot_rhs_1 (j : S5000x129.Idx) (k : dot_S5000x129_S129x129_S5000x129_1_0_0_1_n_n.contr.Idx) :
    (dot_S5000x129_S129x129_S5000x129_1_0_0_1_n_n.rhsIdx j k 1 : ℕ) = j 1 := by
  simp [DotDims.rhsIdx, dot_S5000x129_S129x129_S5000x129_1_0_0_1_n_n]; rfl

/-- The block product at an entry: the sum over the contracted coordinate. -/
private theorem blkdot_apply (a : FVec Ideal S5000x129 .bf16) (b : FVec Ideal S129x129 .bf16) (p : Fin 5000) (q : Fin 129) :
    matmul dot_S5000x129_S129x129_S5000x129_1_0_0_1_n_n none a b (constant (F := Ideal) S5000x129 .f32 0x00000000#32) (ix2 p q)
      = ∑ k : Fin 129, a (ix2 p k) * b (ix2 k q) := by
  simp only [matmul]
  rw [Ideal.matmul_constant_zero_apply,
    ← Equiv.sum_comp (contrEquiv1 dot_S5000x129_S129x129_S5000x129_1_0_0_1_n_n 129 rfl rfl).symm]
  refine Finset.sum_congr rfl fun k _ => ?_
  congr 2
  · apply Shape.idx_ext₂
    · rw [blkdot_lhs_0]
    · rw [blkdot_lhs_1]; exact contrEquiv1_symm_val _ _ _ _ k
  · apply Shape.idx_ext₂
    · rw [blkdot_rhs_0]; exact contrEquiv1_symm_val _ _ _ _ k
    · rw [blkdot_rhs_1]

/-- The body's arithmetic at an entry of the block: the row of the features block against the column of the
    weights, plus the bias row's entry (the narrowing to bf16 is the identity on ideal values). -/
private theorem lin_payload_apply (x0 : FVec Ideal S5000x129 .f32) (x1 : FVec Ideal S129x129 .f32) (x2 : FVec Ideal S1x129 .f32)
    (p : Fin 5000) (q : Fin 129) :
    k4_pay1 (F := Ideal) x0 x1 x2 (ix2 p q) = (∑ k : Fin 129, x0 (ix2 p k) * x1 (ix2 k q)) + x2 (ix2 (0 : Fin 1) q) := by
  unfold k4_pay1
  simp only [shapeCast_self]
  refine (addf_apply _ _ _).trans ?_
  refine congrArg₂ (· + ·) ?_ ?_
  · exact blkdot_apply _ _ p q
  · exact broadcastTo_1b_ab_apply x2 _ p q

/-! ## The whole-array product's operand indices -/

private theorem arrdot_lhs_0 (j : S50000x129.Idx) (k : Cert.ReferenceIdeal.dot_S50000x129_S129x129_S50000x129_1_0_0_1_n_n.contr.Idx) :
    (Cert.ReferenceIdeal.dot_S50000x129_S129x129_S50000x129_1_0_0_1_n_n.lhsIdx j k 0 : ℕ) = j 0 := by
  simp [DotDims.lhsIdx, Cert.ReferenceIdeal.dot_S50000x129_S129x129_S50000x129_1_0_0_1_n_n]; rfl
private theorem arrdot_lhs_1 (j : S50000x129.Idx) (k : Cert.ReferenceIdeal.dot_S50000x129_S129x129_S50000x129_1_0_0_1_n_n.contr.Idx) :
    (Cert.ReferenceIdeal.dot_S50000x129_S129x129_S50000x129_1_0_0_1_n_n.lhsIdx j k 1 : ℕ) = k ⟨0, by decide⟩ := by
  simp [DotDims.lhsIdx, Cert.ReferenceIdeal.dot_S50000x129_S129x129_S50000x129_1_0_0_1_n_n]; rfl
private theorem arrdot_rhs_0 (j : S50000x129.Idx) (k : Cert.ReferenceIdeal.dot_S50000x129_S129x129_S50000x129_1_0_0_1_n_n.contr.Idx) :
    (Cert.ReferenceIdeal.dot_S50000x129_S129x129_S50000x129_1_0_0_1_n_n.rhsIdx j k 0 : ℕ) = k ⟨0, by decide⟩ := by
  simp [DotDims.rhsIdx, Cert.ReferenceIdeal.dot_S50000x129_S129x129_S50000x129_1_0_0_1_n_n]; rfl
private theorem arrdot_rhs_1 (j : S50000x129.Idx) (k : Cert.ReferenceIdeal.dot_S50000x129_S129x129_S50000x129_1_0_0_1_n_n.contr.Idx) :
    (Cert.ReferenceIdeal.dot_S50000x129_S129x129_S50000x129_1_0_0_1_n_n.rhsIdx j k 1 : ℕ) = j 1 := by
  simp [DotDims.rhsIdx, Cert.ReferenceIdeal.dot_S50000x129_S129x129_S50000x129_1_0_0_1_n_n]; rfl

/-- h · w + b at an entry of the whole array. -/
private theorem lin_spec_apply (h : FVec Ideal S50000x129 .f32) (w : FVec Ideal S129x129 .f32) (b : FVec Ideal S1x129 .f32)
    (r : Fin 50000) (q : Fin 129) :
    Cert.Gnn.lin1Of (F := Ideal) h w b (ix2 r q) = (∑ k : Fin 129, h (ix2 r k) * w (ix2 k q)) + b (ix2 (0 : Fin 1) q) := by
  unfold Cert.Gnn.lin1Of Cert.Gnn.rows129
  refine (addf_apply _ _ _).trans ?_
  refine congrArg₂ (· + ·) ?_ ?_
  · simp only [Host.dotGeneral]
    rw [Ideal.dotGeneral_apply,
      ← Equiv.sum_comp (contrEquiv1 Cert.ReferenceIdeal.dot_S50000x129_S129x129_S50000x129_1_0_0_1_n_n 129 rfl rfl).symm]
    refine Finset.sum_congr rfl fun k _ => ?_
    congr 2
    · apply Shape.idx_ext₂
      · rw [arrdot_lhs_0]
      · rw [arrdot_lhs_1]; exact contrEquiv1_symm_val _ _ _ _ k
    · apply Shape.idx_ext₂
      · rw [arrdot_rhs_0]; exact contrEquiv1_symm_val _ _ _ _ k
      · rw [arrdot_rhs_1]
  · refine broadcastInDim_apply _ _ b (ix2 r q) (ix2 (0 : Fin 1) q) fun a => ?_
    match a with
    | ⟨0, _⟩ => rfl
    | ⟨1, _⟩ => rfl

/-! ## The blocks the body reads, as entries of the arrays -/

private theorem hz : (![0, 0] : Fin 2 → Nat) = fun _ => 0 := funext fun a => by fin_cases a <;> rfl

/-- Where the windows' blocks sit: the features and the output move down the rows with the point, the weights
    and the bias row stay. -/
private theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section Blocks

variable (V : (c : Dev nD) → (b : Ref sig .tc) → Buf (Elt Ideal) ((c : Thread nD τ).loc b))

/-- The features block at point t is rows 5000 t … 5000 t + 4999 of the features. -/
private theorem feat_blk_apply (c : Dev nD) (t : Fin cfg4.N) (p : Fin 5000) (k : Fin 129) (r : Fin 50000)
    (hr : r.val = 5000 * t.val + p.val) :
    (iblk4 (F := Ideal) V c 0 t : Vec Ideal S5000x129 .f32) (ix2 p k)
      = (V c main_v54 : S50000x129.Idx → Elt Ideal .f32) (ix2 r k) := by
  obtain ⟨e0, e1, -⟩ := idx_facts t
  unfold iblk4
  rw [View.read_apply]
  show V c main_v54 _ = V c main_v54 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 129 + 1 * k.val = k.val; rw [e1]; omega

/-- The weights block at every point is the whole weights array. -/
private theorem wts_blk_apply (c : Dev nD) (t : Fin cfg4.N) (k q : Fin 129) :
    (iblk4 (F := Ideal) V c 1 t : Vec Ideal S129x129 .f32) (ix2 k q)
      = (V c main_arg13 : S129x129.Idx → Elt Ideal .f32) (ix2 k q) := by
  obtain ⟨-, -, e0, e1, -⟩ := idx_facts t
  unfold iblk4
  rw [View.read_apply]
  show V c main_arg13 _ = V c main_arg13 _
  congr 1
  funext a
  apply Fin.ext
  match a with
  | ⟨0, _⟩ => show win4_1.index t (0 : Fin 2) * 129 + 1 * k.val = k.val; rw [e0]; omega
  | ⟨1, _⟩ => show win4_1.index t (1 : Fin 2) * 129 + 1 * q.val = q.val; rw [e1]; omega

/-- The bias block at every point is the whole bias row. -/
private theorem bias_blk_apply (c : Dev nD) (t : Fin cfg4.N) (z : Fin 1) (q : Fin 129) :
    (iblk4 (F := Ideal) V c 2 t : Vec Ideal S1x129 .f32) (ix2 z q)
      = (V c main_v55 : S1x129.Idx → Elt Ideal .f32) (ix2 z q) := by
  obtain ⟨-, -, -, -, e0, e1, -⟩ := idx_facts t
  unfold iblk4
  rw [View.read_apply]
  show V c main_v55 _ = V c main_v55 _
  congr 1
  funext a
  apply Fin.ext
  match a with
  | ⟨0, _⟩ => show win4_2.index t (0 : Fin 2) * 1 + 1 * z.val = z.val; rw [e0]; omega
  | ⟨1, _⟩ => show win4_2.index t (1 : Fin 2) * 129 + 1 * q.val = q.val; rw [e1]; omega

/-! ## From blocks to the array -/

/-- What point t writes back is block t of h · w + b of the arrays as the region finds them. -/
private theorem lin_flushed (c : Dev nD) (t : Fin cfg4.N) :
    (dat4 (F := Ideal) V c).flushed 3 t
      = ((cfg4.win 3).blk t).view.read (Elt Ideal)
          (Cert.Gnn.lin1Of (F := Ideal) (V c main_v54) (V c main_arg13) (V c main_v55)) := by
  show (cfg4.win 3).cut (grid4.coords t) ((dat4 V c).after 3 t) = _
  rw [after4_3]
  unfold out4_3
  rw [View.canon_unit_zero hz]
  simp only [View.ld_unit_zero (S := S5000x129) hz, View.ld_unit_zero (S := S129x129) hz, View.ld_unit_zero (S := S1x129) hz]
  funext j
  obtain ⟨p, q, rfl⟩ : ∃ (p : Fin 5000) (q : Fin 129), j = ix2 p q := ⟨j 0, j 1, eq_ix2 j⟩
  obtain ⟨-, -, -, -, -, -, e0, e1⟩ := idx_facts t
  have ht : t.val < 10 := by have h : t.val < grid4.N := t.isLt; have hN : grid4.N = 10 := N_4; omega
  have hemb : ((cfg4.win 3).blk t).view.emb (ix2 p q) = ix2 (⟨5000 * t.val + p.val, by omega⟩ : Fin 50000) q := by
    funext a
    apply Fin.ext
    match a with
    | ⟨0, _⟩ => show win4_3.index t (0 : Fin 2) * 5000 + 1 * p.val = 5000 * t.val + p.val; rw [e0]; omega
    | ⟨1, _⟩ => show win4_3.index t (1 : Fin 2) * 129 + 1 * q.val = q.val; rw [e1]; omega
  show k4_pay1 (F := Ideal) (iblk4 V c 0 t) (iblk4 V c 1 t) (iblk4 V c 2 t) (ix2 p q)
    = Cert.Gnn.lin1Of (F := Ideal) (V c main_v54) (V c main_arg13) (V c main_v55) (((cfg4.win 3).blk t).view.emb (ix2 p q))
  refine (lin_payload_apply (iblk4 V c 0 t) (iblk4 V c 1 t) (iblk4 V c 2 t) p q).trans ?_
  refine Eq.trans ?_ (congrArg (Cert.Gnn.lin1Of (F := Ideal) (V c main_v54) (V c main_arg13) (V c main_v55)) hemb).symm
  refine Eq.trans ?_ (lin_spec_apply (V c main_v54) (V c main_arg13) (V c main_v55) ⟨5000 * t.val + p.val, by omega⟩ q).symm
  exact congrArg₂ (· + ·)
    (Finset.sum_congr rfl fun k _ => congrArg₂ (· * ·) (feat_blk_apply V c t p k _ rfl) (wts_blk_apply V c t k q))
    (bias_blk_apply V c t 0 q)

/-- An entry of the output array is in point t's block iff each coordinate is in the block's range. -/
private theorem mem_out_blk (t : Fin cfg4.N) (i : S50000x129.Idx) :
    i ∈ ((cfg4.win 3).blk t).view.set
      ↔ ∀ a : Fin 2, win4_3.index t a * S5000x129.size a ≤ (i a).val ∧ (i a).val < win4_3.index t a * S5000x129.size a + S5000x129.size a := by
  show i ∈ ((View.whole main_v56).slice (win4_3.rect t)).set ↔ _
  rw [View.set_slice_whole, Rect.mem_set_unit]
  exact Iff.rfl

/-- Row r of the output is written back by point r / 5000. -/
private theorem lin_cover (i : S50000x129.Idx) :
    ∃ t : Fin cfg4.N, (cfg4.win 3).flush t = true ∧ i ∈ ((cfg4.win 3).blk t).view.set := by
  have hi0 : (i 0).val < 50000 := (i 0).isLt
  have hi1 : (i 1).val < 129 := (i 1).isLt
  have hN : grid4.N = 10 := N_4
  have ht : (i 0).val / 5000 < cfg4.N := by show (i 0).val / 5000 < grid4.N; omega
  obtain ⟨-, -, -, -, -, -, e0, e1⟩ := idx_facts ⟨(i 0).val / 5000, ht⟩
  refine ⟨⟨(i 0).val / 5000, ht⟩, flush4_3 _, ?_⟩
  rw [mem_out_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 129 ≤ (i 1).val
      ∧ (i 1).val < win4_3.index ⟨(i 0).val / 5000, ht⟩ (1 : Fin 2) * 129 + 129
    rw [e1]; omega

end Blocks

/-- After the 10 grid points the output array holds h · w1 + b1 of the input arrays. -/
theorem region4_value (V : (c : Dev nD) → (b : Ref sig .tc) → Buf (Elt Ideal) ((c : Thread nD τ).loc b)) (c : Dev nD) :
    (dat4 (F := Ideal) V c).arrAt 3 cfg4.N
      = Cert.Gnn.lin1Of (F := Ideal) (V c main_v54) (V c main_arg13) (V c main_v55) := by
  exact (dat4 (F := Ideal) V c).arrAt_eq_of_cover 3
    (Cert.Gnn.lin1Of (F := Ideal) (V c main_v54) (V c main_arg13) (V c main_v55)) (fun t _ => lin_flushed V c t) lin_cover

end Cert.KernelIdeal.Val

end
-- ==== Proof.RegMm25.lean ====
/-
  Region 5 (relu(g (z - mu) rsqrt(var + ε) + be) · w2 + b2): what the pipeline leaves in its output array, as one function of its seven input arrays.
-/
import proofs.«403982_j39848706573800_1_alg».proof.Proof.Spec
import proofs.«403982_j39848706573800_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember
import Idealize.ShloMosaic.Lib.IdealHost

noncomputable section

namespace Cert.KernelIdeal.Val

open Idealize.ShloMosaic Idealize.ShloMosaic.TcCoe Idealize.SL.Sem Cert.KernelIdeal Cert.KernelIdeal.Gen
open Idealize.ShloMosaic.ValueIdx Idealize.ShloMosaic.StackMember
open scoped BigOperators

/-! ## The value at an entry -/

/-- One feature, normalised with its column's mean and variance, scaled, shifted and rectified:
    max (g (z - mu) rsqrt(var + ε) + be) 0, with ε and the zero as the words both programs spell them with. -/
private def bnRelu (g mu var be z : EReal) : EReal :=
  max (g * (z - mu) * Ideal.rsqrt (var + Ideal.ofBits .f32 0x3727C5AC#32) + be) (Ideal.ofBits .f32 0x00000000#32)

/-- Entry (r, q) of relu(g (z - mu) rsqrt(var + ε) + be) · w2 + b2 for an array z of any number of rows: the sum over the
    129 features of the rectified feature times the weight, plus the bias. It depends on row r of z only. -/
private def mmEntry {n : ℕ} (z : (⟨2, ![n, 129]⟩ : Shape).Idx → EReal) (mu var g be : (⟨2, ![1, 129]⟩ : Shape).Idx → EReal)
    (w2 : (⟨2, ![129, 128]⟩ : Shape).Idx → EReal) (b2 : (⟨2, ![1, 128]⟩ : Shape).Idx → EReal) (r : Fin n) (q : Fin 128) : EReal :=
  (∑ k : Fin 129, bnRelu (g (ix2 0 k)) (mu (ix2 0 k)) (var (ix2 0 k)) (be (ix2 0 k)) (z (ix2 r k)) * w2 (ix2 k q)) + b2 (ix2 0 q)

/-! ## The body's arithmetic and the reference function, entry by entry -/

/-- The body's arithmetic at an entry of its block: the product row by column of the normalised, rectified features with the
    weights, plus the bias (the format changes are the identity on extended reals, the accumulator is zero). -/
private theorem mm_payload_apply (x0 : Vec Ideal S5000x129 .f32) (xg xmu xvar xbe : Vec Ideal S1x129 .f32) (xw : Vec Ideal S129x128 .f32)
    (xb : Vec Ideal S1x128 .f32) (p : Fin 5000) (q : Fin 128) :
    k5_pay1 (F := Ideal) x0 xg xmu xvar xbe xw xb (ix2 p q) = mmEntry x0 xmu xvar xg xbe xw xb p q := by
  unfold k5_pay1
  simp only [shapeCast_self]
  refine (addf_apply _ _ _).trans ?_
  unfold mmEntry
  refine congrArg₂ (· + ·) ?_ (broadcastTo_1b_ab_apply _ _ p q)
  rw [matmul_zero_eq_dotGeneral]
  refine (dotGeneral_plain_apply (m := 5000) (n := 128) (k := 129) none _ _ p q).trans ?_
  refine Finset.sum_congr rfl fun k _ => ?_
  simp only [truncf_apply, maximumf_apply, addf_apply, mulf_apply, subf_apply, broadcastTo_1b_ab_apply, broadcast_apply]
  rfl

/-- A row repeated down the 50000 rows reads the row. -/
private theorem rows129_apply (v : FVec Ideal S1x129 .f32) (r : Fin 50000) (k : Fin 129) :
    Cert.Gnn.rows129 v (ix2 r k) = v (ix2 0 k) := broadcastInDim_oneRow_apply _ v r k
/-- A row repeated down the 50000 rows reads the row (128 columns). -/
private theorem rows128_apply (v : FVec Ideal S1x128 .f32) (r : Fin 50000) (q : Fin 128) :
    Cert.Gnn.rows128 v (ix2 r q) = v (ix2 0 q) := broadcastInDim_oneRow_apply _ v r q
/-- The rectifier at an entry. -/
private theorem relu129_apply (a : FVec Ideal S50000x129 .f32) (j : S50000x129.Idx) :
    Cert.Gnn.relu129 a j = max (a j) (Ideal.ofBits .f32 0x00000000#32) :=
  congrArg (max (a j)) (broadcastInDim_scalar_apply _ _ j)

/-- The reference function at an entry. -/
private theorem mm2Of_apply (z : FVec Ideal S50000x129 .f32) (mu var g be : FVec Ideal S1x129 .f32) (w2 : FVec Ideal S129x128 .f32)
    (b2 : FVec Ideal S1x128 .f32) (r : Fin 50000) (q : Fin 128) :
    Cert.Gnn.mm2Of (F := Ideal) z mu var g be w2 b2 (ix2 r q) = mmEntry z mu var g be w2 b2 r q := by
  unfold Cert.Gnn.mm2Of mmEntry
  refine (addf_apply _ _ _).trans ?_
  refine congrArg₂ (· + ·) ?_ (rows128_apply b2 r q)
  refine (dotGeneral_plain_apply (m := 50000) (n := 128) (k := 129) none _ _ r q).trans ?_
  refine Finset.sum_congr rfl fun k _ => ?_
  simp only [relu129_apply, addf_apply, mulf_apply, subf_apply, rows129_apply]
  rfl

/-! ## From blocks to the array -/

variable (V : (c : Dev nD) → (b : Ref sig .tc) → Buf (Elt Ideal) ((c : Thread nD τ).loc b))

private theorem zero_offsets : (![0, 0] : Fin 2 → Nat) = fun _ => 0 := funext fun a => by fin_cases a <;> rfl

/-- What the output array is to hold: the reference function of the seven input arrays as the region finds them. -/
private abbrev mmWhole (c : Dev nD) : FVec Ideal S50000x128 .f32 :=
  Cert.Gnn.mm2Of (F := Ideal) (V c main_v56) (V c main_v60) (V c main_v62) (V c main_v63) (V c main_v64) (V c main_arg17) (V c main_v65)

/-- The index maps over the grid: the feature rows and the output rows move with the point, block t at point t; the
    statistics, the weights and the bias are whole arrays at every point. -/
private theorem mm_idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The feature block at point t is rows 5000 t … 5000 t + 4999 of the feature array. -/
private theorem mm_iblk_z_apply (c : Dev nD) (t : Fin cfg5.N) (x : S5000x129.Idx) (k : S50000x129.Idx)
    (hk0 : (k 0).val = t.val * 5000 + (x 0).val) (hk1 : (k 1).val = (x 1).val) :
    (iblk5 V c 0 t : Vec Ideal S5000x129 .f32) x = (V c main_v56 : S50000x129.Idx → EReal) k := by
  obtain ⟨e0, e1, -⟩ := mm_idx_facts t
  unfold iblk5
  rw [View.read_apply]
  show V c main_v56 _ = V c main_v56 _
  congr 1
  funext a
  apply Fin.ext
  match a with
  | ⟨0, _⟩ => show win5_0.index t 0 * 5000 + 1 * (x 0).val = (k 0).val; rw [e0, hk0]; omega
  | ⟨1, _⟩ => show win5_0.index t 1 * 129 + 1 * (x 1).val = (k 1).val; rw [e1, hk1]; omega

/-- The mean row's window holds the whole row at every point. -/
private theorem mm_iblk_mu (c : Dev nD) (t : Fin cfg5.N) : (iblk5 V c 1 t : Vec Ideal S1x129 .f32) = V c main_v60 := by
  obtain ⟨-, -, e0, e1, -⟩ := mm_idx_facts t
  funext j
  unfold iblk5
  rw [View.read_apply]
  show V c main_v60 _ = V c main_v60 _
  congr 1
  funext a
  apply Fin.ext
  match a with
  | ⟨0, _⟩ => show win5_1.index t 0 * 1 + 1 * (j 0).val = (j 0).val; rw [e0]; omega
  | ⟨1, _⟩ => show win5_1.index t 1 * 129 + 1 * (j 1).val = (j 1).val; rw [e1]; omega

/-- The variance row's window holds the whole row at every point. -/
private theorem mm_iblk_var (c : Dev nD) (t : Fin cfg5.N) : (iblk5 V c 2 t : Vec Ideal S1x129 .f32) = V c main_v62 := by
  obtain ⟨-, -, -, -, e0, e1, -⟩ := mm_idx_facts t
  funext j
  unfold iblk5
  rw [View.read_apply]
  show V c main_v62 _ = V c main_v62 _
  congr 1
  funext a
  apply Fin.ext
  match a with
  | ⟨0, _⟩ => show win5_2.index t 0 * 1 + 1 * (j 0).val = (j 0).val; rw [e0]; omega
  | ⟨1, _⟩ => show win5_2.index t 1 * 129 + 1 * (j 1).val = (j 1).val; rw [e1]; omega

/-- The scale row's window holds the whole row at every point. -/
private theorem mm_iblk_g (c : Dev nD) (t : Fin cfg5.N) : (iblk5 V c 3 t : Vec Ideal S1x129 .f32) = V c main_v63 := by
  obtain ⟨-, -, -, -, -, -, e0, e1, -⟩ := mm_idx_facts t
  funext j
  unfold iblk5
  rw [View.read_apply]
  show V c main_v63 _ = V c main_v63 _
  congr 1
  funext a
  apply Fin.ext
  match a with
  | ⟨0, _⟩ => show win5_3.index t 0 * 1 + 1 * (j 0).val = (j 0).val; rw [e0]; omega
  | ⟨1, _⟩ => show win5_3.index t 1 * 129 + 1 * (j 1).val = (j 1).val; rw [e1]; omega

/-- The shift row's window holds the whole row at every point. -/
private theorem mm_iblk_be (c : Dev nD) (t : Fin cfg5.N) : (iblk5 V c 4 t : Vec Ideal S1x129 .f32) = V c main_v64 := by
  obtain ⟨-, -, -, -, -, -, -, -, e0, e1, -⟩ := mm_idx_facts t
  funext j
  unfold iblk5
  rw [View.read_apply]
  show V c main_v64 _ = V c main_v64 _
  congr 1
  funext a
  apply Fin.ext
  match a with
  | ⟨0, _⟩ => show win5_4.index t 0 * 1 + 1 * (j 0).val = (j 0).val; rw [e0]; omega
  | ⟨1, _⟩ => show win5_4.index t 1 * 129 + 1 * (j 1).val = (j 1).val; rw [e1]; omega

/-- The weights' window holds the whole matrix at every point. -/
private theorem mm_iblk_w (c : Dev nD) (t : Fin cfg5.N) : (iblk5 V c 5 t : Vec Ideal S129x128 .f32) = V c main_arg17 := by
  obtain ⟨-, -, -, -, -, -, -, -, -, -, e0, e1, -⟩ := mm_idx_facts t
  funext j
  unfold iblk5
  rw [View.read_apply]
  show V c main_arg17 _ = V c main_arg17 _
  congr 1
  funext a
  apply Fin.ext
  match a with
  | ⟨0, _⟩ => show win5_5.index t 0 * 129 + 1 * (j 0).val = (j 0).val; rw [e0]; omega
  | ⟨1, _⟩ => show win5_5.index t 1 * 128 + 1 * (j 1).val = (j 1).val; rw [e1]; omega

/-- The bias row's window holds the whole row at every point. -/
private theorem mm_iblk_b (c : Dev nD) (t : Fin cfg5.N) : (iblk5 V c 6 t : Vec Ideal S1x128 .f32) = V c main_v65 := by
  obtain ⟨-, -, -, -, -, -, -, -, -, -, -, -, e0, e1, -⟩ := mm_idx_facts t
  funext j
  unfold iblk5
  rw [View.read_apply]
  show V c main_v65 _ = V c main_v65 _
  congr 1
  funext a
  apply Fin.ext
  match a with
  | ⟨0, _⟩ => show win5_6.index t 0 * 1 + 1 * (j 0).val = (j 0).val; rw [e0]; omega
  | ⟨1, _⟩ => show win5_6.index t 1 * 128 + 1 * (j 1).val = (j 1).val; rw [e1]; omega

/-- WHAT POINT t WRITES BACK is block t of the reference function of the arrays: rows 5000 t … 5000 t + 4999, every column. -/
private theorem mm_flushed_eq (c : Dev nD) (t : Fin cfg5.N) :
    (dat5 (F := Ideal) V c).flushed 7 t = ((cfg5.win 7).blk t).view.read (Elt Ideal) (mmWhole V c) := by
  show (cfg5.win 7).cut (grid5.coords t) ((dat5 V c).after 7 t) = _
  rw [after5_7]
  unfold out5_7
  rw [View.canon_unit_zero zero_offsets]
  simp only [View.ld_unit_zero (S := S5000x129) zero_offsets, View.ld_unit_zero (S := S1x129) zero_offsets,
    View.ld_unit_zero (S := S129x128) zero_offsets, View.ld_unit_zero (S := S1x128) zero_offsets]
  rw [mm_iblk_mu, mm_iblk_var, mm_iblk_g, mm_iblk_be, mm_iblk_w, mm_iblk_b]
  have ht : t.val < 10 := by have h := t.isLt; have hN : cfg5.N = 10 := N_5; omega
  obtain ⟨-, -, -, -, -, -, -, -, -, -, -, -, -, -, e0, e1⟩ := mm_idx_facts t
  have key : ∀ (p : Fin 5000) (q : Fin 128),
      k5_pay1 (F := Ideal) (iblk5 V c 0 t) (V c main_v63) (V c main_v60) (V c main_v62) (V c main_v64) (V c main_arg17) (V c main_v65) (ix2 p q)
        = mmWhole V c (ix2 (⟨t.val * 5000 + p.val, by have := p.isLt; omega⟩ : Fin 50000) q) := by
    intro p q
    refine (mm_payload_apply _ _ _ _ _ _ _ p q).trans ((mm2Of_apply _ _ _ _ _ _ _ _ q).trans ?_).symm
    unfold mmEntry
    refine congrArg (· + _) (Finset.sum_congr rfl fun k _ => ?_)
    rw [mm_iblk_z_apply V c t (ix2 p k) (ix2 (⟨t.val * 5000 + p.val, by have := p.isLt; omega⟩ : Fin 50000) k) rfl rfl]
  have blk : ∀ j : S5000x128.Idx,
      k5_pay1 (F := Ideal) (iblk5 V c 0 t) (V c main_v63) (V c main_v60) (V c main_v62) (V c main_v64) (V c main_arg17) (V c main_v65) j
        = mmWhole V c (((cfg5.win 7).blk t).view.emb j) := by
    intro j
    obtain ⟨p, q, rfl⟩ : ∃ (p : Fin 5000) (q : Fin 128), j = ix2 p q := ⟨j 0, j 1, eq_ix2 j⟩
    refine (key p q).trans (congrArg (mmWhole V c) ?_)
    funext a
    apply Fin.ext
    match a with
    | ⟨0, _⟩ => show t.val * 5000 + p.val = win5_7.index t 0 * 5000 + 1 * p.val; rw [e0]; omega
    | ⟨1, _⟩ => show q.val = win5_7.index t 1 * 128 + 1 * q.val; rw [e1]; omega
  funext j
  exact blk j

/-- An index of the array is in point t's block iff each coordinate is in the block's range on its axis. -/
private theorem mm_mem_blk (t : Fin cfg5.N) (i : S50000x128.Idx) :
    i ∈ ((cfg5.win 7).blk t).view.set ↔ ∀ a : Fin 2, win5_7.index t a * S5000x128.size a ≤ (i a).val
      ∧ (i a).val < win5_7.index t a * S5000x128.size a + S5000x128.size a := by
  show i ∈ ((View.whole main_v66).slice (win5_7.rect t)).set ↔ _
  rw [View.set_slice_whole, Rect.mem_set_unit]
  exact Iff.rfl

/-- Every entry of the array is written back: row r is in the block of point r / 5000. -/
private theorem mm_cover (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 10 := N_5
  have hlt : (i 0).val / 5000 < cfg5.N := by rw [hN]; omega
  obtain ⟨-, -, -, -, -, -, -, -, -, -, -, -, -, -, e0, e1⟩ := mm_idx_facts ⟨(i 0).val / 5000, hlt⟩
  refine ⟨⟨(i 0).val / 5000, hlt⟩, flush5_7 _, ?_⟩
  rw [mm_mem_blk]
  intro a
  match a with
  | ⟨0, _⟩ =>
    show win5_7.index ⟨(i 0).val / 5000, hlt⟩ 0 * 5000 ≤ (i 0).val ∧ (i 0).val < win5_7.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win5_7.index ⟨(i 0).val / 5000, hlt⟩ 1 * 128 ≤ (i 1).val ∧ (i 1).val < win5_7.index ⟨(i 0).val / 5000, hlt⟩ 1 * 128 + 128
    rw [e1]
    omega

/-- After the 10 grid points the output array holds relu(g (z - mu) rsqrt(var + ε) + be) · w2 + b2 of the input arrays. -/
theorem region5_value (V : (c : Dev nD) → (b : Ref sig .tc) → Buf (Elt Ideal) ((c : Thread nD τ).loc b)) (c : Dev nD) :
    (dat5 (F := Ideal) V c).arrAt 7 cfg5.N
      = Cert.Gnn.mm2Of (F := Ideal) (V c main_v56) (V c main_v60) (V c main_v62) (V c main_v63) (V c main_v64) (V c main_arg17) (V c main_v65) :=
  (dat5 (F := Ideal) V c).arrAt_eq_of_cover 7 (mmWhole V c) (fun t _ => mm_flushed_eq V c t) mm_cover

end Cert.KernelIdeal.Val

end
-- ==== Proof.KGlueB.lean ====
/-
  The second layer and the last row read of the idealized kernel program: the result buffer at the end of the run's fold,
  as a function of the buffer contents when the second message region is entered.
-/
import proofs.«403982_j39848706573800_1_alg».proof.Proof.Spec
import proofs.«403982_j39848706573800_1_alg».proof.Proof.KSpec
import proofs.«403982_j39848706573800_1_alg».proof.Proof.RegMsg3
import proofs.«403982_j39848706573800_1_alg».proof.Proof.RegMm14
import proofs.«403982_j39848706573800_1_alg».proof.Proof.RegMm25
import proofs.«403982_j39848706573800_1_alg».proof.Proof.LibSsaT
import proofs.«403982_j39848706573800_1_alg».proof.Proof.Gen.KernelIdeal.Frame

noncomputable section

namespace Cert.KernelIdeal.Val

open Idealize.ShloMosaic Idealize.ShloMosaic.TcCoe Idealize.SL.Sem Cert.KernelIdeal Cert.KernelIdeal.Gen

/-! ## Each stretch of host operations, from any contents W: the buffer an operation writes, as a function of the
contents at the stretch's inputs; and the list of the buffers the stretch writes, operation by operation -/

section Stretches
open Cert.LibStretch Cert.LibSsa

/-! ### The six host operations between the second message region and the first product: the aggregation added to the
node array, and the first bias as a row -/
private theorem ops4_v54 (W : Valuation τ sig (Elt Ideal)) :
    StableHlo.after (hostOps4 (F := Ideal)) W (Proc.devRef .tc main_v54)
      = addf (W (Proc.devRef .tc main_v48)) (Cert.Gnn.aggOf (F := Ideal) (W (Proc.devRef .tc main_v3)) (W (Proc.devRef .tc main_v50))) := by
  dsimp only [hostOps4]
  after_results
  rfl

private theorem ops4_v55 (W : Valuation τ sig (Elt Ideal)) :
    StableHlo.after (hostOps4 (F := Ideal)) W (Proc.devRef .tc main_v55)
      = Cert.Gnn.sRow129 (F := Ideal) (W (Proc.devRef .tc main_arg14)) := by
  dsimp only [hostOps4]
  after_results
  rfl

private theorem wa4 : WritesAre (hostOps4 (F := Ideal)) [main_cst_6, main_v51, main_v52, main_v53, main_v54, main_v55] := by
  writes_are

/-! ### The seven host operations after the first product: the column means as a row, and the integer constant 0 the
variance's degrees of freedom are read from -/
private theorem ops5_v60 (W : Valuation τ sig (Elt Ideal)) :
    StableHlo.after (hostOps5 (F := Ideal)) W (Proc.devRef .tc main_v60)
      = Cert.Gnn.sRow129 (F := Ideal) (Cert.Gnn.mean129 (W (Proc.devRef .tc main_v56))) := by
  dsimp only [hostOps5]
  after_results
  rfl

private theorem ops5_c9 (W : Valuation τ sig (Elt Ideal)) :
    StableHlo.after (hostOps5 (F := Ideal)) W (Proc.devRef .tc main_c_9) = constantI S_ 32 0#32 := by
  dsimp only [hostOps5]
  after_results

private theorem wa5 : WritesAre (hostOps5 (F := Ideal)) [main_cst_7, main_v57, main_cst_8, main_v58, main_v59, main_v60, main_c_9] := by
  writes_are

/-! ### Four reshapes: the variance, the scale, the shift and the second bias as rows -/
private theorem ops52_v62 (W : Valuation τ sig (Elt Ideal)) :
    StableHlo.after (hostOps5_2 (F := Ideal)) W (Proc.devRef .tc main_v62)
      = Cert.Gnn.sRow129 (F := Ideal) (W (Proc.devRef .tc main_v61)) := by
  dsimp only [hostOps5_2]
  after_results
  rfl
private theorem ops52_v63 (W : Valuation τ sig (Elt Ideal)) :
    StableHlo.after (hostOps5_2 (F := Ideal)) W (Proc.devRef .tc main_v63)
      = Cert.Gnn.sRow129 (F := Ideal) (W (Proc.devRef .tc main_arg15)) := by
  dsimp only [hostOps5_2]
  after_results
  rfl
private theorem ops52_v64 (W : Valuation τ sig (Elt Ideal)) :
    StableHlo.after (hostOps5_2 (F := Ideal)) W (Proc.devRef .tc main_v64)
      = Cert.Gnn.sRow129 (F := Ideal) (W (Proc.devRef .tc main_arg16)) := by
  dsimp only [hostOps5_2]
  after_results
  rfl
private theorem ops52_v65 (W : Valuation τ sig (Elt Ideal)) :
    StableHlo.after (hostOps5_2 (F := Ideal)) W (Proc.devRef .tc main_v65)
      = Cert.Gnn.sRow128 (F := Ideal) (W (Proc.devRef .tc main_arg18)) := by
  dsimp only [hostOps5_2]
  after_results
  rfl
private theorem wa52 : WritesAre (hostOps5_2 (F := Ideal)) [main_v62, main_v63, main_v64, main_v65] := by
  writes_are

/-! ### The sum with the features -/
private theorem ops6_v67 (W : Valuation τ sig (Elt Ideal)) :
    StableHlo.after (hostOps6 (F := Ideal)) W (Proc.devRef .tc main_v67)
      = (addf (W (Proc.devRef .tc main_v66) : FVec Ideal S50000x128 .f32) (W (Proc.devRef .tc main_arg0)) : FVec Ideal S50000x128 .f32) := by
  dsimp only [hostOps6]
  after_results
private theorem wa6 : WritesAre (hostOps6 (F := Ideal)) [main_v67] := by
  writes_are

/-! ### The column variances (no degrees of freedom removed), where the integer constant read is 0 -/
private theorem ops51_v61 (W : Valuation τ sig (Elt Ideal)) (hc : W (Proc.devRef .tc main_c_9) = constantI S_ 32 0#32) :
    StableHlo.after (hostOps5_1 (F := Ideal)) W (Proc.devRef .tc main_v61)
      = Cert.Gnn.var129 (F := Ideal) (W (Proc.devRef .tc main_v56)) := by
  dsimp only [hostOps5_1]
  after_results_simp
  simp only [StableHlo.TRef.ofBuf, StableHlo.TRef.toBuf, cast_eq]
  rw [hc]
  rfl

/-! ### The listed rows, read with a fill -/
private theorem ops61_v68 (W : Valuation τ sig (Elt Ideal)) :
    StableHlo.after (hostOps6_1 (F := Ideal)) W (Proc.devRef .tc main_v68)
      = Cert.Gnn.takeFill5 (F := Ideal) (W (Proc.devRef .tc main_v67)) (W (Proc.devRef .tc main_arg22)) := by
  dsimp only [hostOps6_1]
  after_results_simp
  simp only [StableHlo.TRef.ofBuf, StableHlo.TRef.toBuf, cast_eq]
  rfl

private theorem wa51 : WritesAre (hostOps5_1 (F := Ideal)) [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v61] := by
  writes_are
private theorem wa61 : WritesAre (hostOps6_1 (F := Ideal)) [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v68] := by
  writes_are

end Stretches

/-- The node array after the second layer's first product, from the contents at the second message region's entry. -/
def z2Of (m : (ℓ : Loc nD τ sig) → Buf (Elt Ideal) ℓ) (ρ : Dev nD → PrngReg) (c : Dev nD) : FVec Ideal S50000x129 .f32 :=
  (Cert.Gnn.lin1Of (F := Ideal) (addf (W15 (F := Ideal) m ρ c (Proc.devRef .tc main_v48)) (Cert.Gnn.aggOf (W15 (F := Ideal) m ρ c (Proc.devRef .tc main_v3)) (Cert.Gnn.msgOf (W15 (F := Ideal) m ρ c (Proc.devRef .tc main_arg1)) (W15 (F := Ideal) m ρ c (Proc.devRef .tc main_v49)) (W15 (F := Ideal) m ρ c (Proc.devRef .tc main_arg3)) (W15 (F := Ideal) m ρ c (Proc.devRef .tc main_v4)) (W15 (F := Ideal) m ρ c (Proc.devRef .tc main_arg5)) (W15 (F := Ideal) m ρ c (Proc.devRef .tc main_v5))))) (W15 (F := Ideal) m ρ c (Proc.devRef .tc main_arg13)) (Cert.Gnn.sRow129 (W15 (F := Ideal) m ρ c (Proc.devRef .tc main_arg14))))

/-! ## The fold, one level at a time from the second message region's entry

Every level is read back to the entry contents: a buffer no operation of a stretch writes, and no array of a region,
is unchanged across it (k16 … k23 one level, d17 … d23 down to the entry); a written buffer is its stretch's or its
region's function of the level below. -/

section Thread
open Cert.LibSsa
variable (m : (ℓ : Loc nD τ sig) → Buf (Elt Ideal) ℓ) (ρ : Dev nD → PrngReg) (c : Dev nD)

private theorem k16 (b : Ref sig .tc) (hb : ∀ w, Pipeline.arrRef spec3 w ≠ b) : W16 (F := Ideal) m ρ c (Proc.devRef .tc b) = W15 (F := Ideal) m ρ c (Proc.devRef .tc b) := W16_of_ne m ρ c b hb
private theorem k17 (b : Ref sig .tc) (hb : b ∉ [main_cst_6, main_v51, main_v52, main_v53, main_v54, main_v55]) : W17 (F := Ideal) m ρ c (Proc.devRef .tc b) = W16 (F := Ideal) m ρ c (Proc.devRef .tc b) := keeps wa4 _ b hb
private theorem k18 (b : Ref sig .tc) (hb : ∀ w, Pipeline.arrRef spec4 w ≠ b) : W18 (F := Ideal) m ρ c (Proc.devRef .tc b) = W17 (F := Ideal) m ρ c (Proc.devRef .tc b) := W18_of_ne m ρ c b hb
private theorem k19 (b : Ref sig .tc) (hb : b ∉ [main_cst_7, main_v57, main_cst_8, main_v58, main_v59, main_v60, main_c_9]) : W19 (F := Ideal) m ρ c (Proc.devRef .tc b) = W18 (F := Ideal) m ρ c (Proc.devRef .tc b) := keeps wa5 _ b hb
private theorem k20 (b : Ref sig .tc) (hb : b ∉ [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v61]) : W20 (F := Ideal) m ρ c (Proc.devRef .tc b) = W19 (F := Ideal) m ρ c (Proc.devRef .tc b) := keeps wa51 _ b hb
private theorem k21 (b : Ref sig .tc) (hb : b ∉ [main_v62, main_v63, main_v64, main_v65]) : W21 (F := Ideal) m ρ c (Proc.devRef .tc b) = W20 (F := Ideal) m ρ c (Proc.devRef .tc b) := keeps wa52 _ b hb
private theorem k22 (b : Ref sig .tc) (hb : ∀ w, Pipeline.arrRef spec5 w ≠ b) : W22 (F := Ideal) m ρ c (Proc.devRef .tc b) = W21 (F := Ideal) m ρ c (Proc.devRef .tc b) := W22_of_ne m ρ c b hb
private theorem k23 (b : Ref sig .tc) (hb : b ∉ [main_v67]) : W23 (F := Ideal) m ρ c (Proc.devRef .tc b) = W22 (F := Ideal) m ρ c (Proc.devRef .tc b) := keeps wa6 _ b hb

private theorem d17 (b : Ref sig .tc) (h3 : ∀ w, Pipeline.arrRef spec3 w ≠ b) (h4 : b ∉ [main_cst_6, main_v51, main_v52, main_v53, main_v54, main_v55]) : W17 (F := Ideal) m ρ c (Proc.devRef .tc b) = W15 (F := Ideal) m ρ c (Proc.devRef .tc b) :=
  (k17 m ρ c b h4).trans (k16 m ρ c b h3)
private theorem d18 (b : Ref sig .tc) (h3 : ∀ w, Pipeline.arrRef spec3 w ≠ b) (h4 : b ∉ [main_cst_6, main_v51, main_v52, main_v53, main_v54, main_v55]) (h4r : ∀ w, Pipeline.arrRef spec4 w ≠ b) : W18 (F := Ideal) m ρ c (Proc.devRef .tc b) = W15 (F := Ideal) m ρ c (Proc.devRef .tc b) :=
  (k18 m ρ c b h4r).trans (d17 m ρ c b h3 h4)
private theorem d19 (b : Ref sig .tc) (h3 : ∀ w, Pipeline.arrRef spec3 w ≠ b) (h4 : b ∉ [main_cst_6, main_v51, main_v52, main_v53, main_v54, main_v55]) (h4r : ∀ w, Pipeline.arrRef spec4 w ≠ b) (h5 : b ∉ [main_cst_7, main_v57, main_cst_8, main_v58, main_v59, main_v60, main_c_9]) : W19 (F := Ideal) m ρ c (Proc.devRef .tc b) = W15 (F := Ideal) m ρ c (Proc.devRef .tc b) :=
  (k19 m ρ c b h5).trans (d18 m ρ c b h3 h4 h4r)
private theorem d20 (b : Ref sig .tc) (h3 : ∀ w, Pipeline.arrRef spec3 w ≠ b) (h4 : b ∉ [main_cst_6, main_v51, main_v52, main_v53, main_v54, main_v55]) (h4r : ∀ w, Pipeline.arrRef spec4 w ≠ b) (h5 : b ∉ [main_cst_7, main_v57, main_cst_8, main_v58, main_v59, main_v60, main_c_9]) (h51 : b ∉ [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v61]) : W20 (F := Ideal) m ρ c (Proc.devRef .tc b) = W15 (F := Ideal) m ρ c (Proc.devRef .tc b) :=
  (k20 m ρ c b h51).trans (d19 m ρ c b h3 h4 h4r h5)
private theorem d21 (b : Ref sig .tc) (h3 : ∀ w, Pipeline.arrRef spec3 w ≠ b) (h4 : b ∉ [main_cst_6, main_v51, main_v52, main_v53, main_v54, main_v55]) (h4r : ∀ w, Pipeline.arrRef spec4 w ≠ b) (h5 : b ∉ [main_cst_7, main_v57, main_cst_8, main_v58, main_v59, main_v60, main_c_9]) (h51 : b ∉ [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v61]) (h52 : b ∉ [main_v62, main_v63, main_v64, main_v65]) : W21 (F := Ideal) m ρ c (Proc.devRef .tc b) = W15 (F := Ideal) m ρ c (Proc.devRef .tc b) :=
  (k21 m ρ c b h52).trans (d20 m ρ c b h3 h4 h4r h5 h51)
private theorem d22 (b : Ref sig .tc) (h3 : ∀ w, Pipeline.arrRef spec3 w ≠ b) (h4 : b ∉ [main_cst_6, main_v51, main_v52, main_v53, main_v54, main_v55]) (h4r : ∀ w, Pipeline.arrRef spec4 w ≠ b) (h5 : b ∉ [main_cst_7, main_v57, main_cst_8, main_v58, main_v59, main_v60, main_c_9]) (h51 : b ∉ [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v61]) (h52 : b ∉ [main_v62, main_v63, main_v64, main_v65]) (h5r : ∀ w, Pipeline.arrRef spec5 w ≠ b) : W22 (F := Ideal) m ρ c (Proc.devRef .tc b) = W15 (F := Ideal) m ρ c (Proc.devRef .tc b) :=
  (k22 m ρ c b h5r).trans (d21 m ρ c b h3 h4 h4r h5 h51 h52)
private theorem d23 (b : Ref sig .tc) (h3 : ∀ w, Pipeline.arrRef spec3 w ≠ b) (h4 : b ∉ [main_cst_6, main_v51, main_v52, main_v53, main_v54, main_v55]) (h4r : ∀ w, Pipeline.arrRef spec4 w ≠ b) (h5 : b ∉ [main_cst_7, main_v57, main_cst_8, main_v58, main_v59, main_v60, main_c_9]) (h51 : b ∉ [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v61]) (h52 : b ∉ [main_v62, main_v63, main_v64, main_v65]) (h5r : ∀ w, Pipeline.arrRef spec5 w ≠ b) (h6 : b ∉ [main_v67]) : W23 (F := Ideal) m ρ c (Proc.devRef .tc b) = W15 (F := Ideal) m ρ c (Proc.devRef .tc b) :=
  (k23 m ρ c b h6).trans (d22 m ρ c b h3 h4 h4r h5 h51 h52 h5r)

private theorem v50_16 : W16 (F := Ideal) m ρ c (Proc.devRef .tc main_v50) = (Cert.Gnn.msgOf (F := Ideal) (W15 (F := Ideal) m ρ c (Proc.devRef .tc main_arg1)) (W15 (F := Ideal) m ρ c (Proc.devRef .tc main_v49)) (W15 (F := Ideal) m ρ c (Proc.devRef .tc main_arg3)) (W15 (F := Ideal) m ρ c (Proc.devRef .tc main_v4)) (W15 (F := Ideal) m ρ c (Proc.devRef .tc main_arg5)) (W15 (F := Ideal) m ρ c (Proc.devRef .tc main_v5))) :=
  (W16_arr m ρ c 6).trans (region3_value (V15 m ρ) c)

private theorem v54_17 : W17 (F := Ideal) m ρ c (Proc.devRef .tc main_v54) = addf (W15 (F := Ideal) m ρ c (Proc.devRef .tc main_v48)) (Cert.Gnn.aggOf (W15 (F := Ideal) m ρ c (Proc.devRef .tc main_v3)) (Cert.Gnn.msgOf (F := Ideal) (W15 (F := Ideal) m ρ c (Proc.devRef .tc main_arg1)) (W15 (F := Ideal) m ρ c (Proc.devRef .tc main_v49)) (W15 (F := Ideal) m ρ c (Proc.devRef .tc main_arg3)) (W15 (F := Ideal) m ρ c (Proc.devRef .tc main_v4)) (W15 (F := Ideal) m ρ c (Proc.devRef .tc main_arg5)) (W15 (F := Ideal) m ρ c (Proc.devRef .tc main_v5)))) := by
  refine (ops4_v54 (W16 m ρ c)).trans ?_
  rw [v50_16, k16 m ρ c main_v48 (by decide), k16 m ρ c main_v3 (by decide)]

private theorem v55_17 : W17 (F := Ideal) m ρ c (Proc.devRef .tc main_v55) = Cert.Gnn.sRow129 (F := Ideal) (W15 (F := Ideal) m ρ c (Proc.devRef .tc main_arg14)) := by
  refine (ops4_v55 (W16 m ρ c)).trans ?_
  rw [k16 m ρ c main_arg14 (by decide)]

private theorem v56_18 : W18 (F := Ideal) m ρ c (Proc.devRef .tc main_v56) = z2Of m ρ c := by
  refine ((W18_arr m ρ c 3).trans (region4_value (V17 m ρ) c)).trans ?_
  show Cert.Gnn.lin1Of (F := Ideal) (W17 (F := Ideal) m ρ c (Proc.devRef .tc main_v54)) (W17 (F := Ideal) m ρ c (Proc.devRef .tc main_arg13)) (W17 (F := Ideal) m ρ c (Proc.devRef .tc main_v55)) = _
  rw [v54_17, v55_17, d17 m ρ c main_arg13 (by decide) (by decide)]
  rfl

private theorem v56_19 : W19 (F := Ideal) m ρ c (Proc.devRef .tc main_v56) = z2Of m ρ c := (k19 m ρ c main_v56 (by decide)).trans (v56_18 m ρ c)
private theorem v60_19 : W19 (F := Ideal) m ρ c (Proc.devRef .tc main_v60) = Cert.Gnn.sRow129 (F := Ideal) (Cert.Gnn.mean129 (z2Of m ρ c)) := by
  refine (ops5_v60 (W18 m ρ c)).trans ?_
  rw [v56_18]
private theorem c9_19 : W19 (F := Ideal) m ρ c (Proc.devRef .tc main_c_9) = constantI S_ 32 0#32 := ops5_c9 (W18 m ρ c)

private theorem v61_20 : W20 (F := Ideal) m ρ c (Proc.devRef .tc main_v61) = Cert.Gnn.var129 (F := Ideal) (z2Of m ρ c) := by
  refine (ops51_v61 (W19 m ρ c) (c9_19 m ρ c)).trans ?_
  rw [v56_19]
private theorem v56_20 : W20 (F := Ideal) m ρ c (Proc.devRef .tc main_v56) = z2Of m ρ c := (k20 m ρ c main_v56 (by decide)).trans (v56_19 m ρ c)
private theorem v60_20 : W20 (F := Ideal) m ρ c (Proc.devRef .tc main_v60) = Cert.Gnn.sRow129 (F := Ideal) (Cert.Gnn.mean129 (z2Of m ρ c)) := (k20 m ρ c main_v60 (by decide)).trans (v60_19 m ρ c)

private theorem v62_21 : W21 (F := Ideal) m ρ c (Proc.devRef .tc main_v62) = Cert.Gnn.sRow129 (F := Ideal) (Cert.Gnn.var129 (z2Of m ρ c)) := by
  refine (ops52_v62 (W20 m ρ c)).trans ?_
  rw [v61_20]
private theorem v63_21 : W21 (F := Ideal) m ρ c (Proc.devRef .tc main_v63) = Cert.Gnn.sRow129 (F := Ideal) (W15 (F := Ideal) m ρ c (Proc.devRef .tc main_arg15)) := by
  refine (ops52_v63 (W20 m ρ c)).trans ?_
  rw [d20 m ρ c main_arg15 (by decide) (by decide) (by decide) (by decide) (by decide)]
private theorem v64_21 : W21 (F := Ideal) m ρ c (Proc.devRef .tc main_v64) = Cert.Gnn.sRow129 (F := Ideal) (W15 (F := Ideal) m ρ c (Proc.devRef .tc main_arg16)) := by
  refine (ops52_v64 (W20 m ρ c)).trans ?_
  rw [d20 m ρ c main_arg16 (by decide) (by decide) (by decide) (by decide) (by decide)]
private theorem v65_21 : W21 (F := Ideal) m ρ c (Proc.devRef .tc main_v65) = Cert.Gnn.sRow128 (F := Ideal) (W15 (F := Ideal) m ρ c (Proc.devRef .tc main_arg18)) := by
  refine (ops52_v65 (W20 m ρ c)).trans ?_
  rw [d20 m ρ c main_arg18 (by decide) (by decide) (by decide) (by decide) (by decide)]
private theorem v56_21 : W21 (F := Ideal) m ρ c (Proc.devRef .tc main_v56) = z2Of m ρ c := (k21 m ρ c main_v56 (by decide)).trans (v56_20 m ρ c)
private theorem v60_21 : W21 (F := Ideal) m ρ c (Proc.devRef .tc main_v60) = Cert.Gnn.sRow129 (F := Ideal) (Cert.Gnn.mean129 (z2Of m ρ c)) := (k21 m ρ c main_v60 (by decide)).trans (v60_20 m ρ c)

private theorem v66_22 : W22 (F := Ideal) m ρ c (Proc.devRef .tc main_v66) = (Cert.Gnn.mm2Of (F := Ideal) (z2Of m ρ c) (Cert.Gnn.sRow129 (Cert.Gnn.mean129 (z2Of m ρ c))) (Cert.Gnn.sRow129 (Cert.Gnn.var129 (z2Of m ρ c))) (Cert.Gnn.sRow129 (W15 (F := Ideal) m ρ c (Proc.devRef .tc main_arg15))) (Cert.Gnn.sRow129 (W15 (F := Ideal) m ρ c (Proc.devRef .tc main_arg16))) (W15 (F := Ideal) m ρ c (Proc.devRef .tc main_arg17)) (Cert.Gnn.sRow128 (W15 (F := Ideal) m ρ c (Proc.devRef .tc main_arg18)))) := by
  refine ((W22_arr m ρ c 7).trans (region5_value (V21 m ρ) c)).trans ?_
  show Cert.Gnn.mm2Of (F := Ideal) (W21 (F := Ideal) m ρ c (Proc.devRef .tc main_v56)) (W21 (F := Ideal) m ρ c (Proc.devRef .tc main_v60)) (W21 (F := Ideal) m ρ c (Proc.devRef .tc main_v62)) (W21 (F := Ideal) m ρ c (Proc.devRef .tc main_v63)) (W21 (F := Ideal) m ρ c (Proc.devRef .tc main_v64)) (W21 (F := Ideal) m ρ c (Proc.devRef .tc main_arg17)) (W21 (F := Ideal) m ρ c (Proc.devRef .tc main_v65)) = _
  rw [v56_21, v60_21, v62_21, v63_21, v64_21, v65_21, d21 m ρ c main_arg17 (by decide) (by decide) (by decide) (by decide) (by decide) (by decide)]

private theorem v67_23 : W23 (F := Ideal) m ρ c (Proc.devRef .tc main_v67) = addf (Cert.Gnn.mm2Of (F := Ideal) (z2Of m ρ c) (Cert.Gnn.sRow129 (Cert.Gnn.mean129 (z2Of m ρ c))) (Cert.Gnn.sRow129 (Cert.Gnn.var129 (z2Of m ρ c))) (Cert.Gnn.sRow129 (W15 (F := Ideal) m ρ c (Proc.devRef .tc main_arg15))) (Cert.Gnn.sRow129 (W15 (F := Ideal) m ρ c (Proc.devRef .tc main_arg16))) (W15 (F := Ideal) m ρ c (Proc.devRef .tc main_arg17)) (Cert.Gnn.sRow128 (W15 (F := Ideal) m ρ c (Proc.devRef .tc main_arg18)))) (W15 (F := Ideal) m ρ c (Proc.devRef .tc main_arg0)) := by
  refine (ops6_v67 (W22 m ρ c)).trans ?_
  rw [v66_22, d22 m ρ c main_arg0 (by decide) (by decide) (by decide) (by decide) (by decide) (by decide) (by decide)]

end Thread

/-- From the second message region's entry on: the region's messages, their aggregation, the two products with the
    batch statistics between, the sum with the features and the listed rows. -/
theorem second_layer (m : (ℓ : Loc nD τ sig) → Buf (Elt Ideal) ℓ) (ρ : Dev nD → PrngReg) (c : Dev nD) :
    W24 (F := Ideal) m ρ c (Proc.devRef .tc main_v68)
      = Cert.Gnn.takeFill5 (F := Ideal)
          (addf (Cert.Gnn.mm2Of (F := Ideal) (z2Of m ρ c) (Cert.Gnn.sRow129 (Cert.Gnn.mean129 (z2Of m ρ c)))
              (Cert.Gnn.sRow129 (Cert.Gnn.var129 (z2Of m ρ c))) (Cert.Gnn.sRow129 (W15 (F := Ideal) m ρ c (Proc.devRef .tc main_arg15)))
              (Cert.Gnn.sRow129 (W15 (F := Ideal) m ρ c (Proc.devRef .tc main_arg16))) (W15 (F := Ideal) m ρ c (Proc.devRef .tc main_arg17)) (Cert.Gnn.sRow128 (W15 (F := Ideal) m ρ c (Proc.devRef .tc main_arg18))))
            (W15 (F := Ideal) m ρ c (Proc.devRef .tc main_arg0)))
          (W15 (F := Ideal) m ρ c (Proc.devRef .tc main_arg22)) := by
  refine (ops61_v68 (W23 m ρ c)).trans ?_
  rw [v67_23, d23 m ρ c main_arg22 (by decide) (by decide) (by decide) (by decide) (by decide) (by decide) (by decide) (by decide)]

end Cert.KernelIdeal.Val

end
-- ==== Proof.KGlue.lean ====
/-
  The idealized kernel program's result buffer after its run, as the network function of the launch's argument arrays:
  each stretch of host operations read as a composite of its inputs, each region's output array as its value function.
-/
import proofs.«403982_j39848706573800_1_alg».proof.Proof.Spec
import proofs.«403982_j39848706573800_1_alg».proof.Proof.KSpec
import proofs.«403982_j39848706573800_1_alg».proof.Proof.LibSsaT
import proofs.«403982_j39848706573800_1_alg».proof.Proof.RegMsg0
import proofs.«403982_j39848706573800_1_alg».proof.Proof.RegMm10
import proofs.«403982_j39848706573800_1_alg».proof.Proof.KGlueA2
import proofs.«403982_j39848706573800_1_alg».proof.Proof.KGlueA3
import proofs.«403982_j39848706573800_1_alg».proof.Proof.KGlueB
import proofs.«403982_j39848706573800_1_alg».proof.Proof.Gen.KernelIdeal.Frame
import Idealize.ShloMosaic.PureOps.Ideal

noncomputable section

namespace Cert.KernelIdeal.Val

open Idealize.ShloMosaic Idealize.ShloMosaic.TcCoe Idealize.SL.Sem Cert.KernelIdeal Cert.KernelIdeal.Gen
open Cert.LibStretch Cert.LibSsa

/-! ## The first stretches of host operations, from any contents -/

section Stretches

variable (W : Valuation τ sig (Elt Ideal))

/-- The edge list's first row, as a vector. -/
theorem s0_v1 : StableHlo.after (hostOps0 (F := Ideal)) W (Proc.devRef .tc main_v1)
    = Cert.Gnn.srcOf (W (Proc.devRef .tc main_arg21)) := by
  dsimp only [hostOps0]
  after_results
  rfl

/-- The edge list's second row, as a vector. -/
theorem s0_v3 : StableHlo.after (hostOps0 (F := Ideal)) W (Proc.devRef .tc main_v3)
    = Cert.Gnn.dstOf (W (Proc.devRef .tc main_arg21)) := by
  dsimp only [hostOps0]
  after_results
  rfl

/-- The first bias of the edge embedding, as a row. -/
theorem s0_v4 : StableHlo.after (hostOps0 (F := Ideal)) W (Proc.devRef .tc main_v4)
    = Cert.Gnn.sRow129 (F := Ideal) (W (Proc.devRef .tc main_arg4)) := by
  dsimp only [hostOps0]
  after_results
  rfl

/-- The second bias of the edge embedding, as a row. -/
theorem s0_v5 : StableHlo.after (hostOps0 (F := Ideal)) W (Proc.devRef .tc main_v5)
    = Cert.Gnn.sRow129 (F := Ideal) (W (Proc.devRef .tc main_arg6)) := by
  dsimp only [hostOps0]
  after_results
  rfl

/-- The features with the indicator appended. -/
theorem s0_v7 : StableHlo.after (hostOps0 (F := Ideal)) W (Proc.devRef .tc main_v7)
    = Cert.Gnn.xcat (F := Ideal) (W (Proc.devRef .tc main_arg0)) (W (Proc.devRef .tc main_arg2)) := by
  dsimp only [hostOps0]
  after_results
  rfl

/-- The node array's rows at the sources, filled where the index is out of range. -/
theorem s0_1_v8 : StableHlo.after (hostOps0_1 (F := Ideal)) W (Proc.devRef .tc main_v8)
    = Cert.Gnn.takeFill6 (F := Ideal) (W (Proc.devRef .tc main_v7)) (W (Proc.devRef .tc main_v1)) := by
  dsimp only [hostOps0_1]
  after_results_simp
  simp only [Cert.LibSsa.ofBuf_toBuf]
  simp only [StableHlo.TRef.ofBuf, StableHlo.TRef.toBuf, cast_eq]
  rfl

/-- The node array plus the messages summed at their destinations. -/
theorem s1_v13 : StableHlo.after (hostOps1 (F := Ideal)) W (Proc.devRef .tc main_v13)
    = addf (W (Proc.devRef .tc main_v7))
        (Cert.Gnn.aggOf (F := Ideal) (W (Proc.devRef .tc main_v3)) (W (Proc.devRef .tc main_v9))) := by
  dsimp only [hostOps1]
  after_results
  rfl

/-- The first product's bias, as a row. -/
theorem s1_v14 : StableHlo.after (hostOps1 (F := Ideal)) W (Proc.devRef .tc main_v14)
    = Cert.Gnn.sRow129 (F := Ideal) (W (Proc.devRef .tc main_arg8)) := by
  dsimp only [hostOps1]
  after_results
  rfl

end Stretches

/-! ## What each stretch writes -/

theorem wa0 : WritesAre (hostOps0 (F := Ideal))
    [main_v0, main_v1, main_v2, main_v3, main_v4, main_v5, main_v6, main_v7] := by
  writes_are

theorem wa0_1 : WritesAre (hostOps0_1 (F := Ideal))
    [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14,
      main_call0_cst, main_call0_v15, main_v8] := by
  writes_are

theorem wa1 : WritesAre (hostOps1 (F := Ideal))
    [main_cst, main_v10, main_v11, main_v12, main_v13, main_v14] := by
  writes_are

/-! ## The buffers that pass unwritten from the first stretch's end to the first product region's exit -/

/-- The 23 argument arrays. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- The buffers read again later: the edge list's two rows, the two bias rows, the node array, the arguments. -/
def keptRefs : List (Ref sig .tc) :=
  [main_v1, main_v3, main_v4, main_v5, main_v7, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem args_not_ys0 : ∀ b ∈ argRefs,
    b ∉ [main_v0, main_v1, main_v2, main_v3, main_v4, main_v5, main_v6, main_v7] := by decide

theorem kept_not_ys0_1 : ∀ b ∈ keptRefs,
    b ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14,
      main_call0_cst, main_call0_v15, main_v8] := by decide

theorem kept_not_ys1 : ∀ b ∈ keptRefs,
    b ∉ [main_cst, main_v10, main_v11, main_v12, main_v13, main_v14] := by decide

/-- Of the kept buffers, the message region's arrays are five of its inputs. -/
theorem kept_not_arr0 : ∀ b ∈ keptRefs, b ∉ [main_arg1, main_arg3, main_v4, main_arg5, main_v5] →
    ∀ w, Pipeline.arrRef spec0 w ≠ b := by decide

/-- Of the kept buffers, the first product region's arrays are one of its inputs. -/
theorem kept_not_arr1 : ∀ b ∈ keptRefs, b ∉ [main_arg7] → ∀ w, Pipeline.arrRef spec1 w ≠ b := by decide

section Run

variable (m : (ℓ : Loc nD τ sig) → Buf (Elt Ideal) ℓ) (ρ : Dev nD → PrngReg) (c : Dev nD)

/-- An argument array after the first stretch is the launch memory's. -/
theorem W1_arg (b : Ref sig .tc) (hb : b ∈ argRefs) :
    W1 (F := Ideal) m ρ c (Proc.devRef .tc b) = m ((c.tc : Thread nD τ).loc b) :=
  keeps wa0 (W0 m ρ c) b (args_not_ys0 b hb)

/-- Through the row read. -/
theorem keep1 (b : Ref sig .tc) (hb : b ∈ keptRefs) :
    W2 (F := Ideal) m ρ c (Proc.devRef .tc b) = W1 (F := Ideal) m ρ c (Proc.devRef .tc b) :=
  keeps wa0_1 (W1 m ρ c) b (kept_not_ys0_1 b hb)

/-- Through the message region: an input array is left as entered, any other kept buffer is not among its arrays. -/
theorem keep2 (b : Ref sig .tc) (hb : b ∈ keptRefs) :
    W3 (F := Ideal) m ρ c (Proc.devRef .tc b) = W2 (F := Ideal) m ρ c (Proc.devRef .tc b) := by
  by_cases h : b ∈ [main_arg1, main_arg3, main_v4, main_arg5, main_v5]
  · simp only [List.mem_cons, List.not_mem_nil, or_false] at h
    rcases h with rfl | rfl | rfl | rfl | rfl
    · exact (W3_arr m ρ c 0).trans (((dat0 (V2 m ρ) c).arrAt_in 0 rfl _).trans (A_eq0 (V2 m ρ) c 0))
    · exact (W3_arr m ρ c 2).trans (((dat0 (V2 m ρ) c).arrAt_in 2 rfl _).trans (A_eq0 (V2 m ρ) c 2))
    · exact (W3_arr m ρ c 3).trans (((dat0 (V2 m ρ) c).arrAt_in 3 rfl _).trans (A_eq0 (V2 m ρ) c 3))
    · exact (W3_arr m ρ c 4).trans (((dat0 (V2 m ρ) c).arrAt_in 4 rfl _).trans (A_eq0 (V2 m ρ) c 4))
    · exact (W3_arr m ρ c 5).trans (((dat0 (V2 m ρ) c).arrAt_in 5 rfl _).trans (A_eq0 (V2 m ρ) c 5))
  · exact W3_of_ne m ρ c b (kept_not_arr0 b hb h)

/-- Through the aggregation. -/
theorem keep3 (b : Ref sig .tc) (hb : b ∈ keptRefs) :
    W4 (F := Ideal) m ρ c (Proc.devRef .tc b) = W3 (F := Ideal) m ρ c (Proc.devRef .tc b) :=
  keeps wa1 (W3 m ρ c) b (kept_not_ys1 b hb)

/-- Through the first product region. -/
theorem keep4 (b : Ref sig .tc) (hb : b ∈ keptRefs) :
    W5 (F := Ideal) m ρ c (Proc.devRef .tc b) = W4 (F := Ideal) m ρ c (Proc.devRef .tc b) := by
  by_cases h : b ∈ [main_arg7]
  · simp only [List.mem_cons, List.not_mem_nil, or_false] at h
    subst h
    exact (W5_arr m ρ c 1).trans (((dat1 (V4 m ρ) c).arrAt_in 1 rfl _).trans (A_eq1 (V4 m ρ) c 1))
  · exact W5_of_ne m ρ c b (kept_not_arr1 b hb h)

end Run

/-! ## The first layer up to its first product, buffer by buffer -/

section Values

variable (m : (ℓ : Loc nD τ sig) → Buf (Elt Ideal) ℓ) (ρ : Dev nD → PrngReg) (c : Dev nD)

theorem W1_v1 : W1 (F := Ideal) m ρ c (Proc.devRef .tc main_v1) = Cert.Gnn.srcOf (m ((c.tc : Thread nD τ).loc main_arg21)) := s0_v1 (W0 m ρ c)
theorem W1_v3 : W1 (F := Ideal) m ρ c (Proc.devRef .tc main_v3) = Cert.Gnn.dstOf (m ((c.tc : Thread nD τ).loc main_arg21)) := s0_v3 (W0 m ρ c)
theorem W1_v4 : W1 (F := Ideal) m ρ c (Proc.devRef .tc main_v4) = Cert.Gnn.sRow129 (F := Ideal) (m ((c.tc : Thread nD τ).loc main_arg4)) := s0_v4 (W0 m ρ c)
theorem W1_v5 : W1 (F := Ideal) m ρ c (Proc.devRef .tc main_v5) = Cert.Gnn.sRow129 (F := Ideal) (m ((c.tc : Thread nD τ).loc main_arg6)) := s0_v5 (W0 m ρ c)
theorem W1_v7 : W1 (F := Ideal) m ρ c (Proc.devRef .tc main_v7) = Cert.Gnn.xcat (F := Ideal) (m ((c.tc : Thread nD τ).loc main_arg0)) (m ((c.tc : Thread nD τ).loc main_arg2)) := s0_v7 (W0 m ρ c)

/-- A kept buffer at the message region's entry. -/
theorem at2 (b : Ref sig .tc) (hb : b ∈ keptRefs) : W2 (F := Ideal) m ρ c (Proc.devRef .tc b) = W1 (F := Ideal) m ρ c (Proc.devRef .tc b) := keep1 m ρ c b hb
/-- A kept buffer at the message region's exit. -/
theorem at3 (b : Ref sig .tc) (hb : b ∈ keptRefs) : W3 (F := Ideal) m ρ c (Proc.devRef .tc b) = W1 (F := Ideal) m ρ c (Proc.devRef .tc b) :=
  (keep2 m ρ c b hb).trans (at2 m ρ c b hb)
/-- A kept buffer at the first product region's entry. -/
theorem at4 (b : Ref sig .tc) (hb : b ∈ keptRefs) : W4 (F := Ideal) m ρ c (Proc.devRef .tc b) = W1 (F := Ideal) m ρ c (Proc.devRef .tc b) :=
  (keep3 m ρ c b hb).trans (at3 m ρ c b hb)
/-- A kept buffer at the first product region's exit. -/
theorem at5 (b : Ref sig .tc) (hb : b ∈ keptRefs) : W5 (F := Ideal) m ρ c (Proc.devRef .tc b) = W1 (F := Ideal) m ρ c (Proc.devRef .tc b) :=
  (keep4 m ρ c b hb).trans (at4 m ρ c b hb)

/-- The rows of the node array at the sources. -/
theorem W2_v8 : W2 (F := Ideal) m ρ c (Proc.devRef .tc main_v8) = Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21))) :=
  (s0_1_v8 (W1 m ρ c)).trans (by rw [W1_v7, W1_v1])

/-- The messages. -/
theorem W3_v9 : W3 (F := Ideal) m ρ c (Proc.devRef .tc main_v9) = Cert.Gnn.msgOf (F := Ideal) (m ((c.tc : Thread nD τ).loc main_arg1)) (Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21)))) (m ((c.tc : Thread nD τ).loc main_arg3)) (Cert.Gnn.sRow129 (m ((c.tc : Thread nD τ).loc main_arg4))) (m ((c.tc : Thread nD τ).loc main_arg5)) (Cert.Gnn.sRow129 (m ((c.tc : Thread nD τ).loc main_arg6))) :=
  (W3_arr m ρ c 6).trans ((region0_value (V2 m ρ) c).trans (by
    show Cert.Gnn.msgOf (F := Ideal) (W2 (F := Ideal) m ρ c (Proc.devRef .tc main_arg1)) (W2 (F := Ideal) m ρ c (Proc.devRef .tc main_v8)) (W2 (F := Ideal) m ρ c (Proc.devRef .tc main_arg3)) (W2 (F := Ideal) m ρ c (Proc.devRef .tc main_v4)) (W2 (F := Ideal) m ρ c (Proc.devRef .tc main_arg5)) (W2 (F := Ideal) m ρ c (Proc.devRef .tc main_v5)) = _
    rw [W2_v8, at2 m ρ c main_arg1 (by decide), at2 m ρ c main_arg3 (by decide), at2 m ρ c main_v4 (by decide),
      at2 m ρ c main_arg5 (by decide), at2 m ρ c main_v5 (by decide), W1_v4, W1_v5,
      W1_arg m ρ c main_arg1 (by decide), W1_arg m ρ c main_arg3 (by decide), W1_arg m ρ c main_arg5 (by decide)]))

/-- The node array plus the aggregated messages. -/
theorem W4_v13 : W4 (F := Ideal) m ρ c (Proc.devRef .tc main_v13) = addf (Cert.Gnn.xcat (F := Ideal) (m ((c.tc : Thread nD τ).loc main_arg0)) (m ((c.tc : Thread nD τ).loc main_arg2))) (Cert.Gnn.aggOf (F := Ideal) (Cert.Gnn.dstOf (m ((c.tc : Thread nD τ).loc main_arg21))) (Cert.Gnn.msgOf (F := Ideal) (m ((c.tc : Thread nD τ).loc main_arg1)) (Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21)))) (m ((c.tc : Thread nD τ).loc main_arg3)) (Cert.Gnn.sRow129 (m ((c.tc : Thread nD τ).loc main_arg4))) (m ((c.tc : Thread nD τ).loc main_arg5)) (Cert.Gnn.sRow129 (m ((c.tc : Thread nD τ).loc main_arg6))))) :=
  (s1_v13 (W3 m ρ c)).trans (by
    rw [W3_v9, at3 m ρ c main_v7 (by decide), at3 m ρ c main_v3 (by decide), W1_v7, W1_v3])

/-- The first product's bias row. -/
theorem W4_v14 : W4 (F := Ideal) m ρ c (Proc.devRef .tc main_v14) = Cert.Gnn.sRow129 (F := Ideal) (m ((c.tc : Thread nD τ).loc main_arg8)) :=
  (s1_v14 (W3 m ρ c)).trans (by rw [at3 m ρ c main_arg8 (by decide), W1_arg m ρ c main_arg8 (by decide)])

/-- The first product. -/
theorem W5_v15 : W5 (F := Ideal) m ρ c (Proc.devRef .tc main_v15) = Cert.Gnn.lin1Of (F := Ideal) (addf (Cert.Gnn.xcat (F := Ideal) (m ((c.tc : Thread nD τ).loc main_arg0)) (m ((c.tc : Thread nD τ).loc main_arg2))) (Cert.Gnn.aggOf (F := Ideal) (Cert.Gnn.dstOf (m ((c.tc : Thread nD τ).loc main_arg21))) (Cert.Gnn.msgOf (F := Ideal) (m ((c.tc : Thread nD τ).loc main_arg1)) (Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21)))) (m ((c.tc : Thread nD τ).loc main_arg3)) (Cert.Gnn.sRow129 (m ((c.tc : Thread nD τ).loc main_arg4))) (m ((c.tc : Thread nD τ).loc main_arg5)) (Cert.Gnn.sRow129 (m ((c.tc : Thread nD τ).loc main_arg6)))))) (m ((c.tc : Thread nD τ).loc main_arg7)) (Cert.Gnn.sRow129 (m ((c.tc : Thread nD τ).loc main_arg8))) :=
  (W5_arr m ρ c 3).trans ((region1_value (V4 m ρ) c).trans (by
    show Cert.Gnn.lin1Of (F := Ideal) (W4 (F := Ideal) m ρ c (Proc.devRef .tc main_v13)) (W4 (F := Ideal) m ρ c (Proc.devRef .tc main_arg7)) (W4 (F := Ideal) m ρ c (Proc.devRef .tc main_v14)) = _
    rw [W4_v13, W4_v14, at4 m ρ c main_arg7 (by decide), W1_arg m ρ c main_arg7 (by decide)]))

end Values

/-! ## The whole run: the stages composed -/

/-- The buffers kept through the middle stage are among the kept ones. -/
theorem mid_sub_kept : ∀ b ∈ [main_v1, main_v3, main_v4, main_v5, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22], b ∈ keptRefs := by decide

/-- The arguments are among the buffers kept through the middle stage. -/
theorem args_sub_mid : ∀ b ∈ argRefs, b ∈ [main_v1, main_v3, main_v4, main_v5, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22] := by decide

section Whole

variable (m : (ℓ : Loc nD τ sig) → Buf (Elt Ideal) ℓ) (ρ : Dev nD → PrngReg) (c : Dev nD)

/-- A kept buffer at the first layer's end. -/
theorem at9 (b : Ref sig .tc) (hb : b ∈ keptRefs) : W9 (F := Ideal) m ρ c (Proc.devRef .tc b) = W1 (F := Ideal) m ρ c (Proc.devRef .tc b) :=
  (first_keep m ρ c b hb).trans (at5 m ρ c b hb)

/-- A buffer kept through the middle stage, at the second message region's entry. -/
theorem at15 (b : Ref sig .tc) (hb : b ∈ [main_v1, main_v3, main_v4, main_v5, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]) :
    W15 (F := Ideal) m ρ c (Proc.devRef .tc b) = W1 (F := Ideal) m ρ c (Proc.devRef .tc b) :=
  (mid_keep m ρ c b hb).trans (at9 m ρ c b (mid_sub_kept b hb))

/-- An argument array at the first layer's end. -/
theorem W9_arg (b : Ref sig .tc) (hb : b ∈ argRefs) : W9 (F := Ideal) m ρ c (Proc.devRef .tc b) = m ((c.tc : Thread nD τ).loc b) :=
  (at9 m ρ c b (mid_sub_kept b (args_sub_mid b hb))).trans (W1_arg m ρ c b hb)

/-- An argument array at the second message region's entry. -/
theorem W15_arg (b : Ref sig .tc) (hb : b ∈ argRefs) : W15 (F := Ideal) m ρ c (Proc.devRef .tc b) = m ((c.tc : Thread nD τ).loc b) :=
  (at15 m ρ c b (args_sub_mid b hb)).trans (W1_arg m ρ c b hb)

/-- The first layer's output. -/
theorem W9_v25 : W9 (F := Ideal) m ρ c (Proc.devRef .tc main_v25)
    = Cert.Gnn.mm2Of (F := Ideal) (Cert.Gnn.lin1Of (F := Ideal) (addf (Cert.Gnn.xcat (F := Ideal) (m ((c.tc : Thread nD τ).loc main_arg0)) (m ((c.tc : Thread nD τ).loc main_arg2))) (Cert.Gnn.aggOf (F := Ideal) (Cert.Gnn.dstOf (m ((c.tc : Thread nD τ).loc main_arg21))) (Cert.Gnn.msgOf (F := Ideal) (m ((c.tc : Thread nD τ).loc main_arg1)) (Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21)))) (m ((c.tc : Thread nD τ).loc main_arg3)) (Cert.Gnn.sRow129 (m ((c.tc : Thread nD τ).loc main_arg4))) (m ((c.tc : Thread nD τ).loc main_arg5)) (Cert.Gnn.sRow129 (m ((c.tc : Thread nD τ).loc main_arg6)))))) (m ((c.tc : Thread nD τ).loc main_arg7)) (Cert.Gnn.sRow129 (m ((c.tc : Thread nD τ).loc main_arg8)))) (Cert.Gnn.sRow129 (Cert.Gnn.mean129 (Cert.Gnn.lin1Of (F := Ideal) (addf (Cert.Gnn.xcat (F := Ideal) (m ((c.tc : Thread nD τ).loc main_arg0)) (m ((c.tc : Thread nD τ).loc main_arg2))) (Cert.Gnn.aggOf (F := Ideal) (Cert.Gnn.dstOf (m ((c.tc : Thread nD τ).loc main_arg21))) (Cert.Gnn.msgOf (F := Ideal) (m ((c.tc : Thread nD τ).loc main_arg1)) (Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21)))) (m ((c.tc : Thread nD τ).loc main_arg3)) (Cert.Gnn.sRow129 (m ((c.tc : Thread nD τ).loc main_arg4))) (m ((c.tc : Thread nD τ).loc main_arg5)) (Cert.Gnn.sRow129 (m ((c.tc : Thread nD τ).loc main_arg6)))))) (m ((c.tc : Thread nD τ).loc main_arg7)) (Cert.Gnn.sRow129 (m ((c.tc : Thread nD τ).loc main_arg8)))))) (Cert.Gnn.sRow129 (Cert.Gnn.var129 (Cert.Gnn.lin1Of (F := Ideal) (addf (Cert.Gnn.xcat (F := Ideal) (m ((c.tc : Thread nD τ).loc main_arg0)) (m ((c.tc : Thread nD τ).loc main_arg2))) (Cert.Gnn.aggOf (F := Ideal) (Cert.Gnn.dstOf (m ((c.tc : Thread nD τ).loc main_arg21))) (Cert.Gnn.msgOf (F := Ideal) (m ((c.tc : Thread nD τ).loc main_arg1)) (Cert.Gnn.takeFill6 (F := Ideal) (Cert.Gnn.xcat (F := Ideal) (m ((c.tc : Thread nD τ).loc main_arg0)) (m ((c.tc : Thread nD τ).loc main_arg2))) (Cert.Gnn.srcOf (m ((c.tc : Thread nD τ).loc main_arg21)))) (m ((c.tc : Thread nD τ).loc main_arg3)) (Cert.Gnn.sRow129 (m ((c.tc : Thread nD τ).loc main_arg4))) (m ((c.tc : Thread nD τ).loc main_arg5)) (Cert.Gnn.sRow129 (m ((c.tc : Thread nD τ).loc main_arg6)))))) (m ((c.tc : Thread nD τ).loc main_arg7)) (Cert.Gnn.sRow129 (m ((c.tc : Thread nD τ).loc main_arg8))))))
        (Cert.Gnn.sRow129 (m ((c.tc : Thread nD τ).loc main_arg9))) (Cert.Gnn.sRow129 (m ((c.tc : Thread nD τ).loc main_arg10))) (m ((c.tc : Thread nD τ).loc main_arg11)) (Cert.Gnn.sRow128 (m ((c.tc : Thread nD τ).loc main_arg12))) := by
  rw [first_v25 m ρ c, W5_v15, at5 m ρ c main_arg9 (by decide), at5 m ρ c main_arg10 (by decide),
    at5 m ρ c main_arg11 (by decide), at5 m ρ c main_arg12 (by decide), W1_arg m ρ c main_arg9 (by decide),
    W1_arg m ρ c main_arg10 (by decide), W1_arg m ρ c main_arg11 (by decide), W1_arg m ρ c main_arg12 (by decide)]

end Whole

/-- The result buffer at the end of the run's fold of buffer contents is the network of the launch memory's arguments,
    rows taken with a fill and vectors reshaped to rows. -/
theorem result_eq (m : (ℓ : Loc nD τ sig) → Buf (Elt Ideal) ℓ) (ρ : Dev nD → PrngReg) (c : Dev nD) :
    W24 (F := Ideal) m ρ c (Proc.devRef .tc main_v68)
      = Cert.Gnn.net (F := Ideal) Cert.Gnn.takeFill6 Cert.Gnn.takeFill5 Cert.Gnn.sRow129 Cert.Gnn.sRow128
          (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) := by
  rw [second_layer m ρ c]
  unfold z2Of
  rw [mid_v49 m ρ c, mid_v48 m ρ c, W9_v25 m ρ c,
    at9 m ρ c main_v1 (by decide), W1_v1,
    at15 m ρ c main_v3 (by decide), W1_v3, at15 m ρ c main_v4 (by decide), W1_v4,
    at15 m ρ c main_v5 (by decide), W1_v5,
    W9_arg m ρ c main_arg0 (by decide), W9_arg m ρ c main_arg2 (by decide),
    W9_arg m ρ c main_arg19 (by decide), W9_arg m ρ c main_arg20 (by decide),
    W15_arg m ρ c main_arg0 (by decide), W15_arg m ρ c main_arg1 (by decide), W15_arg m ρ c main_arg3 (by decide),
    W15_arg m ρ c main_arg5 (by decide), W15_arg m ρ c main_arg13 (by decide), W15_arg m ρ c main_arg14 (by decide),
    W15_arg m ρ c main_arg15 (by decide), W15_arg m ρ c main_arg16 (by decide), W15_arg m ρ c main_arg17 (by decide),
    W15_arg m ρ c main_arg18 (by decide), W15_arg m ρ c main_arg22 (by decide)]
  rfl

end Cert.KernelIdeal.Val

end
-- ==== Proof.RefOps.lean ====
/-
  The idealized reference's host operations in program order, the module-local functions' bodies written out at
  their calls over each call's buffers, cut into consecutive lists; the program is the run of their concatenation, and
  every weakly fair execution ends with each buffer at the fold of the operations' results over the launch contents.
-/
import proofs.«403982_j39848706573800_1_alg».proof.Proof.Gen.ReferenceIdeal
import Idealize.ShloMosaic.Lib.StableHlo.Run

noncomputable section

namespace Cert.ReferenceIdeal.Val

open Idealize.ShloMosaic Idealize.ShloMosaic.TcCoe Idealize.SL.Sem Idealize.ShloMosaic.StableHlo Cert.ReferenceIdeal Cert.ReferenceIdeal.Facts₀ Cert.ReferenceIdeal.Facts

variable {F : FTy → Type} [FloatOps F]

/-- Operations list 0: 4 operations. -/
abbrev ops0 : List (HloOp τ sig (Elt F)) :=
  [ StableHlo.unary main_arg21 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg21 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]
theorem ops0_sub : (ops0 : List (HloOp τ sig (Elt F))).Forall fun op => op.bufs ⊆ tcRefs τ sig :=
  ⟨unary_bufs_sub .., reshape_bufs_sub .., unary_bufs_sub .., reshape_bufs_sub ..⟩
theorem ops0_fresh : ∀ op ∈ (ops0 : List (HloOp τ sig (Elt F))), op.fresh = ∅ := by
  intro _ h; (repeat (cases h with | head => rfl | tail _ h => ?_)); exact nomatch h

/-- Operations list 1: 11 operations. -/
abbrev ops1 : List (HloOp τ sig (Elt F)) :=
  [ StableHlo.binary main_arg1 main_arg3 main_v4 ((fun l r => Host.dotGeneral dot_S600000x1_S1x129_S600000x129_1_0_0_1_n_n none l r) : (⟨S600000x1, .f32⟩ : BufTy).Contents (Elt F) → (⟨S1x129, .f32⟩ : BufTy).Contents (Elt F) → (⟨S600000x129, .f32⟩ : BufTy).Contents (Elt F)),
    StableHlo.unary main_arg4 main_v5 (broadcastInDim S1x129 ![1] bcast_S129_S1x129_1 : (⟨S129, .f32⟩ : BufTy).Contents (Elt F) → (⟨S1x129, .f32⟩ : BufTy).Contents (Elt F)),
    StableHlo.unary main_v5 main_v6 (broadcastInDim S600000x129 ![0, 1] bcast_S1x129_S600000x129_0_1 : (⟨S1x129, .f32⟩ : BufTy).Contents (Elt F) → (⟨S600000x129, .f32⟩ : BufTy).Contents (Elt F)),
    StableHlo.binary main_v4 main_v6 main_v7 (addf : (⟨S600000x129, .f32⟩ : BufTy).Contents (Elt F) → (⟨S600000x129, .f32⟩ : BufTy).Contents (Elt F) → (⟨S600000x129, .f32⟩ : BufTy).Contents (Elt F)),
    StableHlo.TRef.nullary main_call0.cst (constant S_ .f32 0x00000000#32),
    StableHlo.TRef.unary main_call0.cst main_call0.v0 (broadcastInDim S600000x129 ![] bcast_S_S600000x129),
    StableHlo.TRef.binary (.of main_v7) main_call0.v0 main_call0.v1 maximumf,
    StableHlo.binary main_v8 main_arg5 main_v9 ((fun l r => Host.dotGeneral dot_S600000x129_S129x129_S600000x129_1_0_0_1_n_n none l r) : (⟨S600000x129, .f32⟩ : BufTy).Contents (Elt F) → (⟨S129x129, .f32⟩ : BufTy).Contents (Elt F) → (⟨S600000x129, .f32⟩ : BufTy).Contents (Elt F)),
    StableHlo.unary main_arg6 main_v10 (broadcastInDim S1x129 ![1] bcast_S129_S1x129_1 : (⟨S129, .f32⟩ : BufTy).Contents (Elt F) → (⟨S1x129, .f32⟩ : BufTy).Contents (Elt F)),
    StableHlo.unary main_v10 main_v11 (broadcastInDim S600000x129 ![0, 1] bcast_S1x129_S600000x129_0_1 : (⟨S1x129, .f32⟩ : BufTy).Contents (Elt F) → (⟨S600000x129, .f32⟩ : BufTy).Contents (Elt F)),
    StableHlo.binary main_v9 main_v11 main_v12 (addf : (⟨S600000x129, .f32⟩ : BufTy).Contents (Elt F) → (⟨S600000x129, .f32⟩ : BufTy).Contents (Elt F) → (⟨S600000x129, .f32⟩ : BufTy).Contents (Elt F)) ]
theorem ops1_sub : (ops1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops1_fresh : ∀ op ∈ (ops1 : List (HloOp τ sig (Elt F))), op.fresh = ∅ := by
  intro _ h; (repeat (cases h with | head => rfl | tail _ h => ?_)); exact nomatch h

/-- Operations list 2: 11 operations. -/
abbrev ops2 : List (HloOp τ sig (Elt F)) :=
  [ StableHlo.unary main_arg2 main_v13 (broadcastInDim S50000x1 ![0] bcast_S50000_S50000x1_0 : (⟨S50000, .f32⟩ : BufTy).Contents (Elt F) → (⟨S50000x1, .f32⟩ : BufTy).Contents (Elt F)),
    StableHlo.binary main_arg0 main_v13 main_v14 ((fun a b => concatenate S50000x129 1 [⟨S50000x128, a⟩, ⟨S50000x1, b⟩] concatenates_S50000x128_S50000x1_S50000x129_d1) : (⟨S50000x128, .f32⟩ : BufTy).Contents (Elt F) → (⟨S50000x1, .f32⟩ : BufTy).Contents (Elt F) → (⟨S50000x129, .f32⟩ : BufTy).Contents (Elt F)),
    StableHlo.nullary main_c (constantI S_ 32 0#32),
    StableHlo.unary main_c main_v15 (broadcastInDim S600000 ![] bcast_S_S600000 : (⟨S_, .i32⟩ : BufTy).Contents (Elt F) → (⟨S600000, .i32⟩ : BufTy).Contents (Elt F)),
    StableHlo.binary main_v1 main_v15 main_v16 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v17 (broadcastInDim S600000 ![] bcast_S_S600000 : (⟨S_, .i32⟩ : BufTy).Contents (Elt F) → (⟨S600000, .i32⟩ : BufTy).Contents (Elt F)),
    StableHlo.binary main_v1 main_v17 main_v18 (addi : (⟨S600000, .i32⟩ : BufTy).Contents (Elt F) → (⟨S600000, .i32⟩ : BufTy).Contents (Elt F) → (⟨S600000, .i32⟩ : BufTy).Contents (Elt F)),
    StableHlo.ternary main_v16 main_v18 main_v1 main_v19 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v19 main_v20 (broadcastInDim S600000x1 ![0] bcast_S600000_S600000x1_0 : (⟨S600000, .i32⟩ : BufTy).Contents (Elt F) → (⟨S600000x1, .i32⟩ : BufTy).Contents (Elt F)),
    StableHlo.binary main_v14 main_v20 main_v21 ((fun x i => Host.gather gather_S50000x129_S600000x1_S600000x129_1_0_n_n_0_1_1129 x i) : (⟨S50000x129, .f32⟩ : BufTy).Contents (Elt F) → (⟨S600000x1, .i32⟩ : BufTy).Contents (Elt F) → (⟨S600000x129, .f32⟩ : BufTy).Contents (Elt F)) ]
theorem ops2_sub : (ops2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem ops2_fresh : ∀ op ∈ (ops2 : List (HloOp τ sig (Elt F))), op.fresh = ∅ := by
  intro _ h; (repeat (cases h with | head => rfl | tail _ h => ?_)); exact nomatch h

/-- Operations list 3: 9 operations. -/
abbrev ops3 : List (HloOp τ sig (Elt F)) :=
  [ StableHlo.binary main_v21 main_v12 main_v22 (addf : (⟨S600000x129, .f32⟩ : BufTy).Contents (Elt F) → (⟨S600000x129, .f32⟩ : BufTy).Contents (Elt F) → (⟨S600000x129, .f32⟩ : BufTy).Contents (Elt F)),
    StableHlo.TRef.nullary main_call1.cst (constant S_ .f32 0x00000000#32),
    StableHlo.TRef.unary main_call1.cst main_call1.v0 (broadcastInDim S600000x129 ![] bcast_S_S600000x129),
    StableHlo.TRef.binary (.of main_v22) main_call1.v0 main_call1.v1 maximumf,
    StableHlo.nullary main_cst (constant S_ .f32 0x00000000#32),
    StableHlo.unary main_cst main_v24 (broadcastInDim S50000x129 ![] bcast_S_S50000x129 : (⟨S_, .f32⟩ : BufTy).Contents (Elt F) → (⟨S50000x129, .f32⟩ : BufTy).Contents (Elt F)),
    StableHlo.unary main_v3 main_v25 (broadcastInDim S600000x1 ![0] bcast_S600000_S600000x1_0 : (⟨S600000, .i32⟩ : BufTy).Contents (Elt F) → (⟨S600000x1, .i32⟩ : BufTy).Contents (Elt F)),
    StableHlo.ternary main_v24 main_v25 main_v23 main_v26 ((fun x i u => Host.scatterAdd scatter_S50000x129_S600000x1_S600000x129_1_0_0_1 x i u) : (⟨S50000x129, .f32⟩ : BufTy).Contents (Elt F) → (⟨S600000x1, .i32⟩ : BufTy).Contents (Elt F) → (⟨S600000x129, .f32⟩ : BufTy).Contents (Elt F) → (⟨S50000x129, .f32⟩ : BufTy).Contents (Elt F)),
    StableHlo.binary main_v14 main_v26 main_v27 (addf : (⟨S50000x129, .f32⟩ : BufTy).Contents (Elt F) → (⟨S50000x129, .f32⟩ : BufTy).Contents (Elt F) → (⟨S50000x129, .f32⟩ : BufTy).Contents (Elt F)) ]
theorem ops3_sub : (ops3 : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., binary_bufs_sub ..⟩
theorem ops3_fresh : ∀ op ∈ (ops3 : List (HloOp τ sig (Elt F))), op.fresh = ∅ := by
  intro _ h; (repeat (cases h with | head => rfl | tail _ h => ?_)); exact nomatch h

/-- Operations list 4: 9 operations. -/
abbrev ops4 : List (HloOp τ sig (Elt F)) :=
  [ StableHlo.binary main_v27 main_arg7 main_v28 ((fun l r => Host.dotGeneral dot_S50000x129_S129x129_S50000x129_1_0_0_1_n_n none l r) : (⟨S50000x129, .f32⟩ : BufTy).Contents (Elt F) → (⟨S129x129, .f32⟩ : BufTy).Contents (Elt F) → (⟨S50000x129, .f32⟩ : BufTy).Contents (Elt F)),
    StableHlo.unary main_arg8 main_v29 (broadcastInDim S1x129 ![1] bcast_S129_S1x129_1 : (⟨S129, .f32⟩ : BufTy).Contents (Elt F) → (⟨S1x129, .f32⟩ : BufTy).Contents (Elt F)),
    StableHlo.unary main_v29 main_v30 (broadcastInDim S50000x129 ![0, 1] bcast_S1x129_S50000x129_0_1 : (⟨S1x129, .f32⟩ : BufTy).Contents (Elt F) → (⟨S50000x129, .f32⟩ : BufTy).Contents (Elt F)),
    StableHlo.binary main_v28 main_v30 main_v31 (addf : (⟨S50000x129, .f32⟩ : BufTy).Contents (Elt F) → (⟨S50000x129, .f32⟩ : BufTy).Contents (Elt F) → (⟨S50000x129, .f32⟩ : BufTy).Contents (Elt F)),
    StableHlo.nullary main_cst_1 (constant S_ .f32 0x00000000#32),
    StableHlo.binary main_v31 main_cst_1 main_v32 ((fun x v => Host.reduceAdd x v reducesTo_S50000x129_S129_d0 h_S_) : (⟨S50000x129, .f32⟩ : BufTy).Contents (Elt F) → (⟨S_, .f32⟩ : BufTy).Contents (Elt F) → (⟨S129, .f32⟩ : BufTy).Contents (Elt F)),
    StableHlo.nullary main_cst_2 (constant S_ .f32 0x47435000#32),
    StableHlo.unary main_cst_2 main_v33 (broadcastInDim S129 ![] bcast_S_S129 : (⟨S_, .f32⟩ : BufTy).Contents (Elt F) → (⟨S129, .f32⟩ : BufTy).Contents (Elt F)),
    StableHlo.binary main_v32 main_v33 main_v34 (Host.divf : (⟨S129, .f32⟩ : BufTy).Contents (Elt F) → (⟨S129, .f32⟩ : BufTy).Contents (Elt F) → (⟨S129, .f32⟩ : BufTy).Contents (Elt F)) ]
theorem ops4_sub : (ops4 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub ..⟩
theorem ops4_fresh : ∀ op ∈ (ops4 : List (HloOp τ sig (Elt F))), op.fresh = ∅ := by
  intro _ h; (repeat (cases h with | head => rfl | tail _ h => ?_)); exact nomatch h

/-- Operations list 5: 23 operations. -/
abbrev ops5 : List (HloOp τ sig (Elt F)) :=
  [ StableHlo.nullary main_c_3 (constantI S_ 32 0#32),
    StableHlo.TRef.nullary main_call2.cst (constant S_ .f32 0x00000000#32),
    StableHlo.TRef.binary (.of main_v31) main_call2.cst main_call2.v0 (fun x v => Host.reduceAdd x v reducesTo_S50000x129_S129_d0 h_S_),
    StableHlo.TRef.unary main_call2.v0 main_call2.v1 (broadcastInDim S1x129 ![1] bcast_S129_S1x129_1),
    StableHlo.TRef.nullary main_call2.cst_0 (constant S_ .f32 0x47435000#32),
    StableHlo.TRef.unary main_call2.cst_0 main_call2.v2 (broadcastInDim S1x129 ![] bcast_S_S1x129),
    StableHlo.TRef.binary main_call2.v1 main_call2.v2 main_call2.v3 Host.divf,
    StableHlo.TRef.unary main_call2.v3 main_call2.v4 (broadcastInDim S50000x129 ![0, 1] bcast_S1x129_S50000x129_0_1),
    StableHlo.TRef.binary (.of main_v31) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x129_S129_d0 h_S_),
    StableHlo.TRef.unary main_call2.v8 main_call2.v10 (broadcastInDim S129 ![] bcast_S_S129),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S129 ![] bcast_S_S129),
    StableHlo.TRef.ternary main_call2.v12 main_call2.v11 main_call2.call0.v1 main_call2.call0.v2 (fun p a b => select (broadcastInDim S129 ![] bcast_S_S129 p) a b) ]
theorem ops5_sub : (ops5 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops5_fresh : ∀ op ∈ (ops5 : List (HloOp τ sig (Elt F))), op.fresh = ∅ := by
  intro _ h; (repeat (cases h with | head => rfl | tail _ h => ?_)); exact nomatch h

/-- Operations list 6: 20 operations. -/
abbrev ops6 : List (HloOp τ sig (Elt F)) :=
  [ StableHlo.unary main_v34 main_v36 (broadcastInDim S1x129 ![1] bcast_S129_S1x129_1 : (⟨S129, .f32⟩ : BufTy).Contents (Elt F) → (⟨S1x129, .f32⟩ : BufTy).Contents (Elt F)),
    StableHlo.unary main_v36 main_v37 (broadcastInDim S50000x129 ![0, 1] bcast_S1x129_S50000x129_0_1 : (⟨S1x129, .f32⟩ : BufTy).Contents (Elt F) → (⟨S50000x129, .f32⟩ : BufTy).Contents (Elt F)),
    StableHlo.binary main_v31 main_v37 main_v38 (subf : (⟨S50000x129, .f32⟩ : BufTy).Contents (Elt F) → (⟨S50000x129, .f32⟩ : BufTy).Contents (Elt F) → (⟨S50000x129, .f32⟩ : BufTy).Contents (Elt F)),
    StableHlo.unary main_arg9 main_v39 (broadcastInDim S1x129 ![1] bcast_S129_S1x129_1 : (⟨S129, .f32⟩ : BufTy).Contents (Elt F) → (⟨S1x129, .f32⟩ : BufTy).Contents (Elt F)),
    StableHlo.unary main_v39 main_v40 (broadcastInDim S50000x129 ![0, 1] bcast_S1x129_S50000x129_0_1 : (⟨S1x129, .f32⟩ : BufTy).Contents (Elt F) → (⟨S50000x129, .f32⟩ : BufTy).Contents (Elt F)),
    StableHlo.binary main_v40 main_v38 main_v41 (mulf : (⟨S50000x129, .f32⟩ : BufTy).Contents (Elt F) → (⟨S50000x129, .f32⟩ : BufTy).Contents (Elt F) → (⟨S50000x129, .f32⟩ : BufTy).Contents (Elt F)),
    StableHlo.nullary main_cst_4 (constant S_ .f32 0x3727C5AC#32),
    StableHlo.unary main_cst_4 main_v42 (broadcastInDim S129 ![] bcast_S_S129 : (⟨S_, .f32⟩ : BufTy).Contents (Elt F) → (⟨S129, .f32⟩ : BufTy).Contents (Elt F)),
    StableHlo.binary main_v35 main_v42 main_v43 (addf : (⟨S129, .f32⟩ : BufTy).Contents (Elt F) → (⟨S129, .f32⟩ : BufTy).Contents (Elt F) → (⟨S129, .f32⟩ : BufTy).Contents (Elt F)),
    StableHlo.unary main_v43 main_v44 (Host.rsqrt : (⟨S129, .f32⟩ : BufTy).Contents (Elt F) → (⟨S129, .f32⟩ : BufTy).Contents (Elt F)),
    StableHlo.unary main_v44 main_v45 (broadcastInDim S1x129 ![1] bcast_S129_S1x129_1 : (⟨S129, .f32⟩ : BufTy).Contents (Elt F) → (⟨S1x129, .f32⟩ : BufTy).Contents (Elt F)),
    StableHlo.unary main_v45 main_v46 (broadcastInDim S50000x129 ![0, 1] bcast_S1x129_S50000x129_0_1 : (⟨S1x129, .f32⟩ : BufTy).Contents (Elt F) → (⟨S50000x129, .f32⟩ : BufTy).Contents (Elt F)),
    StableHlo.binary main_v41 main_v46 main_v47 (mulf : (⟨S50000x129, .f32⟩ : BufTy).Contents (Elt F) → (⟨S50000x129, .f32⟩ : BufTy).Contents (Elt F) → (⟨S50000x129, .f32⟩ : BufTy).Contents (Elt F)),
    StableHlo.unary main_arg10 main_v48 (broadcastInDim S1x129 ![1] bcast_S129_S1x129_1 : (⟨S129, .f32⟩ : BufTy).Contents (Elt F) → (⟨S1x129, .f32⟩ : BufTy).Contents (Elt F)),
    StableHlo.unary main_v48 main_v49 (broadcastInDim S50000x129 ![0, 1] bcast_S1x129_S50000x129_0_1 : (⟨S1x129, .f32⟩ : BufTy).Contents (Elt F) → (⟨S50000x129, .f32⟩ : BufTy).Contents (Elt F)),
    StableHlo.binary main_v47 main_v49 main_v50 (addf : (⟨S50000x129, .f32⟩ : BufTy).Contents (Elt F) → (⟨S50000x129, .f32⟩ : BufTy).Contents (Elt F) → (⟨S50000x129, .f32⟩ : BufTy).Contents (Elt F)),
    StableHlo.TRef.nullary main_call3.cst (constant S_ .f32 0x00000000#32),
    StableHlo.TRef.unary main_call3.cst main_call3.v0 (broadcastInDim S50000x129 ![] bcast_S_S50000x129),
    StableHlo.TRef.binary (.of main_v50) main_call3.v0 main_call3.v1 maximumf,
    StableHlo.binary main_v51 main_arg11 main_v52 ((fun l r => Host.dotGeneral dot_S50000x129_S129x128_S50000x128_1_0_0_1_n_n none l r) : (⟨S50000x129, .f32⟩ : BufTy).Contents (Elt F) → (⟨S129x128, .f32⟩ : BufTy).Contents (Elt F) → (⟨S50000x128, .f32⟩ : BufTy).Contents (Elt F)) ]
theorem ops6_sub : (ops6 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
theorem ops6_fresh : ∀ op ∈ (ops6 : List (HloOp τ sig (Elt F))), op.fresh = ∅ := by
  intro _ h; (repeat (cases h with | head => rfl | tail _ h => ?_)); exact nomatch h

/-- Operations list 7: 9 operations. -/
abbrev ops7 : List (HloOp τ sig (Elt F)) :=
  [ StableHlo.unary main_arg12 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.binary main_v55 main_arg0 main_v56 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.binary main_v56 main_cst_5 main_v57 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v58 (broadcastInDim S128 ![] bcast_S_S128 : (⟨S_, .f32⟩ : BufTy).Contents (Elt F) → (⟨S128, .f32⟩ : BufTy).Contents (Elt F)),
    StableHlo.binary main_v57 main_v58 main_v59 (Host.divf : (⟨S128, .f32⟩ : BufTy).Contents (Elt F) → (⟨S128, .f32⟩ : BufTy).Contents (Elt F) → (⟨S128, .f32⟩ : BufTy).Contents (Elt F)) ]
theorem ops7_sub : (ops7 : List (HloOp τ sig (Elt F))).Forall fun op => op.bufs ⊆ tcRefs τ sig :=
  ⟨unary_bufs_sub .., unary_bufs_sub .., binary_bufs_sub .., binary_bufs_sub .., nullary_bufs_sub .., binary_bufs_sub .., nullary_bufs_sub .., unary_bufs_sub .., binary_bufs_sub ..⟩
theorem ops7_fresh : ∀ op ∈ (ops7 : List (HloOp τ sig (Elt F))), op.fresh = ∅ := by
  intro _ h; (repeat (cases h with | head => rfl | tail _ h => ?_)); exact nomatch h

/-- Operations list 8: 23 operations. -/
abbrev ops8 : List (HloOp τ sig (Elt F)) :=
  [ StableHlo.nullary main_c_7 (constantI S_ 32 0#32),
    StableHlo.TRef.nullary main_call4.cst (constant S_ .f32 0x00000000#32),
    StableHlo.TRef.binary (.of main_v56) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v56) main_call4.v4 main_call4.v5 subf,
    StableHlo.TRef.binary main_call4.v5 main_call4.v5 main_call4.v6 mulf,
    StableHlo.TRef.unary (.of main_c_7) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]
theorem ops8_sub : (ops8 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops8_fresh : ∀ op ∈ (ops8 : List (HloOp τ sig (Elt F))), op.fresh = ∅ := by
  intro _ h; (repeat (cases h with | head => rfl | tail _ h => ?_)); exact nomatch h

/-- Operations list 9: 21 operations. -/
abbrev ops9 : List (HloOp τ sig (Elt F)) :=
  [ StableHlo.unary main_v59 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v62 main_v63 (subf : (⟨S50000x128, .f32⟩ : BufTy).Contents (Elt F) → (⟨S50000x128, .f32⟩ : BufTy).Contents (Elt F) → (⟨S50000x128, .f32⟩ : BufTy).Contents (Elt F)),
    StableHlo.unary main_arg19 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v63 main_v66 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v67 (broadcastInDim S128 ![] bcast_S_S128 : (⟨S_, .f32⟩ : BufTy).Contents (Elt F) → (⟨S128, .f32⟩ : BufTy).Contents (Elt F)),
    StableHlo.binary main_v60 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg20 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v74 main_v75 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v75) main_call5.v0 main_call5.v1 maximumf,
    StableHlo.unary main_arg2 main_v77 (broadcastInDim S50000x1 ![0] bcast_S50000_S50000x1_0 : (⟨S50000, .f32⟩ : BufTy).Contents (Elt F) → (⟨S50000x1, .f32⟩ : BufTy).Contents (Elt F)),
    StableHlo.binary main_v76 main_v77 main_v78 ((fun a b => concatenate S50000x129 1 [⟨S50000x128, a⟩, ⟨S50000x1, b⟩] concatenates_S50000x128_S50000x1_S50000x129_d1) : (⟨S50000x128, .f32⟩ : BufTy).Contents (Elt F) → (⟨S50000x1, .f32⟩ : BufTy).Contents (Elt F) → (⟨S50000x129, .f32⟩ : BufTy).Contents (Elt F)) ]
theorem ops9_sub : (ops9 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub ..⟩
theorem ops9_fresh : ∀ op ∈ (ops9 : List (HloOp τ sig (Elt F))), op.fresh = ∅ := by
  intro _ h; (repeat (cases h with | head => rfl | tail _ h => ?_)); exact nomatch h

/-- Operations list 10: 18 operations. -/
abbrev ops10 : List (HloOp τ sig (Elt F)) :=
  [ StableHlo.nullary main_c_9 (constantI S_ 32 0#32),
    StableHlo.unary main_c_9 main_v79 (broadcastInDim S600000 ![] bcast_S_S600000 : (⟨S_, .i32⟩ : BufTy).Contents (Elt F) → (⟨S600000, .i32⟩ : BufTy).Contents (Elt F)),
    StableHlo.binary main_v1 main_v79 main_v80 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 50000#32),
    StableHlo.unary main_c_10 main_v81 (broadcastInDim S600000 ![] bcast_S_S600000 : (⟨S_, .i32⟩ : BufTy).Contents (Elt F) → (⟨S600000, .i32⟩ : BufTy).Contents (Elt F)),
    StableHlo.binary main_v1 main_v81 main_v82 (addi : (⟨S600000, .i32⟩ : BufTy).Contents (Elt F) → (⟨S600000, .i32⟩ : BufTy).Contents (Elt F) → (⟨S600000, .i32⟩ : BufTy).Contents (Elt F)),
    StableHlo.ternary main_v80 main_v82 main_v1 main_v83 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v83 main_v84 (broadcastInDim S600000x1 ![0] bcast_S600000_S600000x1_0 : (⟨S600000, .i32⟩ : BufTy).Contents (Elt F) → (⟨S600000x1, .i32⟩ : BufTy).Contents (Elt F)),
    StableHlo.binary main_v78 main_v84 main_v85 ((fun x i => Host.gather gather_S50000x129_S600000x1_S600000x129_1_0_n_n_0_1_1129 x i) : (⟨S50000x129, .f32⟩ : BufTy).Contents (Elt F) → (⟨S600000x1, .i32⟩ : BufTy).Contents (Elt F) → (⟨S600000x129, .f32⟩ : BufTy).Contents (Elt F)),
    StableHlo.binary main_v85 main_v12 main_v86 (addf : (⟨S600000x129, .f32⟩ : BufTy).Contents (Elt F) → (⟨S600000x129, .f32⟩ : BufTy).Contents (Elt F) → (⟨S600000x129, .f32⟩ : BufTy).Contents (Elt F)),
    StableHlo.TRef.nullary main_call6.cst (constant S_ .f32 0x00000000#32),
    StableHlo.TRef.unary main_call6.cst main_call6.v0 (broadcastInDim S600000x129 ![] bcast_S_S600000x129),
    StableHlo.TRef.binary (.of main_v86) main_call6.v0 main_call6.v1 maximumf,
    StableHlo.nullary main_cst_11 (constant S_ .f32 0x00000000#32),
    StableHlo.unary main_cst_11 main_v88 (broadcastInDim S50000x129 ![] bcast_S_S50000x129 : (⟨S_, .f32⟩ : BufTy).Contents (Elt F) → (⟨S50000x129, .f32⟩ : BufTy).Contents (Elt F)),
    StableHlo.unary main_v3 main_v89 (broadcastInDim S600000x1 ![0] bcast_S600000_S600000x1_0 : (⟨S600000, .i32⟩ : BufTy).Contents (Elt F) → (⟨S600000x1, .i32⟩ : BufTy).Contents (Elt F)),
    StableHlo.ternary main_v88 main_v89 main_v87 main_v90 ((fun x i u => Host.scatterAdd scatter_S50000x129_S600000x1_S600000x129_1_0_0_1 x i u) : (⟨S50000x129, .f32⟩ : BufTy).Contents (Elt F) → (⟨S600000x1, .i32⟩ : BufTy).Contents (Elt F) → (⟨S600000x129, .f32⟩ : BufTy).Contents (Elt F) → (⟨S50000x129, .f32⟩ : BufTy).Contents (Elt F)),
    StableHlo.binary main_v78 main_v90 main_v91 (addf : (⟨S50000x129, .f32⟩ : BufTy).Contents (Elt F) → (⟨S50000x129, .f32⟩ : BufTy).Contents (Elt F) → (⟨S50000x129, .f32⟩ : BufTy).Contents (Elt F)) ]
theorem ops10_sub : (ops10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩
theorem ops10_fresh : ∀ op ∈ (ops10 : List (HloOp τ sig (Elt F))), op.fresh = ∅ := by
  intro _ h; (repeat (cases h with | head => rfl | tail _ h => ?_)); exact nomatch h

/-- Operations list 11: 9 operations. -/
abbrev ops11 : List (HloOp τ sig (Elt F)) :=
  [ StableHlo.binary main_v91 main_arg13 main_v92 ((fun l r => Host.dotGeneral dot_S50000x129_S129x129_S50000x129_1_0_0_1_n_n none l r) : (⟨S50000x129, .f32⟩ : BufTy).Contents (Elt F) → (⟨S129x129, .f32⟩ : BufTy).Contents (Elt F) → (⟨S50000x129, .f32⟩ : BufTy).Contents (Elt F)),
    StableHlo.unary main_arg14 main_v93 (broadcastInDim S1x129 ![1] bcast_S129_S1x129_1 : (⟨S129, .f32⟩ : BufTy).Contents (Elt F) → (⟨S1x129, .f32⟩ : BufTy).Contents (Elt F)),
    StableHlo.unary main_v93 main_v94 (broadcastInDim S50000x129 ![0, 1] bcast_S1x129_S50000x129_0_1 : (⟨S1x129, .f32⟩ : BufTy).Contents (Elt F) → (⟨S50000x129, .f32⟩ : BufTy).Contents (Elt F)),
    StableHlo.binary main_v92 main_v94 main_v95 (addf : (⟨S50000x129, .f32⟩ : BufTy).Contents (Elt F) → (⟨S50000x129, .f32⟩ : BufTy).Contents (Elt F) → (⟨S50000x129, .f32⟩ : BufTy).Contents (Elt F)),
    StableHlo.nullary main_cst_12 (constant S_ .f32 0x00000000#32),
    StableHlo.binary main_v95 main_cst_12 main_v96 ((fun x v => Host.reduceAdd x v reducesTo_S50000x129_S129_d0 h_S_) : (⟨S50000x129, .f32⟩ : BufTy).Contents (Elt F) → (⟨S_, .f32⟩ : BufTy).Contents (Elt F) → (⟨S129, .f32⟩ : BufTy).Contents (Elt F)),
    StableHlo.nullary main_cst_13 (constant S_ .f32 0x47435000#32),
    StableHlo.unary main_cst_13 main_v97 (broadcastInDim S129 ![] bcast_S_S129 : (⟨S_, .f32⟩ : BufTy).Contents (Elt F) → (⟨S129, .f32⟩ : BufTy).Contents (Elt F)),
    StableHlo.binary main_v96 main_v97 main_v98 (Host.divf : (⟨S129, .f32⟩ : BufTy).Contents (Elt F) → (⟨S129, .f32⟩ : BufTy).Contents (Elt F) → (⟨S129, .f32⟩ : BufTy).Contents (Elt F)) ]
theorem ops11_sub : (ops11 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub ..⟩
theorem ops11_fresh : ∀ op ∈ (ops11 : List (HloOp τ sig (Elt F))), op.fresh = ∅ := by
  intro _ h; (repeat (cases h with | head => rfl | tail _ h => ?_)); exact nomatch h

/-- Operations list 12: 26 operations. -/
abbrev ops12 : List (HloOp τ sig (Elt F)) :=
  [ StableHlo.nullary main_c_14 (constantI S_ 32 0#32),
    StableHlo.TRef.nullary main_call7.cst (constant S_ .f32 0x00000000#32),
    StableHlo.TRef.binary (.of main_v95) main_call7.cst main_call7.v0 (fun x v => Host.reduceAdd x v reducesTo_S50000x129_S129_d0 h_S_),
    StableHlo.TRef.unary main_call7.v0 main_call7.v1 (broadcastInDim S1x129 ![1] bcast_S129_S1x129_1),
    StableHlo.TRef.nullary main_call7.cst_0 (constant S_ .f32 0x47435000#32),
    StableHlo.TRef.unary main_call7.cst_0 main_call7.v2 (broadcastInDim S1x129 ![] bcast_S_S1x129),
    StableHlo.TRef.binary main_call7.v1 main_call7.v2 main_call7.v3 Host.divf,
    StableHlo.TRef.unary main_call7.v3 main_call7.v4 (broadcastInDim S50000x129 ![0, 1] bcast_S1x129_S50000x129_0_1),
    StableHlo.TRef.binary (.of main_v95) main_call7.v4 main_call7.v5 subf,
    StableHlo.TRef.binary main_call7.v5 main_call7.v5 main_call7.v6 mulf,
    StableHlo.TRef.unary (.of main_c_14) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x129_S129_d0 h_S_),
    StableHlo.TRef.unary main_call7.v8 main_call7.v10 (broadcastInDim S129 ![] bcast_S_S129),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S129 ![] bcast_S_S129),
    StableHlo.TRef.ternary main_call7.v12 main_call7.v11 main_call7.call0.v1 main_call7.call0.v2 (fun p a b => select (broadcastInDim S129 ![] bcast_S_S129 p) a b),
    StableHlo.unary main_v98 main_v100 (broadcastInDim S1x129 ![1] bcast_S129_S1x129_1 : (⟨S129, .f32⟩ : BufTy).Contents (Elt F) → (⟨S1x129, .f32⟩ : BufTy).Contents (Elt F)),
    StableHlo.unary main_v100 main_v101 (broadcastInDim S50000x129 ![0, 1] bcast_S1x129_S50000x129_0_1 : (⟨S1x129, .f32⟩ : BufTy).Contents (Elt F) → (⟨S50000x129, .f32⟩ : BufTy).Contents (Elt F)),
    StableHlo.binary main_v95 main_v101 main_v102 (subf : (⟨S50000x129, .f32⟩ : BufTy).Contents (Elt F) → (⟨S50000x129, .f32⟩ : BufTy).Contents (Elt F) → (⟨S50000x129, .f32⟩ : BufTy).Contents (Elt F)) ]
theorem ops12_sub : (ops12 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩
theorem ops12_fresh : ∀ op ∈ (ops12 : List (HloOp τ sig (Elt F))), op.fresh = ∅ := by
  intro _ h; (repeat (cases h with | head => rfl | tail _ h => ?_)); exact nomatch h

/-- Operations list 13: 21 operations. -/
abbrev ops13 : List (HloOp τ sig (Elt F)) :=
  [ StableHlo.unary main_arg15 main_v103 (broadcastInDim S1x129 ![1] bcast_S129_S1x129_1 : (⟨S129, .f32⟩ : BufTy).Contents (Elt F) → (⟨S1x129, .f32⟩ : BufTy).Contents (Elt F)),
    StableHlo.unary main_v103 main_v104 (broadcastInDim S50000x129 ![0, 1] bcast_S1x129_S50000x129_0_1 : (⟨S1x129, .f32⟩ : BufTy).Contents (Elt F) → (⟨S50000x129, .f32⟩ : BufTy).Contents (Elt F)),
    StableHlo.binary main_v104 main_v102 main_v105 (mulf : (⟨S50000x129, .f32⟩ : BufTy).Contents (Elt F) → (⟨S50000x129, .f32⟩ : BufTy).Contents (Elt F) → (⟨S50000x129, .f32⟩ : BufTy).Contents (Elt F)),
    StableHlo.nullary main_cst_15 (constant S_ .f32 0x3727C5AC#32),
    StableHlo.unary main_cst_15 main_v106 (broadcastInDim S129 ![] bcast_S_S129 : (⟨S_, .f32⟩ : BufTy).Contents (Elt F) → (⟨S129, .f32⟩ : BufTy).Contents (Elt F)),
    StableHlo.binary main_v99 main_v106 main_v107 (addf : (⟨S129, .f32⟩ : BufTy).Contents (Elt F) → (⟨S129, .f32⟩ : BufTy).Contents (Elt F) → (⟨S129, .f32⟩ : BufTy).Contents (Elt F)),
    StableHlo.unary main_v107 main_v108 (Host.rsqrt : (⟨S129, .f32⟩ : BufTy).Contents (Elt F) → (⟨S129, .f32⟩ : BufTy).Contents (Elt F)),
    StableHlo.unary main_v108 main_v109 (broadcastInDim S1x129 ![1] bcast_S129_S1x129_1 : (⟨S129, .f32⟩ : BufTy).Contents (Elt F) → (⟨S1x129, .f32⟩ : BufTy).Contents (Elt F)),
    StableHlo.unary main_v109 main_v110 (broadcastInDim S50000x129 ![0, 1] bcast_S1x129_S50000x129_0_1 : (⟨S1x129, .f32⟩ : BufTy).Contents (Elt F) → (⟨S50000x129, .f32⟩ : BufTy).Contents (Elt F)),
    StableHlo.binary main_v105 main_v110 main_v111 (mulf : (⟨S50000x129, .f32⟩ : BufTy).Contents (Elt F) → (⟨S50000x129, .f32⟩ : BufTy).Contents (Elt F) → (⟨S50000x129, .f32⟩ : BufTy).Contents (Elt F)),
    StableHlo.unary main_arg16 main_v112 (broadcastInDim S1x129 ![1] bcast_S129_S1x129_1 : (⟨S129, .f32⟩ : BufTy).Contents (Elt F) → (⟨S1x129, .f32⟩ : BufTy).Contents (Elt F)),
    StableHlo.unary main_v112 main_v113 (broadcastInDim S50000x129 ![0, 1] bcast_S1x129_S50000x129_0_1 : (⟨S1x129, .f32⟩ : BufTy).Contents (Elt F) → (⟨S50000x129, .f32⟩ : BufTy).Contents (Elt F)),
    StableHlo.binary main_v111 main_v113 main_v114 (addf : (⟨S50000x129, .f32⟩ : BufTy).Contents (Elt F) → (⟨S50000x129, .f32⟩ : BufTy).Contents (Elt F) → (⟨S50000x129, .f32⟩ : BufTy).Contents (Elt F)),
    StableHlo.TRef.nullary main_call8.cst (constant S_ .f32 0x00000000#32),
    StableHlo.TRef.unary main_call8.cst main_call8.v0 (broadcastInDim S50000x129 ![] bcast_S_S50000x129),
    StableHlo.TRef.binary (.of main_v114) main_call8.v0 main_call8.v1 maximumf,
    StableHlo.binary main_v115 main_arg17 main_v116 ((fun l r => Host.dotGeneral dot_S50000x129_S129x128_S50000x128_1_0_0_1_n_n none l r) : (⟨S50000x129, .f32⟩ : BufTy).Contents (Elt F) → (⟨S129x128, .f32⟩ : BufTy).Contents (Elt F) → (⟨S50000x128, .f32⟩ : BufTy).Contents (Elt F)),
    StableHlo.unary main_arg18 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v118 main_v119 (addf : (⟨S50000x128, .f32⟩ : BufTy).Contents (Elt F) → (⟨S50000x128, .f32⟩ : BufTy).Contents (Elt F) → (⟨S50000x128, .f32⟩ : BufTy).Contents (Elt F)),
    StableHlo.binary main_v119 main_arg0 main_v120 (addf : (⟨S50000x128, .f32⟩ : BufTy).Contents (Elt F) → (⟨S50000x128, .f32⟩ : BufTy).Contents (Elt F) → (⟨S50000x128, .f32⟩ : BufTy).Contents (Elt F)) ]
theorem ops13_sub : (ops13 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem ops13_fresh : ∀ op ∈ (ops13 : List (HloOp τ sig (Elt F))), op.fresh = ∅ := by
  intro _ h; (repeat (cases h with | head => rfl | tail _ h => ?_)); exact nomatch h

/-- Operations list 14: 9 operations. -/
abbrev ops14 : List (HloOp τ sig (Elt F)) :=
  [ StableHlo.nullary main_c_16 (constantI S_ 32 0#32),
    StableHlo.unary main_c_16 main_v121 (broadcastInDim S5000 ![] bcast_S_S5000 : (⟨S_, .i32⟩ : BufTy).Contents (Elt F) → (⟨S5000, .i32⟩ : BufTy).Contents (Elt F)),
    StableHlo.binary main_arg22 main_v121 main_v122 (cmpi .slt : (⟨S5000, .i32⟩ : BufTy).Contents (Elt F) → (⟨S5000, .i32⟩ : BufTy).Contents (Elt F) → (⟨S5000, .i1⟩ : BufTy).Contents (Elt F)),
    StableHlo.nullary main_c_17 (constantI S_ 32 50000#32),
    StableHlo.unary main_c_17 main_v123 (broadcastInDim S5000 ![] bcast_S_S5000 : (⟨S_, .i32⟩ : BufTy).Contents (Elt F) → (⟨S5000, .i32⟩ : BufTy).Contents (Elt F)),
    StableHlo.binary main_arg22 main_v123 main_v124 (addi : (⟨S5000, .i32⟩ : BufTy).Contents (Elt F) → (⟨S5000, .i32⟩ : BufTy).Contents (Elt F) → (⟨S5000, .i32⟩ : BufTy).Contents (Elt F)),
    StableHlo.ternary main_v122 main_v124 main_arg22 main_v125 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v125 main_v126 (broadcastInDim S5000x1 ![0] bcast_S5000_S5000x1_0 : (⟨S5000, .i32⟩ : BufTy).Contents (Elt F) → (⟨S5000x1, .i32⟩ : BufTy).Contents (Elt F)),
    StableHlo.binary main_v120 main_v126 main_v127 ((fun x i => Host.gather gather_S50000x128_S5000x1_S5000x128_1_0_n_n_0_1_1128 x i) : (⟨S50000x128, .f32⟩ : BufTy).Contents (Elt F) → (⟨S5000x1, .i32⟩ : BufTy).Contents (Elt F) → (⟨S5000x128, .f32⟩ : BufTy).Contents (Elt F)) ]
theorem ops14_sub : (ops14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem ops14_fresh : ∀ op ∈ (ops14 : List (HloOp τ sig (Elt F))), op.fresh = ∅ := by
  intro _ h; (repeat (cases h with | head => rfl | tail _ h => ?_)); exact nomatch h

/-- The operations of the program's window 0. -/
abbrev wops0 : List (HloOp τ sig (Elt F)) := ops0 ++ ops1 ++ ops2 ++ ops3 ++ ops4 ++ ops5 ++ ops6
set_option maxRecDepth 8192 in
set_option maxHeartbeats 4000000 in
theorem main_part0_eq (c : Dev nD) : main_part0 (F := F) c = seq wops0 := by
  simp only [main_part0, wops0, ops0, ops1, ops2, ops3, ops4, ops5, ops6, fn_relu.body, fn_relu_0.body, fn_relu_3.body, fn_var.body, fn_var_1.body, fn_where.body, fn_where_2.body, seq, List.cons_append, List.nil_append, bind_assoc, pure_bind]
  try rfl

/-- The operations of the program's window 1. -/
abbrev wops1 : List (HloOp τ sig (Elt F)) := ops7 ++ ops8 ++ ops9 ++ ops10 ++ ops11 ++ ops12
set_option maxRecDepth 8192 in
set_option maxHeartbeats 4000000 in
theorem main_part1_eq (c : Dev nD) : main_part1 (F := F) c = seq wops1 := by
  simp only [main_part1, wops1, ops7, ops8, ops9, ops10, ops11, ops12, fn_relu.body, fn_relu_0.body, fn_relu_3.body, fn_var.body, fn_var_1.body, fn_where.body, fn_where_2.body, seq, List.cons_append, List.nil_append, bind_assoc, pure_bind]
  try rfl

/-- The operations of the program's window 2. -/
abbrev wops2 : List (HloOp τ sig (Elt F)) := ops13 ++ ops14
set_option maxRecDepth 8192 in
set_option maxHeartbeats 4000000 in
theorem main_part2_eq (c : Dev nD) : main_part2 (F := F) c = seq wops2 := by
  simp only [main_part2, wops2, ops13, ops14, fn_relu.body, fn_relu_0.body, fn_relu_3.body, fn_var.body, fn_var_1.body, fn_where.body, fn_where_2.body, seq, List.cons_append, List.nil_append, bind_assoc, pure_bind]
  try rfl

theorem forall_cat {α : Type} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)
theorem mem_cat {α : Type} {p : α → Prop} {l₁ l₂ : List α} (h₁ : ∀ a ∈ l₁, p a) (h₂ : ∀ a ∈ l₂, p a) : ∀ a ∈ l₁ ++ l₂, p a :=
  fun a ha => (List.mem_append.mp ha).elim (h₁ a) (h₂ a)

theorem wops0_sub : (wops0 : List (HloOp τ sig (Elt F))).Forall fun op => op.bufs ⊆ tcRefs τ sig :=
  forall_cat (forall_cat (forall_cat (forall_cat (forall_cat (forall_cat (ops0_sub) ops1_sub) ops2_sub) ops3_sub) ops4_sub) ops5_sub) ops6_sub
theorem wops0_fresh : ∀ op ∈ (wops0 : List (HloOp τ sig (Elt F))), op.fresh = ∅ :=
  mem_cat (mem_cat (mem_cat (mem_cat (mem_cat (mem_cat (ops0_fresh) ops1_fresh) ops2_fresh) ops3_fresh) ops4_fresh) ops5_fresh) ops6_fresh

theorem wops1_sub : (wops1 : List (HloOp τ sig (Elt F))).Forall fun op => op.bufs ⊆ tcRefs τ sig :=
  forall_cat (forall_cat (forall_cat (forall_cat (forall_cat (ops7_sub) ops8_sub) ops9_sub) ops10_sub) ops11_sub) ops12_sub
theorem wops1_fresh : ∀ op ∈ (wops1 : List (HloOp τ sig (Elt F))), op.fresh = ∅ :=
  mem_cat (mem_cat (mem_cat (mem_cat (mem_cat (ops7_fresh) ops8_fresh) ops9_fresh) ops10_fresh) ops11_fresh) ops12_fresh

theorem wops2_sub : (wops2 : List (HloOp τ sig (Elt F))).Forall fun op => op.bufs ⊆ tcRefs τ sig :=
  forall_cat (ops13_sub) ops14_sub
theorem wops2_fresh : ∀ op ∈ (wops2 : List (HloOp τ sig (Elt F))), op.fresh = ∅ :=
  mem_cat (ops13_fresh) ops14_fresh

/-- All the operations, in order. -/
abbrev ops : List (HloOp τ sig (Elt F)) := wops0 ++ wops1 ++ wops2
theorem ops_sub : (ops : List (HloOp τ sig (Elt F))).Forall fun op => op.bufs ⊆ tcRefs τ sig :=
  forall_cat (forall_cat wops0_sub wops1_sub) wops2_sub
theorem ops_fresh : ∀ op ∈ (ops : List (HloOp τ sig (Elt F))), op.fresh = ∅ :=
  mem_cat (mem_cat wops0_fresh wops1_fresh) wops2_fresh

/-- The program is the run of its operations. -/
theorem main_eq (c : Dev nD) : main (F := F) c = seq ops :=
  calc main (F := F) c = (main_part0 (F := F) c >>= fun _ => main_part1 (F := F) c >>= fun _ => main_part2 (F := F) c) := rfl
    _ = (seq wops0 >>= fun _ => seq wops1 >>= fun _ => seq wops2) := by rw [main_part0_eq, main_part1_eq, main_part2_eq]
    _ = ((seq wops0 >>= fun _ => seq wops1) >>= fun _ => seq wops2) := (bind_assoc _ _ _).symm
    _ = (seq (wops0 ++ wops1) >>= fun _ => seq wops2) := congrArg (fun p => p >>= fun _ => seq wops2) (seq_append wops0 wops1).symm
    _ = seq ops := (seq_append (wops0 ++ wops1) wops2).symm

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the program terminates, each buffer ending at
    the fold of the operations' results over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Val

end
-- ==== Proof.RefReadA.lean ====
/-
  The first layer of the idealized reference, list by list: what each of the first eight lists of host operations
  leaves in the buffers that later lists read, as a function of the contents it starts from, and that it leaves every
  buffer it does not write as it was.

  The lists in order: the sources and destinations of the edges; the embedding of the edge attributes; the node array
  with the indicator column, and its rows at the sources; the messages, summed at their destinations and added to the
  node array; the first product and its column means; the column variances; the normalised, rectified features times
  the second weights; the bias and the features added, and the column means of that.
-/
import proofs.«403982_j39848706573800_1_alg».proof.Proof.Spec
import proofs.«403982_j39848706573800_1_alg».proof.Proof.LibSsaT
import proofs.«403982_j39848706573800_1_alg».proof.Proof.RefOps

noncomputable section

namespace Cert.ReferenceIdeal.Val

open Idealize.ShloMosaic Idealize.ShloMosaic.TcCoe Idealize.SL.Sem Idealize.ShloMosaic.StableHlo Cert.ReferenceIdeal
open Cert.ReferenceIdeal.Facts₀ Cert.ReferenceIdeal.Facts Cert.Gnn Cert.LibStretch Cert.LibSsa

variable {F : FTy → Type} [FloatOps F]

local notation:max W "⟪" r "⟫" => W (Proc.devRef Proc.tc r)

namespace A

/-- The embedding of the edge attributes: relu(ea · l0w + l0b) · l1w + l1b, the biases given as rows. -/
def embOf (ea : FVec F S600000x1 .f32) (l0w l0b : FVec F S1x129 .f32) (l1w : FVec F S129x129 .f32) (l1b : FVec F S1x129 .f32) :
    FVec F S600000x129 .f32 :=
  addf (Host.dotGeneral dot_S600000x129_S129x129_S600000x129_1_0_0_1_n_n none
      (relu600 (addf (Host.dotGeneral dot_S600000x1_S1x129_S600000x129_1_0_0_1_n_n none ea l0w) (rows600 l0b))) l1w)
    (rows600 l1b)

/-- A message is the rectified sum of the gathered row and the edge's embedding. -/
theorem msgOf_eq (ea : FVec F S600000x1 .f32) (xs : FVec F S600000x129 .f32) (l0w l0b : FVec F S1x129 .f32)
    (l1w : FVec F S129x129 .f32) (l1b : FVec F S1x129 .f32) :
    msgOf ea xs l0w l0b l1w l1b = relu600 (addf xs (embOf ea l0w l0b l1w l1b)) := rfl

/-- relu(g d rsqrt(var + ε) + be) on [50000,129], d the centred array, each per-column vector broadcast to a row and
    the row down the rows; the reciprocal square root is taken on the vector. -/
def normD (g : FVec F S129 .f32) (d : FVec F S50000x129 .f32) (var be : FVec F S129 .f32) : FVec F S50000x129 .f32 :=
  relu129 (addf (mulf (mulf (rows129 (bRow129 g)) d)
      (rows129 (bRow129 (Host.rsqrt (addf var (broadcastInDim S129 ![] bcast_S_S129 eps0)))))) (rows129 (bRow129 be)))

end A

open A

/-! ## The edges' ends -/

/-- The sources: the first row of the edge list. -/
theorem ops0_v1 (W : Valuation τ sig (Elt F)) : after ops0 W (Proc.devRef .tc main_v1) = srcOf W⟪main_arg21⟫ := by
  after_results_simp; rfl
/-- The destinations: the second row of the edge list. -/
theorem ops0_v3 (W : Valuation τ sig (Elt F)) : after ops0 W (Proc.devRef .tc main_v3) = dstOf W⟪main_arg21⟫ := by
  after_results_simp; rfl
theorem ops0_keep (W : Valuation τ sig (Elt F)) (r : Ref sig .tc) (hr : r ∉ [main_v0, main_v1, main_v2, main_v3]) :
    after ops0 W (Proc.devRef .tc r) = W (Proc.devRef .tc r) :=
  keeps (ys := [main_v0, main_v1, main_v2, main_v3]) (by writes_are) W r hr

/-! ## The edge embedding -/

theorem ops1_v12 (W : Valuation τ sig (Elt F)) :
    after ops1 W (Proc.devRef .tc main_v12)
      = embOf W⟪main_arg1⟫ W⟪main_arg3⟫ (bRow129 W⟪main_arg4⟫) W⟪main_arg5⟫ (bRow129 W⟪main_arg6⟫) := by
  after_results_simp; rfl
theorem ops1_keep (W : Valuation τ sig (Elt F)) (r : Ref sig .tc)
    (hr : r ∉ [main_v4, main_v5, main_v6, main_v7, main_call0_cst, main_call0_v0, main_v8, main_v9, main_v10, main_v11,
      main_v12]) :
    after ops1 W (Proc.devRef .tc r) = W (Proc.devRef .tc r) :=
  keeps (ys := [main_v4, main_v5, main_v6, main_v7, main_call0_cst, main_call0_v0, main_v8, main_v9, main_v10, main_v11,
    main_v12]) (by writes_are) W r hr

/-! ## The node array and its rows at the sources -/

/-- The node array with the indicator column. -/
theorem ops2_v14 (W : Valuation τ sig (Elt F)) :
    after ops2 W (Proc.devRef .tc main_v14) = xcat W⟪main_arg0⟫ W⟪main_arg2⟫ := by
  after_results_simp; rfl
/-- Its rows at the sources, the index wrapped once from below and read clamped. -/
theorem ops2_v21 (W : Valuation τ sig (Elt F)) :
    after ops2 W (Proc.devRef .tc main_v21) = gather6 (xcat W⟪main_arg0⟫ W⟪main_arg2⟫) W⟪main_v1⟫ := by
  after_results_simp; rfl
theorem ops2_keep (W : Valuation τ sig (Elt F)) (r : Ref sig .tc)
    (hr : r ∉ [main_v13, main_v14, main_c, main_v15, main_v16, main_c_0, main_v17, main_v18, main_v19, main_v20, main_v21]) :
    after ops2 W (Proc.devRef .tc r) = W (Proc.devRef .tc r) :=
  keeps (ys := [main_v13, main_v14, main_c, main_v15, main_v16, main_c_0, main_v17, main_v18, main_v19, main_v20, main_v21])
    (by writes_are) W r hr

/-! ## Messages and aggregation -/

/-- The node array plus the messages summed at their destinations. -/
theorem ops3_v27 (W : Valuation τ sig (Elt F)) :
    after ops3 W (Proc.devRef .tc main_v27)
      = addf W⟪main_v14⟫ (aggOf W⟪main_v3⟫ (relu600 (addf W⟪main_v21⟫ W⟪main_v12⟫))) := by
  after_results_simp; rfl
theorem ops3_keep (W : Valuation τ sig (Elt F)) (r : Ref sig .tc)
    (hr : r ∉ [main_v22, main_call1_cst, main_call1_v0, main_v23, main_cst, main_v24, main_v25, main_v26, main_v27]) :
    after ops3 W (Proc.devRef .tc r) = W (Proc.devRef .tc r) :=
  keeps (ys := [main_v22, main_call1_cst, main_call1_v0, main_v23, main_cst, main_v24, main_v25, main_v26, main_v27])
    (by writes_are) W r hr

/-! ## The first product and its means -/

theorem ops4_v31 (W : Valuation τ sig (Elt F)) :
    after ops4 W (Proc.devRef .tc main_v31) = lin1Of W⟪main_v27⟫ W⟪main_arg7⟫ (bRow129 W⟪main_arg8⟫) := by
  after_results_simp; rfl
theorem ops4_v34 (W : Valuation τ sig (Elt F)) :
    after ops4 W (Proc.devRef .tc main_v34) = mean129 (lin1Of W⟪main_v27⟫ W⟪main_arg7⟫ (bRow129 W⟪main_arg8⟫)) := by
  after_results_simp; rfl
theorem ops4_keep (W : Valuation τ sig (Elt F)) (r : Ref sig .tc)
    (hr : r ∉ [main_v28, main_v29, main_v30, main_v31, main_cst_1, main_v32, main_cst_2, main_v33, main_v34]) :
    after ops4 W (Proc.devRef .tc r) = W (Proc.devRef .tc r) :=
  keeps (ys := [main_v28, main_v29, main_v30, main_v31, main_cst_1, main_v32, main_cst_2, main_v33, main_v34])
    (by writes_are) W r hr

/-! ## The column variances -/

theorem ops5_v35 (W : Valuation τ sig (Elt F)) :
    after ops5 W (Proc.devRef .tc main_v35) = var129 W⟪main_v31⟫ := by
  after_results_simp; rfl
theorem ops5_keep (W : Valuation τ sig (Elt F)) (r : Ref sig .tc)
    (hr : r ∉ [main_c_3, main_call2_cst, main_call2_v0, main_call2_v1, main_call2_cst_0, main_call2_v2, main_call2_v3,
      main_call2_v4, main_call2_v5, main_call2_v6, main_call2_v7, main_call2_cst_1, main_call2_v8, main_call2_cst_2,
      main_call2_v9, main_call2_v10, main_call2_v11, main_call2_cst_3, main_call2_v12, main_call2_cst_4,
      main_call2_call0_v0, main_call2_call0_v1, main_v35]) :
    after ops5 W (Proc.devRef .tc r) = W (Proc.devRef .tc r) :=
  keeps (ys := [main_c_3, main_call2_cst, main_call2_v0, main_call2_v1, main_call2_cst_0, main_call2_v2, main_call2_v3,
    main_call2_v4, main_call2_v5, main_call2_v6, main_call2_v7, main_call2_cst_1, main_call2_v8, main_call2_cst_2,
    main_call2_v9, main_call2_v10, main_call2_v11, main_call2_cst_3, main_call2_v12, main_call2_cst_4,
    main_call2_call0_v0, main_call2_call0_v1, main_v35]) (by writes_are) W r hr

/-! ## Normalisation, relu and the second product -/

/-- The normalised, rectified features times the second weights (the bias not yet added). -/
theorem ops6_v52 (W : Valuation τ sig (Elt F)) :
    after ops6 W (Proc.devRef .tc main_v52)
      = Host.dotGeneral dot_S50000x129_S129x128_S50000x128_1_0_0_1_n_n none
          (normD W⟪main_arg9⟫ (subf W⟪main_v31⟫ (rows129 (bRow129 W⟪main_v34⟫))) W⟪main_v35⟫ W⟪main_arg10⟫) W⟪main_arg11⟫ := by
  after_results_simp; rfl
theorem ops6_keep (W : Valuation τ sig (Elt F)) (r : Ref sig .tc)
    (hr : r ∉ [main_v36, main_v37, main_v38, main_v39, main_v40, main_v41, main_cst_4, main_v42, main_v43, main_v44, main_v45,
      main_v46, main_v47, main_v48, main_v49, main_v50, main_call3_cst, main_call3_v0, main_v51, main_v52]) :
    after ops6 W (Proc.devRef .tc r) = W (Proc.devRef .tc r) :=
  keeps (ys := [main_v36, main_v37, main_v38, main_v39, main_v40, main_v41, main_cst_4, main_v42, main_v43, main_v44, main_v45,
    main_v46, main_v47, main_v48, main_v49, main_v50, main_call3_cst, main_call3_v0, main_v51, main_v52]) (by writes_are) W r hr

/-! ## The layer's result plus the features, and its means -/

theorem ops7_v56 (W : Valuation τ sig (Elt F)) :
    after ops7 W (Proc.devRef .tc main_v56) = addf (addf W⟪main_v52⟫ (rows128 (bRow128 W⟪main_arg12⟫))) W⟪main_arg0⟫ := by
  after_results_simp; rfl
theorem ops7_v59 (W : Valuation τ sig (Elt F)) :
    after ops7 W (Proc.devRef .tc main_v59)
      = mean128 (addf (addf W⟪main_v52⟫ (rows128 (bRow128 W⟪main_arg12⟫))) W⟪main_arg0⟫) := by
  after_results_simp; rfl
theorem ops7_keep (W : Valuation τ sig (Elt F)) (r : Ref sig .tc)
    (hr : r ∉ [main_v53, main_v54, main_v55, main_v56, main_cst_5, main_v57, main_cst_6, main_v58, main_v59]) :
    after ops7 W (Proc.devRef .tc r) = W (Proc.devRef .tc r) :=
  keeps (ys := [main_v53, main_v54, main_v55, main_v56, main_cst_5, main_v57, main_cst_6, main_v58, main_v59])
    (by writes_are) W r hr

end Cert.ReferenceIdeal.Val

end
-- ==== Proof.RefReadT.lean ====
/-
  The normalisation between the layers, the second layer and the final rows of the idealized reference, list by
  list: what each of the last seven lists of host operations leaves in the buffers that later lists (or the result)
  read, as a function of the contents it starts from, and that it leaves every buffer it does not write as it was.

  The lists in order: the column variances of the first layer's output; the normalisation with relu and the indicator
  column appended; the rows at the sources, the messages, their sums at the destinations added to the node array; the
  first product and its column means; the column variances and the centred product; the normalised, rectified
  features times the second weights, plus the bias, plus the features; the rows the last index vector lists.
-/
import proofs.«403982_j39848706573800_1_alg».proof.Proof.Spec
import proofs.«403982_j39848706573800_1_alg».proof.Proof.LibSsaT
import proofs.«403982_j39848706573800_1_alg».proof.Proof.RefOps
import proofs.«403982_j39848706573800_1_alg».proof.Proof.RefReadA

noncomputable section

namespace Cert.ReferenceIdeal.Val

open Idealize.ShloMosaic Idealize.ShloMosaic.TcCoe Idealize.SL.Sem Idealize.ShloMosaic.StableHlo Cert.ReferenceIdeal
open Cert.ReferenceIdeal.Facts₀ Cert.ReferenceIdeal.Facts Cert.Gnn Cert.LibStretch Cert.LibSsa

variable {F : FTy → Type} [FloatOps F]

local notation:max W "⟪" r "⟫" => W (Proc.devRef Proc.tc r)

open A

namespace T

/-- The normalisation between the layers with the column statistics given: relu(g (h - mu) rsqrt(var + ε) + b). -/
def bnCore (h : FVec F S50000x128 .f32) (mu var g b : FVec F S128 .f32) : FVec F S50000x128 .f32 :=
  relu128 (addf (mulf (mulf (rows128 (bRow128 g)) (subf h (rows128 (bRow128 mu))))
      (rows128 (bRow128 (Host.rsqrt (addf var (broadcastInDim S128 ![] bcast_S_S128 eps0))))))
    (rows128 (bRow128 b)))

/-- With the array's own column means and variances it is the normalisation between the layers. -/
theorem bn0Of_eq (h : FVec F S50000x128 .f32) (g b : FVec F S128 .f32) :
    bn0Of h g b = bnCore h (mean128 h) (var128 h) g b := rfl

/-! ## The column variances of the first layer's output -/

theorem ops8_v60 (W : Valuation τ sig (Elt F)) : after ops8 W (Proc.devRef .tc main_v60) = var128 W⟪main_v56⟫ := by
  after_results_simp; rfl
theorem ops8_keep (W : Valuation τ sig (Elt F)) (r : Ref sig .tc)
    (hr : r ∉ [main_c_7, main_call4_cst, main_call4_v0, main_call4_v1, main_call4_cst_0, main_call4_v2, main_call4_v3,
      main_call4_v4, main_call4_v5, main_call4_v6, main_call4_v7, main_call4_cst_1, main_call4_v8, main_call4_cst_2,
      main_call4_v9, main_call4_v10, main_call4_v11, main_call4_cst_3, main_call4_v12, main_call4_cst_4,
      main_call4_call0_v0, main_call4_call0_v1, main_v60]) :
    after ops8 W (Proc.devRef .tc r) = W (Proc.devRef .tc r) :=
  keeps (ys := [main_c_7, main_call4_cst, main_call4_v0, main_call4_v1, main_call4_cst_0, main_call4_v2, main_call4_v3,
      main_call4_v4, main_call4_v5, main_call4_v6, main_call4_v7, main_call4_cst_1, main_call4_v8, main_call4_cst_2,
      main_call4_v9, main_call4_v10, main_call4_v11, main_call4_cst_3, main_call4_v12, main_call4_cst_4,
      main_call4_call0_v0, main_call4_call0_v1, main_v60]) (by writes_are) W r hr

/-! ## The normalisation between the layers, and the indicator column -/

theorem ops9_v78 (W : Valuation τ sig (Elt F)) :
    after ops9 W (Proc.devRef .tc main_v78)
      = xcat (bnCore W⟪main_v56⟫ W⟪main_v59⟫ W⟪main_v60⟫ W⟪main_arg19⟫ W⟪main_arg20⟫) W⟪main_arg2⟫ := by
  after_results_simp; rfl
theorem ops9_keep (W : Valuation τ sig (Elt F)) (r : Ref sig .tc)
    (hr : r ∉ [main_v61, main_v62, main_v63, main_v64, main_v65, main_v66, main_cst_8, main_v67, main_v68, main_v69, main_v70,
      main_v71, main_v72, main_v73, main_v74, main_v75, main_call5_cst, main_call5_v0, main_v76, main_v77, main_v78]) :
    after ops9 W (Proc.devRef .tc r) = W (Proc.devRef .tc r) :=
  keeps (ys := [main_v61, main_v62, main_v63, main_v64, main_v65, main_v66, main_cst_8, main_v67, main_v68, main_v69, main_v70,
      main_v71, main_v72, main_v73, main_v74, main_v75, main_call5_cst, main_call5_v0, main_v76, main_v77, main_v78]) (by writes_are) W r hr

/-! ## Rows at the sources, messages, aggregation -/

theorem ops10_v91 (W : Valuation τ sig (Elt F)) :
    after ops10 W (Proc.devRef .tc main_v91)
      = addf W⟪main_v78⟫ (aggOf W⟪main_v3⟫ (relu600 (addf (gather6 W⟪main_v78⟫ W⟪main_v1⟫) W⟪main_v12⟫))) := by
  after_results_simp; rfl
theorem ops10_keep (W : Valuation τ sig (Elt F)) (r : Ref sig .tc)
    (hr : r ∉ [main_c_9, main_v79, main_v80, main_c_10, main_v81, main_v82, main_v83, main_v84, main_v85, main_v86,
      main_call6_cst, main_call6_v0, main_v87, main_cst_11, main_v88, main_v89, main_v90, main_v91]) :
    after ops10 W (Proc.devRef .tc r) = W (Proc.devRef .tc r) :=
  keeps (ys := [main_c_9, main_v79, main_v80, main_c_10, main_v81, main_v82, main_v83, main_v84, main_v85, main_v86,
      main_call6_cst, main_call6_v0, main_v87, main_cst_11, main_v88, main_v89, main_v90, main_v91]) (by writes_are) W r hr

/-! ## The first product and its means -/

theorem ops11_v95 (W : Valuation τ sig (Elt F)) :
    after ops11 W (Proc.devRef .tc main_v95) = lin1Of W⟪main_v91⟫ W⟪main_arg13⟫ (bRow129 W⟪main_arg14⟫) := by
  after_results_simp; rfl
theorem ops11_v98 (W : Valuation τ sig (Elt F)) :
    after ops11 W (Proc.devRef .tc main_v98) = mean129 (lin1Of W⟪main_v91⟫ W⟪main_arg13⟫ (bRow129 W⟪main_arg14⟫)) := by
  after_results_simp; rfl
theorem ops11_keep (W : Valuation τ sig (Elt F)) (r : Ref sig .tc)
    (hr : r ∉ [main_v92, main_v93, main_v94, main_v95, main_cst_12, main_v96, main_cst_13, main_v97, main_v98]) :
    after ops11 W (Proc.devRef .tc r) = W (Proc.devRef .tc r) :=
  keeps (ys := [main_v92, main_v93, main_v94, main_v95, main_cst_12, main_v96, main_cst_13, main_v97, main_v98]) (by writes_are) W r hr

/-! ## The column variances and the centred product -/

theorem ops12_v99 (W : Valuation τ sig (Elt F)) : after ops12 W (Proc.devRef .tc main_v99) = var129 W⟪main_v95⟫ := by
  after_results_simp; rfl
theorem ops12_v102 (W : Valuation τ sig (Elt F)) :
    after ops12 W (Proc.devRef .tc main_v102) = subf W⟪main_v95⟫ (rows129 (bRow129 W⟪main_v98⟫)) := by
  after_results_simp; rfl
theorem ops12_keep (W : Valuation τ sig (Elt F)) (r : Ref sig .tc)
    (hr : r ∉ [main_c_14, main_call7_cst, main_call7_v0, main_call7_v1, main_call7_cst_0, main_call7_v2, main_call7_v3,
      main_call7_v4, main_call7_v5, main_call7_v6, main_call7_v7, main_call7_cst_1, main_call7_v8, main_call7_cst_2,
      main_call7_v9, main_call7_v10, main_call7_v11, main_call7_cst_3, main_call7_v12, main_call7_cst_4,
      main_call7_call0_v0, main_call7_call0_v1, main_v99, main_v100, main_v101, main_v102]) :
    after ops12 W (Proc.devRef .tc r) = W (Proc.devRef .tc r) :=
  keeps (ys := [main_c_14, main_call7_cst, main_call7_v0, main_call7_v1, main_call7_cst_0, main_call7_v2, main_call7_v3,
      main_call7_v4, main_call7_v5, main_call7_v6, main_call7_v7, main_call7_cst_1, main_call7_v8, main_call7_cst_2,
      main_call7_v9, main_call7_v10, main_call7_v11, main_call7_cst_3, main_call7_v12, main_call7_cst_4,
      main_call7_call0_v0, main_call7_call0_v1, main_v99, main_v100, main_v101, main_v102]) (by writes_are) W r hr

/-! ## Normalisation, relu, the second product, the bias and the features -/

theorem ops13_v120 (W : Valuation τ sig (Elt F)) :
    after ops13 W (Proc.devRef .tc main_v120)
      = addf (addf (Host.dotGeneral dot_S50000x129_S129x128_S50000x128_1_0_0_1_n_n none
          (normD W⟪main_arg15⟫ W⟪main_v102⟫ W⟪main_v99⟫ W⟪main_arg16⟫) W⟪main_arg17⟫) (rows128 (bRow128 W⟪main_arg18⟫)))
          W⟪main_arg0⟫ := by
  after_results_simp; rfl
theorem ops13_keep (W : Valuation τ sig (Elt F)) (r : Ref sig .tc)
    (hr : r ∉ [main_v103, main_v104, main_v105, main_cst_15, main_v106, main_v107, main_v108, main_v109, main_v110, main_v111,
      main_v112, main_v113, main_v114, main_call8_cst, main_call8_v0, main_v115, main_v116, main_v117, main_v118, main_v119,
      main_v120]) :
    after ops13 W (Proc.devRef .tc r) = W (Proc.devRef .tc r) :=
  keeps (ys := [main_v103, main_v104, main_v105, main_cst_15, main_v106, main_v107, main_v108, main_v109, main_v110, main_v111,
      main_v112, main_v113, main_v114, main_call8_cst, main_call8_v0, main_v115, main_v116, main_v117, main_v118, main_v119,
      main_v120]) (by writes_are) W r hr

/-! ## The listed rows -/

theorem ops14_v127 (W : Valuation τ sig (Elt F)) :
    after ops14 W (Proc.devRef .tc main_v127) = gather5 W⟪main_v120⟫ W⟪main_arg22⟫ := by
  after_results_simp; rfl
theorem ops14_keep (W : Valuation τ sig (Elt F)) (r : Ref sig .tc)
    (hr : r ∉ [main_c_16, main_v121, main_v122, main_c_17, main_v123, main_v124, main_v125, main_v126, main_v127]) :
    after ops14 W (Proc.devRef .tc r) = W (Proc.devRef .tc r) :=
  keeps (ys := [main_c_16, main_v121, main_v122, main_c_17, main_v123, main_v124, main_v125, main_v126, main_v127]) (by writes_are) W r hr

end T

end Cert.ReferenceIdeal.Val

end
-- ==== Proof.RefRun.lean ====
/-
  The idealized reference's run: every weakly fair execution terminates with the result buffer at the network function
  of the launch's argument arrays (rows read clamped, vectors broadcast to rows) and the arguments unchanged.

  The program is a straight line of host operations, cut into fifteen consecutive lists; running them in order from
  contents V is running the last list from what the others left. Each list leaves in the buffers a later list reads a
  function of the contents it starts from, and every other buffer as it was; composing these from the last list back
  to the first gives the result buffer as a function of the argument buffers. That function is the network function:
  the two layers are spelt as the reference spells them, except that the reference takes the reciprocal square root of
  (variance + ε) on the vector of columns and then makes it a row, where the network function makes the row first; the
  two agree entry by entry.
-/
import proofs.«403982_j39848706573800_1_alg».proof.Proof.Spec
import proofs.«403982_j39848706573800_1_alg».proof.Proof.LibSsaT
import proofs.«403982_j39848706573800_1_alg».proof.Proof.Gen.ReferenceIdeal
import proofs.«403982_j39848706573800_1_alg».proof.Proof.RefOps
import proofs.«403982_j39848706573800_1_alg».proof.Proof.RefReadA
import proofs.«403982_j39848706573800_1_alg».proof.Proof.RefReadT
import Idealize.ShloMosaic.Lib.StableHlo.Run

noncomputable section

namespace Cert.ReferenceIdeal.Val

open Idealize.ShloMosaic Idealize.ShloMosaic.TcCoe Idealize.SL.Sem Idealize.ShloMosaic.StableHlo Cert.ReferenceIdeal

variable {F : FTy → Type} [FloatOps F]

section Compose

open Cert.ReferenceIdeal.Facts₀ Cert.ReferenceIdeal.Facts Cert.Gnn Cert.LibStretch Cert.LibSsa A T

local notation:max W "⟪" r "⟫" => W (Proc.devRef Proc.tc r)

/-- The reciprocal square root of (a vector plus ε), read as a row, is the reciprocal square root of (the row plus ε):
    both are pointwise, the row's entry (0, k) is the vector's entry k, and the scalar ε has one entry. -/
theorem bRow129_rsqrt_eps (v : FVec F S129 .f32) :
    bRow129 (Host.rsqrt (addf v (broadcastInDim S129 ![] bcast_S_S129 eps0)))
      = Host.rsqrt (addf (bRow129 v) (broadcastInDim S1x129 ![] bcast_S_S1x129 eps0)) := by
  funext j
  rfl

/-- The second product of a layer, written with the reciprocal square root taken on the vector, is the layer's. -/
theorem mm2_fold (z : FVec F S50000x129 .f32) (g be : FVec F S129 .f32) (w2 : FVec F S129x128 .f32) (b2 : FVec F S128 .f32) :
    addf (Host.dotGeneral dot_S50000x129_S129x128_S50000x128_1_0_0_1_n_n none
        (normD g (subf z (rows129 (bRow129 (mean129 z)))) (var129 z) be) w2) (rows128 (bRow128 b2))
      = mm2Of z (bRow129 (mean129 z)) (bRow129 (var129 z)) (bRow129 g) (bRow129 be) w2 (bRow128 b2) := by
  unfold normD mm2Of
  rw [bRow129_rsqrt_eps]

/-- A list of operations that leaves every buffer outside L as it was leaves a given buffer outside L as it was. -/
theorem keep_ni {l : List (HloOp τ sig (Elt F))} {L : List (Ref sig .tc)}
    (h : ∀ (W : Valuation τ sig (Elt F)) (r : Ref sig .tc), r ∉ L → after l W (Proc.devRef .tc r) = W (Proc.devRef .tc r))
    (W : Valuation τ sig (Elt F)) (r : Ref sig .tc) (hr : r ∉ L) :
    after l W (no_index (Proc.devRef .tc r)) = W (Proc.devRef .tc r) := h W r hr

/-- What a list of operations leaves in a buffer, restated. -/
theorem val_ni {l : List (HloOp τ sig (Elt F))} {r : Ref sig .tc} {W : Valuation τ sig (Elt F)}
    {x : (Proc.devRef (τ := τ) .tc r).ty.Contents (Elt F)}
    (h : after l W (Proc.devRef .tc r) = x) : after l W (no_index (Proc.devRef .tc r)) = x := h

/-- After all the operations the result buffer holds the network function of the argument buffers' contents: the lists
    are read from the last back to the first, each buffer either at what its list leaves in it or, through a list that
    does not write it, at what it held before; the two layers are then folded and the rest is the network function's
    own spelling. -/
theorem ops_v127 (V : Valuation τ sig (Elt F)) :
    after ops V (Proc.devRef .tc main_v127)
      = net gather6 gather5 bRow129 bRow128
          V⟪main_arg0⟫ V⟪main_arg1⟫ V⟪main_arg2⟫ V⟪main_arg3⟫ V⟪main_arg4⟫ V⟪main_arg5⟫ V⟪main_arg6⟫
          V⟪main_arg7⟫ V⟪main_arg8⟫ V⟪main_arg9⟫ V⟪main_arg10⟫ V⟪main_arg11⟫ V⟪main_arg12⟫ V⟪main_arg13⟫
          V⟪main_arg14⟫ V⟪main_arg15⟫ V⟪main_arg16⟫ V⟪main_arg17⟫ V⟪main_arg18⟫ V⟪main_arg19⟫ V⟪main_arg20⟫
          V⟪main_arg21⟫ V⟪main_arg22⟫ := by
  simp (disch := decide) only [ops, wops0, wops1, wops2, after_cat,
    val_ni (ops0_v1 _), val_ni (ops0_v3 _), val_ni (ops1_v12 _), val_ni (ops2_v14 _), val_ni (ops2_v21 _),
    val_ni (ops3_v27 _), val_ni (ops4_v31 _), val_ni (ops4_v34 _), val_ni (ops5_v35 _), val_ni (ops6_v52 _),
    val_ni (ops7_v56 _), val_ni (ops7_v59 _), val_ni (ops8_v60 _), val_ni (ops9_v78 _), val_ni (ops10_v91 _),
    val_ni (ops11_v95 _), val_ni (ops11_v98 _), val_ni (ops12_v99 _), val_ni (ops12_v102 _), val_ni (ops13_v120 _),
    val_ni (ops14_v127 _),
    keep_ni ops0_keep, keep_ni ops1_keep, keep_ni ops2_keep, keep_ni ops3_keep, keep_ni ops4_keep, keep_ni ops5_keep,
    keep_ni ops6_keep, keep_ni ops7_keep, keep_ni ops8_keep, keep_ni ops9_keep, keep_ni ops10_keep,
    keep_ni ops11_keep, keep_ni ops12_keep, keep_ni ops13_keep, keep_ni ops14_keep]
  simp only [mm2_fold]
  rfl

/-- No operation writes an argument buffer. -/
theorem ops_args (V : Valuation τ sig (Elt F)) :
    ∀ r ∈ [main_arg0, main_arg1, main_arg2, main_arg3, main_arg4, main_arg5, main_arg6, main_arg7, main_arg8, main_arg9,
      main_arg10, main_arg11, main_arg12, main_arg13, main_arg14, main_arg15, main_arg16, main_arg17, main_arg18,
      main_arg19, main_arg20, main_arg21, main_arg22],
      after ops V (Proc.devRef .tc r) = V (Proc.devRef .tc r) := by
  intro r hr
  simp only [ops, wops0, wops1, wops2, after_cat]
  rw [ops14_keep _ r ?_, ops13_keep _ r ?_, ops12_keep _ r ?_, ops11_keep _ r ?_, ops10_keep _ r ?_, ops9_keep _ r ?_,
    ops8_keep _ r ?_, ops7_keep _ r ?_, ops6_keep _ r ?_, ops5_keep _ r ?_, ops4_keep _ r ?_, ops3_keep _ r ?_,
    ops2_keep _ r ?_, ops1_keep _ r ?_, ops0_keep _ r ?_]
  all_goals (revert r; decide)

end Compose

/-- The reference's run, its result named. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v127)
        = Cert.Gnn.net (F := F) Cert.Gnn.gather6 Cert.Gnn.gather5 Cert.Gnn.bRow129 Cert.Gnn.bRow128
            (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_v127).trans (ops_v127 _),
      (h c main_arg0).trans (ops_args _ main_arg0 (by decide)),
      (h c main_arg1).trans (ops_args _ main_arg1 (by decide)),
      (h c main_arg2).trans (ops_args _ main_arg2 (by decide)),
      (h c main_arg3).trans (ops_args _ main_arg3 (by decide)),
      (h c main_arg4).trans (ops_args _ main_arg4 (by decide)),
      (h c main_arg5).trans (ops_args _ main_arg5 (by decide)),
      (h c main_arg6).trans (ops_args _ main_arg6 (by decide)),
      (h c main_arg7).trans (ops_args _ main_arg7 (by decide)),
      (h c main_arg8).trans (ops_args _ main_arg8 (by decide)),
      (h c main_arg9).trans (ops_args _ main_arg9 (by decide)),
      (h c main_arg10).trans (ops_args _ main_arg10 (by decide)),
      (h c main_arg11).trans (ops_args _ main_arg11 (by decide)),
      (h c main_arg12).trans (ops_args _ main_arg12 (by decide)),
      (h c main_arg13).trans (ops_args _ main_arg13 (by decide)),
      (h c main_arg14).trans (ops_args _ main_arg14 (by decide)),
      (h c main_arg15).trans (ops_args _ main_arg15 (by decide)),
      (h c main_arg16).trans (ops_args _ main_arg16 (by decide)),
      (h c main_arg17).trans (ops_args _ main_arg17 (by decide)),
      (h c main_arg18).trans (ops_args _ main_arg18 (by decide)),
      (h c main_arg19).trans (ops_args _ main_arg19 (by decide)),
      (h c main_arg20).trans (ops_args _ main_arg20 (by decide)),
      (h c main_arg21).trans (ops_args _ main_arg21 (by decide)),
      (h c main_arg22).trans (ops_args _ main_arg22 (by decide))⟩)
    (run_all m ρ)

end Cert.ReferenceIdeal.Val

end
-- ==== Proof.PreIdx.lean ====
/-
  What the added precondition says of the two index inputs, and what follows for the two row reads: where every
  (once wrapped) index is inside the array, the read with a fill is the clamped read; and a reshape of a vector to a
  row is its broadcast to a row.
-/
import proofs.«403982_j39848706573800_1_alg».proof.Proof.Spec
import proofs.«403982_j39848706573800_1_alg».proof.Proof.KSpec
import proofs.«403982_j39848706573800_1_alg».proof.Pre_finite_inputs
import proofs.«403982_j39848706573800_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

noncomputable section

namespace Cert.Gnn

open Idealize.ShloMosaic

variable {F : FTy → Type} [FloatOps F]

/-- Every source index lies in [-50000, 50000) as a signed 32-bit word. -/
def InRange6 (i : IVec Cert.ReferenceIdeal.S600000 32) : Prop :=
  ∀ k, (-50000 : Int) ≤ (i k).toInt ∧ (i k).toInt < 50000
/-- Every listed row index lies in [-50000, 50000) as a signed 32-bit word. -/
def InRange5 (i : IVec Cert.ReferenceIdeal.S5000 32) : Prop :=
  ∀ k, (-50000 : Int) ≤ (i k).toInt ∧ (i k).toInt < 50000

/-! ## One-bit words: the conjunction of all ones -/

/-- A left fold by the bitwise and over one-bit words that are all 1, started at 1, is 1. -/
private theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_ones f hf l

/-- The and-reduction of a one-bit array that is 1 everywhere, started at 1, is 1 at every result index. -/
private theorem reduce_andi_ones {s t u : Shape} {axes : List (Fin s.rank)} (x : s.Idx → BitVec 1)
    (init : u.Idx → BitVec 1) (h : s.ReducesTo axes t) (hu : 0 < u.numel) (hx : ∀ k, x k = 1#1)
    (hi : ∀ k, init k = 1#1) (j : t.Idx) : Host.reduce IntOp.andi x init h hu j = 1#1 := by
  unfold Host.reduce
  rw [hi]
  exact foldl_andi_ones (fun n => x (s.rowMajor.symm n)) (fun n => hx _) _

/-! ## Signed 32-bit words: the wrap by 50000 and the two bounds -/

/-- A signed 32-bit word w in [-50000, 50000), wrapped once from below (w + 50000 where w < 0, else w), lies in
    [0, 49999]: below zero the sum w + 50000 does not overflow and lands in [0, 50000); from zero up w is unchanged. -/
private theorem wrap_inb (w : BitVec 32) (h : (-50000 : Int) ≤ w.toInt ∧ w.toInt < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  obtain ⟨h1, h2⟩ := h
  have h0 : (0#32 : BitVec 32).toInt = 0 := by decide
  have h9 : (49999#32 : BitVec 32).toInt = 49999 := by decide
  by_cases hn : w.toInt < 0
  · have hs : IntOp.cmpi .slt w 0#32 = 1#1 := by
      show BitVec.ofBool (w.slt 0#32) = 1#1
      simp [BitVec.slt, hn]
    rw [hs, ValueIdx.select_one]
    have h5 : (50000#32 : BitVec 32).toInt = 50000 := by decide
    have ha : (IntOp.addi w 50000#32).toInt = w.toInt + 50000 := by
      show (w + 50000#32).toInt = _
      rw [BitVec.toInt_add, h5, Int.bmod_eq_of_le_mul_two (by omega) (by omega)]
    show IntOp.andi (BitVec.ofBool ((0#32 : BitVec 32).sle (IntOp.addi w 50000#32)))
      (BitVec.ofBool ((IntOp.addi w 50000#32).sle 49999#32)) = 1#1
    have e1 : (0#32 : BitVec 32).sle (IntOp.addi w 50000#32) = true := by
      simp only [BitVec.sle, ha, h0, decide_eq_true_eq]; omega
    have e2 : (IntOp.addi w 50000#32).sle 49999#32 = true := by
      simp only [BitVec.sle, ha, h9, decide_eq_true_eq]; omega
    rw [e1, e2]; rfl
  · have hs : IntOp.cmpi .slt w 0#32 = 0#1 := by
      show BitVec.ofBool (w.slt 0#32) = 0#1
      simp [BitVec.slt, hn]
    rw [hs, ValueIdx.select_zero]
    show IntOp.andi (BitVec.ofBool ((0#32 : BitVec 32).sle w)) (BitVec.ofBool (w.sle 49999#32)) = 1#1
    have e1 : (0#32 : BitVec 32).sle w = true := by
      simp only [BitVec.sle, h0, decide_eq_true_eq]; omega
    have e2 : w.sle 49999#32 = true := by
      simp only [BitVec.sle, h9, decide_eq_true_eq]; omega
    rw [e1, e2]; rfl

/-- The two signed compares w ≥ -50000 (the word 4294917296) and w < 50000, both true, bound w's signed value. -/
private theorem range_of_cmp (w : BitVec 32)
    (h : IntOp.andi (IntOp.cmpi .sge w 4294917296#32) (IntOp.cmpi .slt w 50000#32) = 1#1) :
    (-50000 : Int) ≤ w.toInt ∧ w.toInt < 50000 := by
  obtain ⟨h1, h2⟩ := IntOp.andi_eq_one.1 h
  have e1 : (4294917296#32 : BitVec 32).sle w = true := (StableHlo.Predicate.ofBool_eq_one_iff _).1 h1
  have e2 : w.slt 50000#32 = true := (StableHlo.Predicate.ofBool_eq_one_iff _).1 h2
  have c1 : (4294917296#32 : BitVec 32).toInt = -50000 := by decide
  have c2 : (50000#32 : BitVec 32).toInt = 50000 := by decide
  simp only [BitVec.sle, BitVec.slt, c1, c2, decide_eq_true_eq] at e1 e2
  exact ⟨e1, e2⟩

/-! ## The read with a fill against the clamped read -/

/-- Where every index is in range, every wrapped source index is inside the array: the mask is all ones. -/
private theorem inb6_ones (i : IVec Cert.ReferenceIdeal.S600000 32) (h : InRange6 i) : inb6 i = fun _ => 1#1 := by
  funext j
  unfold inb6
  refine reduce_andi_ones _ _ _ _ (fun k => ?_) (fun _ => rfl) j
  exact wrap_inb _ (h _)

/-- Where every index is in range, every wrapped listed index is inside the array: the mask is all ones. -/
private theorem inb5_ones (i : IVec Cert.ReferenceIdeal.S5000 32) (h : InRange5 i) : inb5 i = fun _ => 1#1 := by
  funext j
  unfold inb5
  refine reduce_andi_ones _ _ _ _ (fun k => ?_) (fun _ => rfl) j
  exact wrap_inb _ (h _)

/-- Where every index is in range, the read with a fill is the clamped read. -/
theorem takeFill6_eq (a : FVec F Cert.ReferenceIdeal.S50000x129 .f32) (i : IVec Cert.ReferenceIdeal.S600000 32) (h : InRange6 i) :
    takeFill6 (F := F) a i = gather6 (F := F) a i := by
  unfold takeFill6
  rw [inb6_ones i h]
  funext j
  rw [ValueIdx.select_apply]
  show Scalar.select 1#1 _ _ = _
  rw [ValueIdx.select_one]
  rfl

theorem takeFill5_eq (a : FVec F Cert.ReferenceIdeal.S50000x128 .f32) (i : IVec Cert.ReferenceIdeal.S5000 32) (h : InRange5 i) :
    takeFill5 (F := F) a i = gather5 (F := F) a i := by
  unfold takeFill5
  rw [inb5_ones i h]
  funext j
  rw [ValueIdx.select_apply]
  show Scalar.select 1#1 _ _ = _
  rw [ValueIdx.select_one]
  rfl

/-! ## A vector as a row: the reshape against the broadcast -/

/-- A vector reshaped to a row is the vector broadcast to a row. -/
theorem sRow129_eq (v : FVec F Cert.ReferenceIdeal.S129 .f32) : sRow129 (F := F) v = bRow129 (F := F) v := by
  funext j
  obtain ⟨u, i, rfl⟩ : ∃ u i, j = ValueIdx.ix2 u i := ⟨j 0, j 1, ValueIdx.eq_ix2 j⟩
  unfold sRow129 bRow129
  rw [ValueIdx.shapeCast_a_1a_apply]
  symm
  refine broadcastInDim_apply _ _ _ _ _ ?_
  intro a
  obtain rfl : a = 0 := Subsingleton.elim _ _
  rfl
theorem sRow128_eq (v : FVec F Cert.ReferenceIdeal.S128 .f32) : sRow128 (F := F) v = bRow128 (F := F) v := by
  funext j
  obtain ⟨u, i, rfl⟩ : ∃ u i, j = ValueIdx.ix2 u i := ⟨j 0, j 1, ValueIdx.eq_ix2 j⟩
  unfold sRow128 bRow128
  rw [ValueIdx.shapeCast_a_1a_apply]
  symm
  refine broadcastInDim_apply _ _ _ _ _ ?_
  intro a
  obtain rfl : a = 0 := Subsingleton.elim _ _
  rfl

/-! ## The precondition read back -/

/-- The last step of the precondition: a conjunction with the and-reduction over the 5000 listed entries. Where it is 1,
    so is the other conjunct, and so is every reduced entry. -/
private theorem part7_one (v114 : IVec Cert.Pre_finite_inputs.S_ 1) (v119 : IVec Cert.Pre_finite_inputs.S5000 1)
    (c : IVec Cert.Pre_finite_inputs.S_ 1)
    (h : Cert.Pre_finite_inputs.fn_part7 (F := F) v114 v119 c ValueIdx.ix0 = 1#1) :
    v114 ValueIdx.ix0 = 1#1 ∧ ∀ k, v119 k = 1#1 := by
  haveI : Subsingleton Cert.Pre_finite_inputs.S_.Idx := ⟨fun a b => funext fun d => d.elim0⟩
  obtain ⟨h1, h2⟩ := IntOp.andi_eq_one.1 (h : IntOp.andi _ _ = 1#1)
  exact ⟨h1, Host.reduce_andi_all _ _ _ _ _ h2⟩

/-- The last two conjuncts of the precondition: the and-reductions, over all 600000 sources and all 5000 listed rows, of
    (entry ≥ -50000) ∧ (entry < 50000) as signed compares. Where the conjunction is 1, every entry is in range. -/
private theorem part6_one (a21 : IVec Cert.ReferenceIdeal.S2x600000 32) (a22 : IVec Cert.ReferenceIdeal.S5000 32)
    (v98 : IVec Cert.Pre_finite_inputs.S_ 1) (v101 : IVec Cert.Pre_finite_inputs.S128 1)
    (c39 : IVec Cert.Pre_finite_inputs.S_ 1)
    (h : Cert.Pre_finite_inputs.fn_part6 (F := F) a21 a22 v98 v101 c39 ValueIdx.ix0 = 1#1) :
    InRange6 (srcOf a21) ∧ InRange5 a22 := by
  haveI : Subsingleton Cert.Pre_finite_inputs.S_.Idx := ⟨fun a b => funext fun d => d.elim0⟩
  obtain ⟨h114, h119⟩ := part7_one (F := F) _ _ _ h
  obtain ⟨-, h113⟩ := IntOp.andi_eq_one.1 (h114 : IntOp.andi _ _ = 1#1)
  have h112 := Host.reduce_andi_all _ _ _ _ _ h113
  refine ⟨fun k => ?_, fun k => ?_⟩
  · exact range_of_cmp _ (h112 k)
  · exact range_of_cmp _ (h119 k)

/-- The precondition, all ones, puts both index inputs in range. -/
theorem inRange_of_pre (a0 : _) (a1 : _) (a2 : _) (a3 : _) (a4 : _) (a5 : _) (a6 : _) (a7 : _) (a8 : _) (a9 : _) (a10 : _) (a11 : _) (a12 : _) (a13 : _) (a14 : _) (a15 : _) (a16 : _) (a17 : _) (a18 : _) (a19 : _) (a20 : _) (a21 : IVec Cert.ReferenceIdeal.S2x600000 32) (a22 : IVec Cert.ReferenceIdeal.S5000 32)
    (h : Cert.Pre_finite_inputs.fn (F := F) a0 a1 a2 a3 a4 a5 a6 a7 a8 a9 a10 a11 a12 a13 a14 a15 a16 a17 a18 a19 a20 a21 a22 = fun _ => 1#1) :
    InRange6 (srcOf a21) ∧ InRange5 a22 := by
  -- the precondition is a chain of conjunctions whose tail is the part read above, at some earlier conjuncts X Y Z
  obtain ⟨X, Y, Z, e⟩ : ∃ X Y Z, Cert.Pre_finite_inputs.fn (F := F) a0 a1 a2 a3 a4 a5 a6 a7 a8 a9 a10 a11 a12 a13 a14 a15 a16 a17 a18 a19 a20 a21 a22
      = Cert.Pre_finite_inputs.fn_part6 (F := F) a21 a22 X Y Z := ⟨_, _, _, rfl⟩
  have h0 := congrFun h ValueIdx.ix0
  rw [e] at h0
  exact part6_one a21 a22 X Y Z h0

end Cert.Gnn

end
-- ==== Proof.NetCongr.lean ====
/-
  The network is one function of its two row reads and its two vector-to-row maps: where those agree at the places the
  network uses them (the row reads at the edge list's sources and at the listed rows), two instances agree.
-/
import proofs.«403982_j39848706573800_1_alg».proof.Proof.Spec

noncomputable section

namespace Cert.Gnn

open Idealize.ShloMosaic Cert.ReferenceIdeal

variable {F : FTy → Type} [FloatOps F]

theorem net_congr
    {take6 take6' : FVec F S50000x129 .f32 → IVec S600000 32 → FVec F S600000x129 .f32}
    {take5 take5' : FVec F S50000x128 .f32 → IVec S5000 32 → FVec F S5000x128 .f32}
    {row129 row129' : FVec F S129 .f32 → FVec F S1x129 .f32} {row128 row128' : FVec F S128 .f32 → FVec F S1x128 .f32}
    (x : FVec F S50000x128 .f32) (ea : FVec F S600000x1 .f32) (ic : FVec F S50000 .f32) (l0w : FVec F S1x129 .f32)
    (l0b : FVec F S129 .f32) (l1w : FVec F S129x129 .f32) (l1b : FVec F S129 .f32)
    (aw1 : FVec F S129x129 .f32) (ab1 ag abe : FVec F S129 .f32) (aw2 : FVec F S129x128 .f32) (ab2 : FVec F S128 .f32)
    (bw1 : FVec F S129x129 .f32) (bb1 bg bbe : FVec F S129 .f32) (bw2 : FVec F S129x128 .f32) (bb2 : FVec F S128 .f32)
    (g0 b0 : FVec F S128 .f32) (ei : IVec S2x600000 32) (ci : IVec S5000 32)
    (h6 : ∀ a, take6 a (srcOf ei) = take6' a (srcOf ei)) (h5 : ∀ a, take5 a ci = take5' a ci)
    (h129 : ∀ v, row129 v = row129' v) (h128 : ∀ v, row128 v = row128' v) :
    net take6 take5 row129 row128 x ea ic l0w l0b l1w l1b aw1 ab1 ag abe aw2 ab2 bw1 bb1 bg bbe bw2 bb2 g0 b0 ei ci
      = net take6' take5' row129' row128' x ea ic l0w l0b l1w l1b aw1 ab1 ag abe aw2 ab2 bw1 bb1 bg bbe bw2 bb2 g0 b0 ei ci := by
  unfold net layerOf
  simp only [h6, h5, h129, h128]

end Cert.Gnn

end
-- ==== Proof.lean ====
/-
  The certificate of the two-layer graph network: the Pallas program (three kernels, each launched twice, among host
  operations) against its jnp reference, as extended reals.

  Both programs are ONE function `Cert.Gnn.net` of the argument arrays, up to two local spellings: a row taken by an
  index (the kernel's program fills rows whose once-wrapped index is out of range with the not-a-number pattern, the
  reference reads them clamped) and a vector made a row (a reshape against a broadcast). The added precondition puts
  every source index of the edge list and every listed row index in [-50000, 50000), so that every wrapped index is
  inside the 50000 rows: then the filled read is the clamped read (Proof/PreIdx.lean), and a reshape of a vector to a
  row is its broadcast whatever the input. The kernel program's result is read off its run region by region
  (Proof/KRun.lean: the run with every buffer's final contents named; Proof/RegMsg*.lean, RegMm1*.lean, RegMm2*.lean:
  each region's output array as a function of its input arrays — messages relu(x_src + e), h · w1 + b1, and
  relu(g (z - mean) rsqrt(var + ε) + be) · w2 + b2, matrix products as sums over the contracted coordinate;
  Proof/KGlue.lean: the host operations between the regions), the reference's off its straight-line run
  (Proof/RefRun.lean). No law of the extended reals beyond the operations' own definitions is used, so finiteness of
  the float inputs is never opened.
-/
import proofs.«403982_j39848706573800_1_alg».proof.Defs
import proofs.«403982_j39848706573800_1_alg».proof.Proof.Gen.Kernel
import proofs.«403982_j39848706573800_1_alg».proof.Proof.Gen.Kernel.Skeleton
import proofs.«403982_j39848706573800_1_alg».proof.Proof.Gen.Kernel.Launch
import proofs.«403982_j39848706573800_1_alg».proof.Proof.Gen.Kernel.Points
import proofs.«403982_j39848706573800_1_alg».proof.Proof.Gen.Kernel.Frame
import proofs.«403982_j39848706573800_1_alg».proof.Proof.Gen.KernelIdeal
import proofs.«403982_j39848706573800_1_alg».proof.Proof.Gen.KernelIdeal.Skeleton
import proofs.«403982_j39848706573800_1_alg».proof.Proof.Gen.KernelIdeal.Launch
import proofs.«403982_j39848706573800_1_alg».proof.Proof.Gen.KernelIdeal.Points
import proofs.«403982_j39848706573800_1_alg».proof.Proof.Gen.KernelIdeal.Frame
import proofs.«403982_j39848706573800_1_alg».proof.Proof.Gen.ReferenceIdeal
import proofs.«403982_j39848706573800_1_alg».proof.Proof.Gen.Pre_finite_inputs
import proofs.«403982_j39848706573800_1_alg».proof.Proof.KRun
import proofs.«403982_j39848706573800_1_alg».proof.Proof.KGlue
import proofs.«403982_j39848706573800_1_alg».proof.Proof.RefRun
import proofs.«403982_j39848706573800_1_alg».proof.Proof.PreIdx
import proofs.«403982_j39848706573800_1_alg».proof.Proof.NetCongr
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- The idealized program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Val.run (F := Ideal) m ρ)

/-- The ideal pass rewrote nothing. -/
theorem preserves : Cert.preserves_Kernel_KernelIdeal := trivial

/-- From memories that agree on the arguments, both programs end with the network function of the arguments: the
    kernel program's with filled row reads and reshapes, which under the index ranges are the reference's clamped reads
    and broadcasts. -/
theorem algebraic : Cert.algebraic_KernelIdeal_ReferenceIdeal := by
  intro m ρ m' ρ' hpre hagree
  refine ⟨fun c => Cert.Gnn.net (F := Ideal) Cert.Gnn.gather6 Cert.Gnn.gather5 Cert.Gnn.bRow129 Cert.Gnn.bRow128
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · refine (θ_run Cert.KernelIdeal.defs _ _).mono (fun r h c => ?_) (Cert.KernelIdeal.GenP.run_all (F := Ideal) m ρ)
    have hr := Cert.Gnn.inRange_of_pre (F := Ideal) _ _ _ _ _ _ _ _ _ _ _ _ _ _ _ _ _ _ _ _ _ _ _ (hpre c)
    refine ⟨?_,
      (h c _ (Cert.KernelIdeal.Gen.mem_uc Cert.KernelIdeal.main_arg0 (by decide))).trans (Cert.KernelIdeal.Gen.W24_main_arg0 m ρ c),
      (h c _ (Cert.KernelIdeal.Gen.mem_uc Cert.KernelIdeal.main_arg1 (by decide))).trans (Cert.KernelIdeal.Gen.W24_main_arg1 m ρ c),
      (h c _ (Cert.KernelIdeal.Gen.mem_uc Cert.KernelIdeal.main_arg2 (by decide))).trans (Cert.KernelIdeal.Gen.W24_main_arg2 m ρ c),
      (h c _ (Cert.KernelIdeal.Gen.mem_uc Cert.KernelIdeal.main_arg3 (by decide))).trans (Cert.KernelIdeal.Gen.W24_main_arg3 m ρ c),
      (h c _ (Cert.KernelIdeal.Gen.mem_uc Cert.KernelIdeal.main_arg4 (by decide))).trans (Cert.KernelIdeal.Gen.W24_main_arg4 m ρ c),
      (h c _ (Cert.KernelIdeal.Gen.mem_uc Cert.KernelIdeal.main_arg5 (by decide))).trans (Cert.KernelIdeal.Gen.W24_main_arg5 m ρ c),
      (h c _ (Cert.KernelIdeal.Gen.mem_uc Cert.KernelIdeal.main_arg6 (by decide))).trans (Cert.KernelIdeal.Gen.W24_main_arg6 m ρ c),
      (h c _ (Cert.KernelIdeal.Gen.mem_uc Cert.KernelIdeal.main_arg7 (by decide))).trans (Cert.KernelIdeal.Gen.W24_main_arg7 m ρ c),
      (h c _ (Cert.KernelIdeal.Gen.mem_uc Cert.KernelIdeal.main_arg8 (by decide))).trans (Cert.KernelIdeal.Gen.W24_main_arg8 m ρ c),
      (h c _ (Cert.KernelIdeal.Gen.mem_uc Cert.KernelIdeal.main_arg9 (by decide))).trans (Cert.KernelIdeal.Gen.W24_main_arg9 m ρ c),
      (h c _ (Cert.KernelIdeal.Gen.mem_uc Cert.KernelIdeal.main_arg10 (by decide))).trans (Cert.KernelIdeal.Gen.W24_main_arg10 m ρ c),
      (h c _ (Cert.KernelIdeal.Gen.mem_uc Cert.KernelIdeal.main_arg11 (by decide))).trans (Cert.KernelIdeal.Gen.W24_main_arg11 m ρ c),
      (h c _ (Cert.KernelIdeal.Gen.mem_uc Cert.KernelIdeal.main_arg12 (by decide))).trans (Cert.KernelIdeal.Gen.W24_main_arg12 m ρ c),
      (h c _ (Cert.KernelIdeal.Gen.mem_uc Cert.KernelIdeal.main_arg13 (by decide))).trans (Cert.KernelIdeal.Gen.W24_main_arg13 m ρ c),
      (h c _ (Cert.KernelIdeal.Gen.mem_uc Cert.KernelIdeal.main_arg14 (by decide))).trans (Cert.KernelIdeal.Gen.W24_main_arg14 m ρ c),
      (h c _ (Cert.KernelIdeal.Gen.mem_uc Cert.KernelIdeal.main_arg15 (by decide))).trans (Cert.KernelIdeal.Gen.W24_main_arg15 m ρ c),
      (h c _ (Cert.KernelIdeal.Gen.mem_uc Cert.KernelIdeal.main_arg16 (by decide))).trans (Cert.KernelIdeal.Gen.W24_main_arg16 m ρ c),
      (h c _ (Cert.KernelIdeal.Gen.mem_uc Cert.KernelIdeal.main_arg17 (by decide))).trans (Cert.KernelIdeal.Gen.W24_main_arg17 m ρ c),
      (h c _ (Cert.KernelIdeal.Gen.mem_uc Cert.KernelIdeal.main_arg18 (by decide))).trans (Cert.KernelIdeal.Gen.W24_main_arg18 m ρ c),
      (h c _ (Cert.KernelIdeal.Gen.mem_uc Cert.KernelIdeal.main_arg19 (by decide))).trans (Cert.KernelIdeal.Gen.W24_main_arg19 m ρ c),
      (h c _ (Cert.KernelIdeal.Gen.mem_uc Cert.KernelIdeal.main_arg20 (by decide))).trans (Cert.KernelIdeal.Gen.W24_main_arg20 m ρ c),
      (h c _ (Cert.KernelIdeal.Gen.mem_uc Cert.KernelIdeal.main_arg21 (by decide))).trans (Cert.KernelIdeal.Gen.W24_main_arg21 m ρ c),
      (h c _ (Cert.KernelIdeal.Gen.mem_uc Cert.KernelIdeal.main_arg22 (by decide))).trans (Cert.KernelIdeal.Gen.W24_main_arg22 m ρ c)⟩
    refine (h c _ (Cert.KernelIdeal.Gen.mem_uc Cert.KernelIdeal.main_v68 (by decide))).trans ?_
    refine (Cert.KernelIdeal.Val.result_eq m ρ c).trans ?_
    exact Cert.Gnn.net_congr _ _ _ _ _ _ _ _ _ _ _ _ _ _ _ _ _ _ _ _ _ _ _
      (fun a => Cert.Gnn.takeFill6_eq a _ hr.1) (fun a => Cert.Gnn.takeFill5_eq a _ hr.2)
      Cert.Gnn.sRow129_eq Cert.Gnn.sRow128_eq
  · refine (θ_run Cert.ReferenceIdeal.defs _ _).mono (fun r h c => ⟨(h c).1.trans ?_, (h c).2⟩)
      (Cert.ReferenceIdeal.Val.run (F := Ideal) m' ρ')
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
